-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v390) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S1024x1024 : Shape := ⟨2, ![1024, 1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S1024x1_d0_w32 : S1024x1.Iotas .tc 32 [0]
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2x2 : Shape := ⟨2, ![2, 2]⟩
abbrev S1x1 : Shape := ⟨2, ![1, 1]⟩
abbrev S4096x4096 : Shape := ⟨2, ![4096, 4096]⟩
abbrev S_ : Shape := ⟨0, ![]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S128x1x128x1 : Shape := ⟨4, ![128, 1, 128, 1]⟩
abbrev S128x2x128x2 : Shape := ⟨4, ![128, 2, 128, 2]⟩
abbrev S256x256 : Shape := ⟨2, ![256, 256]⟩
abbrev S256x1x256x1 : Shape := ⟨4, ![256, 1, 256, 1]⟩
abbrev S256x2x256x2 : Shape := ⟨4, ![256, 2, 256, 2]⟩
abbrev S512x512 : Shape := ⟨2, ![512, 512]⟩
abbrev S512x1x512x1 : Shape := ⟨4, ![512, 1, 512, 1]⟩
abbrev S512x2x512x2 : Shape := ⟨4, ![512, 2, 512, 2]⟩
abbrev S1024x1024 : Shape := ⟨2, ![1024, 1024]⟩
abbrev S1024x1x1024x1 : Shape := ⟨4, ![1024, 1, 1024, 1]⟩
abbrev S1024x2x1024x2 : Shape := ⟨4, ![1024, 2, 1024, 2]⟩
abbrev S2048x2048 : Shape := ⟨2, ![2048, 2048]⟩
abbrev S2048x1x2048x1 : Shape := ⟨4, ![2048, 1, 2048, 1]⟩
abbrev S2048x2x2048x2 : Shape := ⟨4, ![2048, 2, 2048, 2]⟩

abbrev nBuf : Space → Nat
  | .hbm => 1870
  | .vmem => 0
  | .smem => 0
  | _ => 0

abbrev hbmTy0_0 (i : Nat) : BufTy := match i % 128 with
  | 0 => ⟨S4096x1024, .f32⟩
  | 1 => ⟨S2x2, .f32⟩
  | 2 => ⟨S2x2, .f32⟩
  | 3 => ⟨S2x2, .f32⟩
  | 4 => ⟨S1x1, .f32⟩
  | 5 => ⟨S1x1, .f32⟩
  | 6 => ⟨S2x2, .f32⟩
  | 7 => ⟨S2x2, .f32⟩
  | 8 => ⟨S1x1, .f32⟩
  | 9 => ⟨S1x1, .f32⟩
  | 10 => ⟨S2x2, .f32⟩
  | 11 => ⟨S2x2, .f32⟩
  | 12 => ⟨S1x1, .f32⟩
  | 13 => ⟨S1x1, .f32⟩
  | 14 => ⟨S2x2, .f32⟩
  | 15 => ⟨S2x2, .f32⟩
  | 16 => ⟨S1x1, .f32⟩
  | 17 => ⟨S1x1, .f32⟩
  | 18 => ⟨S2x2, .f32⟩
  | 19 => ⟨S2x2, .f32⟩
  | 20 => ⟨S1x1, .f32⟩
  | 21 => ⟨S1x1, .f32⟩
  | 22 => ⟨S2x2, .f32⟩
  | 23 => ⟨S2x2, .f32⟩
  | 24 => ⟨S1x1, .f32⟩
  | 25 => ⟨S1x1, .f32⟩
  | 26 => ⟨S2x2, .f32⟩
  | 27 => ⟨S2x2, .f32⟩
  | 28 => ⟨S1x1, .f32⟩
  | 29 => ⟨S1x1, .f32⟩
  | 30 => ⟨S2x2, .f32⟩
  | 31 => ⟨S2x2, .f32⟩
  | 32 => ⟨S1x1, .f32⟩
  | 33 => ⟨S1x1, .f32⟩
  | 34 => ⟨S2x2, .f32⟩
  | 35 => ⟨S2x2, .f32⟩
  | 36 => ⟨S1x1, .f32⟩
  | 37 => ⟨S1x1, .f32⟩
  | 38 => ⟨S2x2, .f32⟩
  | 39 => ⟨S2x2, .f32⟩
  | 40 => ⟨S1x1, .f32⟩
  | 41 => ⟨S1x1, .f32⟩
  | 42 => ⟨S2x2, .f32⟩
  | 43 => ⟨S2x2, .f32⟩
  | 44 => ⟨S1x1, .f32⟩
  | 45 => ⟨S1x1, .f32⟩
  | 46 => ⟨S2x2, .f32⟩
  | 47 => ⟨S2x2, .f32⟩
  | 48 => ⟨S1x1, .f32⟩
  | 49 => ⟨S1x1, .f32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S4096x4096, .i1⟩
  | 56 => ⟨S4096x4096, .f32⟩
  | 57 => ⟨S2x2, .i32⟩
  | 58 => ⟨S2x2, .i32⟩
  | 59 => ⟨S_, .i32⟩
  | 60 => ⟨S2x2, .i32⟩
  | 61 => ⟨S2x2, .i32⟩
  | 62 => ⟨S2x2, .i1⟩
  | 63 => ⟨S2x2, .f32⟩
  | 64 => ⟨S1x1x1x1, .f32⟩
  | 65 => ⟨S1x2x1x2, .f32⟩
  | 66 => ⟨S1x2x1x2, .f32⟩
  | 67 => ⟨S1x2x1x2, .f32⟩
  | 68 => ⟨S2x2, .f32⟩
  | 69 => ⟨S1x1x1x1, .f32⟩
  | 70 => ⟨S1x2x1x2, .f32⟩
  | 71 => ⟨S1x2x1x2, .f32⟩
  | 72 => ⟨S1x2x1x2, .f32⟩
  | 73 => ⟨S2x2, .f32⟩
  | 74 => ⟨S2x1x2x1, .f32⟩
  | 75 => ⟨S1x2x1x2, .f32⟩
  | 76 => ⟨S2x2x2x2, .f32⟩
  | 77 => ⟨S2x2x2x2, .f32⟩
  | 78 => ⟨S2x2x2x2, .f32⟩
  | 79 => ⟨S4x4, .f32⟩
  | 80 => ⟨S2x1x2x1, .f32⟩
  | 81 => ⟨S1x2x1x2, .f32⟩
  | 82 => ⟨S2x2x2x2, .f32⟩
  | 83 => ⟨S2x2x2x2, .f32⟩
  | 84 => ⟨S2x2x2x2, .f32⟩
  | 85 => ⟨S4x4, .f32⟩
  | 86 => ⟨S4x1x4x1, .f32⟩
  | 87 => ⟨S1x2x1x2, .f32⟩
  | 88 => ⟨S4x2x4x2, .f32⟩
  | 89 => ⟨S4x2x4x2, .f32⟩
  | 90 => ⟨S4x2x4x2, .f32⟩
  | 91 => ⟨S8x8, .f32⟩
  | 92 => ⟨S4x1x4x1, .f32⟩
  | 93 => ⟨S1x2x1x2, .f32⟩
  | 94 => ⟨S4x2x4x2, .f32⟩
  | 95 => ⟨S4x2x4x2, .f32⟩
  | 96 => ⟨S4x2x4x2, .f32⟩
  | 97 => ⟨S8x8, .f32⟩
  | 98 => ⟨S8x1x8x1, .f32⟩
  | 99 => ⟨S1x2x1x2, .f32⟩
  | 100 => ⟨S8x2x8x2, .f32⟩
  | 101 => ⟨S8x2x8x2, .f32⟩
  | 102 => ⟨S8x2x8x2, .f32⟩
  | 103 => ⟨S16x16, .f32⟩
  | 104 => ⟨S8x1x8x1, .f32⟩
  | 105 => ⟨S1x2x1x2, .f32⟩
  | 106 => ⟨S8x2x8x2, .f32⟩
  | 107 => ⟨S8x2x8x2, .f32⟩
  | 108 => ⟨S8x2x8x2, .f32⟩
  | 109 => ⟨S16x16, .f32⟩
  | 110 => ⟨S16x1x16x1, .f32⟩
  | 111 => ⟨S1x2x1x2, .f32⟩
  | 112 => ⟨S16x2x16x2, .f32⟩
  | 113 => ⟨S16x2x16x2, .f32⟩
  | 114 => ⟨S16x2x16x2, .f32⟩
  | 115 => ⟨S32x32, .f32⟩
  | 116 => ⟨S16x1x16x1, .f32⟩
  | 117 => ⟨S1x2x1x2, .f32⟩
  | 118 => ⟨S16x2x16x2, .f32⟩
  | 119 => ⟨S16x2x16x2, .f32⟩
  | 120 => ⟨S16x2x16x2, .f32⟩
  | 121 => ⟨S32x32, .f32⟩
  | 122 => ⟨S32x1x32x1, .f32⟩
  | 123 => ⟨S1x2x1x2, .f32⟩
  | 124 => ⟨S32x2x32x2, .f32⟩
  | 125 => ⟨S32x2x32x2, .f32⟩
  | 126 => ⟨S32x2x32x2, .f32⟩
  | 127 => ⟨S64x64, .f32⟩
  | _ => ⟨S4096x1024, .f32⟩

abbrev hbmTy0_1 (i : Nat) : BufTy := match i % 128 with
  | 0 => ⟨S32x1x32x1, .f32⟩
  | 1 => ⟨S1x2x1x2, .f32⟩
  | 2 => ⟨S32x2x32x2, .f32⟩
  | 3 => ⟨S32x2x32x2, .f32⟩
  | 4 => ⟨S32x2x32x2, .f32⟩
  | 5 => ⟨S64x64, .f32⟩
  | 6 => ⟨S64x1x64x1, .f32⟩
  | 7 => ⟨S1x2x1x2, .f32⟩
  | 8 => ⟨S64x2x64x2, .f32⟩
  | 9 => ⟨S64x2x64x2, .f32⟩
  | 10 => ⟨S64x2x64x2, .f32⟩
  | 11 => ⟨S128x128, .f32⟩
  | 12 => ⟨S64x1x64x1, .f32⟩
  | 13 => ⟨S1x2x1x2, .f32⟩
  | 14 => ⟨S64x2x64x2, .f32⟩
  | 15 => ⟨S64x2x64x2, .f32⟩
  | 16 => ⟨S64x2x64x2, .f32⟩
  | 17 => ⟨S128x128, .f32⟩
  | 18 => ⟨S128x1x128x1, .f32⟩
  | 19 => ⟨S1x2x1x2, .f32⟩
  | 20 => ⟨S128x2x128x2, .f32⟩
  | 21 => ⟨S128x2x128x2, .f32⟩
  | 22 => ⟨S128x2x128x2, .f32⟩
  | 23 => ⟨S256x256, .f32⟩
  | 24 => ⟨S128x1x128x1, .f32⟩
  | 25 => ⟨S1x2x1x2, .f32⟩
  | 26 => ⟨S128x2x128x2, .f32⟩
  | 27 => ⟨S128x2x128x2, .f32⟩
  | 28 => ⟨S128x2x128x2, .f32⟩
  | 29 => ⟨S256x256, .f32⟩
  | 30 => ⟨S256x1x256x1, .f32⟩
  | 31 => ⟨S1x2x1x2, .f32⟩
  | 32 => ⟨S256x2x256x2, .f32⟩
  | 33 => ⟨S256x2x256x2, .f32⟩
  | 34 => ⟨S256x2x256x2, .f32⟩
  | 35 => ⟨S512x512, .f32⟩
  | 36 => ⟨S256x1x256x1, .f32⟩
  | 37 => ⟨S1x2x1x2, .f32⟩
  | 38 => ⟨S256x2x256x2, .f32⟩
  | 39 => ⟨S256x2x256x2, .f32⟩
  | 40 => ⟨S256x2x256x2, .f32⟩
  | 41 => ⟨S512x512, .f32⟩
  | 42 => ⟨S512x1x512x1, .f32⟩
  | 43 => ⟨S1x2x1x2, .f32⟩
  | 44 => ⟨S512x2x512x2, .f32⟩
  | 45 => ⟨S512x2x512x2, .f32⟩
  | 46 => ⟨S512x2x512x2, .f32⟩
  | 47 => ⟨S1024x1024, .f32⟩
  | 48 => ⟨S512x1x512x1, .f32⟩
  | 49 => ⟨S1x2x1x2, .f32⟩
  | 50 => ⟨S512x2x512x2, .f32⟩
  | 51 => ⟨S512x2x512x2, .f32⟩
  | 52 => ⟨S512x2x512x2, .f32⟩
  | 53 => ⟨S1024x1024, .f32⟩
  | 54 => ⟨S1024x1x1024x1, .f32⟩
  | 55 => ⟨S1x2x1x2, .f32⟩
  | 56 => ⟨S1024x2x1024x2, .f32⟩
  | 57 => ⟨S1024x2x1024x2, .f32⟩
  | 58 => ⟨S1024x2x1024x2, .f32⟩
  | 59 => ⟨S2048x2048, .f32⟩
  | 60 => ⟨S1024x1x1024x1, .f32⟩
  | 61 => ⟨S1x2x1x2, .f32⟩
  | 62 => ⟨S1024x2x1024x2, .f32⟩
  | 63 => ⟨S1024x2x1024x2, .f32⟩
  | 64 => ⟨S1024x2x1024x2, .f32⟩
  | 65 => ⟨S2048x2048, .f32⟩
  | 66 => ⟨S2048x1x2048x1, .f32⟩
  | 67 => ⟨S1x2x1x2, .f32⟩
  | 68 => ⟨S2048x2x2048x2, .f32⟩
  | 69 => ⟨S2048x2x2048x2, .f32⟩
  | 70 => ⟨S2048x2x2048x2, .f32⟩
  | 71 => ⟨S4096x4096, .f32⟩
  | 72 => ⟨S2048x1x2048x1, .f32⟩
  | 73 => ⟨S1x2x1x2, .f32⟩
  | 74 => ⟨S2048x2x2048x2, .f32⟩
  | 75 => ⟨S2048x2x2048x2, .f32⟩
  | 76 => ⟨S2048x2x2048x2, .f32⟩
  | 77 => ⟨S4096x4096, .f32⟩
  | 78 => ⟨S4096x4096, .f32⟩
  | 79 => ⟨S4096x4096, .f32⟩
  | 80 => ⟨S2x2, .i32⟩
  | 81 => ⟨S2x2, .i32⟩
  | 82 => ⟨S_, .i32⟩
  | 83 => ⟨S2x2, .i32⟩
  | 84 => ⟨S2x2, .i32⟩
  | 85 => ⟨S2x2, .i1⟩
  | 86 => ⟨S2x2, .f32⟩
  | 87 => ⟨S1x1x1x1, .f32⟩
  | 88 => ⟨S1x2x1x2, .f32⟩
  | 89 => ⟨S1x2x1x2, .f32⟩
  | 90 => ⟨S1x2x1x2, .f32⟩
  | 91 => ⟨S2x2, .f32⟩
  | 92 => ⟨S1x1x1x1, .f32⟩
  | 93 => ⟨S1x2x1x2, .f32⟩
  | 94 => ⟨S1x2x1x2, .f32⟩
  | 95 => ⟨S1x2x1x2, .f32⟩
  | 96 => ⟨S2x2, .f32⟩
  | 97 => ⟨S2x1x2x1, .f32⟩
  | 98 => ⟨S1x2x1x2, .f32⟩
  | 99 => ⟨S2x2x2x2, .f32⟩
  | 100 => ⟨S2x2x2x2, .f32⟩
  | 101 => ⟨S2x2x2x2, .f32⟩
  | 102 => ⟨S4x4, .f32⟩
  | 103 => ⟨S2x1x2x1, .f32⟩
  | 104 => ⟨S1x2x1x2, .f32⟩
  | 105 => ⟨S2x2x2x2, .f32⟩
  | 106 => ⟨S2x2x2x2, .f32⟩
  | 107 => ⟨S2x2x2x2, .f32⟩
  | 108 => ⟨S4x4, .f32⟩
  | 109 => ⟨S4x1x4x1, .f32⟩
  | 110 => ⟨S1x2x1x2, .f32⟩
  | 111 => ⟨S4x2x4x2, .f32⟩
  | 112 => ⟨S4x2x4x2, .f32⟩
  | 113 => ⟨S4x2x4x2, .f32⟩
  | 114 => ⟨S8x8, .f32⟩
  | 115 => ⟨S4x1x4x1, .f32⟩
  | 116 => ⟨S1x2x1x2, .f32⟩
  | 117 => ⟨S4x2x4x2, .f32⟩
  | 118 => ⟨S4x2x4x2, .f32⟩
  | 119 => ⟨S4x2x4x2, .f32⟩
  | 120 => ⟨S8x8, .f32⟩
  | 121 => ⟨S8x1x8x1, .f32⟩
  | 122 => ⟨S1x2x1x2, .f32⟩
  | 123 => ⟨S8x2x8x2, .f32⟩
  | 124 => ⟨S8x2x8x2, .f32⟩
  | 125 => ⟨S8x2x8x2, .f32⟩
  | 126 => ⟨S16x16, .f32⟩
  | 127 => ⟨S8x1x8x1, .f32⟩
  | _ => ⟨S4096x1024, .f32⟩

abbrev hbmTy0_2 (i : Nat) : BufTy := match i % 128 with
  | 0 => ⟨S1x2x1x2, .f32⟩
  | 1 => ⟨S8x2x8x2, .f32⟩
  | 2 => ⟨S8x2x8x2, .f32⟩
  | 3 => ⟨S8x2x8x2, .f32⟩
  | 4 => ⟨S16x16, .f32⟩
  | 5 => ⟨S16x1x16x1, .f32⟩
  | 6 => ⟨S1x2x1x2, .f32⟩
  | 7 => ⟨S16x2x16x2, .f32⟩
  | 8 => ⟨S16x2x16x2, .f32⟩
  | 9 => ⟨S16x2x16x2, .f32⟩
  | 10 => ⟨S32x32, .f32⟩
  | 11 => ⟨S16x1x16x1, .f32⟩
  | 12 => ⟨S1x2x1x2, .f32⟩
  | 13 => ⟨S16x2x16x2, .f32⟩
  | 14 => ⟨S16x2x16x2, .f32⟩
  | 15 => ⟨S16x2x16x2, .f32⟩
  | 16 => ⟨S32x32, .f32⟩
  | 17 => ⟨S32x1x32x1, .f32⟩
  | 18 => ⟨S1x2x1x2, .f32⟩
  | 19 => ⟨S32x2x32x2, .f32⟩
  | 20 => ⟨S32x2x32x2, .f32⟩
  | 21 => ⟨S32x2x32x2, .f32⟩
  | 22 => ⟨S64x64, .f32⟩
  | 23 => ⟨S32x1x32x1, .f32⟩
  | 24 => ⟨S1x2x1x2, .f32⟩
  | 25 => ⟨S32x2x32x2, .f32⟩
  | 26 => ⟨S32x2x32x2, .f32⟩
  | 27 => ⟨S32x2x32x2, .f32⟩
  | 28 => ⟨S64x64, .f32⟩
  | 29 => ⟨S64x1x64x1, .f32⟩
  | 30 => ⟨S1x2x1x2, .f32⟩
  | 31 => ⟨S64x2x64x2, .f32⟩
  | 32 => ⟨S64x2x64x2, .f32⟩
  | 33 => ⟨S64x2x64x2, .f32⟩
  | 34 => ⟨S128x128, .f32⟩
  | 35 => ⟨S64x1x64x1, .f32⟩
  | 36 => ⟨S1x2x1x2, .f32⟩
  | 37 => ⟨S64x2x64x2, .f32⟩
  | 38 => ⟨S64x2x64x2, .f32⟩
  | 39 => ⟨S64x2x64x2, .f32⟩
  | 40 => ⟨S128x128, .f32⟩
  | 41 => ⟨S128x1x128x1, .f32⟩
  | 42 => ⟨S1x2x1x2, .f32⟩
  | 43 => ⟨S128x2x128x2, .f32⟩
  | 44 => ⟨S128x2x128x2, .f32⟩
  | 45 => ⟨S128x2x128x2, .f32⟩
  | 46 => ⟨S256x256, .f32⟩
  | 47 => ⟨S128x1x128x1, .f32⟩
  | 48 => ⟨S1x2x1x2, .f32⟩
  | 49 => ⟨S128x2x128x2, .f32⟩
  | 50 => ⟨S128x2x128x2, .f32⟩
  | 51 => ⟨S128x2x128x2, .f32⟩
  | 52 => ⟨S256x256, .f32⟩
  | 53 => ⟨S256x1x256x1, .f32⟩
  | 54 => ⟨S1x2x1x2, .f32⟩
  | 55 => ⟨S256x2x256x2, .f32⟩
  | 56 => ⟨S256x2x256x2, .f32⟩
  | 57 => ⟨S256x2x256x2, .f32⟩
  | 58 => ⟨S512x512, .f32⟩
  | 59 => ⟨S256x1x256x1, .f32⟩
  | 60 => ⟨S1x2x1x2, .f32⟩
  | 61 => ⟨S256x2x256x2, .f32⟩
  | 62 => ⟨S256x2x256x2, .f32⟩
  | 63 => ⟨S256x2x256x2, .f32⟩
  | 64 => ⟨S512x512, .f32⟩
  | 65 => ⟨S512x1x512x1, .f32⟩
  | 66 => ⟨S1x2x1x2, .f32⟩
  | 67 => ⟨S512x2x512x2, .f32⟩
  | 68 => ⟨S512x2x512x2, .f32⟩
  | 69 => ⟨S512x2x512x2, .f32⟩
  | 70 => ⟨S1024x1024, .f32⟩
  | 71 => ⟨S512x1x512x1, .f32⟩
  | 72 => ⟨S1x2x1x2, .f32⟩
  | 73 => ⟨S512x2x512x2, .f32⟩
  | 74 => ⟨S512x2x512x2, .f32⟩
  | 75 => ⟨S512x2x512x2, .f32⟩
  | 76 => ⟨S1024x1024, .f32⟩
  | 77 => ⟨S1024x1x1024x1, .f32⟩
  | 78 => ⟨S1x2x1x2, .f32⟩
  | 79 => ⟨S1024x2x1024x2, .f32⟩
  | 80 => ⟨S1024x2x1024x2, .f32⟩
  | 81 => ⟨S1024x2x1024x2, .f32⟩
  | 82 => ⟨S2048x2048, .f32⟩
  | 83 => ⟨S1024x1x1024x1, .f32⟩
  | 84 => ⟨S1x2x1x2, .f32⟩
  | 85 => ⟨S1024x2x1024x2, .f32⟩
  | 86 => ⟨S1024x2x1024x2, .f32⟩
  | 87 => ⟨S1024x2x1024x2, .f32⟩
  | 88 => ⟨S2048x2048, .f32⟩
  | 89 => ⟨S2048x1x2048x1, .f32⟩
  | 90 => ⟨S1x2x1x2, .f32⟩
  | 91 => ⟨S2048x2x2048x2, .f32⟩
  | 92 => ⟨S2048x2x2048x2, .f32⟩
  | 93 => ⟨S2048x2x2048x2, .f32⟩
  | 94 => ⟨S4096x4096, .f32⟩
  | 95 => ⟨S2048x1x2048x1, .f32⟩
  | 96 => ⟨S1x2x1x2, .f32⟩
  | 97 => ⟨S2048x2x2048x2, .f32⟩
  | 98 => ⟨S2048x2x2048x2, .f32⟩
  | 99 => ⟨S2048x2x2048x2, .f32⟩
  | 100 => ⟨S4096x4096, .f32⟩
  | 101 => ⟨S4096x4096, .f32⟩
  | 102 => ⟨S4096x4096, .f32⟩
  | 103 => ⟨S2x2, .i32⟩
  | 104 => ⟨S2x2, .i32⟩
  | 105 => ⟨S_, .i32⟩
  | 106 => ⟨S2x2, .i32⟩
  | 107 => ⟨S2x2, .i32⟩
  | 108 => ⟨S2x2, .i1⟩
  | 109 => ⟨S2x2, .f32⟩
  | 110 => ⟨S1x1x1x1, .f32⟩
  | 111 => ⟨S1x2x1x2, .f32⟩
  | 112 => ⟨S1x2x1x2, .f32⟩
  | 113 => ⟨S1x2x1x2, .f32⟩
  | 114 => ⟨S2x2, .f32⟩
  | 115 => ⟨S1x1x1x1, .f32⟩
  | 116 => ⟨S1x2x1x2, .f32⟩
  | 117 => ⟨S1x2x1x2, .f32⟩
  | 118 => ⟨S1x2x1x2, .f32⟩
  | 119 => ⟨S2x2, .f32⟩
  | 120 => ⟨S2x1x2x1, .f32⟩
  | 121 => ⟨S1x2x1x2, .f32⟩
  | 122 => ⟨S2x2x2x2, .f32⟩
  | 123 => ⟨S2x2x2x2, .f32⟩
  | 124 => ⟨S2x2x2x2, .f32⟩
  | 125 => ⟨S4x4, .f32⟩
  | 126 => ⟨S2x1x2x1, .f32⟩
  | 127 => ⟨S1x2x1x2, .f32⟩
  | _ => ⟨S4096x1024, .f32⟩

abbrev hbmTy0_3 (i : Nat) : BufTy := match i % 128 with
  | 0 => ⟨S2x2x2x2, .f32⟩
  | 1 => ⟨S2x2x2x2, .f32⟩
  | 2 => ⟨S2x2x2x2, .f32⟩
  | 3 => ⟨S4x4, .f32⟩
  | 4 => ⟨S4x1x4x1, .f32⟩
  | 5 => ⟨S1x2x1x2, .f32⟩
  | 6 => ⟨S4x2x4x2, .f32⟩
  | 7 => ⟨S4x2x4x2, .f32⟩
  | 8 => ⟨S4x2x4x2, .f32⟩
  | 9 => ⟨S8x8, .f32⟩
  | 10 => ⟨S4x1x4x1, .f32⟩
  | 11 => ⟨S1x2x1x2, .f32⟩
  | 12 => ⟨S4x2x4x2, .f32⟩
  | 13 => ⟨S4x2x4x2, .f32⟩
  | 14 => ⟨S4x2x4x2, .f32⟩
  | 15 => ⟨S8x8, .f32⟩
  | 16 => ⟨S8x1x8x1, .f32⟩
  | 17 => ⟨S1x2x1x2, .f32⟩
  | 18 => ⟨S8x2x8x2, .f32⟩
  | 19 => ⟨S8x2x8x2, .f32⟩
  | 20 => ⟨S8x2x8x2, .f32⟩
  | 21 => ⟨S16x16, .f32⟩
  | 22 => ⟨S8x1x8x1, .f32⟩
  | 23 => ⟨S1x2x1x2, .f32⟩
  | 24 => ⟨S8x2x8x2, .f32⟩
  | 25 => ⟨S8x2x8x2, .f32⟩
  | 26 => ⟨S8x2x8x2, .f32⟩
  | 27 => ⟨S16x16, .f32⟩
  | 28 => ⟨S16x1x16x1, .f32⟩
  | 29 => ⟨S1x2x1x2, .f32⟩
  | 30 => ⟨S16x2x16x2, .f32⟩
  | 31 => ⟨S16x2x16x2, .f32⟩
  | 32 => ⟨S16x2x16x2, .f32⟩
  | 33 => ⟨S32x32, .f32⟩
  | 34 => ⟨S16x1x16x1, .f32⟩
  | 35 => ⟨S1x2x1x2, .f32⟩
  | 36 => ⟨S16x2x16x2, .f32⟩
  | 37 => ⟨S16x2x16x2, .f32⟩
  | 38 => ⟨S16x2x16x2, .f32⟩
  | 39 => ⟨S32x32, .f32⟩
  | 40 => ⟨S32x1x32x1, .f32⟩
  | 41 => ⟨S1x2x1x2, .f32⟩
  | 42 => ⟨S32x2x32x2, .f32⟩
  | 43 => ⟨S32x2x32x2, .f32⟩
  | 44 => ⟨S32x2x32x2, .f32⟩
  | 45 => ⟨S64x64, .f32⟩
  | 46 => ⟨S32x1x32x1, .f32⟩
  | 47 => ⟨S1x2x1x2, .f32⟩
  | 48 => ⟨S32x2x32x2, .f32⟩
  | 49 => ⟨S32x2x32x2, .f32⟩
  | 50 => ⟨S32x2x32x2, .f32⟩
  | 51 => ⟨S64x64, .f32⟩
  | 52 => ⟨S64x1x64x1, .f32⟩
  | 53 => ⟨S1x2x1x2, .f32⟩
  | 54 => ⟨S64x2x64x2, .f32⟩
  | 55 => ⟨S64x2x64x2, .f32⟩
  | 56 => ⟨S64x2x64x2, .f32⟩
  | 57 => ⟨S128x128, .f32⟩
  | 58 => ⟨S64x1x64x1, .f32⟩
  | 59 => ⟨S1x2x1x2, .f32⟩
  | 60 => ⟨S64x2x64x2, .f32⟩
  | 61 => ⟨S64x2x64x2, .f32⟩
  | 62 => ⟨S64x2x64x2, .f32⟩
  | 63 => ⟨S128x128, .f32⟩
  | 64 => ⟨S128x1x128x1, .f32⟩
  | 65 => ⟨S1x2x1x2, .f32⟩
  | 66 => ⟨S128x2x128x2, .f32⟩
  | 67 => ⟨S128x2x128x2, .f32⟩
  | 68 => ⟨S128x2x128x2, .f32⟩
  | 69 => ⟨S256x256, .f32⟩
  | 70 => ⟨S128x1x128x1, .f32⟩
  | 71 => ⟨S1x2x1x2, .f32⟩
  | 72 => ⟨S128x2x128x2, .f32⟩
  | 73 => ⟨S128x2x128x2, .f32⟩
  | 74 => ⟨S128x2x128x2, .f32⟩
  | 75 => ⟨S256x256, .f32⟩
  | 76 => ⟨S256x1x256x1, .f32⟩
  | 77 => ⟨S1x2x1x2, .f32⟩
  | 78 => ⟨S256x2x256x2, .f32⟩
  | 79 => ⟨S256x2x256x2, .f32⟩
  | 80 => ⟨S256x2x256x2, .f32⟩
  | 81 => ⟨S512x512, .f32⟩
  | 82 => ⟨S256x1x256x1, .f32⟩
  | 83 => ⟨S1x2x1x2, .f32⟩
  | 84 => ⟨S256x2x256x2, .f32⟩
  | 85 => ⟨S256x2x256x2, .f32⟩
  | 86 => ⟨S256x2x256x2, .f32⟩
  | 87 => ⟨S512x512, .f32⟩
  | 88 => ⟨S512x1x512x1, .f32⟩
  | 89 => ⟨S1x2x1x2, .f32⟩
  | 90 => ⟨S512x2x512x2, .f32⟩
  | 91 => ⟨S512x2x512x2, .f32⟩
  | 92 => ⟨S512x2x512x2, .f32⟩
  | 93 => ⟨S1024x1024, .f32⟩
  | 94 => ⟨S512x1x512x1, .f32⟩
  | 95 => ⟨S1x2x1x2, .f32⟩
  | 96 => ⟨S512x2x512x2, .f32⟩
  | 97 => ⟨S512x2x512x2, .f32⟩
  | 98 => ⟨S512x2x512x2, .f32⟩
  | 99 => ⟨S1024x1024, .f32⟩
  | 100 => ⟨S1024x1x1024x1, .f32⟩
  | 101 => ⟨S1x2x1x2, .f32⟩
  | 102 => ⟨S1024x2x1024x2, .f32⟩
  | 103 => ⟨S1024x2x1024x2, .f32⟩
  | 104 => ⟨S1024x2x1024x2, .f32⟩
  | 105 => ⟨S2048x2048, .f32⟩
  | 106 => ⟨S1024x1x1024x1, .f32⟩
  | 107 => ⟨S1x2x1x2, .f32⟩
  | 108 => ⟨S1024x2x1024x2, .f32⟩
  | 109 => ⟨S1024x2x1024x2, .f32⟩
  | 110 => ⟨S1024x2x1024x2, .f32⟩
  | 111 => ⟨S2048x2048, .f32⟩
  | 112 => ⟨S2048x1x2048x1, .f32⟩
  | 113 => ⟨S1x2x1x2, .f32⟩
  | 114 => ⟨S2048x2x2048x2, .f32⟩
  | 115 => ⟨S2048x2x2048x2, .f32⟩
  | 116 => ⟨S2048x2x2048x2, .f32⟩
  | 117 => ⟨S4096x4096, .f32⟩
  | 118 => ⟨S2048x1x2048x1, .f32⟩
  | 119 => ⟨S1x2x1x2, .f32⟩
  | 120 => ⟨S2048x2x2048x2, .f32⟩
  | 121 => ⟨S2048x2x2048x2, .f32⟩
  | 122 => ⟨S2048x2x2048x2, .f32⟩
  | 123 => ⟨S4096x4096, .f32⟩
  | 124 => ⟨S4096x4096, .f32⟩
  | 125 => ⟨S4096x4096, .f32⟩
  | 126 => ⟨S2x2, .i32⟩
  | 127 => ⟨S2x2, .i32⟩
  | _ => ⟨S4096x1024, .f32⟩

abbrev hbmTy0_4 (i : Nat) : BufTy := match i % 128 with
  | 0 => ⟨S_, .i32⟩
  | 1 => ⟨S2x2, .i32⟩
  | 2 => ⟨S2x2, .i32⟩
  | 3 => ⟨S2x2, .i1⟩
  | 4 => ⟨S2x2, .f32⟩
  | 5 => ⟨S1x1x1x1, .f32⟩
  | 6 => ⟨S1x2x1x2, .f32⟩
  | 7 => ⟨S1x2x1x2, .f32⟩
  | 8 => ⟨S1x2x1x2, .f32⟩
  | 9 => ⟨S2x2, .f32⟩
  | 10 => ⟨S1x1x1x1, .f32⟩
  | 11 => ⟨S1x2x1x2, .f32⟩
  | 12 => ⟨S1x2x1x2, .f32⟩
  | 13 => ⟨S1x2x1x2, .f32⟩
  | 14 => ⟨S2x2, .f32⟩
  | 15 => ⟨S2x1x2x1, .f32⟩
  | 16 => ⟨S1x2x1x2, .f32⟩
  | 17 => ⟨S2x2x2x2, .f32⟩
  | 18 => ⟨S2x2x2x2, .f32⟩
  | 19 => ⟨S2x2x2x2, .f32⟩
  | 20 => ⟨S4x4, .f32⟩
  | 21 => ⟨S2x1x2x1, .f32⟩
  | 22 => ⟨S1x2x1x2, .f32⟩
  | 23 => ⟨S2x2x2x2, .f32⟩
  | 24 => ⟨S2x2x2x2, .f32⟩
  | 25 => ⟨S2x2x2x2, .f32⟩
  | 26 => ⟨S4x4, .f32⟩
  | 27 => ⟨S4x1x4x1, .f32⟩
  | 28 => ⟨S1x2x1x2, .f32⟩
  | 29 => ⟨S4x2x4x2, .f32⟩
  | 30 => ⟨S4x2x4x2, .f32⟩
  | 31 => ⟨S4x2x4x2, .f32⟩
  | 32 => ⟨S8x8, .f32⟩
  | 33 => ⟨S4x1x4x1, .f32⟩
  | 34 => ⟨S1x2x1x2, .f32⟩
  | 35 => ⟨S4x2x4x2, .f32⟩
  | 36 => ⟨S4x2x4x2, .f32⟩
  | 37 => ⟨S4x2x4x2, .f32⟩
  | 38 => ⟨S8x8, .f32⟩
  | 39 => ⟨S8x1x8x1, .f32⟩
  | 40 => ⟨S1x2x1x2, .f32⟩
  | 41 => ⟨S8x2x8x2, .f32⟩
  | 42 => ⟨S8x2x8x2, .f32⟩
  | 43 => ⟨S8x2x8x2, .f32⟩
  | 44 => ⟨S16x16, .f32⟩
  | 45 => ⟨S8x1x8x1, .f32⟩
  | 46 => ⟨S1x2x1x2, .f32⟩
  | 47 => ⟨S8x2x8x2, .f32⟩
  | 48 => ⟨S8x2x8x2, .f32⟩
  | 49 => ⟨S8x2x8x2, .f32⟩
  | 50 => ⟨S16x16, .f32⟩
  | 51 => ⟨S16x1x16x1, .f32⟩
  | 52 => ⟨S1x2x1x2, .f32⟩
  | 53 => ⟨S16x2x16x2, .f32⟩
  | 54 => ⟨S16x2x16x2, .f32⟩
  | 55 => ⟨S16x2x16x2, .f32⟩
  | 56 => ⟨S32x32, .f32⟩
  | 57 => ⟨S16x1x16x1, .f32⟩
  | 58 => ⟨S1x2x1x2, .f32⟩
  | 59 => ⟨S16x2x16x2, .f32⟩
  | 60 => ⟨S16x2x16x2, .f32⟩
  | 61 => ⟨S16x2x16x2, .f32⟩
  | 62 => ⟨S32x32, .f32⟩
  | 63 => ⟨S32x1x32x1, .f32⟩
  | 64 => ⟨S1x2x1x2, .f32⟩
  | 65 => ⟨S32x2x32x2, .f32⟩
  | 66 => ⟨S32x2x32x2, .f32⟩
  | 67 => ⟨S32x2x32x2, .f32⟩
  | 68 => ⟨S64x64, .f32⟩
  | 69 => ⟨S32x1x32x1, .f32⟩
  | 70 => ⟨S1x2x1x2, .f32⟩
  | 71 => ⟨S32x2x32x2, .f32⟩
  | 72 => ⟨S32x2x32x2, .f32⟩
  | 73 => ⟨S32x2x32x2, .f32⟩
  | 74 => ⟨S64x64, .f32⟩
  | 75 => ⟨S64x1x64x1, .f32⟩
  | 76 => ⟨S1x2x1x2, .f32⟩
  | 77 => ⟨S64x2x64x2, .f32⟩
  | 78 => ⟨S64x2x64x2, .f32⟩
  | 79 => ⟨S64x2x64x2, .f32⟩
  | 80 => ⟨S128x128, .f32⟩
  | 81 => ⟨S64x1x64x1, .f32⟩
  | 82 => ⟨S1x2x1x2, .f32⟩
  | 83 => ⟨S64x2x64x2, .f32⟩
  | 84 => ⟨S64x2x64x2, .f32⟩
  | 85 => ⟨S64x2x64x2, .f32⟩
  | 86 => ⟨S128x128, .f32⟩
  | 87 => ⟨S128x1x128x1, .f32⟩
  | 88 => ⟨S1x2x1x2, .f32⟩
  | 89 => ⟨S128x2x128x2, .f32⟩
  | 90 => ⟨S128x2x128x2, .f32⟩
  | 91 => ⟨S128x2x128x2, .f32⟩
  | 92 => ⟨S256x256, .f32⟩
  | 93 => ⟨S128x1x128x1, .f32⟩
  | 94 => ⟨S1x2x1x2, .f32⟩
  | 95 => ⟨S128x2x128x2, .f32⟩
  | 96 => ⟨S128x2x128x2, .f32⟩
  | 97 => ⟨S128x2x128x2, .f32⟩
  | 98 => ⟨S256x256, .f32⟩
  | 99 => ⟨S256x1x256x1, .f32⟩
  | 100 => ⟨S1x2x1x2, .f32⟩
  | 101 => ⟨S256x2x256x2, .f32⟩
  | 102 => ⟨S256x2x256x2, .f32⟩
  | 103 => ⟨S256x2x256x2, .f32⟩
  | 104 => ⟨S512x512, .f32⟩
  | 105 => ⟨S256x1x256x1, .f32⟩
  | 106 => ⟨S1x2x1x2, .f32⟩
  | 107 => ⟨S256x2x256x2, .f32⟩
  | 108 => ⟨S256x2x256x2, .f32⟩
  | 109 => ⟨S256x2x256x2, .f32⟩
  | 110 => ⟨S512x512, .f32⟩
  | 111 => ⟨S512x1x512x1, .f32⟩
  | 112 => ⟨S1x2x1x2, .f32⟩
  | 113 => ⟨S512x2x512x2, .f32⟩
  | 114 => ⟨S512x2x512x2, .f32⟩
  | 115 => ⟨S512x2x512x2, .f32⟩
  | 116 => ⟨S1024x1024, .f32⟩
  | 117 => ⟨S512x1x512x1, .f32⟩
  | 118 => ⟨S1x2x1x2, .f32⟩
  | 119 => ⟨S512x2x512x2, .f32⟩
  | 120 => ⟨S512x2x512x2, .f32⟩
  | 121 => ⟨S512x2x512x2, .f32⟩
  | 122 => ⟨S1024x1024, .f32⟩
  | 123 => ⟨S1024x1x1024x1, .f32⟩
  | 124 => ⟨S1x2x1x2, .f32⟩
  | 125 => ⟨S1024x2x1024x2, .f32⟩
  | 126 => ⟨S1024x2x1024x2, .f32⟩
  | 127 => ⟨S1024x2x1024x2, .f32⟩
  | _ => ⟨S4096x1024, .f32⟩

abbrev hbmTy0_5 (i : Nat) : BufTy := match i % 128 with
  | 0 => ⟨S2048x2048, .f32⟩
  | 1 => ⟨S1024x1x1024x1, .f32⟩
  | 2 => ⟨S1x2x1x2, .f32⟩
  | 3 => ⟨S1024x2x1024x2, .f32⟩
  | 4 => ⟨S1024x2x1024x2, .f32⟩
  | 5 => ⟨S1024x2x1024x2, .f32⟩
  | 6 => ⟨S2048x2048, .f32⟩
  | 7 => ⟨S2048x1x2048x1, .f32⟩
  | 8 => ⟨S1x2x1x2, .f32⟩
  | 9 => ⟨S2048x2x2048x2, .f32⟩
  | 10 => ⟨S2048x2x2048x2, .f32⟩
  | 11 => ⟨S2048x2x2048x2, .f32⟩
  | 12 => ⟨S4096x4096, .f32⟩
  | 13 => ⟨S2048x1x2048x1, .f32⟩
  | 14 => ⟨S1x2x1x2, .f32⟩
  | 15 => ⟨S2048x2x2048x2, .f32⟩
  | 16 => ⟨S2048x2x2048x2, .f32⟩
  | 17 => ⟨S2048x2x2048x2, .f32⟩
  | 18 => ⟨S4096x4096, .f32⟩
  | 19 => ⟨S4096x4096, .f32⟩
  | 20 => ⟨S4096x4096, .f32⟩
  | 21 => ⟨S2x2, .i32⟩
  | 22 => ⟨S2x2, .i32⟩
  | 23 => ⟨S_, .i32⟩
  | 24 => ⟨S2x2, .i32⟩
  | 25 => ⟨S2x2, .i32⟩
  | 26 => ⟨S2x2, .i1⟩
  | 27 => ⟨S2x2, .f32⟩
  | 28 => ⟨S1x1x1x1, .f32⟩
  | 29 => ⟨S1x2x1x2, .f32⟩
  | 30 => ⟨S1x2x1x2, .f32⟩
  | 31 => ⟨S1x2x1x2, .f32⟩
  | 32 => ⟨S2x2, .f32⟩
  | 33 => ⟨S1x1x1x1, .f32⟩
  | 34 => ⟨S1x2x1x2, .f32⟩
  | 35 => ⟨S1x2x1x2, .f32⟩
  | 36 => ⟨S1x2x1x2, .f32⟩
  | 37 => ⟨S2x2, .f32⟩
  | 38 => ⟨S2x1x2x1, .f32⟩
  | 39 => ⟨S1x2x1x2, .f32⟩
  | 40 => ⟨S2x2x2x2, .f32⟩
  | 41 => ⟨S2x2x2x2, .f32⟩
  | 42 => ⟨S2x2x2x2, .f32⟩
  | 43 => ⟨S4x4, .f32⟩
  | 44 => ⟨S2x1x2x1, .f32⟩
  | 45 => ⟨S1x2x1x2, .f32⟩
  | 46 => ⟨S2x2x2x2, .f32⟩
  | 47 => ⟨S2x2x2x2, .f32⟩
  | 48 => ⟨S2x2x2x2, .f32⟩
  | 49 => ⟨S4x4, .f32⟩
  | 50 => ⟨S4x1x4x1, .f32⟩
  | 51 => ⟨S1x2x1x2, .f32⟩
  | 52 => ⟨S4x2x4x2, .f32⟩
  | 53 => ⟨S4x2x4x2, .f32⟩
  | 54 => ⟨S4x2x4x2, .f32⟩
  | 55 => ⟨S8x8, .f32⟩
  | 56 => ⟨S4x1x4x1, .f32⟩
  | 57 => ⟨S1x2x1x2, .f32⟩
  | 58 => ⟨S4x2x4x2, .f32⟩
  | 59 => ⟨S4x2x4x2, .f32⟩
  | 60 => ⟨S4x2x4x2, .f32⟩
  | 61 => ⟨S8x8, .f32⟩
  | 62 => ⟨S8x1x8x1, .f32⟩
  | 63 => ⟨S1x2x1x2, .f32⟩
  | 64 => ⟨S8x2x8x2, .f32⟩
  | 65 => ⟨S8x2x8x2, .f32⟩
  | 66 => ⟨S8x2x8x2, .f32⟩
  | 67 => ⟨S16x16, .f32⟩
  | 68 => ⟨S8x1x8x1, .f32⟩
  | 69 => ⟨S1x2x1x2, .f32⟩
  | 70 => ⟨S8x2x8x2, .f32⟩
  | 71 => ⟨S8x2x8x2, .f32⟩
  | 72 => ⟨S8x2x8x2, .f32⟩
  | 73 => ⟨S16x16, .f32⟩
  | 74 => ⟨S16x1x16x1, .f32⟩
  | 75 => ⟨S1x2x1x2, .f32⟩
  | 76 => ⟨S16x2x16x2, .f32⟩
  | 77 => ⟨S16x2x16x2, .f32⟩
  | 78 => ⟨S16x2x16x2, .f32⟩
  | 79 => ⟨S32x32, .f32⟩
  | 80 => ⟨S16x1x16x1, .f32⟩
  | 81 => ⟨S1x2x1x2, .f32⟩
  | 82 => ⟨S16x2x16x2, .f32⟩
  | 83 => ⟨S16x2x16x2, .f32⟩
  | 84 => ⟨S16x2x16x2, .f32⟩
  | 85 => ⟨S32x32, .f32⟩
  | 86 => ⟨S32x1x32x1, .f32⟩
  | 87 => ⟨S1x2x1x2, .f32⟩
  | 88 => ⟨S32x2x32x2, .f32⟩
  | 89 => ⟨S32x2x32x2, .f32⟩
  | 90 => ⟨S32x2x32x2, .f32⟩
  | 91 => ⟨S64x64, .f32⟩
  | 92 => ⟨S32x1x32x1, .f32⟩
  | 93 => ⟨S1x2x1x2, .f32⟩
  | 94 => ⟨S32x2x32x2, .f32⟩
  | 95 => ⟨S32x2x32x2, .f32⟩
  | 96 => ⟨S32x2x32x2, .f32⟩
  | 97 => ⟨S64x64, .f32⟩
  | 98 => ⟨S64x1x64x1, .f32⟩
  | 99 => ⟨S1x2x1x2, .f32⟩
  | 100 => ⟨S64x2x64x2, .f32⟩
  | 101 => ⟨S64x2x64x2, .f32⟩
  | 102 => ⟨S64x2x64x2, .f32⟩
  | 103 => ⟨S128x128, .f32⟩
  | 104 => ⟨S64x1x64x1, .f32⟩
  | 105 => ⟨S1x2x1x2, .f32⟩
  | 106 => ⟨S64x2x64x2, .f32⟩
  | 107 => ⟨S64x2x64x2, .f32⟩
  | 108 => ⟨S64x2x64x2, .f32⟩
  | 109 => ⟨S128x128, .f32⟩
  | 110 => ⟨S128x1x128x1, .f32⟩
  | 111 => ⟨S1x2x1x2, .f32⟩
  | 112 => ⟨S128x2x128x2, .f32⟩
  | 113 => ⟨S128x2x128x2, .f32⟩
  | 114 => ⟨S128x2x128x2, .f32⟩
  | 115 => ⟨S256x256, .f32⟩
  | 116 => ⟨S128x1x128x1, .f32⟩
  | 117 => ⟨S1x2x1x2, .f32⟩
  | 118 => ⟨S128x2x128x2, .f32⟩
  | 119 => ⟨S128x2x128x2, .f32⟩
  | 120 => ⟨S128x2x128x2, .f32⟩
  | 121 => ⟨S256x256, .f32⟩
  | 122 => ⟨S256x1x256x1, .f32⟩
  | 123 => ⟨S1x2x1x2, .f32⟩
  | 124 => ⟨S256x2x256x2, .f32⟩
  | 125 => ⟨S256x2x256x2, .f32⟩
  | 126 => ⟨S256x2x256x2, .f32⟩
  | 127 => ⟨S512x512, .f32⟩
  | _ => ⟨S4096x1024, .f32⟩

abbrev hbmTy0_6 (i : Nat) : BufTy := match i % 128 with
  | 0 => ⟨S256x1x256x1, .f32⟩
  | 1 => ⟨S1x2x1x2, .f32⟩
  | 2 => ⟨S256x2x256x2, .f32⟩
  | 3 => ⟨S256x2x256x2, .f32⟩
  | 4 => ⟨S256x2x256x2, .f32⟩
  | 5 => ⟨S512x512, .f32⟩
  | 6 => ⟨S512x1x512x1, .f32⟩
  | 7 => ⟨S1x2x1x2, .f32⟩
  | 8 => ⟨S512x2x512x2, .f32⟩
  | 9 => ⟨S512x2x512x2, .f32⟩
  | 10 => ⟨S512x2x512x2, .f32⟩
  | 11 => ⟨S1024x1024, .f32⟩
  | 12 => ⟨S512x1x512x1, .f32⟩
  | 13 => ⟨S1x2x1x2, .f32⟩
  | 14 => ⟨S512x2x512x2, .f32⟩
  | 15 => ⟨S512x2x512x2, .f32⟩
  | 16 => ⟨S512x2x512x2, .f32⟩
  | 17 => ⟨S1024x1024, .f32⟩
  | 18 => ⟨S1024x1x1024x1, .f32⟩
  | 19 => ⟨S1x2x1x2, .f32⟩
  | 20 => ⟨S1024x2x1024x2, .f32⟩
  | 21 => ⟨S1024x2x1024x2, .f32⟩
  | 22 => ⟨S1024x2x1024x2, .f32⟩
  | 23 => ⟨S2048x2048, .f32⟩
  | 24 => ⟨S1024x1x1024x1, .f32⟩
  | 25 => ⟨S1x2x1x2, .f32⟩
  | 26 => ⟨S1024x2x1024x2, .f32⟩
  | 27 => ⟨S1024x2x1024x2, .f32⟩
  | 28 => ⟨S1024x2x1024x2, .f32⟩
  | 29 => ⟨S2048x2048, .f32⟩
  | 30 => ⟨S2048x1x2048x1, .f32⟩
  | 31 => ⟨S1x2x1x2, .f32⟩
  | 32 => ⟨S2048x2x2048x2, .f32⟩
  | 33 => ⟨S2048x2x2048x2, .f32⟩
  | 34 => ⟨S2048x2x2048x2, .f32⟩
  | 35 => ⟨S4096x4096, .f32⟩
  | 36 => ⟨S2048x1x2048x1, .f32⟩
  | 37 => ⟨S1x2x1x2, .f32⟩
  | 38 => ⟨S2048x2x2048x2, .f32⟩
  | 39 => ⟨S2048x2x2048x2, .f32⟩
  | 40 => ⟨S2048x2x2048x2, .f32⟩
  | 41 => ⟨S4096x4096, .f32⟩
  | 42 => ⟨S4096x4096, .f32⟩
  | 43 => ⟨S4096x4096, .f32⟩
  | 44 => ⟨S2x2, .i32⟩
  | 45 => ⟨S2x2, .i32⟩
  | 46 => ⟨S_, .i32⟩
  | 47 => ⟨S2x2, .i32⟩
  | 48 => ⟨S2x2, .i32⟩
  | 49 => ⟨S2x2, .i1⟩
  | 50 => ⟨S2x2, .f32⟩
  | 51 => ⟨S1x1x1x1, .f32⟩
  | 52 => ⟨S1x2x1x2, .f32⟩
  | 53 => ⟨S1x2x1x2, .f32⟩
  | 54 => ⟨S1x2x1x2, .f32⟩
  | 55 => ⟨S2x2, .f32⟩
  | 56 => ⟨S1x1x1x1, .f32⟩
  | 57 => ⟨S1x2x1x2, .f32⟩
  | 58 => ⟨S1x2x1x2, .f32⟩
  | 59 => ⟨S1x2x1x2, .f32⟩
  | 60 => ⟨S2x2, .f32⟩
  | 61 => ⟨S2x1x2x1, .f32⟩
  | 62 => ⟨S1x2x1x2, .f32⟩
  | 63 => ⟨S2x2x2x2, .f32⟩
  | 64 => ⟨S2x2x2x2, .f32⟩
  | 65 => ⟨S2x2x2x2, .f32⟩
  | 66 => ⟨S4x4, .f32⟩
  | 67 => ⟨S2x1x2x1, .f32⟩
  | 68 => ⟨S1x2x1x2, .f32⟩
  | 69 => ⟨S2x2x2x2, .f32⟩
  | 70 => ⟨S2x2x2x2, .f32⟩
  | 71 => ⟨S2x2x2x2, .f32⟩
  | 72 => ⟨S4x4, .f32⟩
  | 73 => ⟨S4x1x4x1, .f32⟩
  | 74 => ⟨S1x2x1x2, .f32⟩
  | 75 => ⟨S4x2x4x2, .f32⟩
  | 76 => ⟨S4x2x4x2, .f32⟩
  | 77 => ⟨S4x2x4x2, .f32⟩
  | 78 => ⟨S8x8, .f32⟩
  | 79 => ⟨S4x1x4x1, .f32⟩
  | 80 => ⟨S1x2x1x2, .f32⟩
  | 81 => ⟨S4x2x4x2, .f32⟩
  | 82 => ⟨S4x2x4x2, .f32⟩
  | 83 => ⟨S4x2x4x2, .f32⟩
  | 84 => ⟨S8x8, .f32⟩
  | 85 => ⟨S8x1x8x1, .f32⟩
  | 86 => ⟨S1x2x1x2, .f32⟩
  | 87 => ⟨S8x2x8x2, .f32⟩
  | 88 => ⟨S8x2x8x2, .f32⟩
  | 89 => ⟨S8x2x8x2, .f32⟩
  | 90 => ⟨S16x16, .f32⟩
  | 91 => ⟨S8x1x8x1, .f32⟩
  | 92 => ⟨S1x2x1x2, .f32⟩
  | 93 => ⟨S8x2x8x2, .f32⟩
  | 94 => ⟨S8x2x8x2, .f32⟩
  | 95 => ⟨S8x2x8x2, .f32⟩
  | 96 => ⟨S16x16, .f32⟩
  | 97 => ⟨S16x1x16x1, .f32⟩
  | 98 => ⟨S1x2x1x2, .f32⟩
  | 99 => ⟨S16x2x16x2, .f32⟩
  | 100 => ⟨S16x2x16x2, .f32⟩
  | 101 => ⟨S16x2x16x2, .f32⟩
  | 102 => ⟨S32x32, .f32⟩
  | 103 => ⟨S16x1x16x1, .f32⟩
  | 104 => ⟨S1x2x1x2, .f32⟩
  | 105 => ⟨S16x2x16x2, .f32⟩
  | 106 => ⟨S16x2x16x2, .f32⟩
  | 107 => ⟨S16x2x16x2, .f32⟩
  | 108 => ⟨S32x32, .f32⟩
  | 109 => ⟨S32x1x32x1, .f32⟩
  | 110 => ⟨S1x2x1x2, .f32⟩
  | 111 => ⟨S32x2x32x2, .f32⟩
  | 112 => ⟨S32x2x32x2, .f32⟩
  | 113 => ⟨S32x2x32x2, .f32⟩
  | 114 => ⟨S64x64, .f32⟩
  | 115 => ⟨S32x1x32x1, .f32⟩
  | 116 => ⟨S1x2x1x2, .f32⟩
  | 117 => ⟨S32x2x32x2, .f32⟩
  | 118 => ⟨S32x2x32x2, .f32⟩
  | 119 => ⟨S32x2x32x2, .f32⟩
  | 120 => ⟨S64x64, .f32⟩
  | 121 => ⟨S64x1x64x1, .f32⟩
  | 122 => ⟨S1x2x1x2, .f32⟩
  | 123 => ⟨S64x2x64x2, .f32⟩
  | 124 => ⟨S64x2x64x2, .f32⟩
  | 125 => ⟨S64x2x64x2, .f32⟩
  | 126 => ⟨S128x128, .f32⟩
  | 127 => ⟨S64x1x64x1, .f32⟩
  | _ => ⟨S4096x1024, .f32⟩

abbrev hbmTy0_7 (i : Nat) : BufTy := match i % 128 with
  | 0 => ⟨S1x2x1x2, .f32⟩
  | 1 => ⟨S64x2x64x2, .f32⟩
  | 2 => ⟨S64x2x64x2, .f32⟩
  | 3 => ⟨S64x2x64x2, .f32⟩
  | 4 => ⟨S128x128, .f32⟩
  | 5 => ⟨S128x1x128x1, .f32⟩
  | 6 => ⟨S1x2x1x2, .f32⟩
  | 7 => ⟨S128x2x128x2, .f32⟩
  | 8 => ⟨S128x2x128x2, .f32⟩
  | 9 => ⟨S128x2x128x2, .f32⟩
  | 10 => ⟨S256x256, .f32⟩
  | 11 => ⟨S128x1x128x1, .f32⟩
  | 12 => ⟨S1x2x1x2, .f32⟩
  | 13 => ⟨S128x2x128x2, .f32⟩
  | 14 => ⟨S128x2x128x2, .f32⟩
  | 15 => ⟨S128x2x128x2, .f32⟩
  | 16 => ⟨S256x256, .f32⟩
  | 17 => ⟨S256x1x256x1, .f32⟩
  | 18 => ⟨S1x2x1x2, .f32⟩
  | 19 => ⟨S256x2x256x2, .f32⟩
  | 20 => ⟨S256x2x256x2, .f32⟩
  | 21 => ⟨S256x2x256x2, .f32⟩
  | 22 => ⟨S512x512, .f32⟩
  | 23 => ⟨S256x1x256x1, .f32⟩
  | 24 => ⟨S1x2x1x2, .f32⟩
  | 25 => ⟨S256x2x256x2, .f32⟩
  | 26 => ⟨S256x2x256x2, .f32⟩
  | 27 => ⟨S256x2x256x2, .f32⟩
  | 28 => ⟨S512x512, .f32⟩
  | 29 => ⟨S512x1x512x1, .f32⟩
  | 30 => ⟨S1x2x1x2, .f32⟩
  | 31 => ⟨S512x2x512x2, .f32⟩
  | 32 => ⟨S512x2x512x2, .f32⟩
  | 33 => ⟨S512x2x512x2, .f32⟩
  | 34 => ⟨S1024x1024, .f32⟩
  | 35 => ⟨S512x1x512x1, .f32⟩
  | 36 => ⟨S1x2x1x2, .f32⟩
  | 37 => ⟨S512x2x512x2, .f32⟩
  | 38 => ⟨S512x2x512x2, .f32⟩
  | 39 => ⟨S512x2x512x2, .f32⟩
  | 40 => ⟨S1024x1024, .f32⟩
  | 41 => ⟨S1024x1x1024x1, .f32⟩
  | 42 => ⟨S1x2x1x2, .f32⟩
  | 43 => ⟨S1024x2x1024x2, .f32⟩
  | 44 => ⟨S1024x2x1024x2, .f32⟩
  | 45 => ⟨S1024x2x1024x2, .f32⟩
  | 46 => ⟨S2048x2048, .f32⟩
  | 47 => ⟨S1024x1x1024x1, .f32⟩
  | 48 => ⟨S1x2x1x2, .f32⟩
  | 49 => ⟨S1024x2x1024x2, .f32⟩
  | 50 => ⟨S1024x2x1024x2, .f32⟩
  | 51 => ⟨S1024x2x1024x2, .f32⟩
  | 52 => ⟨S2048x2048, .f32⟩
  | 53 => ⟨S2048x1x2048x1, .f32⟩
  | 54 => ⟨S1x2x1x2, .f32⟩
  | 55 => ⟨S2048x2x2048x2, .f32⟩
  | 56 => ⟨S2048x2x2048x2, .f32⟩
  | 57 => ⟨S2048x2x2048x2, .f32⟩
  | 58 => ⟨S4096x4096, .f32⟩
  | 59 => ⟨S2048x1x2048x1, .f32⟩
  | 60 => ⟨S1x2x1x2, .f32⟩
  | 61 => ⟨S2048x2x2048x2, .f32⟩
  | 62 => ⟨S2048x2x2048x2, .f32⟩
  | 63 => ⟨S2048x2x2048x2, .f32⟩
  | 64 => ⟨S4096x4096, .f32⟩
  | 65 => ⟨S4096x4096, .f32⟩
  | 66 => ⟨S4096x4096, .f32⟩
  | 67 => ⟨S2x2, .i32⟩
  | 68 => ⟨S2x2, .i32⟩
  | 69 => ⟨S_, .i32⟩
  | 70 => ⟨S2x2, .i32⟩
  | 71 => ⟨S2x2, .i32⟩
  | 72 => ⟨S2x2, .i1⟩
  | 73 => ⟨S2x2, .f32⟩
  | 74 => ⟨S1x1x1x1, .f32⟩
  | 75 => ⟨S1x2x1x2, .f32⟩
  | 76 => ⟨S1x2x1x2, .f32⟩
  | 77 => ⟨S1x2x1x2, .f32⟩
  | 78 => ⟨S2x2, .f32⟩
  | 79 => ⟨S1x1x1x1, .f32⟩
  | 80 => ⟨S1x2x1x2, .f32⟩
  | 81 => ⟨S1x2x1x2, .f32⟩
  | 82 => ⟨S1x2x1x2, .f32⟩
  | 83 => ⟨S2x2, .f32⟩
  | 84 => ⟨S2x1x2x1, .f32⟩
  | 85 => ⟨S1x2x1x2, .f32⟩
  | 86 => ⟨S2x2x2x2, .f32⟩
  | 87 => ⟨S2x2x2x2, .f32⟩
  | 88 => ⟨S2x2x2x2, .f32⟩
  | 89 => ⟨S4x4, .f32⟩
  | 90 => ⟨S2x1x2x1, .f32⟩
  | 91 => ⟨S1x2x1x2, .f32⟩
  | 92 => ⟨S2x2x2x2, .f32⟩
  | 93 => ⟨S2x2x2x2, .f32⟩
  | 94 => ⟨S2x2x2x2, .f32⟩
  | 95 => ⟨S4x4, .f32⟩
  | 96 => ⟨S4x1x4x1, .f32⟩
  | 97 => ⟨S1x2x1x2, .f32⟩
  | 98 => ⟨S4x2x4x2, .f32⟩
  | 99 => ⟨S4x2x4x2, .f32⟩
  | 100 => ⟨S4x2x4x2, .f32⟩
  | 101 => ⟨S8x8, .f32⟩
  | 102 => ⟨S4x1x4x1, .f32⟩
  | 103 => ⟨S1x2x1x2, .f32⟩
  | 104 => ⟨S4x2x4x2, .f32⟩
  | 105 => ⟨S4x2x4x2, .f32⟩
  | 106 => ⟨S4x2x4x2, .f32⟩
  | 107 => ⟨S8x8, .f32⟩
  | 108 => ⟨S8x1x8x1, .f32⟩
  | 109 => ⟨S1x2x1x2, .f32⟩
  | 110 => ⟨S8x2x8x2, .f32⟩
  | 111 => ⟨S8x2x8x2, .f32⟩
  | 112 => ⟨S8x2x8x2, .f32⟩
  | 113 => ⟨S16x16, .f32⟩
  | 114 => ⟨S8x1x8x1, .f32⟩
  | 115 => ⟨S1x2x1x2, .f32⟩
  | 116 => ⟨S8x2x8x2, .f32⟩
  | 117 => ⟨S8x2x8x2, .f32⟩
  | 118 => ⟨S8x2x8x2, .f32⟩
  | 119 => ⟨S16x16, .f32⟩
  | 120 => ⟨S16x1x16x1, .f32⟩
  | 121 => ⟨S1x2x1x2, .f32⟩
  | 122 => ⟨S16x2x16x2, .f32⟩
  | 123 => ⟨S16x2x16x2, .f32⟩
  | 124 => ⟨S16x2x16x2, .f32⟩
  | 125 => ⟨S32x32, .f32⟩
  | 126 => ⟨S16x1x16x1, .f32⟩
  | 127 => ⟨S1x2x1x2, .f32⟩
  | _ => ⟨S4096x1024, .f32⟩

abbrev hbmTy0_8 (i : Nat) : BufTy := match i % 128 with
  | 0 => ⟨S16x2x16x2, .f32⟩
  | 1 => ⟨S16x2x16x2, .f32⟩
  | 2 => ⟨S16x2x16x2, .f32⟩
  | 3 => ⟨S32x32, .f32⟩
  | 4 => ⟨S32x1x32x1, .f32⟩
  | 5 => ⟨S1x2x1x2, .f32⟩
  | 6 => ⟨S32x2x32x2, .f32⟩
  | 7 => ⟨S32x2x32x2, .f32⟩
  | 8 => ⟨S32x2x32x2, .f32⟩
  | 9 => ⟨S64x64, .f32⟩
  | 10 => ⟨S32x1x32x1, .f32⟩
  | 11 => ⟨S1x2x1x2, .f32⟩
  | 12 => ⟨S32x2x32x2, .f32⟩
  | 13 => ⟨S32x2x32x2, .f32⟩
  | 14 => ⟨S32x2x32x2, .f32⟩
  | 15 => ⟨S64x64, .f32⟩
  | 16 => ⟨S64x1x64x1, .f32⟩
  | 17 => ⟨S1x2x1x2, .f32⟩
  | 18 => ⟨S64x2x64x2, .f32⟩
  | 19 => ⟨S64x2x64x2, .f32⟩
  | 20 => ⟨S64x2x64x2, .f32⟩
  | 21 => ⟨S128x128, .f32⟩
  | 22 => ⟨S64x1x64x1, .f32⟩
  | 23 => ⟨S1x2x1x2, .f32⟩
  | 24 => ⟨S64x2x64x2, .f32⟩
  | 25 => ⟨S64x2x64x2, .f32⟩
  | 26 => ⟨S64x2x64x2, .f32⟩
  | 27 => ⟨S128x128, .f32⟩
  | 28 => ⟨S128x1x128x1, .f32⟩
  | 29 => ⟨S1x2x1x2, .f32⟩
  | 30 => ⟨S128x2x128x2, .f32⟩
  | 31 => ⟨S128x2x128x2, .f32⟩
  | 32 => ⟨S128x2x128x2, .f32⟩
  | 33 => ⟨S256x256, .f32⟩
  | 34 => ⟨S128x1x128x1, .f32⟩
  | 35 => ⟨S1x2x1x2, .f32⟩
  | 36 => ⟨S128x2x128x2, .f32⟩
  | 37 => ⟨S128x2x128x2, .f32⟩
  | 38 => ⟨S128x2x128x2, .f32⟩
  | 39 => ⟨S256x256, .f32⟩
  | 40 => ⟨S256x1x256x1, .f32⟩
  | 41 => ⟨S1x2x1x2, .f32⟩
  | 42 => ⟨S256x2x256x2, .f32⟩
  | 43 => ⟨S256x2x256x2, .f32⟩
  | 44 => ⟨S256x2x256x2, .f32⟩
  | 45 => ⟨S512x512, .f32⟩
  | 46 => ⟨S256x1x256x1, .f32⟩
  | 47 => ⟨S1x2x1x2, .f32⟩
  | 48 => ⟨S256x2x256x2, .f32⟩
  | 49 => ⟨S256x2x256x2, .f32⟩
  | 50 => ⟨S256x2x256x2, .f32⟩
  | 51 => ⟨S512x512, .f32⟩
  | 52 => ⟨S512x1x512x1, .f32⟩
  | 53 => ⟨S1x2x1x2, .f32⟩
  | 54 => ⟨S512x2x512x2, .f32⟩
  | 55 => ⟨S512x2x512x2, .f32⟩
  | 56 => ⟨S512x2x512x2, .f32⟩
  | 57 => ⟨S1024x1024, .f32⟩
  | 58 => ⟨S512x1x512x1, .f32⟩
  | 59 => ⟨S1x2x1x2, .f32⟩
  | 60 => ⟨S512x2x512x2, .f32⟩
  | 61 => ⟨S512x2x512x2, .f32⟩
  | 62 => ⟨S512x2x512x2, .f32⟩
  | 63 => ⟨S1024x1024, .f32⟩
  | 64 => ⟨S1024x1x1024x1, .f32⟩
  | 65 => ⟨S1x2x1x2, .f32⟩
  | 66 => ⟨S1024x2x1024x2, .f32⟩
  | 67 => ⟨S1024x2x1024x2, .f32⟩
  | 68 => ⟨S1024x2x1024x2, .f32⟩
  | 69 => ⟨S2048x2048, .f32⟩
  | 70 => ⟨S1024x1x1024x1, .f32⟩
  | 71 => ⟨S1x2x1x2, .f32⟩
  | 72 => ⟨S1024x2x1024x2, .f32⟩
  | 73 => ⟨S1024x2x1024x2, .f32⟩
  | 74 => ⟨S1024x2x1024x2, .f32⟩
  | 75 => ⟨S2048x2048, .f32⟩
  | 76 => ⟨S2048x1x2048x1, .f32⟩
  | 77 => ⟨S1x2x1x2, .f32⟩
  | 78 => ⟨S2048x2x2048x2, .f32⟩
  | 79 => ⟨S2048x2x2048x2, .f32⟩
  | 80 => ⟨S2048x2x2048x2, .f32⟩
  | 81 => ⟨S4096x4096, .f32⟩
  | 82 => ⟨S2048x1x2048x1, .f32⟩
  | 83 => ⟨S1x2x1x2, .f32⟩
  | 84 => ⟨S2048x2x2048x2, .f32⟩
  | 85 => ⟨S2048x2x2048x2, .f32⟩
  | 86 => ⟨S2048x2x2048x2, .f32⟩
  | 87 => ⟨S4096x4096, .f32⟩
  | 88 => ⟨S4096x4096, .f32⟩
  | 89 => ⟨S4096x4096, .f32⟩
  | 90 => ⟨S2x2, .i32⟩
  | 91 => ⟨S2x2, .i32⟩
  | 92 => ⟨S_, .i32⟩
  | 93 => ⟨S2x2, .i32⟩
  | 94 => ⟨S2x2, .i32⟩
  | 95 => ⟨S2x2, .i1⟩
  | 96 => ⟨S2x2, .f32⟩
  | 97 => ⟨S1x1x1x1, .f32⟩
  | 98 => ⟨S1x2x1x2, .f32⟩
  | 99 => ⟨S1x2x1x2, .f32⟩
  | 100 => ⟨S1x2x1x2, .f32⟩
  | 101 => ⟨S2x2, .f32⟩
  | 102 => ⟨S1x1x1x1, .f32⟩
  | 103 => ⟨S1x2x1x2, .f32⟩
  | 104 => ⟨S1x2x1x2, .f32⟩
  | 105 => ⟨S1x2x1x2, .f32⟩
  | 106 => ⟨S2x2, .f32⟩
  | 107 => ⟨S2x1x2x1, .f32⟩
  | 108 => ⟨S1x2x1x2, .f32⟩
  | 109 => ⟨S2x2x2x2, .f32⟩
  | 110 => ⟨S2x2x2x2, .f32⟩
  | 111 => ⟨S2x2x2x2, .f32⟩
  | 112 => ⟨S4x4, .f32⟩
  | 113 => ⟨S2x1x2x1, .f32⟩
  | 114 => ⟨S1x2x1x2, .f32⟩
  | 115 => ⟨S2x2x2x2, .f32⟩
  | 116 => ⟨S2x2x2x2, .f32⟩
  | 117 => ⟨S2x2x2x2, .f32⟩
  | 118 => ⟨S4x4, .f32⟩
  | 119 => ⟨S4x1x4x1, .f32⟩
  | 120 => ⟨S1x2x1x2, .f32⟩
  | 121 => ⟨S4x2x4x2, .f32⟩
  | 122 => ⟨S4x2x4x2, .f32⟩
  | 123 => ⟨S4x2x4x2, .f32⟩
  | 124 => ⟨S8x8, .f32⟩
  | 125 => ⟨S4x1x4x1, .f32⟩
  | 126 => ⟨S1x2x1x2, .f32⟩
  | 127 => ⟨S4x2x4x2, .f32⟩
  | _ => ⟨S4096x1024, .f32⟩

abbrev hbmTy0_9 (i : Nat) : BufTy := match i % 128 with
  | 0 => ⟨S4x2x4x2, .f32⟩
  | 1 => ⟨S4x2x4x2, .f32⟩
  | 2 => ⟨S8x8, .f32⟩
  | 3 => ⟨S8x1x8x1, .f32⟩
  | 4 => ⟨S1x2x1x2, .f32⟩
  | 5 => ⟨S8x2x8x2, .f32⟩
  | 6 => ⟨S8x2x8x2, .f32⟩
  | 7 => ⟨S8x2x8x2, .f32⟩
  | 8 => ⟨S16x16, .f32⟩
  | 9 => ⟨S8x1x8x1, .f32⟩
  | 10 => ⟨S1x2x1x2, .f32⟩
  | 11 => ⟨S8x2x8x2, .f32⟩
  | 12 => ⟨S8x2x8x2, .f32⟩
  | 13 => ⟨S8x2x8x2, .f32⟩
  | 14 => ⟨S16x16, .f32⟩
  | 15 => ⟨S16x1x16x1, .f32⟩
  | 16 => ⟨S1x2x1x2, .f32⟩
  | 17 => ⟨S16x2x16x2, .f32⟩
  | 18 => ⟨S16x2x16x2, .f32⟩
  | 19 => ⟨S16x2x16x2, .f32⟩
  | 20 => ⟨S32x32, .f32⟩
  | 21 => ⟨S16x1x16x1, .f32⟩
  | 22 => ⟨S1x2x1x2, .f32⟩
  | 23 => ⟨S16x2x16x2, .f32⟩
  | 24 => ⟨S16x2x16x2, .f32⟩
  | 25 => ⟨S16x2x16x2, .f32⟩
  | 26 => ⟨S32x32, .f32⟩
  | 27 => ⟨S32x1x32x1, .f32⟩
  | 28 => ⟨S1x2x1x2, .f32⟩
  | 29 => ⟨S32x2x32x2, .f32⟩
  | 30 => ⟨S32x2x32x2, .f32⟩
  | 31 => ⟨S32x2x32x2, .f32⟩
  | 32 => ⟨S64x64, .f32⟩
  | 33 => ⟨S32x1x32x1, .f32⟩
  | 34 => ⟨S1x2x1x2, .f32⟩
  | 35 => ⟨S32x2x32x2, .f32⟩
  | 36 => ⟨S32x2x32x2, .f32⟩
  | 37 => ⟨S32x2x32x2, .f32⟩
  | 38 => ⟨S64x64, .f32⟩
  | 39 => ⟨S64x1x64x1, .f32⟩
  | 40 => ⟨S1x2x1x2, .f32⟩
  | 41 => ⟨S64x2x64x2, .f32⟩
  | 42 => ⟨S64x2x64x2, .f32⟩
  | 43 => ⟨S64x2x64x2, .f32⟩
  | 44 => ⟨S128x128, .f32⟩
  | 45 => ⟨S64x1x64x1, .f32⟩
  | 46 => ⟨S1x2x1x2, .f32⟩
  | 47 => ⟨S64x2x64x2, .f32⟩
  | 48 => ⟨S64x2x64x2, .f32⟩
  | 49 => ⟨S64x2x64x2, .f32⟩
  | 50 => ⟨S128x128, .f32⟩
  | 51 => ⟨S128x1x128x1, .f32⟩
  | 52 => ⟨S1x2x1x2, .f32⟩
  | 53 => ⟨S128x2x128x2, .f32⟩
  | 54 => ⟨S128x2x128x2, .f32⟩
  | 55 => ⟨S128x2x128x2, .f32⟩
  | 56 => ⟨S256x256, .f32⟩
  | 57 => ⟨S128x1x128x1, .f32⟩
  | 58 => ⟨S1x2x1x2, .f32⟩
  | 59 => ⟨S128x2x128x2, .f32⟩
  | 60 => ⟨S128x2x128x2, .f32⟩
  | 61 => ⟨S128x2x128x2, .f32⟩
  | 62 => ⟨S256x256, .f32⟩
  | 63 => ⟨S256x1x256x1, .f32⟩
  | 64 => ⟨S1x2x1x2, .f32⟩
  | 65 => ⟨S256x2x256x2, .f32⟩
  | 66 => ⟨S256x2x256x2, .f32⟩
  | 67 => ⟨S256x2x256x2, .f32⟩
  | 68 => ⟨S512x512, .f32⟩
  | 69 => ⟨S256x1x256x1, .f32⟩
  | 70 => ⟨S1x2x1x2, .f32⟩
  | 71 => ⟨S256x2x256x2, .f32⟩
  | 72 => ⟨S256x2x256x2, .f32⟩
  | 73 => ⟨S256x2x256x2, .f32⟩
  | 74 => ⟨S512x512, .f32⟩
  | 75 => ⟨S512x1x512x1, .f32⟩
  | 76 => ⟨S1x2x1x2, .f32⟩
  | 77 => ⟨S512x2x512x2, .f32⟩
  | 78 => ⟨S512x2x512x2, .f32⟩
  | 79 => ⟨S512x2x512x2, .f32⟩
  | 80 => ⟨S1024x1024, .f32⟩
  | 81 => ⟨S512x1x512x1, .f32⟩
  | 82 => ⟨S1x2x1x2, .f32⟩
  | 83 => ⟨S512x2x512x2, .f32⟩
  | 84 => ⟨S512x2x512x2, .f32⟩
  | 85 => ⟨S512x2x512x2, .f32⟩
  | 86 => ⟨S1024x1024, .f32⟩
  | 87 => ⟨S1024x1x1024x1, .f32⟩
  | 88 => ⟨S1x2x1x2, .f32⟩
  | 89 => ⟨S1024x2x1024x2, .f32⟩
  | 90 => ⟨S1024x2x1024x2, .f32⟩
  | 91 => ⟨S1024x2x1024x2, .f32⟩
  | 92 => ⟨S2048x2048, .f32⟩
  | 93 => ⟨S1024x1x1024x1, .f32⟩
  | 94 => ⟨S1x2x1x2, .f32⟩
  | 95 => ⟨S1024x2x1024x2, .f32⟩
  | 96 => ⟨S1024x2x1024x2, .f32⟩
  | 97 => ⟨S1024x2x1024x2, .f32⟩
  | 98 => ⟨S2048x2048, .f32⟩
  | 99 => ⟨S2048x1x2048x1, .f32⟩
  | 100 => ⟨S1x2x1x2, .f32⟩
  | 101 => ⟨S2048x2x2048x2, .f32⟩
  | 102 => ⟨S2048x2x2048x2, .f32⟩
  | 103 => ⟨S2048x2x2048x2, .f32⟩
  | 104 => ⟨S4096x4096, .f32⟩
  | 105 => ⟨S2048x1x2048x1, .f32⟩
  | 106 => ⟨S1x2x1x2, .f32⟩
  | 107 => ⟨S2048x2x2048x2, .f32⟩
  | 108 => ⟨S2048x2x2048x2, .f32⟩
  | 109 => ⟨S2048x2x2048x2, .f32⟩
  | 110 => ⟨S4096x4096, .f32⟩
  | 111 => ⟨S4096x4096, .f32⟩
  | 112 => ⟨S4096x4096, .f32⟩
  | 113 => ⟨S2x2, .i32⟩
  | 114 => ⟨S2x2, .i32⟩
  | 115 => ⟨S_, .i32⟩
  | 116 => ⟨S2x2, .i32⟩
  | 117 => ⟨S2x2, .i32⟩
  | 118 => ⟨S2x2, .i1⟩
  | 119 => ⟨S2x2, .f32⟩
  | 120 => ⟨S1x1x1x1, .f32⟩
  | 121 => ⟨S1x2x1x2, .f32⟩
  | 122 => ⟨S1x2x1x2, .f32⟩
  | 123 => ⟨S1x2x1x2, .f32⟩
  | 124 => ⟨S2x2, .f32⟩
  | 125 => ⟨S1x1x1x1, .f32⟩
  | 126 => ⟨S1x2x1x2, .f32⟩
  | 127 => ⟨S1x2x1x2, .f32⟩
  | _ => ⟨S4096x1024, .f32⟩

abbrev hbmTy0_10 (i : Nat) : BufTy := match i % 128 with
  | 0 => ⟨S1x2x1x2, .f32⟩
  | 1 => ⟨S2x2, .f32⟩
  | 2 => ⟨S2x1x2x1, .f32⟩
  | 3 => ⟨S1x2x1x2, .f32⟩
  | 4 => ⟨S2x2x2x2, .f32⟩
  | 5 => ⟨S2x2x2x2, .f32⟩
  | 6 => ⟨S2x2x2x2, .f32⟩
  | 7 => ⟨S4x4, .f32⟩
  | 8 => ⟨S2x1x2x1, .f32⟩
  | 9 => ⟨S1x2x1x2, .f32⟩
  | 10 => ⟨S2x2x2x2, .f32⟩
  | 11 => ⟨S2x2x2x2, .f32⟩
  | 12 => ⟨S2x2x2x2, .f32⟩
  | 13 => ⟨S4x4, .f32⟩
  | 14 => ⟨S4x1x4x1, .f32⟩
  | 15 => ⟨S1x2x1x2, .f32⟩
  | 16 => ⟨S4x2x4x2, .f32⟩
  | 17 => ⟨S4x2x4x2, .f32⟩
  | 18 => ⟨S4x2x4x2, .f32⟩
  | 19 => ⟨S8x8, .f32⟩
  | 20 => ⟨S4x1x4x1, .f32⟩
  | 21 => ⟨S1x2x1x2, .f32⟩
  | 22 => ⟨S4x2x4x2, .f32⟩
  | 23 => ⟨S4x2x4x2, .f32⟩
  | 24 => ⟨S4x2x4x2, .f32⟩
  | 25 => ⟨S8x8, .f32⟩
  | 26 => ⟨S8x1x8x1, .f32⟩
  | 27 => ⟨S1x2x1x2, .f32⟩
  | 28 => ⟨S8x2x8x2, .f32⟩
  | 29 => ⟨S8x2x8x2, .f32⟩
  | 30 => ⟨S8x2x8x2, .f32⟩
  | 31 => ⟨S16x16, .f32⟩
  | 32 => ⟨S8x1x8x1, .f32⟩
  | 33 => ⟨S1x2x1x2, .f32⟩
  | 34 => ⟨S8x2x8x2, .f32⟩
  | 35 => ⟨S8x2x8x2, .f32⟩
  | 36 => ⟨S8x2x8x2, .f32⟩
  | 37 => ⟨S16x16, .f32⟩
  | 38 => ⟨S16x1x16x1, .f32⟩
  | 39 => ⟨S1x2x1x2, .f32⟩
  | 40 => ⟨S16x2x16x2, .f32⟩
  | 41 => ⟨S16x2x16x2, .f32⟩
  | 42 => ⟨S16x2x16x2, .f32⟩
  | 43 => ⟨S32x32, .f32⟩
  | 44 => ⟨S16x1x16x1, .f32⟩
  | 45 => ⟨S1x2x1x2, .f32⟩
  | 46 => ⟨S16x2x16x2, .f32⟩
  | 47 => ⟨S16x2x16x2, .f32⟩
  | 48 => ⟨S16x2x16x2, .f32⟩
  | 49 => ⟨S32x32, .f32⟩
  | 50 => ⟨S32x1x32x1, .f32⟩
  | 51 => ⟨S1x2x1x2, .f32⟩
  | 52 => ⟨S32x2x32x2, .f32⟩
  | 53 => ⟨S32x2x32x2, .f32⟩
  | 54 => ⟨S32x2x32x2, .f32⟩
  | 55 => ⟨S64x64, .f32⟩
  | 56 => ⟨S32x1x32x1, .f32⟩
  | 57 => ⟨S1x2x1x2, .f32⟩
  | 58 => ⟨S32x2x32x2, .f32⟩
  | 59 => ⟨S32x2x32x2, .f32⟩
  | 60 => ⟨S32x2x32x2, .f32⟩
  | 61 => ⟨S64x64, .f32⟩
  | 62 => ⟨S64x1x64x1, .f32⟩
  | 63 => ⟨S1x2x1x2, .f32⟩
  | 64 => ⟨S64x2x64x2, .f32⟩
  | 65 => ⟨S64x2x64x2, .f32⟩
  | 66 => ⟨S64x2x64x2, .f32⟩
  | 67 => ⟨S128x128, .f32⟩
  | 68 => ⟨S64x1x64x1, .f32⟩
  | 69 => ⟨S1x2x1x2, .f32⟩
  | 70 => ⟨S64x2x64x2, .f32⟩
  | 71 => ⟨S64x2x64x2, .f32⟩
  | 72 => ⟨S64x2x64x2, .f32⟩
  | 73 => ⟨S128x128, .f32⟩
  | 74 => ⟨S128x1x128x1, .f32⟩
  | 75 => ⟨S1x2x1x2, .f32⟩
  | 76 => ⟨S128x2x128x2, .f32⟩
  | 77 => ⟨S128x2x128x2, .f32⟩
  | 78 => ⟨S128x2x128x2, .f32⟩
  | 79 => ⟨S256x256, .f32⟩
  | 80 => ⟨S128x1x128x1, .f32⟩
  | 81 => ⟨S1x2x1x2, .f32⟩
  | 82 => ⟨S128x2x128x2, .f32⟩
  | 83 => ⟨S128x2x128x2, .f32⟩
  | 84 => ⟨S128x2x128x2, .f32⟩
  | 85 => ⟨S256x256, .f32⟩
  | 86 => ⟨S256x1x256x1, .f32⟩
  | 87 => ⟨S1x2x1x2, .f32⟩
  | 88 => ⟨S256x2x256x2, .f32⟩
  | 89 => ⟨S256x2x256x2, .f32⟩
  | 90 => ⟨S256x2x256x2, .f32⟩
  | 91 => ⟨S512x512, .f32⟩
  | 92 => ⟨S256x1x256x1, .f32⟩
  | 93 => ⟨S1x2x1x2, .f32⟩
  | 94 => ⟨S256x2x256x2, .f32⟩
  | 95 => ⟨S256x2x256x2, .f32⟩
  | 96 => ⟨S256x2x256x2, .f32⟩
  | 97 => ⟨S512x512, .f32⟩
  | 98 => ⟨S512x1x512x1, .f32⟩
  | 99 => ⟨S1x2x1x2, .f32⟩
  | 100 => ⟨S512x2x512x2, .f32⟩
  | 101 => ⟨S512x2x512x2, .f32⟩
  | 102 => ⟨S512x2x512x2, .f32⟩
  | 103 => ⟨S1024x1024, .f32⟩
  | 104 => ⟨S512x1x512x1, .f32⟩
  | 105 => ⟨S1x2x1x2, .f32⟩
  | 106 => ⟨S512x2x512x2, .f32⟩
  | 107 => ⟨S512x2x512x2, .f32⟩
  | 108 => ⟨S512x2x512x2, .f32⟩
  | 109 => ⟨S1024x1024, .f32⟩
  | 110 => ⟨S1024x1x1024x1, .f32⟩
  | 111 => ⟨S1x2x1x2, .f32⟩
  | 112 => ⟨S1024x2x1024x2, .f32⟩
  | 113 => ⟨S1024x2x1024x2, .f32⟩
  | 114 => ⟨S1024x2x1024x2, .f32⟩
  | 115 => ⟨S2048x2048, .f32⟩
  | 116 => ⟨S1024x1x1024x1, .f32⟩
  | 117 => ⟨S1x2x1x2, .f32⟩
  | 118 => ⟨S1024x2x1024x2, .f32⟩
  | 119 => ⟨S1024x2x1024x2, .f32⟩
  | 120 => ⟨S1024x2x1024x2, .f32⟩
  | 121 => ⟨S2048x2048, .f32⟩
  | 122 => ⟨S2048x1x2048x1, .f32⟩
  | 123 => ⟨S1x2x1x2, .f32⟩
  | 124 => ⟨S2048x2x2048x2, .f32⟩
  | 125 => ⟨S2048x2x2048x2, .f32⟩
  | 126 => ⟨S2048x2x2048x2, .f32⟩
  | 127 => ⟨S4096x4096, .f32⟩
  | _ => ⟨S4096x1024, .f32⟩

abbrev hbmTy0_11 (i : Nat) : BufTy := match i % 128 with
  | 0 => ⟨S2048x1x2048x1, .f32⟩
  | 1 => ⟨S1x2x1x2, .f32⟩
  | 2 => ⟨S2048x2x2048x2, .f32⟩
  | 3 => ⟨S2048x2x2048x2, .f32⟩
  | 4 => ⟨S2048x2x2048x2, .f32⟩
  | 5 => ⟨S4096x4096, .f32⟩
  | 6 => ⟨S4096x4096, .f32⟩
  | 7 => ⟨S4096x4096, .f32⟩
  | 8 => ⟨S2x2, .i32⟩
  | 9 => ⟨S2x2, .i32⟩
  | 10 => ⟨S_, .i32⟩
  | 11 => ⟨S2x2, .i32⟩
  | 12 => ⟨S2x2, .i32⟩
  | 13 => ⟨S2x2, .i1⟩
  | 14 => ⟨S2x2, .f32⟩
  | 15 => ⟨S1x1x1x1, .f32⟩
  | 16 => ⟨S1x2x1x2, .f32⟩
  | 17 => ⟨S1x2x1x2, .f32⟩
  | 18 => ⟨S1x2x1x2, .f32⟩
  | 19 => ⟨S2x2, .f32⟩
  | 20 => ⟨S1x1x1x1, .f32⟩
  | 21 => ⟨S1x2x1x2, .f32⟩
  | 22 => ⟨S1x2x1x2, .f32⟩
  | 23 => ⟨S1x2x1x2, .f32⟩
  | 24 => ⟨S2x2, .f32⟩
  | 25 => ⟨S2x1x2x1, .f32⟩
  | 26 => ⟨S1x2x1x2, .f32⟩
  | 27 => ⟨S2x2x2x2, .f32⟩
  | 28 => ⟨S2x2x2x2, .f32⟩
  | 29 => ⟨S2x2x2x2, .f32⟩
  | 30 => ⟨S4x4, .f32⟩
  | 31 => ⟨S2x1x2x1, .f32⟩
  | 32 => ⟨S1x2x1x2, .f32⟩
  | 33 => ⟨S2x2x2x2, .f32⟩
  | 34 => ⟨S2x2x2x2, .f32⟩
  | 35 => ⟨S2x2x2x2, .f32⟩
  | 36 => ⟨S4x4, .f32⟩
  | 37 => ⟨S4x1x4x1, .f32⟩
  | 38 => ⟨S1x2x1x2, .f32⟩
  | 39 => ⟨S4x2x4x2, .f32⟩
  | 40 => ⟨S4x2x4x2, .f32⟩
  | 41 => ⟨S4x2x4x2, .f32⟩
  | 42 => ⟨S8x8, .f32⟩
  | 43 => ⟨S4x1x4x1, .f32⟩
  | 44 => ⟨S1x2x1x2, .f32⟩
  | 45 => ⟨S4x2x4x2, .f32⟩
  | 46 => ⟨S4x2x4x2, .f32⟩
  | 47 => ⟨S4x2x4x2, .f32⟩
  | 48 => ⟨S8x8, .f32⟩
  | 49 => ⟨S8x1x8x1, .f32⟩
  | 50 => ⟨S1x2x1x2, .f32⟩
  | 51 => ⟨S8x2x8x2, .f32⟩
  | 52 => ⟨S8x2x8x2, .f32⟩
  | 53 => ⟨S8x2x8x2, .f32⟩
  | 54 => ⟨S16x16, .f32⟩
  | 55 => ⟨S8x1x8x1, .f32⟩
  | 56 => ⟨S1x2x1x2, .f32⟩
  | 57 => ⟨S8x2x8x2, .f32⟩
  | 58 => ⟨S8x2x8x2, .f32⟩
  | 59 => ⟨S8x2x8x2, .f32⟩
  | 60 => ⟨S16x16, .f32⟩
  | 61 => ⟨S16x1x16x1, .f32⟩
  | 62 => ⟨S1x2x1x2, .f32⟩
  | 63 => ⟨S16x2x16x2, .f32⟩
  | 64 => ⟨S16x2x16x2, .f32⟩
  | 65 => ⟨S16x2x16x2, .f32⟩
  | 66 => ⟨S32x32, .f32⟩
  | 67 => ⟨S16x1x16x1, .f32⟩
  | 68 => ⟨S1x2x1x2, .f32⟩
  | 69 => ⟨S16x2x16x2, .f32⟩
  | 70 => ⟨S16x2x16x2, .f32⟩
  | 71 => ⟨S16x2x16x2, .f32⟩
  | 72 => ⟨S32x32, .f32⟩
  | 73 => ⟨S32x1x32x1, .f32⟩
  | 74 => ⟨S1x2x1x2, .f32⟩
  | 75 => ⟨S32x2x32x2, .f32⟩
  | 76 => ⟨S32x2x32x2, .f32⟩
  | 77 => ⟨S32x2x32x2, .f32⟩
  | 78 => ⟨S64x64, .f32⟩
  | 79 => ⟨S32x1x32x1, .f32⟩
  | 80 => ⟨S1x2x1x2, .f32⟩
  | 81 => ⟨S32x2x32x2, .f32⟩
  | 82 => ⟨S32x2x32x2, .f32⟩
  | 83 => ⟨S32x2x32x2, .f32⟩
  | 84 => ⟨S64x64, .f32⟩
  | 85 => ⟨S64x1x64x1, .f32⟩
  | 86 => ⟨S1x2x1x2, .f32⟩
  | 87 => ⟨S64x2x64x2, .f32⟩
  | 88 => ⟨S64x2x64x2, .f32⟩
  | 89 => ⟨S64x2x64x2, .f32⟩
  | 90 => ⟨S128x128, .f32⟩
  | 91 => ⟨S64x1x64x1, .f32⟩
  | 92 => ⟨S1x2x1x2, .f32⟩
  | 93 => ⟨S64x2x64x2, .f32⟩
  | 94 => ⟨S64x2x64x2, .f32⟩
  | 95 => ⟨S64x2x64x2, .f32⟩
  | 96 => ⟨S128x128, .f32⟩
  | 97 => ⟨S128x1x128x1, .f32⟩
  | 98 => ⟨S1x2x1x2, .f32⟩
  | 99 => ⟨S128x2x128x2, .f32⟩
  | 100 => ⟨S128x2x128x2, .f32⟩
  | 101 => ⟨S128x2x128x2, .f32⟩
  | 102 => ⟨S256x256, .f32⟩
  | 103 => ⟨S128x1x128x1, .f32⟩
  | 104 => ⟨S1x2x1x2, .f32⟩
  | 105 => ⟨S128x2x128x2, .f32⟩
  | 106 => ⟨S128x2x128x2, .f32⟩
  | 107 => ⟨S128x2x128x2, .f32⟩
  | 108 => ⟨S256x256, .f32⟩
  | 109 => ⟨S256x1x256x1, .f32⟩
  | 110 => ⟨S1x2x1x2, .f32⟩
  | 111 => ⟨S256x2x256x2, .f32⟩
  | 112 => ⟨S256x2x256x2, .f32⟩
  | 113 => ⟨S256x2x256x2, .f32⟩
  | 114 => ⟨S512x512, .f32⟩
  | 115 => ⟨S256x1x256x1, .f32⟩
  | 116 => ⟨S1x2x1x2, .f32⟩
  | 117 => ⟨S256x2x256x2, .f32⟩
  | 118 => ⟨S256x2x256x2, .f32⟩
  | 119 => ⟨S256x2x256x2, .f32⟩
  | 120 => ⟨S512x512, .f32⟩
  | 121 => ⟨S512x1x512x1, .f32⟩
  | 122 => ⟨S1x2x1x2, .f32⟩
  | 123 => ⟨S512x2x512x2, .f32⟩
  | 124 => ⟨S512x2x512x2, .f32⟩
  | 125 => ⟨S512x2x512x2, .f32⟩
  | 126 => ⟨S1024x1024, .f32⟩
  | 127 => ⟨S512x1x512x1, .f32⟩
  | _ => ⟨S4096x1024, .f32⟩

abbrev hbmTy0_12 (i : Nat) : BufTy := match i % 128 with
  | 0 => ⟨S1x2x1x2, .f32⟩
  | 1 => ⟨S512x2x512x2, .f32⟩
  | 2 => ⟨S512x2x512x2, .f32⟩
  | 3 => ⟨S512x2x512x2, .f32⟩
  | 4 => ⟨S1024x1024, .f32⟩
  | 5 => ⟨S1024x1x1024x1, .f32⟩
  | 6 => ⟨S1x2x1x2, .f32⟩
  | 7 => ⟨S1024x2x1024x2, .f32⟩
  | 8 => ⟨S1024x2x1024x2, .f32⟩
  | 9 => ⟨S1024x2x1024x2, .f32⟩
  | 10 => ⟨S2048x2048, .f32⟩
  | 11 => ⟨S1024x1x1024x1, .f32⟩
  | 12 => ⟨S1x2x1x2, .f32⟩
  | 13 => ⟨S1024x2x1024x2, .f32⟩
  | 14 => ⟨S1024x2x1024x2, .f32⟩
  | 15 => ⟨S1024x2x1024x2, .f32⟩
  | 16 => ⟨S2048x2048, .f32⟩
  | 17 => ⟨S2048x1x2048x1, .f32⟩
  | 18 => ⟨S1x2x1x2, .f32⟩
  | 19 => ⟨S2048x2x2048x2, .f32⟩
  | 20 => ⟨S2048x2x2048x2, .f32⟩
  | 21 => ⟨S2048x2x2048x2, .f32⟩
  | 22 => ⟨S4096x4096, .f32⟩
  | 23 => ⟨S2048x1x2048x1, .f32⟩
  | 24 => ⟨S1x2x1x2, .f32⟩
  | 25 => ⟨S2048x2x2048x2, .f32⟩
  | 26 => ⟨S2048x2x2048x2, .f32⟩
  | 27 => ⟨S2048x2x2048x2, .f32⟩
  | 28 => ⟨S4096x4096, .f32⟩
  | 29 => ⟨S4096x4096, .f32⟩
  | 30 => ⟨S4096x4096, .f32⟩
  | 31 => ⟨S2x2, .i32⟩
  | 32 => ⟨S2x2, .i32⟩
  | 33 => ⟨S_, .i32⟩
  | 34 => ⟨S2x2, .i32⟩
  | 35 => ⟨S2x2, .i32⟩
  | 36 => ⟨S2x2, .i1⟩
  | 37 => ⟨S2x2, .f32⟩
  | 38 => ⟨S1x1x1x1, .f32⟩
  | 39 => ⟨S1x2x1x2, .f32⟩
  | 40 => ⟨S1x2x1x2, .f32⟩
  | 41 => ⟨S1x2x1x2, .f32⟩
  | 42 => ⟨S2x2, .f32⟩
  | 43 => ⟨S1x1x1x1, .f32⟩
  | 44 => ⟨S1x2x1x2, .f32⟩
  | 45 => ⟨S1x2x1x2, .f32⟩
  | 46 => ⟨S1x2x1x2, .f32⟩
  | 47 => ⟨S2x2, .f32⟩
  | 48 => ⟨S2x1x2x1, .f32⟩
  | 49 => ⟨S1x2x1x2, .f32⟩
  | 50 => ⟨S2x2x2x2, .f32⟩
  | 51 => ⟨S2x2x2x2, .f32⟩
  | 52 => ⟨S2x2x2x2, .f32⟩
  | 53 => ⟨S4x4, .f32⟩
  | 54 => ⟨S2x1x2x1, .f32⟩
  | 55 => ⟨S1x2x1x2, .f32⟩
  | 56 => ⟨S2x2x2x2, .f32⟩
  | 57 => ⟨S2x2x2x2, .f32⟩
  | 58 => ⟨S2x2x2x2, .f32⟩
  | 59 => ⟨S4x4, .f32⟩
  | 60 => ⟨S4x1x4x1, .f32⟩
  | 61 => ⟨S1x2x1x2, .f32⟩
  | 62 => ⟨S4x2x4x2, .f32⟩
  | 63 => ⟨S4x2x4x2, .f32⟩
  | 64 => ⟨S4x2x4x2, .f32⟩
  | 65 => ⟨S8x8, .f32⟩
  | 66 => ⟨S4x1x4x1, .f32⟩
  | 67 => ⟨S1x2x1x2, .f32⟩
  | 68 => ⟨S4x2x4x2, .f32⟩
  | 69 => ⟨S4x2x4x2, .f32⟩
  | 70 => ⟨S4x2x4x2, .f32⟩
  | 71 => ⟨S8x8, .f32⟩
  | 72 => ⟨S8x1x8x1, .f32⟩
  | 73 => ⟨S1x2x1x2, .f32⟩
  | 74 => ⟨S8x2x8x2, .f32⟩
  | 75 => ⟨S8x2x8x2, .f32⟩
  | 76 => ⟨S8x2x8x2, .f32⟩
  | 77 => ⟨S16x16, .f32⟩
  | 78 => ⟨S8x1x8x1, .f32⟩
  | 79 => ⟨S1x2x1x2, .f32⟩
  | 80 => ⟨S8x2x8x2, .f32⟩
  | 81 => ⟨S8x2x8x2, .f32⟩
  | 82 => ⟨S8x2x8x2, .f32⟩
  | 83 => ⟨S16x16, .f32⟩
  | 84 => ⟨S16x1x16x1, .f32⟩
  | 85 => ⟨S1x2x1x2, .f32⟩
  | 86 => ⟨S16x2x16x2, .f32⟩
  | 87 => ⟨S16x2x16x2, .f32⟩
  | 88 => ⟨S16x2x16x2, .f32⟩
  | 89 => ⟨S32x32, .f32⟩
  | 90 => ⟨S16x1x16x1, .f32⟩
  | 91 => ⟨S1x2x1x2, .f32⟩
  | 92 => ⟨S16x2x16x2, .f32⟩
  | 93 => ⟨S16x2x16x2, .f32⟩
  | 94 => ⟨S16x2x16x2, .f32⟩
  | 95 => ⟨S32x32, .f32⟩
  | 96 => ⟨S32x1x32x1, .f32⟩
  | 97 => ⟨S1x2x1x2, .f32⟩
  | 98 => ⟨S32x2x32x2, .f32⟩
  | 99 => ⟨S32x2x32x2, .f32⟩
  | 100 => ⟨S32x2x32x2, .f32⟩
  | 101 => ⟨S64x64, .f32⟩
  | 102 => ⟨S32x1x32x1, .f32⟩
  | 103 => ⟨S1x2x1x2, .f32⟩
  | 104 => ⟨S32x2x32x2, .f32⟩
  | 105 => ⟨S32x2x32x2, .f32⟩
  | 106 => ⟨S32x2x32x2, .f32⟩
  | 107 => ⟨S64x64, .f32⟩
  | 108 => ⟨S64x1x64x1, .f32⟩
  | 109 => ⟨S1x2x1x2, .f32⟩
  | 110 => ⟨S64x2x64x2, .f32⟩
  | 111 => ⟨S64x2x64x2, .f32⟩
  | 112 => ⟨S64x2x64x2, .f32⟩
  | 113 => ⟨S128x128, .f32⟩
  | 114 => ⟨S64x1x64x1, .f32⟩
  | 115 => ⟨S1x2x1x2, .f32⟩
  | 116 => ⟨S64x2x64x2, .f32⟩
  | 117 => ⟨S64x2x64x2, .f32⟩
  | 118 => ⟨S64x2x64x2, .f32⟩
  | 119 => ⟨S128x128, .f32⟩
  | 120 => ⟨S128x1x128x1, .f32⟩
  | 121 => ⟨S1x2x1x2, .f32⟩
  | 122 => ⟨S128x2x128x2, .f32⟩
  | 123 => ⟨S128x2x128x2, .f32⟩
  | 124 => ⟨S128x2x128x2, .f32⟩
  | 125 => ⟨S256x256, .f32⟩
  | 126 => ⟨S128x1x128x1, .f32⟩
  | 127 => ⟨S1x2x1x2, .f32⟩
  | _ => ⟨S4096x1024, .f32⟩

abbrev hbmTy0_13 (i : Nat) : BufTy := match i % 128 with
  | 0 => ⟨S128x2x128x2, .f32⟩
  | 1 => ⟨S128x2x128x2, .f32⟩
  | 2 => ⟨S128x2x128x2, .f32⟩
  | 3 => ⟨S256x256, .f32⟩
  | 4 => ⟨S256x1x256x1, .f32⟩
  | 5 => ⟨S1x2x1x2, .f32⟩
  | 6 => ⟨S256x2x256x2, .f32⟩
  | 7 => ⟨S256x2x256x2, .f32⟩
  | 8 => ⟨S256x2x256x2, .f32⟩
  | 9 => ⟨S512x512, .f32⟩
  | 10 => ⟨S256x1x256x1, .f32⟩
  | 11 => ⟨S1x2x1x2, .f32⟩
  | 12 => ⟨S256x2x256x2, .f32⟩
  | 13 => ⟨S256x2x256x2, .f32⟩
  | 14 => ⟨S256x2x256x2, .f32⟩
  | 15 => ⟨S512x512, .f32⟩
  | 16 => ⟨S512x1x512x1, .f32⟩
  | 17 => ⟨S1x2x1x2, .f32⟩
  | 18 => ⟨S512x2x512x2, .f32⟩
  | 19 => ⟨S512x2x512x2, .f32⟩
  | 20 => ⟨S512x2x512x2, .f32⟩
  | 21 => ⟨S1024x1024, .f32⟩
  | 22 => ⟨S512x1x512x1, .f32⟩
  | 23 => ⟨S1x2x1x2, .f32⟩
  | 24 => ⟨S512x2x512x2, .f32⟩
  | 25 => ⟨S512x2x512x2, .f32⟩
  | 26 => ⟨S512x2x512x2, .f32⟩
  | 27 => ⟨S1024x1024, .f32⟩
  | 28 => ⟨S1024x1x1024x1, .f32⟩
  | 29 => ⟨S1x2x1x2, .f32⟩
  | 30 => ⟨S1024x2x1024x2, .f32⟩
  | 31 => ⟨S1024x2x1024x2, .f32⟩
  | 32 => ⟨S1024x2x1024x2, .f32⟩
  | 33 => ⟨S2048x2048, .f32⟩
  | 34 => ⟨S1024x1x1024x1, .f32⟩
  | 35 => ⟨S1x2x1x2, .f32⟩
  | 36 => ⟨S1024x2x1024x2, .f32⟩
  | 37 => ⟨S1024x2x1024x2, .f32⟩
  | 38 => ⟨S1024x2x1024x2, .f32⟩
  | 39 => ⟨S2048x2048, .f32⟩
  | 40 => ⟨S2048x1x2048x1, .f32⟩
  | 41 => ⟨S1x2x1x2, .f32⟩
  | 42 => ⟨S2048x2x2048x2, .f32⟩
  | 43 => ⟨S2048x2x2048x2, .f32⟩
  | 44 => ⟨S2048x2x2048x2, .f32⟩
  | 45 => ⟨S4096x4096, .f32⟩
  | 46 => ⟨S2048x1x2048x1, .f32⟩
  | 47 => ⟨S1x2x1x2, .f32⟩
  | 48 => ⟨S2048x2x2048x2, .f32⟩
  | 49 => ⟨S2048x2x2048x2, .f32⟩
  | 50 => ⟨S2048x2x2048x2, .f32⟩
  | 51 => ⟨S4096x4096, .f32⟩
  | 52 => ⟨S4096x4096, .f32⟩
  | 53 => ⟨S4096x4096, .f32⟩
  | 54 => ⟨S2x2, .i32⟩
  | 55 => ⟨S2x2, .i32⟩
  | 56 => ⟨S_, .i32⟩
  | 57 => ⟨S2x2, .i32⟩
  | 58 => ⟨S2x2, .i32⟩
  | 59 => ⟨S2x2, .i1⟩
  | 60 => ⟨S2x2, .f32⟩
  | 61 => ⟨S1x1x1x1, .f32⟩
  | 62 => ⟨S1x2x1x2, .f32⟩
  | 63 => ⟨S1x2x1x2, .f32⟩
  | 64 => ⟨S1x2x1x2, .f32⟩
  | 65 => ⟨S2x2, .f32⟩
  | 66 => ⟨S1x1x1x1, .f32⟩
  | 67 => ⟨S1x2x1x2, .f32⟩
  | 68 => ⟨S1x2x1x2, .f32⟩
  | 69 => ⟨S1x2x1x2, .f32⟩
  | 70 => ⟨S2x2, .f32⟩
  | 71 => ⟨S2x1x2x1, .f32⟩
  | 72 => ⟨S1x2x1x2, .f32⟩
  | 73 => ⟨S2x2x2x2, .f32⟩
  | 74 => ⟨S2x2x2x2, .f32⟩
  | 75 => ⟨S2x2x2x2, .f32⟩
  | 76 => ⟨S4x4, .f32⟩
  | 77 => ⟨S2x1x2x1, .f32⟩
  | 78 => ⟨S1x2x1x2, .f32⟩
  | 79 => ⟨S2x2x2x2, .f32⟩
  | 80 => ⟨S2x2x2x2, .f32⟩
  | 81 => ⟨S2x2x2x2, .f32⟩
  | 82 => ⟨S4x4, .f32⟩
  | 83 => ⟨S4x1x4x1, .f32⟩
  | 84 => ⟨S1x2x1x2, .f32⟩
  | 85 => ⟨S4x2x4x2, .f32⟩
  | 86 => ⟨S4x2x4x2, .f32⟩
  | 87 => ⟨S4x2x4x2, .f32⟩
  | 88 => ⟨S8x8, .f32⟩
  | 89 => ⟨S4x1x4x1, .f32⟩
  | 90 => ⟨S1x2x1x2, .f32⟩
  | 91 => ⟨S4x2x4x2, .f32⟩
  | 92 => ⟨S4x2x4x2, .f32⟩
  | 93 => ⟨S4x2x4x2, .f32⟩
  | 94 => ⟨S8x8, .f32⟩
  | 95 => ⟨S8x1x8x1, .f32⟩
  | 96 => ⟨S1x2x1x2, .f32⟩
  | 97 => ⟨S8x2x8x2, .f32⟩
  | 98 => ⟨S8x2x8x2, .f32⟩
  | 99 => ⟨S8x2x8x2, .f32⟩
  | 100 => ⟨S16x16, .f32⟩
  | 101 => ⟨S8x1x8x1, .f32⟩
  | 102 => ⟨S1x2x1x2, .f32⟩
  | 103 => ⟨S8x2x8x2, .f32⟩
  | 104 => ⟨S8x2x8x2, .f32⟩
  | 105 => ⟨S8x2x8x2, .f32⟩
  | 106 => ⟨S16x16, .f32⟩
  | 107 => ⟨S16x1x16x1, .f32⟩
  | 108 => ⟨S1x2x1x2, .f32⟩
  | 109 => ⟨S16x2x16x2, .f32⟩
  | 110 => ⟨S16x2x16x2, .f32⟩
  | 111 => ⟨S16x2x16x2, .f32⟩
  | 112 => ⟨S32x32, .f32⟩
  | 113 => ⟨S16x1x16x1, .f32⟩
  | 114 => ⟨S1x2x1x2, .f32⟩
  | 115 => ⟨S16x2x16x2, .f32⟩
  | 116 => ⟨S16x2x16x2, .f32⟩
  | 117 => ⟨S16x2x16x2, .f32⟩
  | 118 => ⟨S32x32, .f32⟩
  | 119 => ⟨S32x1x32x1, .f32⟩
  | 120 => ⟨S1x2x1x2, .f32⟩
  | 121 => ⟨S32x2x32x2, .f32⟩
  | 122 => ⟨S32x2x32x2, .f32⟩
  | 123 => ⟨S32x2x32x2, .f32⟩
  | 124 => ⟨S64x64, .f32⟩
  | 125 => ⟨S32x1x32x1, .f32⟩
  | 126 => ⟨S1x2x1x2, .f32⟩
  | 127 => ⟨S32x2x32x2, .f32⟩
  | _ => ⟨S4096x1024, .f32⟩

abbrev hbmTy0_14 (i : Nat) : BufTy := match i % 128 with
  | 0 => ⟨S32x2x32x2, .f32⟩
  | 1 => ⟨S32x2x32x2, .f32⟩
  | 2 => ⟨S64x64, .f32⟩
  | 3 => ⟨S64x1x64x1, .f32⟩
  | 4 => ⟨S1x2x1x2, .f32⟩
  | 5 => ⟨S64x2x64x2, .f32⟩
  | 6 => ⟨S64x2x64x2, .f32⟩
  | 7 => ⟨S64x2x64x2, .f32⟩
  | 8 => ⟨S128x128, .f32⟩
  | 9 => ⟨S64x1x64x1, .f32⟩
  | 10 => ⟨S1x2x1x2, .f32⟩
  | 11 => ⟨S64x2x64x2, .f32⟩
  | 12 => ⟨S64x2x64x2, .f32⟩
  | 13 => ⟨S64x2x64x2, .f32⟩
  | 14 => ⟨S128x128, .f32⟩
  | 15 => ⟨S128x1x128x1, .f32⟩
  | 16 => ⟨S1x2x1x2, .f32⟩
  | 17 => ⟨S128x2x128x2, .f32⟩
  | 18 => ⟨S128x2x128x2, .f32⟩
  | 19 => ⟨S128x2x128x2, .f32⟩
  | 20 => ⟨S256x256, .f32⟩
  | 21 => ⟨S128x1x128x1, .f32⟩
  | 22 => ⟨S1x2x1x2, .f32⟩
  | 23 => ⟨S128x2x128x2, .f32⟩
  | 24 => ⟨S128x2x128x2, .f32⟩
  | 25 => ⟨S128x2x128x2, .f32⟩
  | 26 => ⟨S256x256, .f32⟩
  | 27 => ⟨S256x1x256x1, .f32⟩
  | 28 => ⟨S1x2x1x2, .f32⟩
  | 29 => ⟨S256x2x256x2, .f32⟩
  | 30 => ⟨S256x2x256x2, .f32⟩
  | 31 => ⟨S256x2x256x2, .f32⟩
  | 32 => ⟨S512x512, .f32⟩
  | 33 => ⟨S256x1x256x1, .f32⟩
  | 34 => ⟨S1x2x1x2, .f32⟩
  | 35 => ⟨S256x2x256x2, .f32⟩
  | 36 => ⟨S256x2x256x2, .f32⟩
  | 37 => ⟨S256x2x256x2, .f32⟩
  | 38 => ⟨S512x512, .f32⟩
  | 39 => ⟨S512x1x512x1, .f32⟩
  | 40 => ⟨S1x2x1x2, .f32⟩
  | 41 => ⟨S512x2x512x2, .f32⟩
  | 42 => ⟨S512x2x512x2, .f32⟩
  | 43 => ⟨S512x2x512x2, .f32⟩
  | 44 => ⟨S1024x1024, .f32⟩
  | 45 => ⟨S512x1x512x1, .f32⟩
  | 46 => ⟨S1x2x1x2, .f32⟩
  | 47 => ⟨S512x2x512x2, .f32⟩
  | 48 => ⟨S512x2x512x2, .f32⟩
  | 49 => ⟨S512x2x512x2, .f32⟩
  | 50 => ⟨S1024x1024, .f32⟩
  | 51 => ⟨S1024x1x1024x1, .f32⟩
  | 52 => ⟨S1x2x1x2, .f32⟩
  | 53 => ⟨S1024x2x1024x2, .f32⟩
  | 54 => ⟨S1024x2x1024x2, .f32⟩
  | 55 => ⟨S1024x2x1024x2, .f32⟩
  | 56 => ⟨S2048x2048, .f32⟩
  | 57 => ⟨S1024x1x1024x1, .f32⟩
  | 58 => ⟨S1x2x1x2, .f32⟩
  | 59 => ⟨S1024x2x1024x2, .f32⟩
  | 60 => ⟨S1024x2x1024x2, .f32⟩
  | 61 => ⟨S1024x2x1024x2, .f32⟩
  | 62 => ⟨S2048x2048, .f32⟩
  | 63 => ⟨S2048x1x2048x1, .f32⟩
  | 64 => ⟨S1x2x1x2, .f32⟩
  | 65 => ⟨S2048x2x2048x2, .f32⟩
  | 66 => ⟨S2048x2x2048x2, .f32⟩
  | 67 => ⟨S2048x2x2048x2, .f32⟩
  | 68 => ⟨S4096x4096, .f32⟩
  | 69 => ⟨S2048x1x2048x1, .f32⟩
  | 70 => ⟨S1x2x1x2, .f32⟩
  | 71 => ⟨S2048x2x2048x2, .f32⟩
  | 72 => ⟨S2048x2x2048x2, .f32⟩
  | 73 => ⟨S2048x2x2048x2, .f32⟩
  | 74 => ⟨S4096x4096, .f32⟩
  | 75 => ⟨S4096x4096, .f32⟩
  | 76 => ⟨S4096x4096, .f32⟩
  | 77 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_cst_5 : Ref sig .tc := ⟨.hbm, 7, rfl⟩
abbrev main_cst_6 : Ref sig .tc := ⟨.hbm, 8, rfl⟩
abbrev main_cst_7 : Ref sig .tc := ⟨.hbm, 9, rfl⟩
abbrev main_cst_8 : Ref sig .tc := ⟨.hbm, 10, rfl⟩
abbrev main_cst_9 : Ref sig .tc := ⟨.hbm, 11, rfl⟩
abbrev main_cst_10 : Ref sig .tc := ⟨.hbm, 12, rfl⟩
abbrev main_cst_11 : Ref sig .tc := ⟨.hbm, 13, rfl⟩
abbrev main_cst_12 : Ref sig .tc := ⟨.hbm, 14, rfl⟩
abbrev main_cst_13 : Ref sig .tc := ⟨.hbm, 15, rfl⟩
abbrev main_cst_14 : Ref sig .tc := ⟨.hbm, 16, rfl⟩
abbrev main_cst_15 : Ref sig .tc := ⟨.hbm, 17, rfl⟩
abbrev main_cst_16 : Ref sig .tc := ⟨.hbm, 18, rfl⟩
abbrev main_cst_17 : Ref sig .tc := ⟨.hbm, 19, rfl⟩
abbrev main_cst_18 : Ref sig .tc := ⟨.hbm, 20, rfl⟩
abbrev main_cst_19 : Ref sig .tc := ⟨.hbm, 21, rfl⟩
abbrev main_cst_20 : Ref sig .tc := ⟨.hbm, 22, rfl⟩
abbrev main_cst_21 : Ref sig .tc := ⟨.hbm, 23, rfl⟩
abbrev main_cst_22 : Ref sig .tc := ⟨.hbm, 24, rfl⟩
abbrev main_cst_23 : Ref sig .tc := ⟨.hbm, 25, rfl⟩
abbrev main_cst_24 : Ref sig .tc := ⟨.hbm, 26, rfl⟩
abbrev main_cst_25 : Ref sig .tc := ⟨.hbm, 27, rfl⟩
abbrev main_cst_26 : Ref sig .tc := ⟨.hbm, 28, rfl⟩
abbrev main_cst_27 : Ref sig .tc := ⟨.hbm, 29, rfl⟩
abbrev main_cst_28 : Ref sig .tc := ⟨.hbm, 30, rfl⟩
abbrev main_cst_29 : Ref sig .tc := ⟨.hbm, 31, rfl⟩
abbrev main_cst_30 : Ref sig .tc := ⟨.hbm, 32, rfl⟩
abbrev main_cst_31 : Ref sig .tc := ⟨.hbm, 33, rfl⟩
abbrev main_cst_32 : Ref sig .tc := ⟨.hbm, 34, rfl⟩
abbrev main_cst_33 : Ref sig .tc := ⟨.hbm, 35, rfl⟩
abbrev main_cst_34 : Ref sig .tc := ⟨.hbm, 36, rfl⟩
abbrev main_cst_35 : Ref sig .tc := ⟨.hbm, 37, rfl⟩
abbrev main_cst_36 : Ref sig .tc := ⟨.hbm, 38, rfl⟩
abbrev main_cst_37 : Ref sig .tc := ⟨.hbm, 39, rfl⟩
abbrev main_cst_38 : Ref sig .tc := ⟨.hbm, 40, rfl⟩
abbrev main_cst_39 : Ref sig .tc := ⟨.hbm, 41, rfl⟩
abbrev main_cst_40 : Ref sig .tc := ⟨.hbm, 42, rfl⟩
abbrev main_cst_41 : Ref sig .tc := ⟨.hbm, 43, rfl⟩
abbrev main_cst_42 : Ref sig .tc := ⟨.hbm, 44, rfl⟩
abbrev main_cst_43 : Ref sig .tc := ⟨.hbm, 45, rfl⟩
abbrev main_cst_44 : Ref sig .tc := ⟨.hbm, 46, rfl⟩
abbrev main_cst_45 : Ref sig .tc := ⟨.hbm, 47, rfl⟩
abbrev main_cst_46 : Ref sig .tc := ⟨.hbm, 48, rfl⟩
abbrev main_cst_47 : Ref sig .tc := ⟨.hbm, 49, rfl⟩
abbrev main_v0 : Ref sig .tc := ⟨.hbm, 50, rfl⟩
abbrev main_v1 : Ref sig .tc := ⟨.hbm, 51, rfl⟩
abbrev main_c : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_c_48 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_v12 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_v13 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v14 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v15 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v16 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v17 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_v18 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_v19 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_v20 : Ref sig .tc := ⟨.hbm, 115, rfl⟩
abbrev main_call9_v0 : Ref sig .tc := ⟨.hbm, 116, rfl⟩
abbrev main_call9_v1 : Ref sig .tc := ⟨.hbm, 117, rfl⟩
abbrev main_call9_v2 : Ref sig .tc := ⟨.hbm, 118, rfl⟩
abbrev main_call9_v3 : Ref sig .tc := ⟨.hbm, 119, rfl⟩
abbrev main_call9_v4 : Ref sig .tc := ⟨.hbm, 120, rfl⟩
abbrev main_v21 : Ref sig .tc := ⟨.hbm, 121, rfl⟩
abbrev main_call10_v0 : Ref sig .tc := ⟨.hbm, 122, rfl⟩
abbrev main_call10_v1 : Ref sig .tc := ⟨.hbm, 123, rfl⟩
abbrev main_call10_v2 : Ref sig .tc := ⟨.hbm, 124, rfl⟩
abbrev main_call10_v3 : Ref sig .tc := ⟨.hbm, 125, rfl⟩
abbrev main_call10_v4 : Ref sig .tc := ⟨.hbm, 126, rfl⟩
abbrev main_v22 : Ref sig .tc := ⟨.hbm, 127, rfl⟩
abbrev main_call11_v0 : Ref sig .tc := ⟨.hbm, 128, rfl⟩
abbrev main_call11_v1 : Ref sig .tc := ⟨.hbm, 129, rfl⟩
abbrev main_call11_v2 : Ref sig .tc := ⟨.hbm, 130, rfl⟩
abbrev main_call11_v3 : Ref sig .tc := ⟨.hbm, 131, rfl⟩
abbrev main_call11_v4 : Ref sig .tc := ⟨.hbm, 132, rfl⟩
abbrev main_v23 : Ref sig .tc := ⟨.hbm, 133, rfl⟩
abbrev main_call12_v0 : Ref sig .tc := ⟨.hbm, 134, rfl⟩
abbrev main_call12_v1 : Ref sig .tc := ⟨.hbm, 135, rfl⟩
abbrev main_call12_v2 : Ref sig .tc := ⟨.hbm, 136, rfl⟩
abbrev main_call12_v3 : Ref sig .tc := ⟨.hbm, 137, rfl⟩
abbrev main_call12_v4 : Ref sig .tc := ⟨.hbm, 138, rfl⟩
abbrev main_v24 : Ref sig .tc := ⟨.hbm, 139, rfl⟩
abbrev main_call13_v0 : Ref sig .tc := ⟨.hbm, 140, rfl⟩
abbrev main_call13_v1 : Ref sig .tc := ⟨.hbm, 141, rfl⟩
abbrev main_call13_v2 : Ref sig .tc := ⟨.hbm, 142, rfl⟩
abbrev main_call13_v3 : Ref sig .tc := ⟨.hbm, 143, rfl⟩
abbrev main_call13_v4 : Ref sig .tc := ⟨.hbm, 144, rfl⟩
abbrev main_v25 : Ref sig .tc := ⟨.hbm, 145, rfl⟩
abbrev main_call14_v0 : Ref sig .tc := ⟨.hbm, 146, rfl⟩
abbrev main_call14_v1 : Ref sig .tc := ⟨.hbm, 147, rfl⟩
abbrev main_call14_v2 : Ref sig .tc := ⟨.hbm, 148, rfl⟩
abbrev main_call14_v3 : Ref sig .tc := ⟨.hbm, 149, rfl⟩
abbrev main_call14_v4 : Ref sig .tc := ⟨.hbm, 150, rfl⟩
abbrev main_v26 : Ref sig .tc := ⟨.hbm, 151, rfl⟩
abbrev main_call15_v0 : Ref sig .tc := ⟨.hbm, 152, rfl⟩
abbrev main_call15_v1 : Ref sig .tc := ⟨.hbm, 153, rfl⟩
abbrev main_call15_v2 : Ref sig .tc := ⟨.hbm, 154, rfl⟩
abbrev main_call15_v3 : Ref sig .tc := ⟨.hbm, 155, rfl⟩
abbrev main_call15_v4 : Ref sig .tc := ⟨.hbm, 156, rfl⟩
abbrev main_v27 : Ref sig .tc := ⟨.hbm, 157, rfl⟩
abbrev main_call16_v0 : Ref sig .tc := ⟨.hbm, 158, rfl⟩
abbrev main_call16_v1 : Ref sig .tc := ⟨.hbm, 159, rfl⟩
abbrev main_call16_v2 : Ref sig .tc := ⟨.hbm, 160, rfl⟩
abbrev main_call16_v3 : Ref sig .tc := ⟨.hbm, 161, rfl⟩
abbrev main_call16_v4 : Ref sig .tc := ⟨.hbm, 162, rfl⟩
abbrev main_v28 : Ref sig .tc := ⟨.hbm, 163, rfl⟩
abbrev main_call17_v0 : Ref sig .tc := ⟨.hbm, 164, rfl⟩
abbrev main_call17_v1 : Ref sig .tc := ⟨.hbm, 165, rfl⟩
abbrev main_call17_v2 : Ref sig .tc := ⟨.hbm, 166, rfl⟩
abbrev main_call17_v3 : Ref sig .tc := ⟨.hbm, 167, rfl⟩
abbrev main_call17_v4 : Ref sig .tc := ⟨.hbm, 168, rfl⟩
abbrev main_v29 : Ref sig .tc := ⟨.hbm, 169, rfl⟩
abbrev main_call18_v0 : Ref sig .tc := ⟨.hbm, 170, rfl⟩
abbrev main_call18_v1 : Ref sig .tc := ⟨.hbm, 171, rfl⟩
abbrev main_call18_v2 : Ref sig .tc := ⟨.hbm, 172, rfl⟩
abbrev main_call18_v3 : Ref sig .tc := ⟨.hbm, 173, rfl⟩
abbrev main_call18_v4 : Ref sig .tc := ⟨.hbm, 174, rfl⟩
abbrev main_v30 : Ref sig .tc := ⟨.hbm, 175, rfl⟩
abbrev main_call19_v0 : Ref sig .tc := ⟨.hbm, 176, rfl⟩
abbrev main_call19_v1 : Ref sig .tc := ⟨.hbm, 177, rfl⟩
abbrev main_call19_v2 : Ref sig .tc := ⟨.hbm, 178, rfl⟩
abbrev main_call19_v3 : Ref sig .tc := ⟨.hbm, 179, rfl⟩
abbrev main_call19_v4 : Ref sig .tc := ⟨.hbm, 180, rfl⟩
abbrev main_v31 : Ref sig .tc := ⟨.hbm, 181, rfl⟩
abbrev main_call20_v0 : Ref sig .tc := ⟨.hbm, 182, rfl⟩
abbrev main_call20_v1 : Ref sig .tc := ⟨.hbm, 183, rfl⟩
abbrev main_call20_v2 : Ref sig .tc := ⟨.hbm, 184, rfl⟩
abbrev main_call20_v3 : Ref sig .tc := ⟨.hbm, 185, rfl⟩
abbrev main_call20_v4 : Ref sig .tc := ⟨.hbm, 186, rfl⟩
abbrev main_v32 : Ref sig .tc := ⟨.hbm, 187, rfl⟩
abbrev main_call21_v0 : Ref sig .tc := ⟨.hbm, 188, rfl⟩
abbrev main_call21_v1 : Ref sig .tc := ⟨.hbm, 189, rfl⟩
abbrev main_call21_v2 : Ref sig .tc := ⟨.hbm, 190, rfl⟩
abbrev main_call21_v3 : Ref sig .tc := ⟨.hbm, 191, rfl⟩
abbrev main_call21_v4 : Ref sig .tc := ⟨.hbm, 192, rfl⟩
abbrev main_v33 : Ref sig .tc := ⟨.hbm, 193, rfl⟩
abbrev main_call22_v0 : Ref sig .tc := ⟨.hbm, 194, rfl⟩
abbrev main_call22_v1 : Ref sig .tc := ⟨.hbm, 195, rfl⟩
abbrev main_call22_v2 : Ref sig .tc := ⟨.hbm, 196, rfl⟩
abbrev main_call22_v3 : Ref sig .tc := ⟨.hbm, 197, rfl⟩
abbrev main_call22_v4 : Ref sig .tc := ⟨.hbm, 198, rfl⟩
abbrev main_v34 : Ref sig .tc := ⟨.hbm, 199, rfl⟩
abbrev main_call23_v0 : Ref sig .tc := ⟨.hbm, 200, rfl⟩
abbrev main_call23_v1 : Ref sig .tc := ⟨.hbm, 201, rfl⟩
abbrev main_call23_v2 : Ref sig .tc := ⟨.hbm, 202, rfl⟩
abbrev main_call23_v3 : Ref sig .tc := ⟨.hbm, 203, rfl⟩
abbrev main_call23_v4 : Ref sig .tc := ⟨.hbm, 204, rfl⟩
abbrev main_v35 : Ref sig .tc := ⟨.hbm, 205, rfl⟩
abbrev main_v36 : Ref sig .tc := ⟨.hbm, 206, rfl⟩
abbrev main_v37 : Ref sig .tc := ⟨.hbm, 207, rfl⟩
abbrev main_v38 : Ref sig .tc := ⟨.hbm, 208, rfl⟩
abbrev main_v39 : Ref sig .tc := ⟨.hbm, 209, rfl⟩
abbrev main_c_49 : Ref sig .tc := ⟨.hbm, 210, rfl⟩
abbrev main_v40 : Ref sig .tc := ⟨.hbm, 211, rfl⟩
abbrev main_v41 : Ref sig .tc := ⟨.hbm, 212, rfl⟩
abbrev main_v42 : Ref sig .tc := ⟨.hbm, 213, rfl⟩
abbrev main_v43 : Ref sig .tc := ⟨.hbm, 214, rfl⟩
abbrev main_call24_v0 : Ref sig .tc := ⟨.hbm, 215, rfl⟩
abbrev main_call24_v1 : Ref sig .tc := ⟨.hbm, 216, rfl⟩
abbrev main_call24_v2 : Ref sig .tc := ⟨.hbm, 217, rfl⟩
abbrev main_call24_v3 : Ref sig .tc := ⟨.hbm, 218, rfl⟩
abbrev main_v44 : Ref sig .tc := ⟨.hbm, 219, rfl⟩
abbrev main_call25_v0 : Ref sig .tc := ⟨.hbm, 220, rfl⟩
abbrev main_call25_v1 : Ref sig .tc := ⟨.hbm, 221, rfl⟩
abbrev main_call25_v2 : Ref sig .tc := ⟨.hbm, 222, rfl⟩
abbrev main_call25_v3 : Ref sig .tc := ⟨.hbm, 223, rfl⟩
abbrev main_v45 : Ref sig .tc := ⟨.hbm, 224, rfl⟩
abbrev main_call26_v0 : Ref sig .tc := ⟨.hbm, 225, rfl⟩
abbrev main_call26_v1 : Ref sig .tc := ⟨.hbm, 226, rfl⟩
abbrev main_call26_v2 : Ref sig .tc := ⟨.hbm, 227, rfl⟩
abbrev main_call26_v3 : Ref sig .tc := ⟨.hbm, 228, rfl⟩
abbrev main_call26_v4 : Ref sig .tc := ⟨.hbm, 229, rfl⟩
abbrev main_v46 : Ref sig .tc := ⟨.hbm, 230, rfl⟩
abbrev main_call27_v0 : Ref sig .tc := ⟨.hbm, 231, rfl⟩
abbrev main_call27_v1 : Ref sig .tc := ⟨.hbm, 232, rfl⟩
abbrev main_call27_v2 : Ref sig .tc := ⟨.hbm, 233, rfl⟩
abbrev main_call27_v3 : Ref sig .tc := ⟨.hbm, 234, rfl⟩
abbrev main_call27_v4 : Ref sig .tc := ⟨.hbm, 235, rfl⟩
abbrev main_v47 : Ref sig .tc := ⟨.hbm, 236, rfl⟩
abbrev main_call28_v0 : Ref sig .tc := ⟨.hbm, 237, rfl⟩
abbrev main_call28_v1 : Ref sig .tc := ⟨.hbm, 238, rfl⟩
abbrev main_call28_v2 : Ref sig .tc := ⟨.hbm, 239, rfl⟩
abbrev main_call28_v3 : Ref sig .tc := ⟨.hbm, 240, rfl⟩
abbrev main_call28_v4 : Ref sig .tc := ⟨.hbm, 241, rfl⟩
abbrev main_v48 : Ref sig .tc := ⟨.hbm, 242, rfl⟩
abbrev main_call29_v0 : Ref sig .tc := ⟨.hbm, 243, rfl⟩
abbrev main_call29_v1 : Ref sig .tc := ⟨.hbm, 244, rfl⟩
abbrev main_call29_v2 : Ref sig .tc := ⟨.hbm, 245, rfl⟩
abbrev main_call29_v3 : Ref sig .tc := ⟨.hbm, 246, rfl⟩
abbrev main_call29_v4 : Ref sig .tc := ⟨.hbm, 247, rfl⟩
abbrev main_v49 : Ref sig .tc := ⟨.hbm, 248, rfl⟩
abbrev main_call30_v0 : Ref sig .tc := ⟨.hbm, 249, rfl⟩
abbrev main_call30_v1 : Ref sig .tc := ⟨.hbm, 250, rfl⟩
abbrev main_call30_v2 : Ref sig .tc := ⟨.hbm, 251, rfl⟩
abbrev main_call30_v3 : Ref sig .tc := ⟨.hbm, 252, rfl⟩
abbrev main_call30_v4 : Ref sig .tc := ⟨.hbm, 253, rfl⟩
abbrev main_v50 : Ref sig .tc := ⟨.hbm, 254, rfl⟩
abbrev main_call31_v0 : Ref sig .tc := ⟨.hbm, 255, rfl⟩
abbrev main_call31_v1 : Ref sig .tc := ⟨.hbm, 256, rfl⟩
abbrev main_call31_v2 : Ref sig .tc := ⟨.hbm, 257, rfl⟩
abbrev main_call31_v3 : Ref sig .tc := ⟨.hbm, 258, rfl⟩
abbrev main_call31_v4 : Ref sig .tc := ⟨.hbm, 259, rfl⟩
abbrev main_v51 : Ref sig .tc := ⟨.hbm, 260, rfl⟩
abbrev main_call32_v0 : Ref sig .tc := ⟨.hbm, 261, rfl⟩
abbrev main_call32_v1 : Ref sig .tc := ⟨.hbm, 262, rfl⟩
abbrev main_call32_v2 : Ref sig .tc := ⟨.hbm, 263, rfl⟩
abbrev main_call32_v3 : Ref sig .tc := ⟨.hbm, 264, rfl⟩
abbrev main_call32_v4 : Ref sig .tc := ⟨.hbm, 265, rfl⟩
abbrev main_v52 : Ref sig .tc := ⟨.hbm, 266, rfl⟩
abbrev main_call33_v0 : Ref sig .tc := ⟨.hbm, 267, rfl⟩
abbrev main_call33_v1 : Ref sig .tc := ⟨.hbm, 268, rfl⟩
abbrev main_call33_v2 : Ref sig .tc := ⟨.hbm, 269, rfl⟩
abbrev main_call33_v3 : Ref sig .tc := ⟨.hbm, 270, rfl⟩
abbrev main_call33_v4 : Ref sig .tc := ⟨.hbm, 271, rfl⟩
abbrev main_v53 : Ref sig .tc := ⟨.hbm, 272, rfl⟩
abbrev main_call34_v0 : Ref sig .tc := ⟨.hbm, 273, rfl⟩
abbrev main_call34_v1 : Ref sig .tc := ⟨.hbm, 274, rfl⟩
abbrev main_call34_v2 : Ref sig .tc := ⟨.hbm, 275, rfl⟩
abbrev main_call34_v3 : Ref sig .tc := ⟨.hbm, 276, rfl⟩
abbrev main_call34_v4 : Ref sig .tc := ⟨.hbm, 277, rfl⟩
abbrev main_v54 : Ref sig .tc := ⟨.hbm, 278, rfl⟩
abbrev main_call35_v0 : Ref sig .tc := ⟨.hbm, 279, rfl⟩
abbrev main_call35_v1 : Ref sig .tc := ⟨.hbm, 280, rfl⟩
abbrev main_call35_v2 : Ref sig .tc := ⟨.hbm, 281, rfl⟩
abbrev main_call35_v3 : Ref sig .tc := ⟨.hbm, 282, rfl⟩
abbrev main_call35_v4 : Ref sig .tc := ⟨.hbm, 283, rfl⟩
abbrev main_v55 : Ref sig .tc := ⟨.hbm, 284, rfl⟩
abbrev main_call36_v0 : Ref sig .tc := ⟨.hbm, 285, rfl⟩
abbrev main_call36_v1 : Ref sig .tc := ⟨.hbm, 286, rfl⟩
abbrev main_call36_v2 : Ref sig .tc := ⟨.hbm, 287, rfl⟩
abbrev main_call36_v3 : Ref sig .tc := ⟨.hbm, 288, rfl⟩
abbrev main_call36_v4 : Ref sig .tc := ⟨.hbm, 289, rfl⟩
abbrev main_v56 : Ref sig .tc := ⟨.hbm, 290, rfl⟩
abbrev main_call37_v0 : Ref sig .tc := ⟨.hbm, 291, rfl⟩
abbrev main_call37_v1 : Ref sig .tc := ⟨.hbm, 292, rfl⟩
abbrev main_call37_v2 : Ref sig .tc := ⟨.hbm, 293, rfl⟩
abbrev main_call37_v3 : Ref sig .tc := ⟨.hbm, 294, rfl⟩
abbrev main_call37_v4 : Ref sig .tc := ⟨.hbm, 295, rfl⟩
abbrev main_v57 : Ref sig .tc := ⟨.hbm, 296, rfl⟩
abbrev main_call38_v0 : Ref sig .tc := ⟨.hbm, 297, rfl⟩
abbrev main_call38_v1 : Ref sig .tc := ⟨.hbm, 298, rfl⟩
abbrev main_call38_v2 : Ref sig .tc := ⟨.hbm, 299, rfl⟩
abbrev main_call38_v3 : Ref sig .tc := ⟨.hbm, 300, rfl⟩
abbrev main_call38_v4 : Ref sig .tc := ⟨.hbm, 301, rfl⟩
abbrev main_v58 : Ref sig .tc := ⟨.hbm, 302, rfl⟩
abbrev main_call39_v0 : Ref sig .tc := ⟨.hbm, 303, rfl⟩
abbrev main_call39_v1 : Ref sig .tc := ⟨.hbm, 304, rfl⟩
abbrev main_call39_v2 : Ref sig .tc := ⟨.hbm, 305, rfl⟩
abbrev main_call39_v3 : Ref sig .tc := ⟨.hbm, 306, rfl⟩
abbrev main_call39_v4 : Ref sig .tc := ⟨.hbm, 307, rfl⟩
abbrev main_v59 : Ref sig .tc := ⟨.hbm, 308, rfl⟩
abbrev main_call40_v0 : Ref sig .tc := ⟨.hbm, 309, rfl⟩
abbrev main_call40_v1 : Ref sig .tc := ⟨.hbm, 310, rfl⟩
abbrev main_call40_v2 : Ref sig .tc := ⟨.hbm, 311, rfl⟩
abbrev main_call40_v3 : Ref sig .tc := ⟨.hbm, 312, rfl⟩
abbrev main_call40_v4 : Ref sig .tc := ⟨.hbm, 313, rfl⟩
abbrev main_v60 : Ref sig .tc := ⟨.hbm, 314, rfl⟩
abbrev main_call41_v0 : Ref sig .tc := ⟨.hbm, 315, rfl⟩
abbrev main_call41_v1 : Ref sig .tc := ⟨.hbm, 316, rfl⟩
abbrev main_call41_v2 : Ref sig .tc := ⟨.hbm, 317, rfl⟩
abbrev main_call41_v3 : Ref sig .tc := ⟨.hbm, 318, rfl⟩
abbrev main_call41_v4 : Ref sig .tc := ⟨.hbm, 319, rfl⟩
abbrev main_v61 : Ref sig .tc := ⟨.hbm, 320, rfl⟩
abbrev main_call42_v0 : Ref sig .tc := ⟨.hbm, 321, rfl⟩
abbrev main_call42_v1 : Ref sig .tc := ⟨.hbm, 322, rfl⟩
abbrev main_call42_v2 : Ref sig .tc := ⟨.hbm, 323, rfl⟩
abbrev main_call42_v3 : Ref sig .tc := ⟨.hbm, 324, rfl⟩
abbrev main_call42_v4 : Ref sig .tc := ⟨.hbm, 325, rfl⟩
abbrev main_v62 : Ref sig .tc := ⟨.hbm, 326, rfl⟩
abbrev main_call43_v0 : Ref sig .tc := ⟨.hbm, 327, rfl⟩
abbrev main_call43_v1 : Ref sig .tc := ⟨.hbm, 328, rfl⟩
abbrev main_call43_v2 : Ref sig .tc := ⟨.hbm, 329, rfl⟩
abbrev main_call43_v3 : Ref sig .tc := ⟨.hbm, 330, rfl⟩
abbrev main_call43_v4 : Ref sig .tc := ⟨.hbm, 331, rfl⟩
abbrev main_v63 : Ref sig .tc := ⟨.hbm, 332, rfl⟩
abbrev main_call44_v0 : Ref sig .tc := ⟨.hbm, 333, rfl⟩
abbrev main_call44_v1 : Ref sig .tc := ⟨.hbm, 334, rfl⟩
abbrev main_call44_v2 : Ref sig .tc := ⟨.hbm, 335, rfl⟩
abbrev main_call44_v3 : Ref sig .tc := ⟨.hbm, 336, rfl⟩
abbrev main_call44_v4 : Ref sig .tc := ⟨.hbm, 337, rfl⟩
abbrev main_v64 : Ref sig .tc := ⟨.hbm, 338, rfl⟩
abbrev main_call45_v0 : Ref sig .tc := ⟨.hbm, 339, rfl⟩
abbrev main_call45_v1 : Ref sig .tc := ⟨.hbm, 340, rfl⟩
abbrev main_call45_v2 : Ref sig .tc := ⟨.hbm, 341, rfl⟩
abbrev main_call45_v3 : Ref sig .tc := ⟨.hbm, 342, rfl⟩
abbrev main_call45_v4 : Ref sig .tc := ⟨.hbm, 343, rfl⟩
abbrev main_v65 : Ref sig .tc := ⟨.hbm, 344, rfl⟩
abbrev main_call46_v0 : Ref sig .tc := ⟨.hbm, 345, rfl⟩
abbrev main_call46_v1 : Ref sig .tc := ⟨.hbm, 346, rfl⟩
abbrev main_call46_v2 : Ref sig .tc := ⟨.hbm, 347, rfl⟩
abbrev main_call46_v3 : Ref sig .tc := ⟨.hbm, 348, rfl⟩
abbrev main_call46_v4 : Ref sig .tc := ⟨.hbm, 349, rfl⟩
abbrev main_v66 : Ref sig .tc := ⟨.hbm, 350, rfl⟩
abbrev main_call47_v0 : Ref sig .tc := ⟨.hbm, 351, rfl⟩
abbrev main_call47_v1 : Ref sig .tc := ⟨.hbm, 352, rfl⟩
abbrev main_call47_v2 : Ref sig .tc := ⟨.hbm, 353, rfl⟩
abbrev main_call47_v3 : Ref sig .tc := ⟨.hbm, 354, rfl⟩
abbrev main_call47_v4 : Ref sig .tc := ⟨.hbm, 355, rfl⟩
abbrev main_v67 : Ref sig .tc := ⟨.hbm, 356, rfl⟩
abbrev main_v68 : Ref sig .tc := ⟨.hbm, 357, rfl⟩
abbrev main_v69 : Ref sig .tc := ⟨.hbm, 358, rfl⟩
abbrev main_v70 : Ref sig .tc := ⟨.hbm, 359, rfl⟩
abbrev main_v71 : Ref sig .tc := ⟨.hbm, 360, rfl⟩
abbrev main_c_50 : Ref sig .tc := ⟨.hbm, 361, rfl⟩
abbrev main_v72 : Ref sig .tc := ⟨.hbm, 362, rfl⟩
abbrev main_v73 : Ref sig .tc := ⟨.hbm, 363, rfl⟩
abbrev main_v74 : Ref sig .tc := ⟨.hbm, 364, rfl⟩
abbrev main_v75 : Ref sig .tc := ⟨.hbm, 365, rfl⟩
abbrev main_call48_v0 : Ref sig .tc := ⟨.hbm, 366, rfl⟩
abbrev main_call48_v1 : Ref sig .tc := ⟨.hbm, 367, rfl⟩
abbrev main_call48_v2 : Ref sig .tc := ⟨.hbm, 368, rfl⟩
abbrev main_call48_v3 : Ref sig .tc := ⟨.hbm, 369, rfl⟩
abbrev main_v76 : Ref sig .tc := ⟨.hbm, 370, rfl⟩
abbrev main_call49_v0 : Ref sig .tc := ⟨.hbm, 371, rfl⟩
abbrev main_call49_v1 : Ref sig .tc := ⟨.hbm, 372, rfl⟩
abbrev main_call49_v2 : Ref sig .tc := ⟨.hbm, 373, rfl⟩
abbrev main_call49_v3 : Ref sig .tc := ⟨.hbm, 374, rfl⟩
abbrev main_v77 : Ref sig .tc := ⟨.hbm, 375, rfl⟩
abbrev main_call50_v0 : Ref sig .tc := ⟨.hbm, 376, rfl⟩
abbrev main_call50_v1 : Ref sig .tc := ⟨.hbm, 377, rfl⟩
abbrev main_call50_v2 : Ref sig .tc := ⟨.hbm, 378, rfl⟩
abbrev main_call50_v3 : Ref sig .tc := ⟨.hbm, 379, rfl⟩
abbrev main_call50_v4 : Ref sig .tc := ⟨.hbm, 380, rfl⟩
abbrev main_v78 : Ref sig .tc := ⟨.hbm, 381, rfl⟩
abbrev main_call51_v0 : Ref sig .tc := ⟨.hbm, 382, rfl⟩
abbrev main_call51_v1 : Ref sig .tc := ⟨.hbm, 383, rfl⟩
abbrev main_call51_v2 : Ref sig .tc := ⟨.hbm, 384, rfl⟩
abbrev main_call51_v3 : Ref sig .tc := ⟨.hbm, 385, rfl⟩
abbrev main_call51_v4 : Ref sig .tc := ⟨.hbm, 386, rfl⟩
abbrev main_v79 : Ref sig .tc := ⟨.hbm, 387, rfl⟩
abbrev main_call52_v0 : Ref sig .tc := ⟨.hbm, 388, rfl⟩
abbrev main_call52_v1 : Ref sig .tc := ⟨.hbm, 389, rfl⟩
abbrev main_call52_v2 : Ref sig .tc := ⟨.hbm, 390, rfl⟩
abbrev main_call52_v3 : Ref sig .tc := ⟨.hbm, 391, rfl⟩
abbrev main_call52_v4 : Ref sig .tc := ⟨.hbm, 392, rfl⟩
abbrev main_v80 : Ref sig .tc := ⟨.hbm, 393, rfl⟩
abbrev main_call53_v0 : Ref sig .tc := ⟨.hbm, 394, rfl⟩
abbrev main_call53_v1 : Ref sig .tc := ⟨.hbm, 395, rfl⟩
abbrev main_call53_v2 : Ref sig .tc := ⟨.hbm, 396, rfl⟩
abbrev main_call53_v3 : Ref sig .tc := ⟨.hbm, 397, rfl⟩
abbrev main_call53_v4 : Ref sig .tc := ⟨.hbm, 398, rfl⟩
abbrev main_v81 : Ref sig .tc := ⟨.hbm, 399, rfl⟩
abbrev main_call54_v0 : Ref sig .tc := ⟨.hbm, 400, rfl⟩
abbrev main_call54_v1 : Ref sig .tc := ⟨.hbm, 401, rfl⟩
abbrev main_call54_v2 : Ref sig .tc := ⟨.hbm, 402, rfl⟩
abbrev main_call54_v3 : Ref sig .tc := ⟨.hbm, 403, rfl⟩
abbrev main_call54_v4 : Ref sig .tc := ⟨.hbm, 404, rfl⟩
abbrev main_v82 : Ref sig .tc := ⟨.hbm, 405, rfl⟩
abbrev main_call55_v0 : Ref sig .tc := ⟨.hbm, 406, rfl⟩
abbrev main_call55_v1 : Ref sig .tc := ⟨.hbm, 407, rfl⟩
abbrev main_call55_v2 : Ref sig .tc := ⟨.hbm, 408, rfl⟩
abbrev main_call55_v3 : Ref sig .tc := ⟨.hbm, 409, rfl⟩
abbrev main_call55_v4 : Ref sig .tc := ⟨.hbm, 410, rfl⟩
abbrev main_v83 : Ref sig .tc := ⟨.hbm, 411, rfl⟩
abbrev main_call56_v0 : Ref sig .tc := ⟨.hbm, 412, rfl⟩
abbrev main_call56_v1 : Ref sig .tc := ⟨.hbm, 413, rfl⟩
abbrev main_call56_v2 : Ref sig .tc := ⟨.hbm, 414, rfl⟩
abbrev main_call56_v3 : Ref sig .tc := ⟨.hbm, 415, rfl⟩
abbrev main_call56_v4 : Ref sig .tc := ⟨.hbm, 416, rfl⟩
abbrev main_v84 : Ref sig .tc := ⟨.hbm, 417, rfl⟩
abbrev main_call57_v0 : Ref sig .tc := ⟨.hbm, 418, rfl⟩
abbrev main_call57_v1 : Ref sig .tc := ⟨.hbm, 419, rfl⟩
abbrev main_call57_v2 : Ref sig .tc := ⟨.hbm, 420, rfl⟩
abbrev main_call57_v3 : Ref sig .tc := ⟨.hbm, 421, rfl⟩
abbrev main_call57_v4 : Ref sig .tc := ⟨.hbm, 422, rfl⟩
abbrev main_v85 : Ref sig .tc := ⟨.hbm, 423, rfl⟩
abbrev main_call58_v0 : Ref sig .tc := ⟨.hbm, 424, rfl⟩
abbrev main_call58_v1 : Ref sig .tc := ⟨.hbm, 425, rfl⟩
abbrev main_call58_v2 : Ref sig .tc := ⟨.hbm, 426, rfl⟩
abbrev main_call58_v3 : Ref sig .tc := ⟨.hbm, 427, rfl⟩
abbrev main_call58_v4 : Ref sig .tc := ⟨.hbm, 428, rfl⟩
abbrev main_v86 : Ref sig .tc := ⟨.hbm, 429, rfl⟩
abbrev main_call59_v0 : Ref sig .tc := ⟨.hbm, 430, rfl⟩
abbrev main_call59_v1 : Ref sig .tc := ⟨.hbm, 431, rfl⟩
abbrev main_call59_v2 : Ref sig .tc := ⟨.hbm, 432, rfl⟩
abbrev main_call59_v3 : Ref sig .tc := ⟨.hbm, 433, rfl⟩
abbrev main_call59_v4 : Ref sig .tc := ⟨.hbm, 434, rfl⟩
abbrev main_v87 : Ref sig .tc := ⟨.hbm, 435, rfl⟩
abbrev main_call60_v0 : Ref sig .tc := ⟨.hbm, 436, rfl⟩
abbrev main_call60_v1 : Ref sig .tc := ⟨.hbm, 437, rfl⟩
abbrev main_call60_v2 : Ref sig .tc := ⟨.hbm, 438, rfl⟩
abbrev main_call60_v3 : Ref sig .tc := ⟨.hbm, 439, rfl⟩
abbrev main_call60_v4 : Ref sig .tc := ⟨.hbm, 440, rfl⟩
abbrev main_v88 : Ref sig .tc := ⟨.hbm, 441, rfl⟩
abbrev main_call61_v0 : Ref sig .tc := ⟨.hbm, 442, rfl⟩
abbrev main_call61_v1 : Ref sig .tc := ⟨.hbm, 443, rfl⟩
abbrev main_call61_v2 : Ref sig .tc := ⟨.hbm, 444, rfl⟩
abbrev main_call61_v3 : Ref sig .tc := ⟨.hbm, 445, rfl⟩
abbrev main_call61_v4 : Ref sig .tc := ⟨.hbm, 446, rfl⟩
abbrev main_v89 : Ref sig .tc := ⟨.hbm, 447, rfl⟩
abbrev main_call62_v0 : Ref sig .tc := ⟨.hbm, 448, rfl⟩
abbrev main_call62_v1 : Ref sig .tc := ⟨.hbm, 449, rfl⟩
abbrev main_call62_v2 : Ref sig .tc := ⟨.hbm, 450, rfl⟩
abbrev main_call62_v3 : Ref sig .tc := ⟨.hbm, 451, rfl⟩
abbrev main_call62_v4 : Ref sig .tc := ⟨.hbm, 452, rfl⟩
abbrev main_v90 : Ref sig .tc := ⟨.hbm, 453, rfl⟩
abbrev main_call63_v0 : Ref sig .tc := ⟨.hbm, 454, rfl⟩
abbrev main_call63_v1 : Ref sig .tc := ⟨.hbm, 455, rfl⟩
abbrev main_call63_v2 : Ref sig .tc := ⟨.hbm, 456, rfl⟩
abbrev main_call63_v3 : Ref sig .tc := ⟨.hbm, 457, rfl⟩
abbrev main_call63_v4 : Ref sig .tc := ⟨.hbm, 458, rfl⟩
abbrev main_v91 : Ref sig .tc := ⟨.hbm, 459, rfl⟩
abbrev main_call64_v0 : Ref sig .tc := ⟨.hbm, 460, rfl⟩
abbrev main_call64_v1 : Ref sig .tc := ⟨.hbm, 461, rfl⟩
abbrev main_call64_v2 : Ref sig .tc := ⟨.hbm, 462, rfl⟩
abbrev main_call64_v3 : Ref sig .tc := ⟨.hbm, 463, rfl⟩
abbrev main_call64_v4 : Ref sig .tc := ⟨.hbm, 464, rfl⟩
abbrev main_v92 : Ref sig .tc := ⟨.hbm, 465, rfl⟩
abbrev main_call65_v0 : Ref sig .tc := ⟨.hbm, 466, rfl⟩
abbrev main_call65_v1 : Ref sig .tc := ⟨.hbm, 467, rfl⟩
abbrev main_call65_v2 : Ref sig .tc := ⟨.hbm, 468, rfl⟩
abbrev main_call65_v3 : Ref sig .tc := ⟨.hbm, 469, rfl⟩
abbrev main_call65_v4 : Ref sig .tc := ⟨.hbm, 470, rfl⟩
abbrev main_v93 : Ref sig .tc := ⟨.hbm, 471, rfl⟩
abbrev main_call66_v0 : Ref sig .tc := ⟨.hbm, 472, rfl⟩
abbrev main_call66_v1 : Ref sig .tc := ⟨.hbm, 473, rfl⟩
abbrev main_call66_v2 : Ref sig .tc := ⟨.hbm, 474, rfl⟩
abbrev main_call66_v3 : Ref sig .tc := ⟨.hbm, 475, rfl⟩
abbrev main_call66_v4 : Ref sig .tc := ⟨.hbm, 476, rfl⟩
abbrev main_v94 : Ref sig .tc := ⟨.hbm, 477, rfl⟩
abbrev main_call67_v0 : Ref sig .tc := ⟨.hbm, 478, rfl⟩
abbrev main_call67_v1 : Ref sig .tc := ⟨.hbm, 479, rfl⟩
abbrev main_call67_v2 : Ref sig .tc := ⟨.hbm, 480, rfl⟩
abbrev main_call67_v3 : Ref sig .tc := ⟨.hbm, 481, rfl⟩
abbrev main_call67_v4 : Ref sig .tc := ⟨.hbm, 482, rfl⟩
abbrev main_v95 : Ref sig .tc := ⟨.hbm, 483, rfl⟩
abbrev main_call68_v0 : Ref sig .tc := ⟨.hbm, 484, rfl⟩
abbrev main_call68_v1 : Ref sig .tc := ⟨.hbm, 485, rfl⟩
abbrev main_call68_v2 : Ref sig .tc := ⟨.hbm, 486, rfl⟩
abbrev main_call68_v3 : Ref sig .tc := ⟨.hbm, 487, rfl⟩
abbrev main_call68_v4 : Ref sig .tc := ⟨.hbm, 488, rfl⟩
abbrev main_v96 : Ref sig .tc := ⟨.hbm, 489, rfl⟩
abbrev main_call69_v0 : Ref sig .tc := ⟨.hbm, 490, rfl⟩
abbrev main_call69_v1 : Ref sig .tc := ⟨.hbm, 491, rfl⟩
abbrev main_call69_v2 : Ref sig .tc := ⟨.hbm, 492, rfl⟩
abbrev main_call69_v3 : Ref sig .tc := ⟨.hbm, 493, rfl⟩
abbrev main_call69_v4 : Ref sig .tc := ⟨.hbm, 494, rfl⟩
abbrev main_v97 : Ref sig .tc := ⟨.hbm, 495, rfl⟩
abbrev main_call70_v0 : Ref sig .tc := ⟨.hbm, 496, rfl⟩
abbrev main_call70_v1 : Ref sig .tc := ⟨.hbm, 497, rfl⟩
abbrev main_call70_v2 : Ref sig .tc := ⟨.hbm, 498, rfl⟩
abbrev main_call70_v3 : Ref sig .tc := ⟨.hbm, 499, rfl⟩
abbrev main_call70_v4 : Ref sig .tc := ⟨.hbm, 500, rfl⟩
abbrev main_v98 : Ref sig .tc := ⟨.hbm, 501, rfl⟩
abbrev main_call71_v0 : Ref sig .tc := ⟨.hbm, 502, rfl⟩
abbrev main_call71_v1 : Ref sig .tc := ⟨.hbm, 503, rfl⟩
abbrev main_call71_v2 : Ref sig .tc := ⟨.hbm, 504, rfl⟩
abbrev main_call71_v3 : Ref sig .tc := ⟨.hbm, 505, rfl⟩
abbrev main_call71_v4 : Ref sig .tc := ⟨.hbm, 506, rfl⟩
abbrev main_v99 : Ref sig .tc := ⟨.hbm, 507, rfl⟩
abbrev main_v100 : Ref sig .tc := ⟨.hbm, 508, rfl⟩
abbrev main_v101 : Ref sig .tc := ⟨.hbm, 509, rfl⟩
abbrev main_v102 : Ref sig .tc := ⟨.hbm, 510, rfl⟩
abbrev main_v103 : Ref sig .tc := ⟨.hbm, 511, rfl⟩
abbrev main_c_51 : Ref sig .tc := ⟨.hbm, 512, rfl⟩
abbrev main_v104 : Ref sig .tc := ⟨.hbm, 513, rfl⟩
abbrev main_v105 : Ref sig .tc := ⟨.hbm, 514, rfl⟩
abbrev main_v106 : Ref sig .tc := ⟨.hbm, 515, rfl⟩
abbrev main_v107 : Ref sig .tc := ⟨.hbm, 516, rfl⟩
abbrev main_call72_v0 : Ref sig .tc := ⟨.hbm, 517, rfl⟩
abbrev main_call72_v1 : Ref sig .tc := ⟨.hbm, 518, rfl⟩
abbrev main_call72_v2 : Ref sig .tc := ⟨.hbm, 519, rfl⟩
abbrev main_call72_v3 : Ref sig .tc := ⟨.hbm, 520, rfl⟩
abbrev main_v108 : Ref sig .tc := ⟨.hbm, 521, rfl⟩
abbrev main_call73_v0 : Ref sig .tc := ⟨.hbm, 522, rfl⟩
abbrev main_call73_v1 : Ref sig .tc := ⟨.hbm, 523, rfl⟩
abbrev main_call73_v2 : Ref sig .tc := ⟨.hbm, 524, rfl⟩
abbrev main_call73_v3 : Ref sig .tc := ⟨.hbm, 525, rfl⟩
abbrev main_v109 : Ref sig .tc := ⟨.hbm, 526, rfl⟩
abbrev main_call74_v0 : Ref sig .tc := ⟨.hbm, 527, rfl⟩
abbrev main_call74_v1 : Ref sig .tc := ⟨.hbm, 528, rfl⟩
abbrev main_call74_v2 : Ref sig .tc := ⟨.hbm, 529, rfl⟩
abbrev main_call74_v3 : Ref sig .tc := ⟨.hbm, 530, rfl⟩
abbrev main_call74_v4 : Ref sig .tc := ⟨.hbm, 531, rfl⟩
abbrev main_v110 : Ref sig .tc := ⟨.hbm, 532, rfl⟩
abbrev main_call75_v0 : Ref sig .tc := ⟨.hbm, 533, rfl⟩
abbrev main_call75_v1 : Ref sig .tc := ⟨.hbm, 534, rfl⟩
abbrev main_call75_v2 : Ref sig .tc := ⟨.hbm, 535, rfl⟩
abbrev main_call75_v3 : Ref sig .tc := ⟨.hbm, 536, rfl⟩
abbrev main_call75_v4 : Ref sig .tc := ⟨.hbm, 537, rfl⟩
abbrev main_v111 : Ref sig .tc := ⟨.hbm, 538, rfl⟩
abbrev main_call76_v0 : Ref sig .tc := ⟨.hbm, 539, rfl⟩
abbrev main_call76_v1 : Ref sig .tc := ⟨.hbm, 540, rfl⟩
abbrev main_call76_v2 : Ref sig .tc := ⟨.hbm, 541, rfl⟩
abbrev main_call76_v3 : Ref sig .tc := ⟨.hbm, 542, rfl⟩
abbrev main_call76_v4 : Ref sig .tc := ⟨.hbm, 543, rfl⟩
abbrev main_v112 : Ref sig .tc := ⟨.hbm, 544, rfl⟩
abbrev main_call77_v0 : Ref sig .tc := ⟨.hbm, 545, rfl⟩
abbrev main_call77_v1 : Ref sig .tc := ⟨.hbm, 546, rfl⟩
abbrev main_call77_v2 : Ref sig .tc := ⟨.hbm, 547, rfl⟩
abbrev main_call77_v3 : Ref sig .tc := ⟨.hbm, 548, rfl⟩
abbrev main_call77_v4 : Ref sig .tc := ⟨.hbm, 549, rfl⟩
abbrev main_v113 : Ref sig .tc := ⟨.hbm, 550, rfl⟩
abbrev main_call78_v0 : Ref sig .tc := ⟨.hbm, 551, rfl⟩
abbrev main_call78_v1 : Ref sig .tc := ⟨.hbm, 552, rfl⟩
abbrev main_call78_v2 : Ref sig .tc := ⟨.hbm, 553, rfl⟩
abbrev main_call78_v3 : Ref sig .tc := ⟨.hbm, 554, rfl⟩
abbrev main_call78_v4 : Ref sig .tc := ⟨.hbm, 555, rfl⟩
abbrev main_v114 : Ref sig .tc := ⟨.hbm, 556, rfl⟩
abbrev main_call79_v0 : Ref sig .tc := ⟨.hbm, 557, rfl⟩
abbrev main_call79_v1 : Ref sig .tc := ⟨.hbm, 558, rfl⟩
abbrev main_call79_v2 : Ref sig .tc := ⟨.hbm, 559, rfl⟩
abbrev main_call79_v3 : Ref sig .tc := ⟨.hbm, 560, rfl⟩
abbrev main_call79_v4 : Ref sig .tc := ⟨.hbm, 561, rfl⟩
abbrev main_v115 : Ref sig .tc := ⟨.hbm, 562, rfl⟩
abbrev main_call80_v0 : Ref sig .tc := ⟨.hbm, 563, rfl⟩
abbrev main_call80_v1 : Ref sig .tc := ⟨.hbm, 564, rfl⟩
abbrev main_call80_v2 : Ref sig .tc := ⟨.hbm, 565, rfl⟩
abbrev main_call80_v3 : Ref sig .tc := ⟨.hbm, 566, rfl⟩
abbrev main_call80_v4 : Ref sig .tc := ⟨.hbm, 567, rfl⟩
abbrev main_v116 : Ref sig .tc := ⟨.hbm, 568, rfl⟩
abbrev main_call81_v0 : Ref sig .tc := ⟨.hbm, 569, rfl⟩
abbrev main_call81_v1 : Ref sig .tc := ⟨.hbm, 570, rfl⟩
abbrev main_call81_v2 : Ref sig .tc := ⟨.hbm, 571, rfl⟩
abbrev main_call81_v3 : Ref sig .tc := ⟨.hbm, 572, rfl⟩
abbrev main_call81_v4 : Ref sig .tc := ⟨.hbm, 573, rfl⟩
abbrev main_v117 : Ref sig .tc := ⟨.hbm, 574, rfl⟩
abbrev main_call82_v0 : Ref sig .tc := ⟨.hbm, 575, rfl⟩
abbrev main_call82_v1 : Ref sig .tc := ⟨.hbm, 576, rfl⟩
abbrev main_call82_v2 : Ref sig .tc := ⟨.hbm, 577, rfl⟩
abbrev main_call82_v3 : Ref sig .tc := ⟨.hbm, 578, rfl⟩
abbrev main_call82_v4 : Ref sig .tc := ⟨.hbm, 579, rfl⟩
abbrev main_v118 : Ref sig .tc := ⟨.hbm, 580, rfl⟩
abbrev main_call83_v0 : Ref sig .tc := ⟨.hbm, 581, rfl⟩
abbrev main_call83_v1 : Ref sig .tc := ⟨.hbm, 582, rfl⟩
abbrev main_call83_v2 : Ref sig .tc := ⟨.hbm, 583, rfl⟩
abbrev main_call83_v3 : Ref sig .tc := ⟨.hbm, 584, rfl⟩
abbrev main_call83_v4 : Ref sig .tc := ⟨.hbm, 585, rfl⟩
abbrev main_v119 : Ref sig .tc := ⟨.hbm, 586, rfl⟩
abbrev main_call84_v0 : Ref sig .tc := ⟨.hbm, 587, rfl⟩
abbrev main_call84_v1 : Ref sig .tc := ⟨.hbm, 588, rfl⟩
abbrev main_call84_v2 : Ref sig .tc := ⟨.hbm, 589, rfl⟩
abbrev main_call84_v3 : Ref sig .tc := ⟨.hbm, 590, rfl⟩
abbrev main_call84_v4 : Ref sig .tc := ⟨.hbm, 591, rfl⟩
abbrev main_v120 : Ref sig .tc := ⟨.hbm, 592, rfl⟩
abbrev main_call85_v0 : Ref sig .tc := ⟨.hbm, 593, rfl⟩
abbrev main_call85_v1 : Ref sig .tc := ⟨.hbm, 594, rfl⟩
abbrev main_call85_v2 : Ref sig .tc := ⟨.hbm, 595, rfl⟩
abbrev main_call85_v3 : Ref sig .tc := ⟨.hbm, 596, rfl⟩
abbrev main_call85_v4 : Ref sig .tc := ⟨.hbm, 597, rfl⟩
abbrev main_v121 : Ref sig .tc := ⟨.hbm, 598, rfl⟩
abbrev main_call86_v0 : Ref sig .tc := ⟨.hbm, 599, rfl⟩
abbrev main_call86_v1 : Ref sig .tc := ⟨.hbm, 600, rfl⟩
abbrev main_call86_v2 : Ref sig .tc := ⟨.hbm, 601, rfl⟩
abbrev main_call86_v3 : Ref sig .tc := ⟨.hbm, 602, rfl⟩
abbrev main_call86_v4 : Ref sig .tc := ⟨.hbm, 603, rfl⟩
abbrev main_v122 : Ref sig .tc := ⟨.hbm, 604, rfl⟩
abbrev main_call87_v0 : Ref sig .tc := ⟨.hbm, 605, rfl⟩
abbrev main_call87_v1 : Ref sig .tc := ⟨.hbm, 606, rfl⟩
abbrev main_call87_v2 : Ref sig .tc := ⟨.hbm, 607, rfl⟩
abbrev main_call87_v3 : Ref sig .tc := ⟨.hbm, 608, rfl⟩
abbrev main_call87_v4 : Ref sig .tc := ⟨.hbm, 609, rfl⟩
abbrev main_v123 : Ref sig .tc := ⟨.hbm, 610, rfl⟩
abbrev main_call88_v0 : Ref sig .tc := ⟨.hbm, 611, rfl⟩
abbrev main_call88_v1 : Ref sig .tc := ⟨.hbm, 612, rfl⟩
abbrev main_call88_v2 : Ref sig .tc := ⟨.hbm, 613, rfl⟩
abbrev main_call88_v3 : Ref sig .tc := ⟨.hbm, 614, rfl⟩
abbrev main_call88_v4 : Ref sig .tc := ⟨.hbm, 615, rfl⟩
abbrev main_v124 : Ref sig .tc := ⟨.hbm, 616, rfl⟩
abbrev main_call89_v0 : Ref sig .tc := ⟨.hbm, 617, rfl⟩
abbrev main_call89_v1 : Ref sig .tc := ⟨.hbm, 618, rfl⟩
abbrev main_call89_v2 : Ref sig .tc := ⟨.hbm, 619, rfl⟩
abbrev main_call89_v3 : Ref sig .tc := ⟨.hbm, 620, rfl⟩
abbrev main_call89_v4 : Ref sig .tc := ⟨.hbm, 621, rfl⟩
abbrev main_v125 : Ref sig .tc := ⟨.hbm, 622, rfl⟩
abbrev main_call90_v0 : Ref sig .tc := ⟨.hbm, 623, rfl⟩
abbrev main_call90_v1 : Ref sig .tc := ⟨.hbm, 624, rfl⟩
abbrev main_call90_v2 : Ref sig .tc := ⟨.hbm, 625, rfl⟩
abbrev main_call90_v3 : Ref sig .tc := ⟨.hbm, 626, rfl⟩
abbrev main_call90_v4 : Ref sig .tc := ⟨.hbm, 627, rfl⟩
abbrev main_v126 : Ref sig .tc := ⟨.hbm, 628, rfl⟩
abbrev main_call91_v0 : Ref sig .tc := ⟨.hbm, 629, rfl⟩
abbrev main_call91_v1 : Ref sig .tc := ⟨.hbm, 630, rfl⟩
abbrev main_call91_v2 : Ref sig .tc := ⟨.hbm, 631, rfl⟩
abbrev main_call91_v3 : Ref sig .tc := ⟨.hbm, 632, rfl⟩
abbrev main_call91_v4 : Ref sig .tc := ⟨.hbm, 633, rfl⟩
abbrev main_v127 : Ref sig .tc := ⟨.hbm, 634, rfl⟩
abbrev main_call92_v0 : Ref sig .tc := ⟨.hbm, 635, rfl⟩
abbrev main_call92_v1 : Ref sig .tc := ⟨.hbm, 636, rfl⟩
abbrev main_call92_v2 : Ref sig .tc := ⟨.hbm, 637, rfl⟩
abbrev main_call92_v3 : Ref sig .tc := ⟨.hbm, 638, rfl⟩
abbrev main_call92_v4 : Ref sig .tc := ⟨.hbm, 639, rfl⟩
abbrev main_v128 : Ref sig .tc := ⟨.hbm, 640, rfl⟩
abbrev main_call93_v0 : Ref sig .tc := ⟨.hbm, 641, rfl⟩
abbrev main_call93_v1 : Ref sig .tc := ⟨.hbm, 642, rfl⟩
abbrev main_call93_v2 : Ref sig .tc := ⟨.hbm, 643, rfl⟩
abbrev main_call93_v3 : Ref sig .tc := ⟨.hbm, 644, rfl⟩
abbrev main_call93_v4 : Ref sig .tc := ⟨.hbm, 645, rfl⟩
abbrev main_v129 : Ref sig .tc := ⟨.hbm, 646, rfl⟩
abbrev main_call94_v0 : Ref sig .tc := ⟨.hbm, 647, rfl⟩
abbrev main_call94_v1 : Ref sig .tc := ⟨.hbm, 648, rfl⟩
abbrev main_call94_v2 : Ref sig .tc := ⟨.hbm, 649, rfl⟩
abbrev main_call94_v3 : Ref sig .tc := ⟨.hbm, 650, rfl⟩
abbrev main_call94_v4 : Ref sig .tc := ⟨.hbm, 651, rfl⟩
abbrev main_v130 : Ref sig .tc := ⟨.hbm, 652, rfl⟩
abbrev main_call95_v0 : Ref sig .tc := ⟨.hbm, 653, rfl⟩
abbrev main_call95_v1 : Ref sig .tc := ⟨.hbm, 654, rfl⟩
abbrev main_call95_v2 : Ref sig .tc := ⟨.hbm, 655, rfl⟩
abbrev main_call95_v3 : Ref sig .tc := ⟨.hbm, 656, rfl⟩
abbrev main_call95_v4 : Ref sig .tc := ⟨.hbm, 657, rfl⟩
abbrev main_v131 : Ref sig .tc := ⟨.hbm, 658, rfl⟩
abbrev main_v132 : Ref sig .tc := ⟨.hbm, 659, rfl⟩
abbrev main_v133 : Ref sig .tc := ⟨.hbm, 660, rfl⟩
abbrev main_v134 : Ref sig .tc := ⟨.hbm, 661, rfl⟩
abbrev main_v135 : Ref sig .tc := ⟨.hbm, 662, rfl⟩
abbrev main_c_52 : Ref sig .tc := ⟨.hbm, 663, rfl⟩
abbrev main_v136 : Ref sig .tc := ⟨.hbm, 664, rfl⟩
abbrev main_v137 : Ref sig .tc := ⟨.hbm, 665, rfl⟩
abbrev main_v138 : Ref sig .tc := ⟨.hbm, 666, rfl⟩
abbrev main_v139 : Ref sig .tc := ⟨.hbm, 667, rfl⟩
abbrev main_call96_v0 : Ref sig .tc := ⟨.hbm, 668, rfl⟩
abbrev main_call96_v1 : Ref sig .tc := ⟨.hbm, 669, rfl⟩
abbrev main_call96_v2 : Ref sig .tc := ⟨.hbm, 670, rfl⟩
abbrev main_call96_v3 : Ref sig .tc := ⟨.hbm, 671, rfl⟩
abbrev main_v140 : Ref sig .tc := ⟨.hbm, 672, rfl⟩
abbrev main_call97_v0 : Ref sig .tc := ⟨.hbm, 673, rfl⟩
abbrev main_call97_v1 : Ref sig .tc := ⟨.hbm, 674, rfl⟩
abbrev main_call97_v2 : Ref sig .tc := ⟨.hbm, 675, rfl⟩
abbrev main_call97_v3 : Ref sig .tc := ⟨.hbm, 676, rfl⟩
abbrev main_v141 : Ref sig .tc := ⟨.hbm, 677, rfl⟩
abbrev main_call98_v0 : Ref sig .tc := ⟨.hbm, 678, rfl⟩
abbrev main_call98_v1 : Ref sig .tc := ⟨.hbm, 679, rfl⟩
abbrev main_call98_v2 : Ref sig .tc := ⟨.hbm, 680, rfl⟩
abbrev main_call98_v3 : Ref sig .tc := ⟨.hbm, 681, rfl⟩
abbrev main_call98_v4 : Ref sig .tc := ⟨.hbm, 682, rfl⟩
abbrev main_v142 : Ref sig .tc := ⟨.hbm, 683, rfl⟩
abbrev main_call99_v0 : Ref sig .tc := ⟨.hbm, 684, rfl⟩
abbrev main_call99_v1 : Ref sig .tc := ⟨.hbm, 685, rfl⟩
abbrev main_call99_v2 : Ref sig .tc := ⟨.hbm, 686, rfl⟩
abbrev main_call99_v3 : Ref sig .tc := ⟨.hbm, 687, rfl⟩
abbrev main_call99_v4 : Ref sig .tc := ⟨.hbm, 688, rfl⟩
abbrev main_v143 : Ref sig .tc := ⟨.hbm, 689, rfl⟩
abbrev main_call100_v0 : Ref sig .tc := ⟨.hbm, 690, rfl⟩
abbrev main_call100_v1 : Ref sig .tc := ⟨.hbm, 691, rfl⟩
abbrev main_call100_v2 : Ref sig .tc := ⟨.hbm, 692, rfl⟩
abbrev main_call100_v3 : Ref sig .tc := ⟨.hbm, 693, rfl⟩
abbrev main_call100_v4 : Ref sig .tc := ⟨.hbm, 694, rfl⟩
abbrev main_v144 : Ref sig .tc := ⟨.hbm, 695, rfl⟩
abbrev main_call101_v0 : Ref sig .tc := ⟨.hbm, 696, rfl⟩
abbrev main_call101_v1 : Ref sig .tc := ⟨.hbm, 697, rfl⟩
abbrev main_call101_v2 : Ref sig .tc := ⟨.hbm, 698, rfl⟩
abbrev main_call101_v3 : Ref sig .tc := ⟨.hbm, 699, rfl⟩
abbrev main_call101_v4 : Ref sig .tc := ⟨.hbm, 700, rfl⟩
abbrev main_v145 : Ref sig .tc := ⟨.hbm, 701, rfl⟩
abbrev main_call102_v0 : Ref sig .tc := ⟨.hbm, 702, rfl⟩
abbrev main_call102_v1 : Ref sig .tc := ⟨.hbm, 703, rfl⟩
abbrev main_call102_v2 : Ref sig .tc := ⟨.hbm, 704, rfl⟩
abbrev main_call102_v3 : Ref sig .tc := ⟨.hbm, 705, rfl⟩
abbrev main_call102_v4 : Ref sig .tc := ⟨.hbm, 706, rfl⟩
abbrev main_v146 : Ref sig .tc := ⟨.hbm, 707, rfl⟩
abbrev main_call103_v0 : Ref sig .tc := ⟨.hbm, 708, rfl⟩
abbrev main_call103_v1 : Ref sig .tc := ⟨.hbm, 709, rfl⟩
abbrev main_call103_v2 : Ref sig .tc := ⟨.hbm, 710, rfl⟩
abbrev main_call103_v3 : Ref sig .tc := ⟨.hbm, 711, rfl⟩
abbrev main_call103_v4 : Ref sig .tc := ⟨.hbm, 712, rfl⟩
abbrev main_v147 : Ref sig .tc := ⟨.hbm, 713, rfl⟩
abbrev main_call104_v0 : Ref sig .tc := ⟨.hbm, 714, rfl⟩
abbrev main_call104_v1 : Ref sig .tc := ⟨.hbm, 715, rfl⟩
abbrev main_call104_v2 : Ref sig .tc := ⟨.hbm, 716, rfl⟩
abbrev main_call104_v3 : Ref sig .tc := ⟨.hbm, 717, rfl⟩
abbrev main_call104_v4 : Ref sig .tc := ⟨.hbm, 718, rfl⟩
abbrev main_v148 : Ref sig .tc := ⟨.hbm, 719, rfl⟩
abbrev main_call105_v0 : Ref sig .tc := ⟨.hbm, 720, rfl⟩
abbrev main_call105_v1 : Ref sig .tc := ⟨.hbm, 721, rfl⟩
abbrev main_call105_v2 : Ref sig .tc := ⟨.hbm, 722, rfl⟩
abbrev main_call105_v3 : Ref sig .tc := ⟨.hbm, 723, rfl⟩
abbrev main_call105_v4 : Ref sig .tc := ⟨.hbm, 724, rfl⟩
abbrev main_v149 : Ref sig .tc := ⟨.hbm, 725, rfl⟩
abbrev main_call106_v0 : Ref sig .tc := ⟨.hbm, 726, rfl⟩
abbrev main_call106_v1 : Ref sig .tc := ⟨.hbm, 727, rfl⟩
abbrev main_call106_v2 : Ref sig .tc := ⟨.hbm, 728, rfl⟩
abbrev main_call106_v3 : Ref sig .tc := ⟨.hbm, 729, rfl⟩
abbrev main_call106_v4 : Ref sig .tc := ⟨.hbm, 730, rfl⟩
abbrev main_v150 : Ref sig .tc := ⟨.hbm, 731, rfl⟩
abbrev main_call107_v0 : Ref sig .tc := ⟨.hbm, 732, rfl⟩
abbrev main_call107_v1 : Ref sig .tc := ⟨.hbm, 733, rfl⟩
abbrev main_call107_v2 : Ref sig .tc := ⟨.hbm, 734, rfl⟩
abbrev main_call107_v3 : Ref sig .tc := ⟨.hbm, 735, rfl⟩
abbrev main_call107_v4 : Ref sig .tc := ⟨.hbm, 736, rfl⟩
abbrev main_v151 : Ref sig .tc := ⟨.hbm, 737, rfl⟩
abbrev main_call108_v0 : Ref sig .tc := ⟨.hbm, 738, rfl⟩
abbrev main_call108_v1 : Ref sig .tc := ⟨.hbm, 739, rfl⟩
abbrev main_call108_v2 : Ref sig .tc := ⟨.hbm, 740, rfl⟩
abbrev main_call108_v3 : Ref sig .tc := ⟨.hbm, 741, rfl⟩
abbrev main_call108_v4 : Ref sig .tc := ⟨.hbm, 742, rfl⟩
abbrev main_v152 : Ref sig .tc := ⟨.hbm, 743, rfl⟩
abbrev main_call109_v0 : Ref sig .tc := ⟨.hbm, 744, rfl⟩
abbrev main_call109_v1 : Ref sig .tc := ⟨.hbm, 745, rfl⟩
abbrev main_call109_v2 : Ref sig .tc := ⟨.hbm, 746, rfl⟩
abbrev main_call109_v3 : Ref sig .tc := ⟨.hbm, 747, rfl⟩
abbrev main_call109_v4 : Ref sig .tc := ⟨.hbm, 748, rfl⟩
abbrev main_v153 : Ref sig .tc := ⟨.hbm, 749, rfl⟩
abbrev main_call110_v0 : Ref sig .tc := ⟨.hbm, 750, rfl⟩
abbrev main_call110_v1 : Ref sig .tc := ⟨.hbm, 751, rfl⟩
abbrev main_call110_v2 : Ref sig .tc := ⟨.hbm, 752, rfl⟩
abbrev main_call110_v3 : Ref sig .tc := ⟨.hbm, 753, rfl⟩
abbrev main_call110_v4 : Ref sig .tc := ⟨.hbm, 754, rfl⟩
abbrev main_v154 : Ref sig .tc := ⟨.hbm, 755, rfl⟩
abbrev main_call111_v0 : Ref sig .tc := ⟨.hbm, 756, rfl⟩
abbrev main_call111_v1 : Ref sig .tc := ⟨.hbm, 757, rfl⟩
abbrev main_call111_v2 : Ref sig .tc := ⟨.hbm, 758, rfl⟩
abbrev main_call111_v3 : Ref sig .tc := ⟨.hbm, 759, rfl⟩
abbrev main_call111_v4 : Ref sig .tc := ⟨.hbm, 760, rfl⟩
abbrev main_v155 : Ref sig .tc := ⟨.hbm, 761, rfl⟩
abbrev main_call112_v0 : Ref sig .tc := ⟨.hbm, 762, rfl⟩
abbrev main_call112_v1 : Ref sig .tc := ⟨.hbm, 763, rfl⟩
abbrev main_call112_v2 : Ref sig .tc := ⟨.hbm, 764, rfl⟩
abbrev main_call112_v3 : Ref sig .tc := ⟨.hbm, 765, rfl⟩
abbrev main_call112_v4 : Ref sig .tc := ⟨.hbm, 766, rfl⟩
abbrev main_v156 : Ref sig .tc := ⟨.hbm, 767, rfl⟩
abbrev main_call113_v0 : Ref sig .tc := ⟨.hbm, 768, rfl⟩
abbrev main_call113_v1 : Ref sig .tc := ⟨.hbm, 769, rfl⟩
abbrev main_call113_v2 : Ref sig .tc := ⟨.hbm, 770, rfl⟩
abbrev main_call113_v3 : Ref sig .tc := ⟨.hbm, 771, rfl⟩
abbrev main_call113_v4 : Ref sig .tc := ⟨.hbm, 772, rfl⟩
abbrev main_v157 : Ref sig .tc := ⟨.hbm, 773, rfl⟩
abbrev main_call114_v0 : Ref sig .tc := ⟨.hbm, 774, rfl⟩
abbrev main_call114_v1 : Ref sig .tc := ⟨.hbm, 775, rfl⟩
abbrev main_call114_v2 : Ref sig .tc := ⟨.hbm, 776, rfl⟩
abbrev main_call114_v3 : Ref sig .tc := ⟨.hbm, 777, rfl⟩
abbrev main_call114_v4 : Ref sig .tc := ⟨.hbm, 778, rfl⟩
abbrev main_v158 : Ref sig .tc := ⟨.hbm, 779, rfl⟩
abbrev main_call115_v0 : Ref sig .tc := ⟨.hbm, 780, rfl⟩
abbrev main_call115_v1 : Ref sig .tc := ⟨.hbm, 781, rfl⟩
abbrev main_call115_v2 : Ref sig .tc := ⟨.hbm, 782, rfl⟩
abbrev main_call115_v3 : Ref sig .tc := ⟨.hbm, 783, rfl⟩
abbrev main_call115_v4 : Ref sig .tc := ⟨.hbm, 784, rfl⟩
abbrev main_v159 : Ref sig .tc := ⟨.hbm, 785, rfl⟩
abbrev main_call116_v0 : Ref sig .tc := ⟨.hbm, 786, rfl⟩
abbrev main_call116_v1 : Ref sig .tc := ⟨.hbm, 787, rfl⟩
abbrev main_call116_v2 : Ref sig .tc := ⟨.hbm, 788, rfl⟩
abbrev main_call116_v3 : Ref sig .tc := ⟨.hbm, 789, rfl⟩
abbrev main_call116_v4 : Ref sig .tc := ⟨.hbm, 790, rfl⟩
abbrev main_v160 : Ref sig .tc := ⟨.hbm, 791, rfl⟩
abbrev main_call117_v0 : Ref sig .tc := ⟨.hbm, 792, rfl⟩
abbrev main_call117_v1 : Ref sig .tc := ⟨.hbm, 793, rfl⟩
abbrev main_call117_v2 : Ref sig .tc := ⟨.hbm, 794, rfl⟩
abbrev main_call117_v3 : Ref sig .tc := ⟨.hbm, 795, rfl⟩
abbrev main_call117_v4 : Ref sig .tc := ⟨.hbm, 796, rfl⟩
abbrev main_v161 : Ref sig .tc := ⟨.hbm, 797, rfl⟩
abbrev main_call118_v0 : Ref sig .tc := ⟨.hbm, 798, rfl⟩
abbrev main_call118_v1 : Ref sig .tc := ⟨.hbm, 799, rfl⟩
abbrev main_call118_v2 : Ref sig .tc := ⟨.hbm, 800, rfl⟩
abbrev main_call118_v3 : Ref sig .tc := ⟨.hbm, 801, rfl⟩
abbrev main_call118_v4 : Ref sig .tc := ⟨.hbm, 802, rfl⟩
abbrev main_v162 : Ref sig .tc := ⟨.hbm, 803, rfl⟩
abbrev main_call119_v0 : Ref sig .tc := ⟨.hbm, 804, rfl⟩
abbrev main_call119_v1 : Ref sig .tc := ⟨.hbm, 805, rfl⟩
abbrev main_call119_v2 : Ref sig .tc := ⟨.hbm, 806, rfl⟩
abbrev main_call119_v3 : Ref sig .tc := ⟨.hbm, 807, rfl⟩
abbrev main_call119_v4 : Ref sig .tc := ⟨.hbm, 808, rfl⟩
abbrev main_v163 : Ref sig .tc := ⟨.hbm, 809, rfl⟩
abbrev main_v164 : Ref sig .tc := ⟨.hbm, 810, rfl⟩
abbrev main_v165 : Ref sig .tc := ⟨.hbm, 811, rfl⟩
abbrev main_v166 : Ref sig .tc := ⟨.hbm, 812, rfl⟩
abbrev main_v167 : Ref sig .tc := ⟨.hbm, 813, rfl⟩
abbrev main_c_53 : Ref sig .tc := ⟨.hbm, 814, rfl⟩
abbrev main_v168 : Ref sig .tc := ⟨.hbm, 815, rfl⟩
abbrev main_v169 : Ref sig .tc := ⟨.hbm, 816, rfl⟩
abbrev main_v170 : Ref sig .tc := ⟨.hbm, 817, rfl⟩
abbrev main_v171 : Ref sig .tc := ⟨.hbm, 818, rfl⟩
abbrev main_call120_v0 : Ref sig .tc := ⟨.hbm, 819, rfl⟩
abbrev main_call120_v1 : Ref sig .tc := ⟨.hbm, 820, rfl⟩
abbrev main_call120_v2 : Ref sig .tc := ⟨.hbm, 821, rfl⟩
abbrev main_call120_v3 : Ref sig .tc := ⟨.hbm, 822, rfl⟩
abbrev main_v172 : Ref sig .tc := ⟨.hbm, 823, rfl⟩
abbrev main_call121_v0 : Ref sig .tc := ⟨.hbm, 824, rfl⟩
abbrev main_call121_v1 : Ref sig .tc := ⟨.hbm, 825, rfl⟩
abbrev main_call121_v2 : Ref sig .tc := ⟨.hbm, 826, rfl⟩
abbrev main_call121_v3 : Ref sig .tc := ⟨.hbm, 827, rfl⟩
abbrev main_v173 : Ref sig .tc := ⟨.hbm, 828, rfl⟩
abbrev main_call122_v0 : Ref sig .tc := ⟨.hbm, 829, rfl⟩
abbrev main_call122_v1 : Ref sig .tc := ⟨.hbm, 830, rfl⟩
abbrev main_call122_v2 : Ref sig .tc := ⟨.hbm, 831, rfl⟩
abbrev main_call122_v3 : Ref sig .tc := ⟨.hbm, 832, rfl⟩
abbrev main_call122_v4 : Ref sig .tc := ⟨.hbm, 833, rfl⟩
abbrev main_v174 : Ref sig .tc := ⟨.hbm, 834, rfl⟩
abbrev main_call123_v0 : Ref sig .tc := ⟨.hbm, 835, rfl⟩
abbrev main_call123_v1 : Ref sig .tc := ⟨.hbm, 836, rfl⟩
abbrev main_call123_v2 : Ref sig .tc := ⟨.hbm, 837, rfl⟩
abbrev main_call123_v3 : Ref sig .tc := ⟨.hbm, 838, rfl⟩
abbrev main_call123_v4 : Ref sig .tc := ⟨.hbm, 839, rfl⟩
abbrev main_v175 : Ref sig .tc := ⟨.hbm, 840, rfl⟩
abbrev main_call124_v0 : Ref sig .tc := ⟨.hbm, 841, rfl⟩
abbrev main_call124_v1 : Ref sig .tc := ⟨.hbm, 842, rfl⟩
abbrev main_call124_v2 : Ref sig .tc := ⟨.hbm, 843, rfl⟩
abbrev main_call124_v3 : Ref sig .tc := ⟨.hbm, 844, rfl⟩
abbrev main_call124_v4 : Ref sig .tc := ⟨.hbm, 845, rfl⟩
abbrev main_v176 : Ref sig .tc := ⟨.hbm, 846, rfl⟩
abbrev main_call125_v0 : Ref sig .tc := ⟨.hbm, 847, rfl⟩
abbrev main_call125_v1 : Ref sig .tc := ⟨.hbm, 848, rfl⟩
abbrev main_call125_v2 : Ref sig .tc := ⟨.hbm, 849, rfl⟩
abbrev main_call125_v3 : Ref sig .tc := ⟨.hbm, 850, rfl⟩
abbrev main_call125_v4 : Ref sig .tc := ⟨.hbm, 851, rfl⟩
abbrev main_v177 : Ref sig .tc := ⟨.hbm, 852, rfl⟩
abbrev main_call126_v0 : Ref sig .tc := ⟨.hbm, 853, rfl⟩
abbrev main_call126_v1 : Ref sig .tc := ⟨.hbm, 854, rfl⟩
abbrev main_call126_v2 : Ref sig .tc := ⟨.hbm, 855, rfl⟩
abbrev main_call126_v3 : Ref sig .tc := ⟨.hbm, 856, rfl⟩
abbrev main_call126_v4 : Ref sig .tc := ⟨.hbm, 857, rfl⟩
abbrev main_v178 : Ref sig .tc := ⟨.hbm, 858, rfl⟩
abbrev main_call127_v0 : Ref sig .tc := ⟨.hbm, 859, rfl⟩
abbrev main_call127_v1 : Ref sig .tc := ⟨.hbm, 860, rfl⟩
abbrev main_call127_v2 : Ref sig .tc := ⟨.hbm, 861, rfl⟩
abbrev main_call127_v3 : Ref sig .tc := ⟨.hbm, 862, rfl⟩
abbrev main_call127_v4 : Ref sig .tc := ⟨.hbm, 863, rfl⟩
abbrev main_v179 : Ref sig .tc := ⟨.hbm, 864, rfl⟩
abbrev main_call128_v0 : Ref sig .tc := ⟨.hbm, 865, rfl⟩
abbrev main_call128_v1 : Ref sig .tc := ⟨.hbm, 866, rfl⟩
abbrev main_call128_v2 : Ref sig .tc := ⟨.hbm, 867, rfl⟩
abbrev main_call128_v3 : Ref sig .tc := ⟨.hbm, 868, rfl⟩
abbrev main_call128_v4 : Ref sig .tc := ⟨.hbm, 869, rfl⟩
abbrev main_v180 : Ref sig .tc := ⟨.hbm, 870, rfl⟩
abbrev main_call129_v0 : Ref sig .tc := ⟨.hbm, 871, rfl⟩
abbrev main_call129_v1 : Ref sig .tc := ⟨.hbm, 872, rfl⟩
abbrev main_call129_v2 : Ref sig .tc := ⟨.hbm, 873, rfl⟩
abbrev main_call129_v3 : Ref sig .tc := ⟨.hbm, 874, rfl⟩
abbrev main_call129_v4 : Ref sig .tc := ⟨.hbm, 875, rfl⟩
abbrev main_v181 : Ref sig .tc := ⟨.hbm, 876, rfl⟩
abbrev main_call130_v0 : Ref sig .tc := ⟨.hbm, 877, rfl⟩
abbrev main_call130_v1 : Ref sig .tc := ⟨.hbm, 878, rfl⟩
abbrev main_call130_v2 : Ref sig .tc := ⟨.hbm, 879, rfl⟩
abbrev main_call130_v3 : Ref sig .tc := ⟨.hbm, 880, rfl⟩
abbrev main_call130_v4 : Ref sig .tc := ⟨.hbm, 881, rfl⟩
abbrev main_v182 : Ref sig .tc := ⟨.hbm, 882, rfl⟩
abbrev main_call131_v0 : Ref sig .tc := ⟨.hbm, 883, rfl⟩
abbrev main_call131_v1 : Ref sig .tc := ⟨.hbm, 884, rfl⟩
abbrev main_call131_v2 : Ref sig .tc := ⟨.hbm, 885, rfl⟩
abbrev main_call131_v3 : Ref sig .tc := ⟨.hbm, 886, rfl⟩
abbrev main_call131_v4 : Ref sig .tc := ⟨.hbm, 887, rfl⟩
abbrev main_v183 : Ref sig .tc := ⟨.hbm, 888, rfl⟩
abbrev main_call132_v0 : Ref sig .tc := ⟨.hbm, 889, rfl⟩
abbrev main_call132_v1 : Ref sig .tc := ⟨.hbm, 890, rfl⟩
abbrev main_call132_v2 : Ref sig .tc := ⟨.hbm, 891, rfl⟩
abbrev main_call132_v3 : Ref sig .tc := ⟨.hbm, 892, rfl⟩
abbrev main_call132_v4 : Ref sig .tc := ⟨.hbm, 893, rfl⟩
abbrev main_v184 : Ref sig .tc := ⟨.hbm, 894, rfl⟩
abbrev main_call133_v0 : Ref sig .tc := ⟨.hbm, 895, rfl⟩
abbrev main_call133_v1 : Ref sig .tc := ⟨.hbm, 896, rfl⟩
abbrev main_call133_v2 : Ref sig .tc := ⟨.hbm, 897, rfl⟩
abbrev main_call133_v3 : Ref sig .tc := ⟨.hbm, 898, rfl⟩
abbrev main_call133_v4 : Ref sig .tc := ⟨.hbm, 899, rfl⟩
abbrev main_v185 : Ref sig .tc := ⟨.hbm, 900, rfl⟩
abbrev main_call134_v0 : Ref sig .tc := ⟨.hbm, 901, rfl⟩
abbrev main_call134_v1 : Ref sig .tc := ⟨.hbm, 902, rfl⟩
abbrev main_call134_v2 : Ref sig .tc := ⟨.hbm, 903, rfl⟩
abbrev main_call134_v3 : Ref sig .tc := ⟨.hbm, 904, rfl⟩
abbrev main_call134_v4 : Ref sig .tc := ⟨.hbm, 905, rfl⟩
abbrev main_v186 : Ref sig .tc := ⟨.hbm, 906, rfl⟩
abbrev main_call135_v0 : Ref sig .tc := ⟨.hbm, 907, rfl⟩
abbrev main_call135_v1 : Ref sig .tc := ⟨.hbm, 908, rfl⟩
abbrev main_call135_v2 : Ref sig .tc := ⟨.hbm, 909, rfl⟩
abbrev main_call135_v3 : Ref sig .tc := ⟨.hbm, 910, rfl⟩
abbrev main_call135_v4 : Ref sig .tc := ⟨.hbm, 911, rfl⟩
abbrev main_v187 : Ref sig .tc := ⟨.hbm, 912, rfl⟩
abbrev main_call136_v0 : Ref sig .tc := ⟨.hbm, 913, rfl⟩
abbrev main_call136_v1 : Ref sig .tc := ⟨.hbm, 914, rfl⟩
abbrev main_call136_v2 : Ref sig .tc := ⟨.hbm, 915, rfl⟩
abbrev main_call136_v3 : Ref sig .tc := ⟨.hbm, 916, rfl⟩
abbrev main_call136_v4 : Ref sig .tc := ⟨.hbm, 917, rfl⟩
abbrev main_v188 : Ref sig .tc := ⟨.hbm, 918, rfl⟩
abbrev main_call137_v0 : Ref sig .tc := ⟨.hbm, 919, rfl⟩
abbrev main_call137_v1 : Ref sig .tc := ⟨.hbm, 920, rfl⟩
abbrev main_call137_v2 : Ref sig .tc := ⟨.hbm, 921, rfl⟩
abbrev main_call137_v3 : Ref sig .tc := ⟨.hbm, 922, rfl⟩
abbrev main_call137_v4 : Ref sig .tc := ⟨.hbm, 923, rfl⟩
abbrev main_v189 : Ref sig .tc := ⟨.hbm, 924, rfl⟩
abbrev main_call138_v0 : Ref sig .tc := ⟨.hbm, 925, rfl⟩
abbrev main_call138_v1 : Ref sig .tc := ⟨.hbm, 926, rfl⟩
abbrev main_call138_v2 : Ref sig .tc := ⟨.hbm, 927, rfl⟩
abbrev main_call138_v3 : Ref sig .tc := ⟨.hbm, 928, rfl⟩
abbrev main_call138_v4 : Ref sig .tc := ⟨.hbm, 929, rfl⟩
abbrev main_v190 : Ref sig .tc := ⟨.hbm, 930, rfl⟩
abbrev main_call139_v0 : Ref sig .tc := ⟨.hbm, 931, rfl⟩
abbrev main_call139_v1 : Ref sig .tc := ⟨.hbm, 932, rfl⟩
abbrev main_call139_v2 : Ref sig .tc := ⟨.hbm, 933, rfl⟩
abbrev main_call139_v3 : Ref sig .tc := ⟨.hbm, 934, rfl⟩
abbrev main_call139_v4 : Ref sig .tc := ⟨.hbm, 935, rfl⟩
abbrev main_v191 : Ref sig .tc := ⟨.hbm, 936, rfl⟩
abbrev main_call140_v0 : Ref sig .tc := ⟨.hbm, 937, rfl⟩
abbrev main_call140_v1 : Ref sig .tc := ⟨.hbm, 938, rfl⟩
abbrev main_call140_v2 : Ref sig .tc := ⟨.hbm, 939, rfl⟩
abbrev main_call140_v3 : Ref sig .tc := ⟨.hbm, 940, rfl⟩
abbrev main_call140_v4 : Ref sig .tc := ⟨.hbm, 941, rfl⟩
abbrev main_v192 : Ref sig .tc := ⟨.hbm, 942, rfl⟩
abbrev main_call141_v0 : Ref sig .tc := ⟨.hbm, 943, rfl⟩
abbrev main_call141_v1 : Ref sig .tc := ⟨.hbm, 944, rfl⟩
abbrev main_call141_v2 : Ref sig .tc := ⟨.hbm, 945, rfl⟩
abbrev main_call141_v3 : Ref sig .tc := ⟨.hbm, 946, rfl⟩
abbrev main_call141_v4 : Ref sig .tc := ⟨.hbm, 947, rfl⟩
abbrev main_v193 : Ref sig .tc := ⟨.hbm, 948, rfl⟩
abbrev main_call142_v0 : Ref sig .tc := ⟨.hbm, 949, rfl⟩
abbrev main_call142_v1 : Ref sig .tc := ⟨.hbm, 950, rfl⟩
abbrev main_call142_v2 : Ref sig .tc := ⟨.hbm, 951, rfl⟩
abbrev main_call142_v3 : Ref sig .tc := ⟨.hbm, 952, rfl⟩
abbrev main_call142_v4 : Ref sig .tc := ⟨.hbm, 953, rfl⟩
abbrev main_v194 : Ref sig .tc := ⟨.hbm, 954, rfl⟩
abbrev main_call143_v0 : Ref sig .tc := ⟨.hbm, 955, rfl⟩
abbrev main_call143_v1 : Ref sig .tc := ⟨.hbm, 956, rfl⟩
abbrev main_call143_v2 : Ref sig .tc := ⟨.hbm, 957, rfl⟩
abbrev main_call143_v3 : Ref sig .tc := ⟨.hbm, 958, rfl⟩
abbrev main_call143_v4 : Ref sig .tc := ⟨.hbm, 959, rfl⟩
abbrev main_v195 : Ref sig .tc := ⟨.hbm, 960, rfl⟩
abbrev main_v196 : Ref sig .tc := ⟨.hbm, 961, rfl⟩
abbrev main_v197 : Ref sig .tc := ⟨.hbm, 962, rfl⟩
abbrev main_v198 : Ref sig .tc := ⟨.hbm, 963, rfl⟩
abbrev main_v199 : Ref sig .tc := ⟨.hbm, 964, rfl⟩
abbrev main_c_54 : Ref sig .tc := ⟨.hbm, 965, rfl⟩
abbrev main_v200 : Ref sig .tc := ⟨.hbm, 966, rfl⟩
abbrev main_v201 : Ref sig .tc := ⟨.hbm, 967, rfl⟩
abbrev main_v202 : Ref sig .tc := ⟨.hbm, 968, rfl⟩
abbrev main_v203 : Ref sig .tc := ⟨.hbm, 969, rfl⟩
abbrev main_call144_v0 : Ref sig .tc := ⟨.hbm, 970, rfl⟩
abbrev main_call144_v1 : Ref sig .tc := ⟨.hbm, 971, rfl⟩
abbrev main_call144_v2 : Ref sig .tc := ⟨.hbm, 972, rfl⟩
abbrev main_call144_v3 : Ref sig .tc := ⟨.hbm, 973, rfl⟩
abbrev main_v204 : Ref sig .tc := ⟨.hbm, 974, rfl⟩
abbrev main_call145_v0 : Ref sig .tc := ⟨.hbm, 975, rfl⟩
abbrev main_call145_v1 : Ref sig .tc := ⟨.hbm, 976, rfl⟩
abbrev main_call145_v2 : Ref sig .tc := ⟨.hbm, 977, rfl⟩
abbrev main_call145_v3 : Ref sig .tc := ⟨.hbm, 978, rfl⟩
abbrev main_v205 : Ref sig .tc := ⟨.hbm, 979, rfl⟩
abbrev main_call146_v0 : Ref sig .tc := ⟨.hbm, 980, rfl⟩
abbrev main_call146_v1 : Ref sig .tc := ⟨.hbm, 981, rfl⟩
abbrev main_call146_v2 : Ref sig .tc := ⟨.hbm, 982, rfl⟩
abbrev main_call146_v3 : Ref sig .tc := ⟨.hbm, 983, rfl⟩
abbrev main_call146_v4 : Ref sig .tc := ⟨.hbm, 984, rfl⟩
abbrev main_v206 : Ref sig .tc := ⟨.hbm, 985, rfl⟩
abbrev main_call147_v0 : Ref sig .tc := ⟨.hbm, 986, rfl⟩
abbrev main_call147_v1 : Ref sig .tc := ⟨.hbm, 987, rfl⟩
abbrev main_call147_v2 : Ref sig .tc := ⟨.hbm, 988, rfl⟩
abbrev main_call147_v3 : Ref sig .tc := ⟨.hbm, 989, rfl⟩
abbrev main_call147_v4 : Ref sig .tc := ⟨.hbm, 990, rfl⟩
abbrev main_v207 : Ref sig .tc := ⟨.hbm, 991, rfl⟩
abbrev main_call148_v0 : Ref sig .tc := ⟨.hbm, 992, rfl⟩
abbrev main_call148_v1 : Ref sig .tc := ⟨.hbm, 993, rfl⟩
abbrev main_call148_v2 : Ref sig .tc := ⟨.hbm, 994, rfl⟩
abbrev main_call148_v3 : Ref sig .tc := ⟨.hbm, 995, rfl⟩
abbrev main_call148_v4 : Ref sig .tc := ⟨.hbm, 996, rfl⟩
abbrev main_v208 : Ref sig .tc := ⟨.hbm, 997, rfl⟩
abbrev main_call149_v0 : Ref sig .tc := ⟨.hbm, 998, rfl⟩
abbrev main_call149_v1 : Ref sig .tc := ⟨.hbm, 999, rfl⟩
abbrev main_call149_v2 : Ref sig .tc := ⟨.hbm, 1000, rfl⟩
abbrev main_call149_v3 : Ref sig .tc := ⟨.hbm, 1001, rfl⟩
abbrev main_call149_v4 : Ref sig .tc := ⟨.hbm, 1002, rfl⟩
abbrev main_v209 : Ref sig .tc := ⟨.hbm, 1003, rfl⟩
abbrev main_call150_v0 : Ref sig .tc := ⟨.hbm, 1004, rfl⟩
abbrev main_call150_v1 : Ref sig .tc := ⟨.hbm, 1005, rfl⟩
abbrev main_call150_v2 : Ref sig .tc := ⟨.hbm, 1006, rfl⟩
abbrev main_call150_v3 : Ref sig .tc := ⟨.hbm, 1007, rfl⟩
abbrev main_call150_v4 : Ref sig .tc := ⟨.hbm, 1008, rfl⟩
abbrev main_v210 : Ref sig .tc := ⟨.hbm, 1009, rfl⟩
abbrev main_call151_v0 : Ref sig .tc := ⟨.hbm, 1010, rfl⟩
abbrev main_call151_v1 : Ref sig .tc := ⟨.hbm, 1011, rfl⟩
abbrev main_call151_v2 : Ref sig .tc := ⟨.hbm, 1012, rfl⟩
abbrev main_call151_v3 : Ref sig .tc := ⟨.hbm, 1013, rfl⟩
abbrev main_call151_v4 : Ref sig .tc := ⟨.hbm, 1014, rfl⟩
abbrev main_v211 : Ref sig .tc := ⟨.hbm, 1015, rfl⟩
abbrev main_call152_v0 : Ref sig .tc := ⟨.hbm, 1016, rfl⟩
abbrev main_call152_v1 : Ref sig .tc := ⟨.hbm, 1017, rfl⟩
abbrev main_call152_v2 : Ref sig .tc := ⟨.hbm, 1018, rfl⟩
abbrev main_call152_v3 : Ref sig .tc := ⟨.hbm, 1019, rfl⟩
abbrev main_call152_v4 : Ref sig .tc := ⟨.hbm, 1020, rfl⟩
abbrev main_v212 : Ref sig .tc := ⟨.hbm, 1021, rfl⟩
abbrev main_call153_v0 : Ref sig .tc := ⟨.hbm, 1022, rfl⟩
abbrev main_call153_v1 : Ref sig .tc := ⟨.hbm, 1023, rfl⟩
abbrev main_call153_v2 : Ref sig .tc := ⟨.hbm, 1024, rfl⟩
abbrev main_call153_v3 : Ref sig .tc := ⟨.hbm, 1025, rfl⟩
abbrev main_call153_v4 : Ref sig .tc := ⟨.hbm, 1026, rfl⟩
abbrev main_v213 : Ref sig .tc := ⟨.hbm, 1027, rfl⟩
abbrev main_call154_v0 : Ref sig .tc := ⟨.hbm, 1028, rfl⟩
abbrev main_call154_v1 : Ref sig .tc := ⟨.hbm, 1029, rfl⟩
abbrev main_call154_v2 : Ref sig .tc := ⟨.hbm, 1030, rfl⟩
abbrev main_call154_v3 : Ref sig .tc := ⟨.hbm, 1031, rfl⟩
abbrev main_call154_v4 : Ref sig .tc := ⟨.hbm, 1032, rfl⟩
abbrev main_v214 : Ref sig .tc := ⟨.hbm, 1033, rfl⟩
abbrev main_call155_v0 : Ref sig .tc := ⟨.hbm, 1034, rfl⟩
abbrev main_call155_v1 : Ref sig .tc := ⟨.hbm, 1035, rfl⟩
abbrev main_call155_v2 : Ref sig .tc := ⟨.hbm, 1036, rfl⟩
abbrev main_call155_v3 : Ref sig .tc := ⟨.hbm, 1037, rfl⟩
abbrev main_call155_v4 : Ref sig .tc := ⟨.hbm, 1038, rfl⟩
abbrev main_v215 : Ref sig .tc := ⟨.hbm, 1039, rfl⟩
abbrev main_call156_v0 : Ref sig .tc := ⟨.hbm, 1040, rfl⟩
abbrev main_call156_v1 : Ref sig .tc := ⟨.hbm, 1041, rfl⟩
abbrev main_call156_v2 : Ref sig .tc := ⟨.hbm, 1042, rfl⟩
abbrev main_call156_v3 : Ref sig .tc := ⟨.hbm, 1043, rfl⟩
abbrev main_call156_v4 : Ref sig .tc := ⟨.hbm, 1044, rfl⟩
abbrev main_v216 : Ref sig .tc := ⟨.hbm, 1045, rfl⟩
abbrev main_call157_v0 : Ref sig .tc := ⟨.hbm, 1046, rfl⟩
abbrev main_call157_v1 : Ref sig .tc := ⟨.hbm, 1047, rfl⟩
abbrev main_call157_v2 : Ref sig .tc := ⟨.hbm, 1048, rfl⟩
abbrev main_call157_v3 : Ref sig .tc := ⟨.hbm, 1049, rfl⟩
abbrev main_call157_v4 : Ref sig .tc := ⟨.hbm, 1050, rfl⟩
abbrev main_v217 : Ref sig .tc := ⟨.hbm, 1051, rfl⟩
abbrev main_call158_v0 : Ref sig .tc := ⟨.hbm, 1052, rfl⟩
abbrev main_call158_v1 : Ref sig .tc := ⟨.hbm, 1053, rfl⟩
abbrev main_call158_v2 : Ref sig .tc := ⟨.hbm, 1054, rfl⟩
abbrev main_call158_v3 : Ref sig .tc := ⟨.hbm, 1055, rfl⟩
abbrev main_call158_v4 : Ref sig .tc := ⟨.hbm, 1056, rfl⟩
abbrev main_v218 : Ref sig .tc := ⟨.hbm, 1057, rfl⟩
abbrev main_call159_v0 : Ref sig .tc := ⟨.hbm, 1058, rfl⟩
abbrev main_call159_v1 : Ref sig .tc := ⟨.hbm, 1059, rfl⟩
abbrev main_call159_v2 : Ref sig .tc := ⟨.hbm, 1060, rfl⟩
abbrev main_call159_v3 : Ref sig .tc := ⟨.hbm, 1061, rfl⟩
abbrev main_call159_v4 : Ref sig .tc := ⟨.hbm, 1062, rfl⟩
abbrev main_v219 : Ref sig .tc := ⟨.hbm, 1063, rfl⟩
abbrev main_call160_v0 : Ref sig .tc := ⟨.hbm, 1064, rfl⟩
abbrev main_call160_v1 : Ref sig .tc := ⟨.hbm, 1065, rfl⟩
abbrev main_call160_v2 : Ref sig .tc := ⟨.hbm, 1066, rfl⟩
abbrev main_call160_v3 : Ref sig .tc := ⟨.hbm, 1067, rfl⟩
abbrev main_call160_v4 : Ref sig .tc := ⟨.hbm, 1068, rfl⟩
abbrev main_v220 : Ref sig .tc := ⟨.hbm, 1069, rfl⟩
abbrev main_call161_v0 : Ref sig .tc := ⟨.hbm, 1070, rfl⟩
abbrev main_call161_v1 : Ref sig .tc := ⟨.hbm, 1071, rfl⟩
abbrev main_call161_v2 : Ref sig .tc := ⟨.hbm, 1072, rfl⟩
abbrev main_call161_v3 : Ref sig .tc := ⟨.hbm, 1073, rfl⟩
abbrev main_call161_v4 : Ref sig .tc := ⟨.hbm, 1074, rfl⟩
abbrev main_v221 : Ref sig .tc := ⟨.hbm, 1075, rfl⟩
abbrev main_call162_v0 : Ref sig .tc := ⟨.hbm, 1076, rfl⟩
abbrev main_call162_v1 : Ref sig .tc := ⟨.hbm, 1077, rfl⟩
abbrev main_call162_v2 : Ref sig .tc := ⟨.hbm, 1078, rfl⟩
abbrev main_call162_v3 : Ref sig .tc := ⟨.hbm, 1079, rfl⟩
abbrev main_call162_v4 : Ref sig .tc := ⟨.hbm, 1080, rfl⟩
abbrev main_v222 : Ref sig .tc := ⟨.hbm, 1081, rfl⟩
abbrev main_call163_v0 : Ref sig .tc := ⟨.hbm, 1082, rfl⟩
abbrev main_call163_v1 : Ref sig .tc := ⟨.hbm, 1083, rfl⟩
abbrev main_call163_v2 : Ref sig .tc := ⟨.hbm, 1084, rfl⟩
abbrev main_call163_v3 : Ref sig .tc := ⟨.hbm, 1085, rfl⟩
abbrev main_call163_v4 : Ref sig .tc := ⟨.hbm, 1086, rfl⟩
abbrev main_v223 : Ref sig .tc := ⟨.hbm, 1087, rfl⟩
abbrev main_call164_v0 : Ref sig .tc := ⟨.hbm, 1088, rfl⟩
abbrev main_call164_v1 : Ref sig .tc := ⟨.hbm, 1089, rfl⟩
abbrev main_call164_v2 : Ref sig .tc := ⟨.hbm, 1090, rfl⟩
abbrev main_call164_v3 : Ref sig .tc := ⟨.hbm, 1091, rfl⟩
abbrev main_call164_v4 : Ref sig .tc := ⟨.hbm, 1092, rfl⟩
abbrev main_v224 : Ref sig .tc := ⟨.hbm, 1093, rfl⟩
abbrev main_call165_v0 : Ref sig .tc := ⟨.hbm, 1094, rfl⟩
abbrev main_call165_v1 : Ref sig .tc := ⟨.hbm, 1095, rfl⟩
abbrev main_call165_v2 : Ref sig .tc := ⟨.hbm, 1096, rfl⟩
abbrev main_call165_v3 : Ref sig .tc := ⟨.hbm, 1097, rfl⟩
abbrev main_call165_v4 : Ref sig .tc := ⟨.hbm, 1098, rfl⟩
abbrev main_v225 : Ref sig .tc := ⟨.hbm, 1099, rfl⟩
abbrev main_call166_v0 : Ref sig .tc := ⟨.hbm, 1100, rfl⟩
abbrev main_call166_v1 : Ref sig .tc := ⟨.hbm, 1101, rfl⟩
abbrev main_call166_v2 : Ref sig .tc := ⟨.hbm, 1102, rfl⟩
abbrev main_call166_v3 : Ref sig .tc := ⟨.hbm, 1103, rfl⟩
abbrev main_call166_v4 : Ref sig .tc := ⟨.hbm, 1104, rfl⟩
abbrev main_v226 : Ref sig .tc := ⟨.hbm, 1105, rfl⟩
abbrev main_call167_v0 : Ref sig .tc := ⟨.hbm, 1106, rfl⟩
abbrev main_call167_v1 : Ref sig .tc := ⟨.hbm, 1107, rfl⟩
abbrev main_call167_v2 : Ref sig .tc := ⟨.hbm, 1108, rfl⟩
abbrev main_call167_v3 : Ref sig .tc := ⟨.hbm, 1109, rfl⟩
abbrev main_call167_v4 : Ref sig .tc := ⟨.hbm, 1110, rfl⟩
abbrev main_v227 : Ref sig .tc := ⟨.hbm, 1111, rfl⟩
abbrev main_v228 : Ref sig .tc := ⟨.hbm, 1112, rfl⟩
abbrev main_v229 : Ref sig .tc := ⟨.hbm, 1113, rfl⟩
abbrev main_v230 : Ref sig .tc := ⟨.hbm, 1114, rfl⟩
abbrev main_v231 : Ref sig .tc := ⟨.hbm, 1115, rfl⟩
abbrev main_c_55 : Ref sig .tc := ⟨.hbm, 1116, rfl⟩
abbrev main_v232 : Ref sig .tc := ⟨.hbm, 1117, rfl⟩
abbrev main_v233 : Ref sig .tc := ⟨.hbm, 1118, rfl⟩
abbrev main_v234 : Ref sig .tc := ⟨.hbm, 1119, rfl⟩
abbrev main_v235 : Ref sig .tc := ⟨.hbm, 1120, rfl⟩
abbrev main_call168_v0 : Ref sig .tc := ⟨.hbm, 1121, rfl⟩
abbrev main_call168_v1 : Ref sig .tc := ⟨.hbm, 1122, rfl⟩
abbrev main_call168_v2 : Ref sig .tc := ⟨.hbm, 1123, rfl⟩
abbrev main_call168_v3 : Ref sig .tc := ⟨.hbm, 1124, rfl⟩
abbrev main_v236 : Ref sig .tc := ⟨.hbm, 1125, rfl⟩
abbrev main_call169_v0 : Ref sig .tc := ⟨.hbm, 1126, rfl⟩
abbrev main_call169_v1 : Ref sig .tc := ⟨.hbm, 1127, rfl⟩
abbrev main_call169_v2 : Ref sig .tc := ⟨.hbm, 1128, rfl⟩
abbrev main_call169_v3 : Ref sig .tc := ⟨.hbm, 1129, rfl⟩
abbrev main_v237 : Ref sig .tc := ⟨.hbm, 1130, rfl⟩
abbrev main_call170_v0 : Ref sig .tc := ⟨.hbm, 1131, rfl⟩
abbrev main_call170_v1 : Ref sig .tc := ⟨.hbm, 1132, rfl⟩
abbrev main_call170_v2 : Ref sig .tc := ⟨.hbm, 1133, rfl⟩
abbrev main_call170_v3 : Ref sig .tc := ⟨.hbm, 1134, rfl⟩
abbrev main_call170_v4 : Ref sig .tc := ⟨.hbm, 1135, rfl⟩
abbrev main_v238 : Ref sig .tc := ⟨.hbm, 1136, rfl⟩
abbrev main_call171_v0 : Ref sig .tc := ⟨.hbm, 1137, rfl⟩
abbrev main_call171_v1 : Ref sig .tc := ⟨.hbm, 1138, rfl⟩
abbrev main_call171_v2 : Ref sig .tc := ⟨.hbm, 1139, rfl⟩
abbrev main_call171_v3 : Ref sig .tc := ⟨.hbm, 1140, rfl⟩
abbrev main_call171_v4 : Ref sig .tc := ⟨.hbm, 1141, rfl⟩
abbrev main_v239 : Ref sig .tc := ⟨.hbm, 1142, rfl⟩
abbrev main_call172_v0 : Ref sig .tc := ⟨.hbm, 1143, rfl⟩
abbrev main_call172_v1 : Ref sig .tc := ⟨.hbm, 1144, rfl⟩
abbrev main_call172_v2 : Ref sig .tc := ⟨.hbm, 1145, rfl⟩
abbrev main_call172_v3 : Ref sig .tc := ⟨.hbm, 1146, rfl⟩
abbrev main_call172_v4 : Ref sig .tc := ⟨.hbm, 1147, rfl⟩
abbrev main_v240 : Ref sig .tc := ⟨.hbm, 1148, rfl⟩
abbrev main_call173_v0 : Ref sig .tc := ⟨.hbm, 1149, rfl⟩
abbrev main_call173_v1 : Ref sig .tc := ⟨.hbm, 1150, rfl⟩
abbrev main_call173_v2 : Ref sig .tc := ⟨.hbm, 1151, rfl⟩
abbrev main_call173_v3 : Ref sig .tc := ⟨.hbm, 1152, rfl⟩
abbrev main_call173_v4 : Ref sig .tc := ⟨.hbm, 1153, rfl⟩
abbrev main_v241 : Ref sig .tc := ⟨.hbm, 1154, rfl⟩
abbrev main_call174_v0 : Ref sig .tc := ⟨.hbm, 1155, rfl⟩
abbrev main_call174_v1 : Ref sig .tc := ⟨.hbm, 1156, rfl⟩
abbrev main_call174_v2 : Ref sig .tc := ⟨.hbm, 1157, rfl⟩
abbrev main_call174_v3 : Ref sig .tc := ⟨.hbm, 1158, rfl⟩
abbrev main_call174_v4 : Ref sig .tc := ⟨.hbm, 1159, rfl⟩
abbrev main_v242 : Ref sig .tc := ⟨.hbm, 1160, rfl⟩
abbrev main_call175_v0 : Ref sig .tc := ⟨.hbm, 1161, rfl⟩
abbrev main_call175_v1 : Ref sig .tc := ⟨.hbm, 1162, rfl⟩
abbrev main_call175_v2 : Ref sig .tc := ⟨.hbm, 1163, rfl⟩
abbrev main_call175_v3 : Ref sig .tc := ⟨.hbm, 1164, rfl⟩
abbrev main_call175_v4 : Ref sig .tc := ⟨.hbm, 1165, rfl⟩
abbrev main_v243 : Ref sig .tc := ⟨.hbm, 1166, rfl⟩
abbrev main_call176_v0 : Ref sig .tc := ⟨.hbm, 1167, rfl⟩
abbrev main_call176_v1 : Ref sig .tc := ⟨.hbm, 1168, rfl⟩
abbrev main_call176_v2 : Ref sig .tc := ⟨.hbm, 1169, rfl⟩
abbrev main_call176_v3 : Ref sig .tc := ⟨.hbm, 1170, rfl⟩
abbrev main_call176_v4 : Ref sig .tc := ⟨.hbm, 1171, rfl⟩
abbrev main_v244 : Ref sig .tc := ⟨.hbm, 1172, rfl⟩
abbrev main_call177_v0 : Ref sig .tc := ⟨.hbm, 1173, rfl⟩
abbrev main_call177_v1 : Ref sig .tc := ⟨.hbm, 1174, rfl⟩
abbrev main_call177_v2 : Ref sig .tc := ⟨.hbm, 1175, rfl⟩
abbrev main_call177_v3 : Ref sig .tc := ⟨.hbm, 1176, rfl⟩
abbrev main_call177_v4 : Ref sig .tc := ⟨.hbm, 1177, rfl⟩
abbrev main_v245 : Ref sig .tc := ⟨.hbm, 1178, rfl⟩
abbrev main_call178_v0 : Ref sig .tc := ⟨.hbm, 1179, rfl⟩
abbrev main_call178_v1 : Ref sig .tc := ⟨.hbm, 1180, rfl⟩
abbrev main_call178_v2 : Ref sig .tc := ⟨.hbm, 1181, rfl⟩
abbrev main_call178_v3 : Ref sig .tc := ⟨.hbm, 1182, rfl⟩
abbrev main_call178_v4 : Ref sig .tc := ⟨.hbm, 1183, rfl⟩
abbrev main_v246 : Ref sig .tc := ⟨.hbm, 1184, rfl⟩
abbrev main_call179_v0 : Ref sig .tc := ⟨.hbm, 1185, rfl⟩
abbrev main_call179_v1 : Ref sig .tc := ⟨.hbm, 1186, rfl⟩
abbrev main_call179_v2 : Ref sig .tc := ⟨.hbm, 1187, rfl⟩
abbrev main_call179_v3 : Ref sig .tc := ⟨.hbm, 1188, rfl⟩
abbrev main_call179_v4 : Ref sig .tc := ⟨.hbm, 1189, rfl⟩
abbrev main_v247 : Ref sig .tc := ⟨.hbm, 1190, rfl⟩
abbrev main_call180_v0 : Ref sig .tc := ⟨.hbm, 1191, rfl⟩
abbrev main_call180_v1 : Ref sig .tc := ⟨.hbm, 1192, rfl⟩
abbrev main_call180_v2 : Ref sig .tc := ⟨.hbm, 1193, rfl⟩
abbrev main_call180_v3 : Ref sig .tc := ⟨.hbm, 1194, rfl⟩
abbrev main_call180_v4 : Ref sig .tc := ⟨.hbm, 1195, rfl⟩
abbrev main_v248 : Ref sig .tc := ⟨.hbm, 1196, rfl⟩
abbrev main_call181_v0 : Ref sig .tc := ⟨.hbm, 1197, rfl⟩
abbrev main_call181_v1 : Ref sig .tc := ⟨.hbm, 1198, rfl⟩
abbrev main_call181_v2 : Ref sig .tc := ⟨.hbm, 1199, rfl⟩
abbrev main_call181_v3 : Ref sig .tc := ⟨.hbm, 1200, rfl⟩
abbrev main_call181_v4 : Ref sig .tc := ⟨.hbm, 1201, rfl⟩
abbrev main_v249 : Ref sig .tc := ⟨.hbm, 1202, rfl⟩
abbrev main_call182_v0 : Ref sig .tc := ⟨.hbm, 1203, rfl⟩
abbrev main_call182_v1 : Ref sig .tc := ⟨.hbm, 1204, rfl⟩
abbrev main_call182_v2 : Ref sig .tc := ⟨.hbm, 1205, rfl⟩
abbrev main_call182_v3 : Ref sig .tc := ⟨.hbm, 1206, rfl⟩
abbrev main_call182_v4 : Ref sig .tc := ⟨.hbm, 1207, rfl⟩
abbrev main_v250 : Ref sig .tc := ⟨.hbm, 1208, rfl⟩
abbrev main_call183_v0 : Ref sig .tc := ⟨.hbm, 1209, rfl⟩
abbrev main_call183_v1 : Ref sig .tc := ⟨.hbm, 1210, rfl⟩
abbrev main_call183_v2 : Ref sig .tc := ⟨.hbm, 1211, rfl⟩
abbrev main_call183_v3 : Ref sig .tc := ⟨.hbm, 1212, rfl⟩
abbrev main_call183_v4 : Ref sig .tc := ⟨.hbm, 1213, rfl⟩
abbrev main_v251 : Ref sig .tc := ⟨.hbm, 1214, rfl⟩
abbrev main_call184_v0 : Ref sig .tc := ⟨.hbm, 1215, rfl⟩
abbrev main_call184_v1 : Ref sig .tc := ⟨.hbm, 1216, rfl⟩
abbrev main_call184_v2 : Ref sig .tc := ⟨.hbm, 1217, rfl⟩
abbrev main_call184_v3 : Ref sig .tc := ⟨.hbm, 1218, rfl⟩
abbrev main_call184_v4 : Ref sig .tc := ⟨.hbm, 1219, rfl⟩
abbrev main_v252 : Ref sig .tc := ⟨.hbm, 1220, rfl⟩
abbrev main_call185_v0 : Ref sig .tc := ⟨.hbm, 1221, rfl⟩
abbrev main_call185_v1 : Ref sig .tc := ⟨.hbm, 1222, rfl⟩
abbrev main_call185_v2 : Ref sig .tc := ⟨.hbm, 1223, rfl⟩
abbrev main_call185_v3 : Ref sig .tc := ⟨.hbm, 1224, rfl⟩
abbrev main_call185_v4 : Ref sig .tc := ⟨.hbm, 1225, rfl⟩
abbrev main_v253 : Ref sig .tc := ⟨.hbm, 1226, rfl⟩
abbrev main_call186_v0 : Ref sig .tc := ⟨.hbm, 1227, rfl⟩
abbrev main_call186_v1 : Ref sig .tc := ⟨.hbm, 1228, rfl⟩
abbrev main_call186_v2 : Ref sig .tc := ⟨.hbm, 1229, rfl⟩
abbrev main_call186_v3 : Ref sig .tc := ⟨.hbm, 1230, rfl⟩
abbrev main_call186_v4 : Ref sig .tc := ⟨.hbm, 1231, rfl⟩
abbrev main_v254 : Ref sig .tc := ⟨.hbm, 1232, rfl⟩
abbrev main_call187_v0 : Ref sig .tc := ⟨.hbm, 1233, rfl⟩
abbrev main_call187_v1 : Ref sig .tc := ⟨.hbm, 1234, rfl⟩
abbrev main_call187_v2 : Ref sig .tc := ⟨.hbm, 1235, rfl⟩
abbrev main_call187_v3 : Ref sig .tc := ⟨.hbm, 1236, rfl⟩
abbrev main_call187_v4 : Ref sig .tc := ⟨.hbm, 1237, rfl⟩
abbrev main_v255 : Ref sig .tc := ⟨.hbm, 1238, rfl⟩
abbrev main_call188_v0 : Ref sig .tc := ⟨.hbm, 1239, rfl⟩
abbrev main_call188_v1 : Ref sig .tc := ⟨.hbm, 1240, rfl⟩
abbrev main_call188_v2 : Ref sig .tc := ⟨.hbm, 1241, rfl⟩
abbrev main_call188_v3 : Ref sig .tc := ⟨.hbm, 1242, rfl⟩
abbrev main_call188_v4 : Ref sig .tc := ⟨.hbm, 1243, rfl⟩
abbrev main_v256 : Ref sig .tc := ⟨.hbm, 1244, rfl⟩
abbrev main_call189_v0 : Ref sig .tc := ⟨.hbm, 1245, rfl⟩
abbrev main_call189_v1 : Ref sig .tc := ⟨.hbm, 1246, rfl⟩
abbrev main_call189_v2 : Ref sig .tc := ⟨.hbm, 1247, rfl⟩
abbrev main_call189_v3 : Ref sig .tc := ⟨.hbm, 1248, rfl⟩
abbrev main_call189_v4 : Ref sig .tc := ⟨.hbm, 1249, rfl⟩
abbrev main_v257 : Ref sig .tc := ⟨.hbm, 1250, rfl⟩
abbrev main_call190_v0 : Ref sig .tc := ⟨.hbm, 1251, rfl⟩
abbrev main_call190_v1 : Ref sig .tc := ⟨.hbm, 1252, rfl⟩
abbrev main_call190_v2 : Ref sig .tc := ⟨.hbm, 1253, rfl⟩
abbrev main_call190_v3 : Ref sig .tc := ⟨.hbm, 1254, rfl⟩
abbrev main_call190_v4 : Ref sig .tc := ⟨.hbm, 1255, rfl⟩
abbrev main_v258 : Ref sig .tc := ⟨.hbm, 1256, rfl⟩
abbrev main_call191_v0 : Ref sig .tc := ⟨.hbm, 1257, rfl⟩
abbrev main_call191_v1 : Ref sig .tc := ⟨.hbm, 1258, rfl⟩
abbrev main_call191_v2 : Ref sig .tc := ⟨.hbm, 1259, rfl⟩
abbrev main_call191_v3 : Ref sig .tc := ⟨.hbm, 1260, rfl⟩
abbrev main_call191_v4 : Ref sig .tc := ⟨.hbm, 1261, rfl⟩
abbrev main_v259 : Ref sig .tc := ⟨.hbm, 1262, rfl⟩
abbrev main_v260 : Ref sig .tc := ⟨.hbm, 1263, rfl⟩
abbrev main_v261 : Ref sig .tc := ⟨.hbm, 1264, rfl⟩
abbrev main_v262 : Ref sig .tc := ⟨.hbm, 1265, rfl⟩
abbrev main_v263 : Ref sig .tc := ⟨.hbm, 1266, rfl⟩
abbrev main_c_56 : Ref sig .tc := ⟨.hbm, 1267, rfl⟩
abbrev main_v264 : Ref sig .tc := ⟨.hbm, 1268, rfl⟩
abbrev main_v265 : Ref sig .tc := ⟨.hbm, 1269, rfl⟩
abbrev main_v266 : Ref sig .tc := ⟨.hbm, 1270, rfl⟩
abbrev main_v267 : Ref sig .tc := ⟨.hbm, 1271, rfl⟩
abbrev main_call192_v0 : Ref sig .tc := ⟨.hbm, 1272, rfl⟩
abbrev main_call192_v1 : Ref sig .tc := ⟨.hbm, 1273, rfl⟩
abbrev main_call192_v2 : Ref sig .tc := ⟨.hbm, 1274, rfl⟩
abbrev main_call192_v3 : Ref sig .tc := ⟨.hbm, 1275, rfl⟩
abbrev main_v268 : Ref sig .tc := ⟨.hbm, 1276, rfl⟩
abbrev main_call193_v0 : Ref sig .tc := ⟨.hbm, 1277, rfl⟩
abbrev main_call193_v1 : Ref sig .tc := ⟨.hbm, 1278, rfl⟩
abbrev main_call193_v2 : Ref sig .tc := ⟨.hbm, 1279, rfl⟩
abbrev main_call193_v3 : Ref sig .tc := ⟨.hbm, 1280, rfl⟩
abbrev main_v269 : Ref sig .tc := ⟨.hbm, 1281, rfl⟩
abbrev main_call194_v0 : Ref sig .tc := ⟨.hbm, 1282, rfl⟩
abbrev main_call194_v1 : Ref sig .tc := ⟨.hbm, 1283, rfl⟩
abbrev main_call194_v2 : Ref sig .tc := ⟨.hbm, 1284, rfl⟩
abbrev main_call194_v3 : Ref sig .tc := ⟨.hbm, 1285, rfl⟩
abbrev main_call194_v4 : Ref sig .tc := ⟨.hbm, 1286, rfl⟩
abbrev main_v270 : Ref sig .tc := ⟨.hbm, 1287, rfl⟩
abbrev main_call195_v0 : Ref sig .tc := ⟨.hbm, 1288, rfl⟩
abbrev main_call195_v1 : Ref sig .tc := ⟨.hbm, 1289, rfl⟩
abbrev main_call195_v2 : Ref sig .tc := ⟨.hbm, 1290, rfl⟩
abbrev main_call195_v3 : Ref sig .tc := ⟨.hbm, 1291, rfl⟩
abbrev main_call195_v4 : Ref sig .tc := ⟨.hbm, 1292, rfl⟩
abbrev main_v271 : Ref sig .tc := ⟨.hbm, 1293, rfl⟩
abbrev main_call196_v0 : Ref sig .tc := ⟨.hbm, 1294, rfl⟩
abbrev main_call196_v1 : Ref sig .tc := ⟨.hbm, 1295, rfl⟩
abbrev main_call196_v2 : Ref sig .tc := ⟨.hbm, 1296, rfl⟩
abbrev main_call196_v3 : Ref sig .tc := ⟨.hbm, 1297, rfl⟩
abbrev main_call196_v4 : Ref sig .tc := ⟨.hbm, 1298, rfl⟩
abbrev main_v272 : Ref sig .tc := ⟨.hbm, 1299, rfl⟩
abbrev main_call197_v0 : Ref sig .tc := ⟨.hbm, 1300, rfl⟩
abbrev main_call197_v1 : Ref sig .tc := ⟨.hbm, 1301, rfl⟩
abbrev main_call197_v2 : Ref sig .tc := ⟨.hbm, 1302, rfl⟩
abbrev main_call197_v3 : Ref sig .tc := ⟨.hbm, 1303, rfl⟩
abbrev main_call197_v4 : Ref sig .tc := ⟨.hbm, 1304, rfl⟩
abbrev main_v273 : Ref sig .tc := ⟨.hbm, 1305, rfl⟩
abbrev main_call198_v0 : Ref sig .tc := ⟨.hbm, 1306, rfl⟩
abbrev main_call198_v1 : Ref sig .tc := ⟨.hbm, 1307, rfl⟩
abbrev main_call198_v2 : Ref sig .tc := ⟨.hbm, 1308, rfl⟩
abbrev main_call198_v3 : Ref sig .tc := ⟨.hbm, 1309, rfl⟩
abbrev main_call198_v4 : Ref sig .tc := ⟨.hbm, 1310, rfl⟩
abbrev main_v274 : Ref sig .tc := ⟨.hbm, 1311, rfl⟩
abbrev main_call199_v0 : Ref sig .tc := ⟨.hbm, 1312, rfl⟩
abbrev main_call199_v1 : Ref sig .tc := ⟨.hbm, 1313, rfl⟩
abbrev main_call199_v2 : Ref sig .tc := ⟨.hbm, 1314, rfl⟩
abbrev main_call199_v3 : Ref sig .tc := ⟨.hbm, 1315, rfl⟩
abbrev main_call199_v4 : Ref sig .tc := ⟨.hbm, 1316, rfl⟩
abbrev main_v275 : Ref sig .tc := ⟨.hbm, 1317, rfl⟩
abbrev main_call200_v0 : Ref sig .tc := ⟨.hbm, 1318, rfl⟩
abbrev main_call200_v1 : Ref sig .tc := ⟨.hbm, 1319, rfl⟩
abbrev main_call200_v2 : Ref sig .tc := ⟨.hbm, 1320, rfl⟩
abbrev main_call200_v3 : Ref sig .tc := ⟨.hbm, 1321, rfl⟩
abbrev main_call200_v4 : Ref sig .tc := ⟨.hbm, 1322, rfl⟩
abbrev main_v276 : Ref sig .tc := ⟨.hbm, 1323, rfl⟩
abbrev main_call201_v0 : Ref sig .tc := ⟨.hbm, 1324, rfl⟩
abbrev main_call201_v1 : Ref sig .tc := ⟨.hbm, 1325, rfl⟩
abbrev main_call201_v2 : Ref sig .tc := ⟨.hbm, 1326, rfl⟩
abbrev main_call201_v3 : Ref sig .tc := ⟨.hbm, 1327, rfl⟩
abbrev main_call201_v4 : Ref sig .tc := ⟨.hbm, 1328, rfl⟩
abbrev main_v277 : Ref sig .tc := ⟨.hbm, 1329, rfl⟩
abbrev main_call202_v0 : Ref sig .tc := ⟨.hbm, 1330, rfl⟩
abbrev main_call202_v1 : Ref sig .tc := ⟨.hbm, 1331, rfl⟩
abbrev main_call202_v2 : Ref sig .tc := ⟨.hbm, 1332, rfl⟩
abbrev main_call202_v3 : Ref sig .tc := ⟨.hbm, 1333, rfl⟩
abbrev main_call202_v4 : Ref sig .tc := ⟨.hbm, 1334, rfl⟩
abbrev main_v278 : Ref sig .tc := ⟨.hbm, 1335, rfl⟩
abbrev main_call203_v0 : Ref sig .tc := ⟨.hbm, 1336, rfl⟩
abbrev main_call203_v1 : Ref sig .tc := ⟨.hbm, 1337, rfl⟩
abbrev main_call203_v2 : Ref sig .tc := ⟨.hbm, 1338, rfl⟩
abbrev main_call203_v3 : Ref sig .tc := ⟨.hbm, 1339, rfl⟩
abbrev main_call203_v4 : Ref sig .tc := ⟨.hbm, 1340, rfl⟩
abbrev main_v279 : Ref sig .tc := ⟨.hbm, 1341, rfl⟩
abbrev main_call204_v0 : Ref sig .tc := ⟨.hbm, 1342, rfl⟩
abbrev main_call204_v1 : Ref sig .tc := ⟨.hbm, 1343, rfl⟩
abbrev main_call204_v2 : Ref sig .tc := ⟨.hbm, 1344, rfl⟩
abbrev main_call204_v3 : Ref sig .tc := ⟨.hbm, 1345, rfl⟩
abbrev main_call204_v4 : Ref sig .tc := ⟨.hbm, 1346, rfl⟩
abbrev main_v280 : Ref sig .tc := ⟨.hbm, 1347, rfl⟩
abbrev main_call205_v0 : Ref sig .tc := ⟨.hbm, 1348, rfl⟩
abbrev main_call205_v1 : Ref sig .tc := ⟨.hbm, 1349, rfl⟩
abbrev main_call205_v2 : Ref sig .tc := ⟨.hbm, 1350, rfl⟩
abbrev main_call205_v3 : Ref sig .tc := ⟨.hbm, 1351, rfl⟩
abbrev main_call205_v4 : Ref sig .tc := ⟨.hbm, 1352, rfl⟩
abbrev main_v281 : Ref sig .tc := ⟨.hbm, 1353, rfl⟩
abbrev main_call206_v0 : Ref sig .tc := ⟨.hbm, 1354, rfl⟩
abbrev main_call206_v1 : Ref sig .tc := ⟨.hbm, 1355, rfl⟩
abbrev main_call206_v2 : Ref sig .tc := ⟨.hbm, 1356, rfl⟩
abbrev main_call206_v3 : Ref sig .tc := ⟨.hbm, 1357, rfl⟩
abbrev main_call206_v4 : Ref sig .tc := ⟨.hbm, 1358, rfl⟩
abbrev main_v282 : Ref sig .tc := ⟨.hbm, 1359, rfl⟩
abbrev main_call207_v0 : Ref sig .tc := ⟨.hbm, 1360, rfl⟩
abbrev main_call207_v1 : Ref sig .tc := ⟨.hbm, 1361, rfl⟩
abbrev main_call207_v2 : Ref sig .tc := ⟨.hbm, 1362, rfl⟩
abbrev main_call207_v3 : Ref sig .tc := ⟨.hbm, 1363, rfl⟩
abbrev main_call207_v4 : Ref sig .tc := ⟨.hbm, 1364, rfl⟩
abbrev main_v283 : Ref sig .tc := ⟨.hbm, 1365, rfl⟩
abbrev main_call208_v0 : Ref sig .tc := ⟨.hbm, 1366, rfl⟩
abbrev main_call208_v1 : Ref sig .tc := ⟨.hbm, 1367, rfl⟩
abbrev main_call208_v2 : Ref sig .tc := ⟨.hbm, 1368, rfl⟩
abbrev main_call208_v3 : Ref sig .tc := ⟨.hbm, 1369, rfl⟩
abbrev main_call208_v4 : Ref sig .tc := ⟨.hbm, 1370, rfl⟩
abbrev main_v284 : Ref sig .tc := ⟨.hbm, 1371, rfl⟩
abbrev main_call209_v0 : Ref sig .tc := ⟨.hbm, 1372, rfl⟩
abbrev main_call209_v1 : Ref sig .tc := ⟨.hbm, 1373, rfl⟩
abbrev main_call209_v2 : Ref sig .tc := ⟨.hbm, 1374, rfl⟩
abbrev main_call209_v3 : Ref sig .tc := ⟨.hbm, 1375, rfl⟩
abbrev main_call209_v4 : Ref sig .tc := ⟨.hbm, 1376, rfl⟩
abbrev main_v285 : Ref sig .tc := ⟨.hbm, 1377, rfl⟩
abbrev main_call210_v0 : Ref sig .tc := ⟨.hbm, 1378, rfl⟩
abbrev main_call210_v1 : Ref sig .tc := ⟨.hbm, 1379, rfl⟩
abbrev main_call210_v2 : Ref sig .tc := ⟨.hbm, 1380, rfl⟩
abbrev main_call210_v3 : Ref sig .tc := ⟨.hbm, 1381, rfl⟩
abbrev main_call210_v4 : Ref sig .tc := ⟨.hbm, 1382, rfl⟩
abbrev main_v286 : Ref sig .tc := ⟨.hbm, 1383, rfl⟩
abbrev main_call211_v0 : Ref sig .tc := ⟨.hbm, 1384, rfl⟩
abbrev main_call211_v1 : Ref sig .tc := ⟨.hbm, 1385, rfl⟩
abbrev main_call211_v2 : Ref sig .tc := ⟨.hbm, 1386, rfl⟩
abbrev main_call211_v3 : Ref sig .tc := ⟨.hbm, 1387, rfl⟩
abbrev main_call211_v4 : Ref sig .tc := ⟨.hbm, 1388, rfl⟩
abbrev main_v287 : Ref sig .tc := ⟨.hbm, 1389, rfl⟩
abbrev main_call212_v0 : Ref sig .tc := ⟨.hbm, 1390, rfl⟩
abbrev main_call212_v1 : Ref sig .tc := ⟨.hbm, 1391, rfl⟩
abbrev main_call212_v2 : Ref sig .tc := ⟨.hbm, 1392, rfl⟩
abbrev main_call212_v3 : Ref sig .tc := ⟨.hbm, 1393, rfl⟩
abbrev main_call212_v4 : Ref sig .tc := ⟨.hbm, 1394, rfl⟩
abbrev main_v288 : Ref sig .tc := ⟨.hbm, 1395, rfl⟩
abbrev main_call213_v0 : Ref sig .tc := ⟨.hbm, 1396, rfl⟩
abbrev main_call213_v1 : Ref sig .tc := ⟨.hbm, 1397, rfl⟩
abbrev main_call213_v2 : Ref sig .tc := ⟨.hbm, 1398, rfl⟩
abbrev main_call213_v3 : Ref sig .tc := ⟨.hbm, 1399, rfl⟩
abbrev main_call213_v4 : Ref sig .tc := ⟨.hbm, 1400, rfl⟩
abbrev main_v289 : Ref sig .tc := ⟨.hbm, 1401, rfl⟩
abbrev main_call214_v0 : Ref sig .tc := ⟨.hbm, 1402, rfl⟩
abbrev main_call214_v1 : Ref sig .tc := ⟨.hbm, 1403, rfl⟩
abbrev main_call214_v2 : Ref sig .tc := ⟨.hbm, 1404, rfl⟩
abbrev main_call214_v3 : Ref sig .tc := ⟨.hbm, 1405, rfl⟩
abbrev main_call214_v4 : Ref sig .tc := ⟨.hbm, 1406, rfl⟩
abbrev main_v290 : Ref sig .tc := ⟨.hbm, 1407, rfl⟩
abbrev main_call215_v0 : Ref sig .tc := ⟨.hbm, 1408, rfl⟩
abbrev main_call215_v1 : Ref sig .tc := ⟨.hbm, 1409, rfl⟩
abbrev main_call215_v2 : Ref sig .tc := ⟨.hbm, 1410, rfl⟩
abbrev main_call215_v3 : Ref sig .tc := ⟨.hbm, 1411, rfl⟩
abbrev main_call215_v4 : Ref sig .tc := ⟨.hbm, 1412, rfl⟩
abbrev main_v291 : Ref sig .tc := ⟨.hbm, 1413, rfl⟩
abbrev main_v292 : Ref sig .tc := ⟨.hbm, 1414, rfl⟩
abbrev main_v293 : Ref sig .tc := ⟨.hbm, 1415, rfl⟩
abbrev main_v294 : Ref sig .tc := ⟨.hbm, 1416, rfl⟩
abbrev main_v295 : Ref sig .tc := ⟨.hbm, 1417, rfl⟩
abbrev main_c_57 : Ref sig .tc := ⟨.hbm, 1418, rfl⟩
abbrev main_v296 : Ref sig .tc := ⟨.hbm, 1419, rfl⟩
abbrev main_v297 : Ref sig .tc := ⟨.hbm, 1420, rfl⟩
abbrev main_v298 : Ref sig .tc := ⟨.hbm, 1421, rfl⟩
abbrev main_v299 : Ref sig .tc := ⟨.hbm, 1422, rfl⟩
abbrev main_call216_v0 : Ref sig .tc := ⟨.hbm, 1423, rfl⟩
abbrev main_call216_v1 : Ref sig .tc := ⟨.hbm, 1424, rfl⟩
abbrev main_call216_v2 : Ref sig .tc := ⟨.hbm, 1425, rfl⟩
abbrev main_call216_v3 : Ref sig .tc := ⟨.hbm, 1426, rfl⟩
abbrev main_v300 : Ref sig .tc := ⟨.hbm, 1427, rfl⟩
abbrev main_call217_v0 : Ref sig .tc := ⟨.hbm, 1428, rfl⟩
abbrev main_call217_v1 : Ref sig .tc := ⟨.hbm, 1429, rfl⟩
abbrev main_call217_v2 : Ref sig .tc := ⟨.hbm, 1430, rfl⟩
abbrev main_call217_v3 : Ref sig .tc := ⟨.hbm, 1431, rfl⟩
abbrev main_v301 : Ref sig .tc := ⟨.hbm, 1432, rfl⟩
abbrev main_call218_v0 : Ref sig .tc := ⟨.hbm, 1433, rfl⟩
abbrev main_call218_v1 : Ref sig .tc := ⟨.hbm, 1434, rfl⟩
abbrev main_call218_v2 : Ref sig .tc := ⟨.hbm, 1435, rfl⟩
abbrev main_call218_v3 : Ref sig .tc := ⟨.hbm, 1436, rfl⟩
abbrev main_call218_v4 : Ref sig .tc := ⟨.hbm, 1437, rfl⟩
abbrev main_v302 : Ref sig .tc := ⟨.hbm, 1438, rfl⟩
abbrev main_call219_v0 : Ref sig .tc := ⟨.hbm, 1439, rfl⟩
abbrev main_call219_v1 : Ref sig .tc := ⟨.hbm, 1440, rfl⟩
abbrev main_call219_v2 : Ref sig .tc := ⟨.hbm, 1441, rfl⟩
abbrev main_call219_v3 : Ref sig .tc := ⟨.hbm, 1442, rfl⟩
abbrev main_call219_v4 : Ref sig .tc := ⟨.hbm, 1443, rfl⟩
abbrev main_v303 : Ref sig .tc := ⟨.hbm, 1444, rfl⟩
abbrev main_call220_v0 : Ref sig .tc := ⟨.hbm, 1445, rfl⟩
abbrev main_call220_v1 : Ref sig .tc := ⟨.hbm, 1446, rfl⟩
abbrev main_call220_v2 : Ref sig .tc := ⟨.hbm, 1447, rfl⟩
abbrev main_call220_v3 : Ref sig .tc := ⟨.hbm, 1448, rfl⟩
abbrev main_call220_v4 : Ref sig .tc := ⟨.hbm, 1449, rfl⟩
abbrev main_v304 : Ref sig .tc := ⟨.hbm, 1450, rfl⟩
abbrev main_call221_v0 : Ref sig .tc := ⟨.hbm, 1451, rfl⟩
abbrev main_call221_v1 : Ref sig .tc := ⟨.hbm, 1452, rfl⟩
abbrev main_call221_v2 : Ref sig .tc := ⟨.hbm, 1453, rfl⟩
abbrev main_call221_v3 : Ref sig .tc := ⟨.hbm, 1454, rfl⟩
abbrev main_call221_v4 : Ref sig .tc := ⟨.hbm, 1455, rfl⟩
abbrev main_v305 : Ref sig .tc := ⟨.hbm, 1456, rfl⟩
abbrev main_call222_v0 : Ref sig .tc := ⟨.hbm, 1457, rfl⟩
abbrev main_call222_v1 : Ref sig .tc := ⟨.hbm, 1458, rfl⟩
abbrev main_call222_v2 : Ref sig .tc := ⟨.hbm, 1459, rfl⟩
abbrev main_call222_v3 : Ref sig .tc := ⟨.hbm, 1460, rfl⟩
abbrev main_call222_v4 : Ref sig .tc := ⟨.hbm, 1461, rfl⟩
abbrev main_v306 : Ref sig .tc := ⟨.hbm, 1462, rfl⟩
abbrev main_call223_v0 : Ref sig .tc := ⟨.hbm, 1463, rfl⟩
abbrev main_call223_v1 : Ref sig .tc := ⟨.hbm, 1464, rfl⟩
abbrev main_call223_v2 : Ref sig .tc := ⟨.hbm, 1465, rfl⟩
abbrev main_call223_v3 : Ref sig .tc := ⟨.hbm, 1466, rfl⟩
abbrev main_call223_v4 : Ref sig .tc := ⟨.hbm, 1467, rfl⟩
abbrev main_v307 : Ref sig .tc := ⟨.hbm, 1468, rfl⟩
abbrev main_call224_v0 : Ref sig .tc := ⟨.hbm, 1469, rfl⟩
abbrev main_call224_v1 : Ref sig .tc := ⟨.hbm, 1470, rfl⟩
abbrev main_call224_v2 : Ref sig .tc := ⟨.hbm, 1471, rfl⟩
abbrev main_call224_v3 : Ref sig .tc := ⟨.hbm, 1472, rfl⟩
abbrev main_call224_v4 : Ref sig .tc := ⟨.hbm, 1473, rfl⟩
abbrev main_v308 : Ref sig .tc := ⟨.hbm, 1474, rfl⟩
abbrev main_call225_v0 : Ref sig .tc := ⟨.hbm, 1475, rfl⟩
abbrev main_call225_v1 : Ref sig .tc := ⟨.hbm, 1476, rfl⟩
abbrev main_call225_v2 : Ref sig .tc := ⟨.hbm, 1477, rfl⟩
abbrev main_call225_v3 : Ref sig .tc := ⟨.hbm, 1478, rfl⟩
abbrev main_call225_v4 : Ref sig .tc := ⟨.hbm, 1479, rfl⟩
abbrev main_v309 : Ref sig .tc := ⟨.hbm, 1480, rfl⟩
abbrev main_call226_v0 : Ref sig .tc := ⟨.hbm, 1481, rfl⟩
abbrev main_call226_v1 : Ref sig .tc := ⟨.hbm, 1482, rfl⟩
abbrev main_call226_v2 : Ref sig .tc := ⟨.hbm, 1483, rfl⟩
abbrev main_call226_v3 : Ref sig .tc := ⟨.hbm, 1484, rfl⟩
abbrev main_call226_v4 : Ref sig .tc := ⟨.hbm, 1485, rfl⟩
abbrev main_v310 : Ref sig .tc := ⟨.hbm, 1486, rfl⟩
abbrev main_call227_v0 : Ref sig .tc := ⟨.hbm, 1487, rfl⟩
abbrev main_call227_v1 : Ref sig .tc := ⟨.hbm, 1488, rfl⟩
abbrev main_call227_v2 : Ref sig .tc := ⟨.hbm, 1489, rfl⟩
abbrev main_call227_v3 : Ref sig .tc := ⟨.hbm, 1490, rfl⟩
abbrev main_call227_v4 : Ref sig .tc := ⟨.hbm, 1491, rfl⟩
abbrev main_v311 : Ref sig .tc := ⟨.hbm, 1492, rfl⟩
abbrev main_call228_v0 : Ref sig .tc := ⟨.hbm, 1493, rfl⟩
abbrev main_call228_v1 : Ref sig .tc := ⟨.hbm, 1494, rfl⟩
abbrev main_call228_v2 : Ref sig .tc := ⟨.hbm, 1495, rfl⟩
abbrev main_call228_v3 : Ref sig .tc := ⟨.hbm, 1496, rfl⟩
abbrev main_call228_v4 : Ref sig .tc := ⟨.hbm, 1497, rfl⟩
abbrev main_v312 : Ref sig .tc := ⟨.hbm, 1498, rfl⟩
abbrev main_call229_v0 : Ref sig .tc := ⟨.hbm, 1499, rfl⟩
abbrev main_call229_v1 : Ref sig .tc := ⟨.hbm, 1500, rfl⟩
abbrev main_call229_v2 : Ref sig .tc := ⟨.hbm, 1501, rfl⟩
abbrev main_call229_v3 : Ref sig .tc := ⟨.hbm, 1502, rfl⟩
abbrev main_call229_v4 : Ref sig .tc := ⟨.hbm, 1503, rfl⟩
abbrev main_v313 : Ref sig .tc := ⟨.hbm, 1504, rfl⟩
abbrev main_call230_v0 : Ref sig .tc := ⟨.hbm, 1505, rfl⟩
abbrev main_call230_v1 : Ref sig .tc := ⟨.hbm, 1506, rfl⟩
abbrev main_call230_v2 : Ref sig .tc := ⟨.hbm, 1507, rfl⟩
abbrev main_call230_v3 : Ref sig .tc := ⟨.hbm, 1508, rfl⟩
abbrev main_call230_v4 : Ref sig .tc := ⟨.hbm, 1509, rfl⟩
abbrev main_v314 : Ref sig .tc := ⟨.hbm, 1510, rfl⟩
abbrev main_call231_v0 : Ref sig .tc := ⟨.hbm, 1511, rfl⟩
abbrev main_call231_v1 : Ref sig .tc := ⟨.hbm, 1512, rfl⟩
abbrev main_call231_v2 : Ref sig .tc := ⟨.hbm, 1513, rfl⟩
abbrev main_call231_v3 : Ref sig .tc := ⟨.hbm, 1514, rfl⟩
abbrev main_call231_v4 : Ref sig .tc := ⟨.hbm, 1515, rfl⟩
abbrev main_v315 : Ref sig .tc := ⟨.hbm, 1516, rfl⟩
abbrev main_call232_v0 : Ref sig .tc := ⟨.hbm, 1517, rfl⟩
abbrev main_call232_v1 : Ref sig .tc := ⟨.hbm, 1518, rfl⟩
abbrev main_call232_v2 : Ref sig .tc := ⟨.hbm, 1519, rfl⟩
abbrev main_call232_v3 : Ref sig .tc := ⟨.hbm, 1520, rfl⟩
abbrev main_call232_v4 : Ref sig .tc := ⟨.hbm, 1521, rfl⟩
abbrev main_v316 : Ref sig .tc := ⟨.hbm, 1522, rfl⟩
abbrev main_call233_v0 : Ref sig .tc := ⟨.hbm, 1523, rfl⟩
abbrev main_call233_v1 : Ref sig .tc := ⟨.hbm, 1524, rfl⟩
abbrev main_call233_v2 : Ref sig .tc := ⟨.hbm, 1525, rfl⟩
abbrev main_call233_v3 : Ref sig .tc := ⟨.hbm, 1526, rfl⟩
abbrev main_call233_v4 : Ref sig .tc := ⟨.hbm, 1527, rfl⟩
abbrev main_v317 : Ref sig .tc := ⟨.hbm, 1528, rfl⟩
abbrev main_call234_v0 : Ref sig .tc := ⟨.hbm, 1529, rfl⟩
abbrev main_call234_v1 : Ref sig .tc := ⟨.hbm, 1530, rfl⟩
abbrev main_call234_v2 : Ref sig .tc := ⟨.hbm, 1531, rfl⟩
abbrev main_call234_v3 : Ref sig .tc := ⟨.hbm, 1532, rfl⟩
abbrev main_call234_v4 : Ref sig .tc := ⟨.hbm, 1533, rfl⟩
abbrev main_v318 : Ref sig .tc := ⟨.hbm, 1534, rfl⟩
abbrev main_call235_v0 : Ref sig .tc := ⟨.hbm, 1535, rfl⟩
abbrev main_call235_v1 : Ref sig .tc := ⟨.hbm, 1536, rfl⟩
abbrev main_call235_v2 : Ref sig .tc := ⟨.hbm, 1537, rfl⟩
abbrev main_call235_v3 : Ref sig .tc := ⟨.hbm, 1538, rfl⟩
abbrev main_call235_v4 : Ref sig .tc := ⟨.hbm, 1539, rfl⟩
abbrev main_v319 : Ref sig .tc := ⟨.hbm, 1540, rfl⟩
abbrev main_call236_v0 : Ref sig .tc := ⟨.hbm, 1541, rfl⟩
abbrev main_call236_v1 : Ref sig .tc := ⟨.hbm, 1542, rfl⟩
abbrev main_call236_v2 : Ref sig .tc := ⟨.hbm, 1543, rfl⟩
abbrev main_call236_v3 : Ref sig .tc := ⟨.hbm, 1544, rfl⟩
abbrev main_call236_v4 : Ref sig .tc := ⟨.hbm, 1545, rfl⟩
abbrev main_v320 : Ref sig .tc := ⟨.hbm, 1546, rfl⟩
abbrev main_call237_v0 : Ref sig .tc := ⟨.hbm, 1547, rfl⟩
abbrev main_call237_v1 : Ref sig .tc := ⟨.hbm, 1548, rfl⟩
abbrev main_call237_v2 : Ref sig .tc := ⟨.hbm, 1549, rfl⟩
abbrev main_call237_v3 : Ref sig .tc := ⟨.hbm, 1550, rfl⟩
abbrev main_call237_v4 : Ref sig .tc := ⟨.hbm, 1551, rfl⟩
abbrev main_v321 : Ref sig .tc := ⟨.hbm, 1552, rfl⟩
abbrev main_call238_v0 : Ref sig .tc := ⟨.hbm, 1553, rfl⟩
abbrev main_call238_v1 : Ref sig .tc := ⟨.hbm, 1554, rfl⟩
abbrev main_call238_v2 : Ref sig .tc := ⟨.hbm, 1555, rfl⟩
abbrev main_call238_v3 : Ref sig .tc := ⟨.hbm, 1556, rfl⟩
abbrev main_call238_v4 : Ref sig .tc := ⟨.hbm, 1557, rfl⟩
abbrev main_v322 : Ref sig .tc := ⟨.hbm, 1558, rfl⟩
abbrev main_call239_v0 : Ref sig .tc := ⟨.hbm, 1559, rfl⟩
abbrev main_call239_v1 : Ref sig .tc := ⟨.hbm, 1560, rfl⟩
abbrev main_call239_v2 : Ref sig .tc := ⟨.hbm, 1561, rfl⟩
abbrev main_call239_v3 : Ref sig .tc := ⟨.hbm, 1562, rfl⟩
abbrev main_call239_v4 : Ref sig .tc := ⟨.hbm, 1563, rfl⟩
abbrev main_v323 : Ref sig .tc := ⟨.hbm, 1564, rfl⟩
abbrev main_v324 : Ref sig .tc := ⟨.hbm, 1565, rfl⟩
abbrev main_v325 : Ref sig .tc := ⟨.hbm, 1566, rfl⟩
abbrev main_v326 : Ref sig .tc := ⟨.hbm, 1567, rfl⟩
abbrev main_v327 : Ref sig .tc := ⟨.hbm, 1568, rfl⟩
abbrev main_c_58 : Ref sig .tc := ⟨.hbm, 1569, rfl⟩
abbrev main_v328 : Ref sig .tc := ⟨.hbm, 1570, rfl⟩
abbrev main_v329 : Ref sig .tc := ⟨.hbm, 1571, rfl⟩
abbrev main_v330 : Ref sig .tc := ⟨.hbm, 1572, rfl⟩
abbrev main_v331 : Ref sig .tc := ⟨.hbm, 1573, rfl⟩
abbrev main_call240_v0 : Ref sig .tc := ⟨.hbm, 1574, rfl⟩
abbrev main_call240_v1 : Ref sig .tc := ⟨.hbm, 1575, rfl⟩
abbrev main_call240_v2 : Ref sig .tc := ⟨.hbm, 1576, rfl⟩
abbrev main_call240_v3 : Ref sig .tc := ⟨.hbm, 1577, rfl⟩
abbrev main_v332 : Ref sig .tc := ⟨.hbm, 1578, rfl⟩
abbrev main_call241_v0 : Ref sig .tc := ⟨.hbm, 1579, rfl⟩
abbrev main_call241_v1 : Ref sig .tc := ⟨.hbm, 1580, rfl⟩
abbrev main_call241_v2 : Ref sig .tc := ⟨.hbm, 1581, rfl⟩
abbrev main_call241_v3 : Ref sig .tc := ⟨.hbm, 1582, rfl⟩
abbrev main_v333 : Ref sig .tc := ⟨.hbm, 1583, rfl⟩
abbrev main_call242_v0 : Ref sig .tc := ⟨.hbm, 1584, rfl⟩
abbrev main_call242_v1 : Ref sig .tc := ⟨.hbm, 1585, rfl⟩
abbrev main_call242_v2 : Ref sig .tc := ⟨.hbm, 1586, rfl⟩
abbrev main_call242_v3 : Ref sig .tc := ⟨.hbm, 1587, rfl⟩
abbrev main_call242_v4 : Ref sig .tc := ⟨.hbm, 1588, rfl⟩
abbrev main_v334 : Ref sig .tc := ⟨.hbm, 1589, rfl⟩
abbrev main_call243_v0 : Ref sig .tc := ⟨.hbm, 1590, rfl⟩
abbrev main_call243_v1 : Ref sig .tc := ⟨.hbm, 1591, rfl⟩
abbrev main_call243_v2 : Ref sig .tc := ⟨.hbm, 1592, rfl⟩
abbrev main_call243_v3 : Ref sig .tc := ⟨.hbm, 1593, rfl⟩
abbrev main_call243_v4 : Ref sig .tc := ⟨.hbm, 1594, rfl⟩
abbrev main_v335 : Ref sig .tc := ⟨.hbm, 1595, rfl⟩
abbrev main_call244_v0 : Ref sig .tc := ⟨.hbm, 1596, rfl⟩
abbrev main_call244_v1 : Ref sig .tc := ⟨.hbm, 1597, rfl⟩
abbrev main_call244_v2 : Ref sig .tc := ⟨.hbm, 1598, rfl⟩
abbrev main_call244_v3 : Ref sig .tc := ⟨.hbm, 1599, rfl⟩
abbrev main_call244_v4 : Ref sig .tc := ⟨.hbm, 1600, rfl⟩
abbrev main_v336 : Ref sig .tc := ⟨.hbm, 1601, rfl⟩
abbrev main_call245_v0 : Ref sig .tc := ⟨.hbm, 1602, rfl⟩
abbrev main_call245_v1 : Ref sig .tc := ⟨.hbm, 1603, rfl⟩
abbrev main_call245_v2 : Ref sig .tc := ⟨.hbm, 1604, rfl⟩
abbrev main_call245_v3 : Ref sig .tc := ⟨.hbm, 1605, rfl⟩
abbrev main_call245_v4 : Ref sig .tc := ⟨.hbm, 1606, rfl⟩
abbrev main_v337 : Ref sig .tc := ⟨.hbm, 1607, rfl⟩
abbrev main_call246_v0 : Ref sig .tc := ⟨.hbm, 1608, rfl⟩
abbrev main_call246_v1 : Ref sig .tc := ⟨.hbm, 1609, rfl⟩
abbrev main_call246_v2 : Ref sig .tc := ⟨.hbm, 1610, rfl⟩
abbrev main_call246_v3 : Ref sig .tc := ⟨.hbm, 1611, rfl⟩
abbrev main_call246_v4 : Ref sig .tc := ⟨.hbm, 1612, rfl⟩
abbrev main_v338 : Ref sig .tc := ⟨.hbm, 1613, rfl⟩
abbrev main_call247_v0 : Ref sig .tc := ⟨.hbm, 1614, rfl⟩
abbrev main_call247_v1 : Ref sig .tc := ⟨.hbm, 1615, rfl⟩
abbrev main_call247_v2 : Ref sig .tc := ⟨.hbm, 1616, rfl⟩
abbrev main_call247_v3 : Ref sig .tc := ⟨.hbm, 1617, rfl⟩
abbrev main_call247_v4 : Ref sig .tc := ⟨.hbm, 1618, rfl⟩
abbrev main_v339 : Ref sig .tc := ⟨.hbm, 1619, rfl⟩
abbrev main_call248_v0 : Ref sig .tc := ⟨.hbm, 1620, rfl⟩
abbrev main_call248_v1 : Ref sig .tc := ⟨.hbm, 1621, rfl⟩
abbrev main_call248_v2 : Ref sig .tc := ⟨.hbm, 1622, rfl⟩
abbrev main_call248_v3 : Ref sig .tc := ⟨.hbm, 1623, rfl⟩
abbrev main_call248_v4 : Ref sig .tc := ⟨.hbm, 1624, rfl⟩
abbrev main_v340 : Ref sig .tc := ⟨.hbm, 1625, rfl⟩
abbrev main_call249_v0 : Ref sig .tc := ⟨.hbm, 1626, rfl⟩
abbrev main_call249_v1 : Ref sig .tc := ⟨.hbm, 1627, rfl⟩
abbrev main_call249_v2 : Ref sig .tc := ⟨.hbm, 1628, rfl⟩
abbrev main_call249_v3 : Ref sig .tc := ⟨.hbm, 1629, rfl⟩
abbrev main_call249_v4 : Ref sig .tc := ⟨.hbm, 1630, rfl⟩
abbrev main_v341 : Ref sig .tc := ⟨.hbm, 1631, rfl⟩
abbrev main_call250_v0 : Ref sig .tc := ⟨.hbm, 1632, rfl⟩
abbrev main_call250_v1 : Ref sig .tc := ⟨.hbm, 1633, rfl⟩
abbrev main_call250_v2 : Ref sig .tc := ⟨.hbm, 1634, rfl⟩
abbrev main_call250_v3 : Ref sig .tc := ⟨.hbm, 1635, rfl⟩
abbrev main_call250_v4 : Ref sig .tc := ⟨.hbm, 1636, rfl⟩
abbrev main_v342 : Ref sig .tc := ⟨.hbm, 1637, rfl⟩
abbrev main_call251_v0 : Ref sig .tc := ⟨.hbm, 1638, rfl⟩
abbrev main_call251_v1 : Ref sig .tc := ⟨.hbm, 1639, rfl⟩
abbrev main_call251_v2 : Ref sig .tc := ⟨.hbm, 1640, rfl⟩
abbrev main_call251_v3 : Ref sig .tc := ⟨.hbm, 1641, rfl⟩
abbrev main_call251_v4 : Ref sig .tc := ⟨.hbm, 1642, rfl⟩
abbrev main_v343 : Ref sig .tc := ⟨.hbm, 1643, rfl⟩
abbrev main_call252_v0 : Ref sig .tc := ⟨.hbm, 1644, rfl⟩
abbrev main_call252_v1 : Ref sig .tc := ⟨.hbm, 1645, rfl⟩
abbrev main_call252_v2 : Ref sig .tc := ⟨.hbm, 1646, rfl⟩
abbrev main_call252_v3 : Ref sig .tc := ⟨.hbm, 1647, rfl⟩
abbrev main_call252_v4 : Ref sig .tc := ⟨.hbm, 1648, rfl⟩
abbrev main_v344 : Ref sig .tc := ⟨.hbm, 1649, rfl⟩
abbrev main_call253_v0 : Ref sig .tc := ⟨.hbm, 1650, rfl⟩
abbrev main_call253_v1 : Ref sig .tc := ⟨.hbm, 1651, rfl⟩
abbrev main_call253_v2 : Ref sig .tc := ⟨.hbm, 1652, rfl⟩
abbrev main_call253_v3 : Ref sig .tc := ⟨.hbm, 1653, rfl⟩
abbrev main_call253_v4 : Ref sig .tc := ⟨.hbm, 1654, rfl⟩
abbrev main_v345 : Ref sig .tc := ⟨.hbm, 1655, rfl⟩
abbrev main_call254_v0 : Ref sig .tc := ⟨.hbm, 1656, rfl⟩
abbrev main_call254_v1 : Ref sig .tc := ⟨.hbm, 1657, rfl⟩
abbrev main_call254_v2 : Ref sig .tc := ⟨.hbm, 1658, rfl⟩
abbrev main_call254_v3 : Ref sig .tc := ⟨.hbm, 1659, rfl⟩
abbrev main_call254_v4 : Ref sig .tc := ⟨.hbm, 1660, rfl⟩
abbrev main_v346 : Ref sig .tc := ⟨.hbm, 1661, rfl⟩
abbrev main_call255_v0 : Ref sig .tc := ⟨.hbm, 1662, rfl⟩
abbrev main_call255_v1 : Ref sig .tc := ⟨.hbm, 1663, rfl⟩
abbrev main_call255_v2 : Ref sig .tc := ⟨.hbm, 1664, rfl⟩
abbrev main_call255_v3 : Ref sig .tc := ⟨.hbm, 1665, rfl⟩
abbrev main_call255_v4 : Ref sig .tc := ⟨.hbm, 1666, rfl⟩
abbrev main_v347 : Ref sig .tc := ⟨.hbm, 1667, rfl⟩
abbrev main_call256_v0 : Ref sig .tc := ⟨.hbm, 1668, rfl⟩
abbrev main_call256_v1 : Ref sig .tc := ⟨.hbm, 1669, rfl⟩
abbrev main_call256_v2 : Ref sig .tc := ⟨.hbm, 1670, rfl⟩
abbrev main_call256_v3 : Ref sig .tc := ⟨.hbm, 1671, rfl⟩
abbrev main_call256_v4 : Ref sig .tc := ⟨.hbm, 1672, rfl⟩
abbrev main_v348 : Ref sig .tc := ⟨.hbm, 1673, rfl⟩
abbrev main_call257_v0 : Ref sig .tc := ⟨.hbm, 1674, rfl⟩
abbrev main_call257_v1 : Ref sig .tc := ⟨.hbm, 1675, rfl⟩
abbrev main_call257_v2 : Ref sig .tc := ⟨.hbm, 1676, rfl⟩
abbrev main_call257_v3 : Ref sig .tc := ⟨.hbm, 1677, rfl⟩
abbrev main_call257_v4 : Ref sig .tc := ⟨.hbm, 1678, rfl⟩
abbrev main_v349 : Ref sig .tc := ⟨.hbm, 1679, rfl⟩
abbrev main_call258_v0 : Ref sig .tc := ⟨.hbm, 1680, rfl⟩
abbrev main_call258_v1 : Ref sig .tc := ⟨.hbm, 1681, rfl⟩
abbrev main_call258_v2 : Ref sig .tc := ⟨.hbm, 1682, rfl⟩
abbrev main_call258_v3 : Ref sig .tc := ⟨.hbm, 1683, rfl⟩
abbrev main_call258_v4 : Ref sig .tc := ⟨.hbm, 1684, rfl⟩
abbrev main_v350 : Ref sig .tc := ⟨.hbm, 1685, rfl⟩
abbrev main_call259_v0 : Ref sig .tc := ⟨.hbm, 1686, rfl⟩
abbrev main_call259_v1 : Ref sig .tc := ⟨.hbm, 1687, rfl⟩
abbrev main_call259_v2 : Ref sig .tc := ⟨.hbm, 1688, rfl⟩
abbrev main_call259_v3 : Ref sig .tc := ⟨.hbm, 1689, rfl⟩
abbrev main_call259_v4 : Ref sig .tc := ⟨.hbm, 1690, rfl⟩
abbrev main_v351 : Ref sig .tc := ⟨.hbm, 1691, rfl⟩
abbrev main_call260_v0 : Ref sig .tc := ⟨.hbm, 1692, rfl⟩
abbrev main_call260_v1 : Ref sig .tc := ⟨.hbm, 1693, rfl⟩
abbrev main_call260_v2 : Ref sig .tc := ⟨.hbm, 1694, rfl⟩
abbrev main_call260_v3 : Ref sig .tc := ⟨.hbm, 1695, rfl⟩
abbrev main_call260_v4 : Ref sig .tc := ⟨.hbm, 1696, rfl⟩
abbrev main_v352 : Ref sig .tc := ⟨.hbm, 1697, rfl⟩
abbrev main_call261_v0 : Ref sig .tc := ⟨.hbm, 1698, rfl⟩
abbrev main_call261_v1 : Ref sig .tc := ⟨.hbm, 1699, rfl⟩
abbrev main_call261_v2 : Ref sig .tc := ⟨.hbm, 1700, rfl⟩
abbrev main_call261_v3 : Ref sig .tc := ⟨.hbm, 1701, rfl⟩
abbrev main_call261_v4 : Ref sig .tc := ⟨.hbm, 1702, rfl⟩
abbrev main_v353 : Ref sig .tc := ⟨.hbm, 1703, rfl⟩
abbrev main_call262_v0 : Ref sig .tc := ⟨.hbm, 1704, rfl⟩
abbrev main_call262_v1 : Ref sig .tc := ⟨.hbm, 1705, rfl⟩
abbrev main_call262_v2 : Ref sig .tc := ⟨.hbm, 1706, rfl⟩
abbrev main_call262_v3 : Ref sig .tc := ⟨.hbm, 1707, rfl⟩
abbrev main_call262_v4 : Ref sig .tc := ⟨.hbm, 1708, rfl⟩
abbrev main_v354 : Ref sig .tc := ⟨.hbm, 1709, rfl⟩
abbrev main_call263_v0 : Ref sig .tc := ⟨.hbm, 1710, rfl⟩
abbrev main_call263_v1 : Ref sig .tc := ⟨.hbm, 1711, rfl⟩
abbrev main_call263_v2 : Ref sig .tc := ⟨.hbm, 1712, rfl⟩
abbrev main_call263_v3 : Ref sig .tc := ⟨.hbm, 1713, rfl⟩
abbrev main_call263_v4 : Ref sig .tc := ⟨.hbm, 1714, rfl⟩
abbrev main_v355 : Ref sig .tc := ⟨.hbm, 1715, rfl⟩
abbrev main_v356 : Ref sig .tc := ⟨.hbm, 1716, rfl⟩
abbrev main_v357 : Ref sig .tc := ⟨.hbm, 1717, rfl⟩
abbrev main_v358 : Ref sig .tc := ⟨.hbm, 1718, rfl⟩
abbrev main_v359 : Ref sig .tc := ⟨.hbm, 1719, rfl⟩
abbrev main_c_59 : Ref sig .tc := ⟨.hbm, 1720, rfl⟩
abbrev main_v360 : Ref sig .tc := ⟨.hbm, 1721, rfl⟩
abbrev main_v361 : Ref sig .tc := ⟨.hbm, 1722, rfl⟩
abbrev main_v362 : Ref sig .tc := ⟨.hbm, 1723, rfl⟩
abbrev main_v363 : Ref sig .tc := ⟨.hbm, 1724, rfl⟩
abbrev main_call264_v0 : Ref sig .tc := ⟨.hbm, 1725, rfl⟩
abbrev main_call264_v1 : Ref sig .tc := ⟨.hbm, 1726, rfl⟩
abbrev main_call264_v2 : Ref sig .tc := ⟨.hbm, 1727, rfl⟩
abbrev main_call264_v3 : Ref sig .tc := ⟨.hbm, 1728, rfl⟩
abbrev main_v364 : Ref sig .tc := ⟨.hbm, 1729, rfl⟩
abbrev main_call265_v0 : Ref sig .tc := ⟨.hbm, 1730, rfl⟩
abbrev main_call265_v1 : Ref sig .tc := ⟨.hbm, 1731, rfl⟩
abbrev main_call265_v2 : Ref sig .tc := ⟨.hbm, 1732, rfl⟩
abbrev main_call265_v3 : Ref sig .tc := ⟨.hbm, 1733, rfl⟩
abbrev main_v365 : Ref sig .tc := ⟨.hbm, 1734, rfl⟩
abbrev main_call266_v0 : Ref sig .tc := ⟨.hbm, 1735, rfl⟩
abbrev main_call266_v1 : Ref sig .tc := ⟨.hbm, 1736, rfl⟩
abbrev main_call266_v2 : Ref sig .tc := ⟨.hbm, 1737, rfl⟩
abbrev main_call266_v3 : Ref sig .tc := ⟨.hbm, 1738, rfl⟩
abbrev main_call266_v4 : Ref sig .tc := ⟨.hbm, 1739, rfl⟩
abbrev main_v366 : Ref sig .tc := ⟨.hbm, 1740, rfl⟩
abbrev main_call267_v0 : Ref sig .tc := ⟨.hbm, 1741, rfl⟩
abbrev main_call267_v1 : Ref sig .tc := ⟨.hbm, 1742, rfl⟩
abbrev main_call267_v2 : Ref sig .tc := ⟨.hbm, 1743, rfl⟩
abbrev main_call267_v3 : Ref sig .tc := ⟨.hbm, 1744, rfl⟩
abbrev main_call267_v4 : Ref sig .tc := ⟨.hbm, 1745, rfl⟩
abbrev main_v367 : Ref sig .tc := ⟨.hbm, 1746, rfl⟩
abbrev main_call268_v0 : Ref sig .tc := ⟨.hbm, 1747, rfl⟩
abbrev main_call268_v1 : Ref sig .tc := ⟨.hbm, 1748, rfl⟩
abbrev main_call268_v2 : Ref sig .tc := ⟨.hbm, 1749, rfl⟩
abbrev main_call268_v3 : Ref sig .tc := ⟨.hbm, 1750, rfl⟩
abbrev main_call268_v4 : Ref sig .tc := ⟨.hbm, 1751, rfl⟩
abbrev main_v368 : Ref sig .tc := ⟨.hbm, 1752, rfl⟩
abbrev main_call269_v0 : Ref sig .tc := ⟨.hbm, 1753, rfl⟩
abbrev main_call269_v1 : Ref sig .tc := ⟨.hbm, 1754, rfl⟩
abbrev main_call269_v2 : Ref sig .tc := ⟨.hbm, 1755, rfl⟩
abbrev main_call269_v3 : Ref sig .tc := ⟨.hbm, 1756, rfl⟩
abbrev main_call269_v4 : Ref sig .tc := ⟨.hbm, 1757, rfl⟩
abbrev main_v369 : Ref sig .tc := ⟨.hbm, 1758, rfl⟩
abbrev main_call270_v0 : Ref sig .tc := ⟨.hbm, 1759, rfl⟩
abbrev main_call270_v1 : Ref sig .tc := ⟨.hbm, 1760, rfl⟩
abbrev main_call270_v2 : Ref sig .tc := ⟨.hbm, 1761, rfl⟩
abbrev main_call270_v3 : Ref sig .tc := ⟨.hbm, 1762, rfl⟩
abbrev main_call270_v4 : Ref sig .tc := ⟨.hbm, 1763, rfl⟩
abbrev main_v370 : Ref sig .tc := ⟨.hbm, 1764, rfl⟩
abbrev main_call271_v0 : Ref sig .tc := ⟨.hbm, 1765, rfl⟩
abbrev main_call271_v1 : Ref sig .tc := ⟨.hbm, 1766, rfl⟩
abbrev main_call271_v2 : Ref sig .tc := ⟨.hbm, 1767, rfl⟩
abbrev main_call271_v3 : Ref sig .tc := ⟨.hbm, 1768, rfl⟩
abbrev main_call271_v4 : Ref sig .tc := ⟨.hbm, 1769, rfl⟩
abbrev main_v371 : Ref sig .tc := ⟨.hbm, 1770, rfl⟩
abbrev main_call272_v0 : Ref sig .tc := ⟨.hbm, 1771, rfl⟩
abbrev main_call272_v1 : Ref sig .tc := ⟨.hbm, 1772, rfl⟩
abbrev main_call272_v2 : Ref sig .tc := ⟨.hbm, 1773, rfl⟩
abbrev main_call272_v3 : Ref sig .tc := ⟨.hbm, 1774, rfl⟩
abbrev main_call272_v4 : Ref sig .tc := ⟨.hbm, 1775, rfl⟩
abbrev main_v372 : Ref sig .tc := ⟨.hbm, 1776, rfl⟩
abbrev main_call273_v0 : Ref sig .tc := ⟨.hbm, 1777, rfl⟩
abbrev main_call273_v1 : Ref sig .tc := ⟨.hbm, 1778, rfl⟩
abbrev main_call273_v2 : Ref sig .tc := ⟨.hbm, 1779, rfl⟩
abbrev main_call273_v3 : Ref sig .tc := ⟨.hbm, 1780, rfl⟩
abbrev main_call273_v4 : Ref sig .tc := ⟨.hbm, 1781, rfl⟩
abbrev main_v373 : Ref sig .tc := ⟨.hbm, 1782, rfl⟩
abbrev main_call274_v0 : Ref sig .tc := ⟨.hbm, 1783, rfl⟩
abbrev main_call274_v1 : Ref sig .tc := ⟨.hbm, 1784, rfl⟩
abbrev main_call274_v2 : Ref sig .tc := ⟨.hbm, 1785, rfl⟩
abbrev main_call274_v3 : Ref sig .tc := ⟨.hbm, 1786, rfl⟩
abbrev main_call274_v4 : Ref sig .tc := ⟨.hbm, 1787, rfl⟩
abbrev main_v374 : Ref sig .tc := ⟨.hbm, 1788, rfl⟩
abbrev main_call275_v0 : Ref sig .tc := ⟨.hbm, 1789, rfl⟩
abbrev main_call275_v1 : Ref sig .tc := ⟨.hbm, 1790, rfl⟩
abbrev main_call275_v2 : Ref sig .tc := ⟨.hbm, 1791, rfl⟩
abbrev main_call275_v3 : Ref sig .tc := ⟨.hbm, 1792, rfl⟩
abbrev main_call275_v4 : Ref sig .tc := ⟨.hbm, 1793, rfl⟩
abbrev main_v375 : Ref sig .tc := ⟨.hbm, 1794, rfl⟩
abbrev main_call276_v0 : Ref sig .tc := ⟨.hbm, 1795, rfl⟩
abbrev main_call276_v1 : Ref sig .tc := ⟨.hbm, 1796, rfl⟩
abbrev main_call276_v2 : Ref sig .tc := ⟨.hbm, 1797, rfl⟩
abbrev main_call276_v3 : Ref sig .tc := ⟨.hbm, 1798, rfl⟩
abbrev main_call276_v4 : Ref sig .tc := ⟨.hbm, 1799, rfl⟩
abbrev main_v376 : Ref sig .tc := ⟨.hbm, 1800, rfl⟩
abbrev main_call277_v0 : Ref sig .tc := ⟨.hbm, 1801, rfl⟩
abbrev main_call277_v1 : Ref sig .tc := ⟨.hbm, 1802, rfl⟩
abbrev main_call277_v2 : Ref sig .tc := ⟨.hbm, 1803, rfl⟩
abbrev main_call277_v3 : Ref sig .tc := ⟨.hbm, 1804, rfl⟩
abbrev main_call277_v4 : Ref sig .tc := ⟨.hbm, 1805, rfl⟩
abbrev main_v377 : Ref sig .tc := ⟨.hbm, 1806, rfl⟩
abbrev main_call278_v0 : Ref sig .tc := ⟨.hbm, 1807, rfl⟩
abbrev main_call278_v1 : Ref sig .tc := ⟨.hbm, 1808, rfl⟩
abbrev main_call278_v2 : Ref sig .tc := ⟨.hbm, 1809, rfl⟩
abbrev main_call278_v3 : Ref sig .tc := ⟨.hbm, 1810, rfl⟩
abbrev main_call278_v4 : Ref sig .tc := ⟨.hbm, 1811, rfl⟩
abbrev main_v378 : Ref sig .tc := ⟨.hbm, 1812, rfl⟩
abbrev main_call279_v0 : Ref sig .tc := ⟨.hbm, 1813, rfl⟩
abbrev main_call279_v1 : Ref sig .tc := ⟨.hbm, 1814, rfl⟩
abbrev main_call279_v2 : Ref sig .tc := ⟨.hbm, 1815, rfl⟩
abbrev main_call279_v3 : Ref sig .tc := ⟨.hbm, 1816, rfl⟩
abbrev main_call279_v4 : Ref sig .tc := ⟨.hbm, 1817, rfl⟩
abbrev main_v379 : Ref sig .tc := ⟨.hbm, 1818, rfl⟩
abbrev main_call280_v0 : Ref sig .tc := ⟨.hbm, 1819, rfl⟩
abbrev main_call280_v1 : Ref sig .tc := ⟨.hbm, 1820, rfl⟩
abbrev main_call280_v2 : Ref sig .tc := ⟨.hbm, 1821, rfl⟩
abbrev main_call280_v3 : Ref sig .tc := ⟨.hbm, 1822, rfl⟩
abbrev main_call280_v4 : Ref sig .tc := ⟨.hbm, 1823, rfl⟩
abbrev main_v380 : Ref sig .tc := ⟨.hbm, 1824, rfl⟩
abbrev main_call281_v0 : Ref sig .tc := ⟨.hbm, 1825, rfl⟩
abbrev main_call281_v1 : Ref sig .tc := ⟨.hbm, 1826, rfl⟩
abbrev main_call281_v2 : Ref sig .tc := ⟨.hbm, 1827, rfl⟩
abbrev main_call281_v3 : Ref sig .tc := ⟨.hbm, 1828, rfl⟩
abbrev main_call281_v4 : Ref sig .tc := ⟨.hbm, 1829, rfl⟩
abbrev main_v381 : Ref sig .tc := ⟨.hbm, 1830, rfl⟩
abbrev main_call282_v0 : Ref sig .tc := ⟨.hbm, 1831, rfl⟩
abbrev main_call282_v1 : Ref sig .tc := ⟨.hbm, 1832, rfl⟩
abbrev main_call282_v2 : Ref sig .tc := ⟨.hbm, 1833, rfl⟩
abbrev main_call282_v3 : Ref sig .tc := ⟨.hbm, 1834, rfl⟩
abbrev main_call282_v4 : Ref sig .tc := ⟨.hbm, 1835, rfl⟩
abbrev main_v382 : Ref sig .tc := ⟨.hbm, 1836, rfl⟩
abbrev main_call283_v0 : Ref sig .tc := ⟨.hbm, 1837, rfl⟩
abbrev main_call283_v1 : Ref sig .tc := ⟨.hbm, 1838, rfl⟩
abbrev main_call283_v2 : Ref sig .tc := ⟨.hbm, 1839, rfl⟩
abbrev main_call283_v3 : Ref sig .tc := ⟨.hbm, 1840, rfl⟩
abbrev main_call283_v4 : Ref sig .tc := ⟨.hbm, 1841, rfl⟩
abbrev main_v383 : Ref sig .tc := ⟨.hbm, 1842, rfl⟩
abbrev main_call284_v0 : Ref sig .tc := ⟨.hbm, 1843, rfl⟩
abbrev main_call284_v1 : Ref sig .tc := ⟨.hbm, 1844, rfl⟩
abbrev main_call284_v2 : Ref sig .tc := ⟨.hbm, 1845, rfl⟩
abbrev main_call284_v3 : Ref sig .tc := ⟨.hbm, 1846, rfl⟩
abbrev main_call284_v4 : Ref sig .tc := ⟨.hbm, 1847, rfl⟩
abbrev main_v384 : Ref sig .tc := ⟨.hbm, 1848, rfl⟩
abbrev main_call285_v0 : Ref sig .tc := ⟨.hbm, 1849, rfl⟩
abbrev main_call285_v1 : Ref sig .tc := ⟨.hbm, 1850, rfl⟩
abbrev main_call285_v2 : Ref sig .tc := ⟨.hbm, 1851, rfl⟩
abbrev main_call285_v3 : Ref sig .tc := ⟨.hbm, 1852, rfl⟩
abbrev main_call285_v4 : Ref sig .tc := ⟨.hbm, 1853, rfl⟩
abbrev main_v385 : Ref sig .tc := ⟨.hbm, 1854, rfl⟩
abbrev main_call286_v0 : Ref sig .tc := ⟨.hbm, 1855, rfl⟩
abbrev main_call286_v1 : Ref sig .tc := ⟨.hbm, 1856, rfl⟩
abbrev main_call286_v2 : Ref sig .tc := ⟨.hbm, 1857, rfl⟩
abbrev main_call286_v3 : Ref sig .tc := ⟨.hbm, 1858, rfl⟩
abbrev main_call286_v4 : Ref sig .tc := ⟨.hbm, 1859, rfl⟩
abbrev main_v386 : Ref sig .tc := ⟨.hbm, 1860, rfl⟩
abbrev main_call287_v0 : Ref sig .tc := ⟨.hbm, 1861, rfl⟩
abbrev main_call287_v1 : Ref sig .tc := ⟨.hbm, 1862, rfl⟩
abbrev main_call287_v2 : Ref sig .tc := ⟨.hbm, 1863, rfl⟩
abbrev main_call287_v3 : Ref sig .tc := ⟨.hbm, 1864, rfl⟩
abbrev main_call287_v4 : Ref sig .tc := ⟨.hbm, 1865, rfl⟩
abbrev main_v387 : Ref sig .tc := ⟨.hbm, 1866, rfl⟩
abbrev main_v388 : Ref sig .tc := ⟨.hbm, 1867, rfl⟩
abbrev main_v389 : Ref sig .tc := ⟨.hbm, 1868, rfl⟩
abbrev main_v390 : Ref sig .tc := ⟨.hbm, 1869, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S2x2 : S_.BroadcastsInDim S2x2 (![] : Fin 0 → Fin S2x2.rank)
  bcast_S1x1_S1x1x1x1_0_2 : S1x1.BroadcastsInDim S1x1x1x1 (![0, 2] : Fin 2 → Fin S1x1x1x1.rank)
  bcast_S2x2_S1x2x1x2_1_3 : S2x2.BroadcastsInDim S1x2x1x2 (![1, 3] : Fin 2 → Fin S1x2x1x2.rank)
  bcast_S1x1x1x1_S1x2x1x2_0_1_2_3 : S1x1x1x1.BroadcastsInDim S1x2x1x2 (![0, 1, 2, 3] : Fin 4 → Fin S1x2x1x2.rank)
  shapeCasts_S1x2x1x2_S2x2 : S1x2x1x2.ShapeCasts S2x2
  bcast_S2x2_S2x1x2x1_0_2 : S2x2.BroadcastsInDim S2x1x2x1 (![0, 2] : Fin 2 → Fin S2x1x2x1.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  bcast_S16x16_S16x1x16x1_0_2 : S16x16.BroadcastsInDim S16x1x16x1 (![0, 2] : Fin 2 → Fin S16x1x16x1.rank)
  bcast_S16x1x16x1_S16x2x16x2_0_1_2_3 : S16x1x16x1.BroadcastsInDim S16x2x16x2 (![0, 1, 2, 3] : Fin 4 → Fin S16x2x16x2.rank)
  bcast_S1x2x1x2_S16x2x16x2_0_1_2_3 : S1x2x1x2.BroadcastsInDim S16x2x16x2 (![0, 1, 2, 3] : Fin 4 → Fin S16x2x16x2.rank)
  shapeCasts_S16x2x16x2_S32x32 : S16x2x16x2.ShapeCasts S32x32
  bcast_S32x32_S32x1x32x1_0_2 : S32x32.BroadcastsInDim S32x1x32x1 (![0, 2] : Fin 2 → Fin S32x1x32x1.rank)
  bcast_S32x1x32x1_S32x2x32x2_0_1_2_3 : S32x1x32x1.BroadcastsInDim S32x2x32x2 (![0, 1, 2, 3] : Fin 4 → Fin S32x2x32x2.rank)
  bcast_S1x2x1x2_S32x2x32x2_0_1_2_3 : S1x2x1x2.BroadcastsInDim S32x2x32x2 (![0, 1, 2, 3] : Fin 4 → Fin S32x2x32x2.rank)
  shapeCasts_S32x2x32x2_S64x64 : S32x2x32x2.ShapeCasts S64x64
  bcast_S64x64_S64x1x64x1_0_2 : S64x64.BroadcastsInDim S64x1x64x1 (![0, 2] : Fin 2 → Fin S64x1x64x1.rank)
  bcast_S64x1x64x1_S64x2x64x2_0_1_2_3 : S64x1x64x1.BroadcastsInDim S64x2x64x2 (![0, 1, 2, 3] : Fin 4 → Fin S64x2x64x2.rank)
  bcast_S1x2x1x2_S64x2x64x2_0_1_2_3 : S1x2x1x2.BroadcastsInDim S64x2x64x2 (![0, 1, 2, 3] : Fin 4 → Fin S64x2x64x2.rank)
  shapeCasts_S64x2x64x2_S128x128 : S64x2x64x2.ShapeCasts S128x128
  bcast_S128x128_S128x1x128x1_0_2 : S128x128.BroadcastsInDim S128x1x128x1 (![0, 2] : Fin 2 → Fin S128x1x128x1.rank)
  bcast_S128x1x128x1_S128x2x128x2_0_1_2_3 : S128x1x128x1.BroadcastsInDim S128x2x128x2 (![0, 1, 2, 3] : Fin 4 → Fin S128x2x128x2.rank)
  bcast_S1x2x1x2_S128x2x128x2_0_1_2_3 : S1x2x1x2.BroadcastsInDim S128x2x128x2 (![0, 1, 2, 3] : Fin 4 → Fin S128x2x128x2.rank)
  shapeCasts_S128x2x128x2_S256x256 : S128x2x128x2.ShapeCasts S256x256
  bcast_S256x256_S256x1x256x1_0_2 : S256x256.BroadcastsInDim S256x1x256x1 (![0, 2] : Fin 2 → Fin S256x1x256x1.rank)
  bcast_S256x1x256x1_S256x2x256x2_0_1_2_3 : S256x1x256x1.BroadcastsInDim S256x2x256x2 (![0, 1, 2, 3] : Fin 4 → Fin S256x2x256x2.rank)
  bcast_S1x2x1x2_S256x2x256x2_0_1_2_3 : S1x2x1x2.BroadcastsInDim S256x2x256x2 (![0, 1, 2, 3] : Fin 4 → Fin S256x2x256x2.rank)
  shapeCasts_S256x2x256x2_S512x512 : S256x2x256x2.ShapeCasts S512x512
  bcast_S512x512_S512x1x512x1_0_2 : S512x512.BroadcastsInDim S512x1x512x1 (![0, 2] : Fin 2 → Fin S512x1x512x1.rank)
  bcast_S512x1x512x1_S512x2x512x2_0_1_2_3 : S512x1x512x1.BroadcastsInDim S512x2x512x2 (![0, 1, 2, 3] : Fin 4 → Fin S512x2x512x2.rank)
  bcast_S1x2x1x2_S512x2x512x2_0_1_2_3 : S1x2x1x2.BroadcastsInDim S512x2x512x2 (![0, 1, 2, 3] : Fin 4 → Fin S512x2x512x2.rank)
  shapeCasts_S512x2x512x2_S1024x1024 : S512x2x512x2.ShapeCasts S1024x1024
  bcast_S1024x1024_S1024x1x1024x1_0_2 : S1024x1024.BroadcastsInDim S1024x1x1024x1 (![0, 2] : Fin 2 → Fin S1024x1x1024x1.rank)
  bcast_S1024x1x1024x1_S1024x2x1024x2_0_1_2_3 : S1024x1x1024x1.BroadcastsInDim S1024x2x1024x2 (![0, 1, 2, 3] : Fin 4 → Fin S1024x2x1024x2.rank)
  bcast_S1x2x1x2_S1024x2x1024x2_0_1_2_3 : S1x2x1x2.BroadcastsInDim S1024x2x1024x2 (![0, 1, 2, 3] : Fin 4 → Fin S1024x2x1024x2.rank)
  shapeCasts_S1024x2x1024x2_S2048x2048 : S1024x2x1024x2.ShapeCasts S2048x2048
  bcast_S2048x2048_S2048x1x2048x1_0_2 : S2048x2048.BroadcastsInDim S2048x1x2048x1 (![0, 2] : Fin 2 → Fin S2048x1x2048x1.rank)
  bcast_S2048x1x2048x1_S2048x2x2048x2_0_1_2_3 : S2048x1x2048x1.BroadcastsInDim S2048x2x2048x2 (![0, 1, 2, 3] : Fin 4 → Fin S2048x2x2048x2.rank)
  bcast_S1x2x1x2_S2048x2x2048x2_0_1_2_3 : S1x2x1x2.BroadcastsInDim S2048x2x2048x2 (![0, 1, 2, 3] : Fin 4 → Fin S2048x2x2048x2.rank)
  shapeCasts_S2048x2x2048x2_S4096x4096 : S2048x2x2048x2.ShapeCasts S4096x4096
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  What both programs compute. The reference builds, gate by gate, a 4096×4096 matrix that is DIAGONAL with entries ±1: every
  factor it starts from (the projectors onto the first and the second basis vector, the 2×2 identity, Pauli Z = diag(1, -1))
  is diagonal, the Kronecker product of diagonal matrices is diagonal with diagonal  r ↦ a(r / 2) · b(r % 2), and sums and
  products of diagonal matrices are diagonal entry by entry. The kernel multiplies row r of the argument by the sign
  (-1)^(number of cyclically adjacent pairs of the 12 low bits of r that are both set). This module states those objects over
  plain naturals and integers: a diagonal is a function ℕ → ℤ, read on the rows below the matrix's size.
-/
import Idealize.ShloMosaic.PureOps.Ideal

noncomputable section

namespace Cert.CZ

open Idealize.ShloMosaic

/-- The n×n matrices. -/
abbrev Sq (n : ℕ) : Shape := ⟨2, ![n, n]⟩
/-- The shapes a Kronecker product with a 2×2 factor passes through: the left factor on axes 0 and 2, the right on 1 and 3. -/
abbrev Q (n : ℕ) : Shape := ⟨4, ![n, 2, n, 2]⟩
abbrev QA (n : ℕ) : Shape := ⟨4, ![n, 1, n, 1]⟩
abbrev QB : Shape := ⟨4, ![1, 2, 1, 2]⟩
/-- The argument's and the result's shape: 4096 rows (basis states), 1024 columns (the batch). -/
abbrev SX : Shape := ⟨2, ![4096, 1024]⟩

/-- The diagonal matrix with diagonal `φ`, as an array of extended reals. -/
def diagM (n : ℕ) (φ : ℕ → ℤ) : FVec Ideal (Sq n) .f32 :=
  fun j => if (j 0).val = (j 1).val then (((φ (j 0).val : ℤ) : ℝ) : EReal) else 0

/-- The diagonal of a Kronecker product of diagonal matrices, the right factor 2×2: row r pairs the left factor's row r / 2
    with the right factor's row r % 2. -/
def kronD (φ γ : ℕ → ℤ) : ℕ → ℤ := fun r => φ (r / 2) * γ (r % 2)

/-- The diagonals of the factors: the identity (and the 1×1 one), the two projectors, Pauli Z. -/
def one : ℕ → ℤ := fun _ => 1
def p0 : ℕ → ℤ := fun r => if r = 0 then 1 else 0
def p1 : ℕ → ℤ := fun r => if r = 1 then 1 else 0
def zz : ℕ → ℤ := fun r => if r = 0 then 1 else -1

/-- A chain of Kronecker products from the 1×1 one, the factors in the order they are multiplied on. -/
def chain (ms : List (ℕ → ℤ)) : ℕ → ℤ := ms.foldl kronD one

/-- The factor at position j of gate i's first chain (the control's projector onto 0, identities elsewhere) … -/
def row0 (i : ℕ) : List (ℕ → ℤ) := (List.range 12).map fun j => if j = i then p0 else one
/-- … and of its second chain (the control's projector onto 1, Z on the target, identities elsewhere). -/
def row1 (i : ℕ) : List (ℕ → ℤ) := (List.range 12).map fun j => if j = i then p1 else if j = (i + 1) % 12 then zz else one

/-- Gate i's diagonal: the sum of its two chains. -/
def gd (i : ℕ) : ℕ → ℤ := fun r => chain (row0 i) r + chain (row1 i) r

/-- Bit i of r, and the sign the kernel computes from them: minus one to the number of cyclically adjacent set pairs among
    the twelve low bits. -/
def bit (r i : ℕ) : ℕ := (r / 2 ^ i) % 2
def par (r : ℕ) : ℕ := ((List.range 12).map fun i => bit r i * bit r ((i + 1) % 12)).sum % 2
def czSign (r : ℕ) : ℤ := 1 - 2 * (par r : ℤ)

/-- The common result: row r of the argument times its sign. -/
def G (x : FVec Ideal SX .f32) : FVec Ideal SX .f32 := fun j => (((czSign (j 0).val : ℤ) : ℝ) : EReal) * x j

/-- One gate's diagonal entry from the control's and the target's bit: -1 when both are set, 1 otherwise. -/
theorem gate_sign (x y : ℕ) (hx : x < 2) (hy : y < 2) :
    p0 x + p1 x * zz y = 1 - 2 * (((x * y) % 2 : ℕ) : ℤ) := by
  interval_cases x <;> interval_cases y <;> decide

/-- Signs of parities multiply: (-1)^a · (-1)^b = (-1)^(a + b), a sign written 1 - 2 · (parity). -/
theorem sgn_mul (a b : ℕ) :
    (1 - 2 * ((a % 2 : ℕ) : ℤ)) * (1 - 2 * ((b % 2 : ℕ) : ℤ)) = 1 - 2 * (((a + b) % 2 : ℕ) : ℤ) := by
  rcases Nat.mod_two_eq_zero_or_one a with ha | ha <;> rcases Nat.mod_two_eq_zero_or_one b with hb | hb <;>
    simp [Nat.add_mod, ha, hb]

/-- Gate i's diagonal in closed form. The chain's first factor reads the most significant of the twelve bits, so the
    control (position i) reads bit 11 - i and the target (position (i + 1) % 12) reads bit 11 - (i + 1) % 12; every
    other factor is the identity's diagonal. -/
theorem gd_eq : ∀ i, i < 12 → ∀ r,
    gd i r = 1 - 2 * (((bit r (11 - i) * bit r (11 - (i + 1) % 12)) % 2 : ℕ) : ℤ) := by
  intro i hi r
  interval_cases i <;>
  · simp only [gd, chain, row0, row1, List.range, List.range.loop, List.map, List.foldl, kronD]
    simp only [one, bit, Nat.reduceAdd, Nat.reduceMod, Nat.reduceSub, Nat.reducePow, Nat.reduceEqDiff, if_true, if_false,
      ite_true, ite_false, mul_one, one_mul, Nat.div_div_eq_div_mul, Nat.reduceMul, Nat.div_one]
    first
      | exact gate_sign _ _ (Nat.mod_lt _ (by norm_num)) (Nat.mod_lt _ (by norm_num))
      | (rw [mul_comm (zz _) (p1 _)]; exact gate_sign _ _ (Nat.mod_lt _ (by norm_num)) (Nat.mod_lt _ (by norm_num)))

/-- The twelve gates' diagonals multiply to the sign, on every row: each gate's diagonal is the sign of one adjacent
    pair, signs multiply by adding parities, and the two sums list the same twelve pairs. (The factor positions are
    read from the most significant bit down by the Kronecker chain and from the least significant up by the sign; the
    ring of adjacent pairs is the same read either way.) -/
theorem ring_sign : ∀ r, r < 4096 →
    gd 11 r * (gd 10 r * (gd 9 r * (gd 8 r * (gd 7 r * (gd 6 r * (gd 5 r * (gd 4 r * (gd 3 r * (gd 2 r * (gd 1 r * (gd 0 r * 1)))))))))))
      = czSign r := by
  intro r _
  rw [gd_eq 11 (by norm_num), gd_eq 10 (by norm_num), gd_eq 9 (by norm_num), gd_eq 8 (by norm_num), gd_eq 7 (by norm_num),
    gd_eq 6 (by norm_num), gd_eq 5 (by norm_num), gd_eq 4 (by norm_num), gd_eq 3 (by norm_num), gd_eq 2 (by norm_num),
    gd_eq 1 (by norm_num), gd_eq 0 (by norm_num)]
  simp only [mul_one, sgn_mul, czSign, par, List.range, List.range.loop, List.map, List.sum_cons, List.sum_nil,
    Nat.reduceAdd, Nat.reduceMod, Nat.reduceSub]
  congr 4
  ring

end Cert.CZ

end
-- ==== Proof.KernelValue.lean ====
/-
  The idealized kernel's value. Each of the four grid points stores, into its 1024-row block of the result, the block of the
  argument with row p scaled by the sign of the global row index r = 1024·(point) + p: the body computes that sign from the
  bits of r with integer operations (shift, and, exclusive or), as 1 - 2·parity, converts it to a float and multiplies. The
  blocks tile the 4096 rows, so after the run the result array is the argument with row r scaled by the sign of r.
-/
import proofs.«402948_j20624432956334_3_alg».proof.Proof.KernelIdealValueP
import proofs.«402948_j20624432956334_3_alg».proof.Proof.Spec
import Idealize.ShloMosaic.Lib.Pipeline.Value
import Idealize.ShloMosaic.Lib.ValueIdx

noncomputable section

namespace Cert.KernelIdeal.KV

open Cert.KernelIdeal Cert.KernelIdeal.Gen Cert.KernelIdeal.GenP Cert.KernelIdeal.ValueP
open Idealize.ShloMosaic Idealize.ShloMosaic.TcCoe Idealize.SL.Sem
open Idealize.ShloMosaic.Pipeline (Dat)
open Idealize.ShloMosaic.ValueIdx

/-! ## The sign as a function of one 32-bit word -/

/-- Bit k of a word: the arithmetic shift right by k, masked with 1. -/
def wbit (r k : BitVec 32) : BitVec 32 := IntOp.andi (IntOp.shrsi .vector r k) 1#32

/-- The parity word: the exclusive or, over the twelve cyclically adjacent pairs of the low twelve bits, of the pair's
    conjunction. -/
def parW (r : BitVec 32) : BitVec 32 :=
  IntOp.xori (IntOp.xori (IntOp.xori (IntOp.xori (IntOp.xori (IntOp.xori (IntOp.xori (IntOp.xori (IntOp.xori (IntOp.xori (IntOp.xori (IntOp.xori 0#32
    (IntOp.andi (wbit r 0#32) (wbit r 1#32)))
    (IntOp.andi (wbit r 1#32) (wbit r 2#32)))
    (IntOp.andi (wbit r 2#32) (wbit r 3#32)))
    (IntOp.andi (wbit r 3#32) (wbit r 4#32)))
    (IntOp.andi (wbit r 4#32) (wbit r 5#32)))
    (IntOp.andi (wbit r 5#32) (wbit r 6#32)))
    (IntOp.andi (wbit r 6#32) (wbit r 7#32)))
    (IntOp.andi (wbit r 7#32) (wbit r 8#32)))
    (IntOp.andi (wbit r 8#32) (wbit r 9#32)))
    (IntOp.andi (wbit r 9#32) (wbit r 10#32)))
    (IntOp.andi (wbit r 10#32) (wbit r 11#32)))
    (IntOp.andi (wbit r 11#32) (wbit r 0#32))

/-- The sign word: 1 - 2·parity. -/
def sgnBits (r : BitVec 32) : BitVec 32 := IntOp.subi 1#32 (IntOp.muli 2#32 (parW r))

/-- The sign as a float: the sign word read signed. -/
def sgnW (r : BitVec 32) : EReal := FloatOps.sitofp (F := Ideal) .f32 (sgnBits r)

/-- The word of the global row index of row p of grid point i0: i0·1024 + p in 32-bit arithmetic. -/
def rowW (i0 p : Nat) : BitVec 32 := IntOp.addi (Scalar.muli (BitVec.ofNat 32 i0) 1024#32) (BitVec.ofNat 32 p)

/-! ## The body's stored value at an index -/

/-- The column of sign words at a row is the sign word of the row word there: the integer operations are pointwise. -/
theorem sgn_apply (i : grid0.Coords) (j : S1024x1.Idx) :
    subi (broadcast S1024x1 1#32) (k0_pay7 (k0_pay2 i) (k0_pay6 (k0_pay2 i) (k0_pay3 i) (k0_pay4 i) (k0_pay5 i) 1#32)) j
      = sgnBits (k0_pay2 i j) := rfl

/-- The row word at row p of point i: the point's first row plus the row's own number. -/
theorem row_apply (i : grid0.Coords) (p : Fin 1024) : k0_pay2 i (ix2 p (0 : Fin 1)) = rowW (i 0).val p.val := by
  unfold k0_pay2 rowW
  show IntOp.addi _ (iota .tc S1024x1 32 [0] iota_S1024x1_d0_w32 (ix2 p (0 : Fin 1))) = _
  rw [iota_single_apply]
  rfl

/-- A column broadcast over the lanes reads, at row p and any lane, the column at row p. -/
theorem bcast_apply (v : FVec Ideal S1024x1 .f32) (p : Fin 1024) (q : Fin 1024) :
    broadcastTo S1024x1024 v broadcasts_S1024x1_S1024x1024 (ix2 p q) = v (ix2 p (0 : Fin 1)) :=
  broadcastTo_apply v _ (ix2 p q) (ix2 p (0 : Fin 1)) fun a => match a with
    | ⟨0, _⟩ => rfl
    | ⟨1, _⟩ => rfl

/-- The stored value at row p, lane q of point i's block: the sign of the global row times the loaded element. -/
theorem pay_apply (i : grid0.Coords) (x0 : Vec Ideal S1024x1024 .f32) (p : Fin 1024) (q : Fin 1024) :
    k0_pay1 (F := Ideal) (k0_pay7 (k0_pay2 i) (k0_pay6 (k0_pay2 i) (k0_pay3 i) (k0_pay4 i) (k0_pay5 i) 1#32)) 1#32 x0 (ix2 p q)
      = sgnW (rowW (i 0).val p.val) * x0 (ix2 p q) := by
  unfold k0_pay1
  show broadcastTo S1024x1024 (sitofp (F := Ideal) .f32 (subi (broadcast S1024x1 1#32) (k0_pay7 (k0_pay2 i) (k0_pay6 (k0_pay2 i) (k0_pay3 i) (k0_pay4 i) (k0_pay5 i) 1#32)))) broadcasts_S1024x1_S1024x1024 (ix2 p q) * x0 (ix2 p q) = _
  rw [bcast_apply, sitofp_apply, sgn_apply, row_apply]
  rfl

/-! ## The sign word is the specification's sign -/

/-- As integers, on each of the 4096 rows: the sign word of the row word, read signed, is the specification's sign of the
    row (a finite check, by evaluation). -/
theorem sgn_int : ∀ (i0 : Fin 4) (p : Fin 1024), (sgnBits (rowW i0.val p.val)).toInt = Cert.CZ.czSign (i0.val * 1024 + p.val) := by
  decide +kernel

/-- So the sign float of the row word is the specification's sign of the row, as an extended real: the conversion is
    exact. -/
theorem sgnW_eq (i0 : Fin 4) (p : Fin 1024) : sgnW (rowW i0.val p.val) = (((Cert.CZ.czSign (i0.val * 1024 + p.val) : ℤ) : ℝ) : EReal) := by
  show (((sgnBits (rowW i0.val p.val)).toInt : ℝ) : EReal) = _
  rw [sgn_int i0 p]

/-- The specification at an array index whose row is row p of block i0. -/
theorem G_apply (x : FVec Ideal Cert.CZ.SX .f32) (k : Cert.CZ.SX.Idx) (i0 : Fin 4) (p : Fin 1024)
    (hk : (k 0).val = i0.val * 1024 + p.val) : Cert.CZ.G x k = sgnW (rowW i0.val p.val) * x k := by
  rw [sgnW_eq]
  unfold Cert.CZ.G
  rw [hk]

/-! ## From the blocks to the array -/

section Blocks
variable (m : (ℓ : Loc nD τ sig) → Buf (Elt Ideal) ℓ)

theorem hz : (![0, 0] : Fin 2 → Nat) = fun _ => 0 := funext fun a => by fin_cases a <;> rfl

/-- Over the four points: the block index of the argument's window and of the result's window at point t is t on the row
    axis and 0 on the lane axis, and the point's one grid coordinate is t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ (grid0.coords t 0).val = t.val :=
  (by decide +kernel : ∀ t : Fin grid0.N, _)

/-- WHAT POINT t WRITES BACK is block t of the specification of the argument array. -/
theorem flushed_eq (c : Dev nD) (t : Fin cfg0.N) :
    (dats m 0 c).flushed 1 t = ((cfg0.win 1).blk t).view.read (Elt Ideal) (Cert.CZ.G (V m c main_arg0)) := by
  rw [ValueP.flushed1]
  unfold out0_1
  rw [View.canon_unit_zero hz]
  simp only [View.ld_unit_zero (S := S1024x1024) hz]
  obtain ⟨e0, e1, e2, e3, e4⟩ := idx_facts t
  have hN : cfg0.N = 4 := N_0
  have ht : t.val < 4 := hN ▸ t.isLt
  funext j
  obtain ⟨p, q, rfl⟩ : ∃ (p : Fin 1024) (q : Fin 1024), j = ix2 p q := ⟨j 0, j 1, eq_ix2 j⟩
  refine (pay_apply (grid0.coords t) (iblk m c 0 t) p q).trans ?_
  rw [e4]
  show sgnW (rowW t.val p.val) * V m c main_arg0 (((cfg0.win 0).blk t).view.emb (ix2 p q)) = Cert.CZ.G (V m c main_arg0) (((cfg0.win 1).blk t).view.emb (ix2 p q))
  have h0 : ((cfg0.win 0).blk t).view.emb (ix2 p q) = ((cfg0.win 1).blk t).view.emb (ix2 p q) := by
    funext a; apply Fin.ext
    match a with
    | ⟨0, _⟩ => show win0_0.index t (0 : Fin 2) * 1024 + 1 * p.val = win0_1.index t (0 : Fin 2) * 1024 + 1 * p.val; omega
    | ⟨1, _⟩ => show win0_0.index t (1 : Fin 2) * 1024 + 1 * q.val = win0_1.index t (1 : Fin 2) * 1024 + 1 * q.val; omega
  rw [h0]
  exact (G_apply (V m c main_arg0) _ ⟨t.val, ht⟩ p (by
    show win0_1.index t (0 : Fin 2) * 1024 + 1 * p.val = t.val * 1024 + p.val; omega)).symm

/-- An index of the array is in point t's block iff each coordinate is in the block's range on its axis. -/
theorem mem_blk (t : Fin cfg0.N) (i : S4096x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- Every index of the array is in some point's block: row r is in the block of point r / 1024. -/
theorem cover (i : S4096x1024.Idx) : ∃ t : Fin cfg0.N, (cfg0.win 1).flush t = true ∧ i ∈ ((cfg0.win 1).blk t).view.set := by
  have hN : cfg0.N = 4 := N_0
  have hi0 : (i 0).val < 4096 := (i 0).isLt
  have hi1 : (i 1).val < 1024 := (i 1).isLt
  have ht : (i 0).val / 1024 < cfg0.N := by rw [hN]; omega
  obtain ⟨-, -, e2, e3, -⟩ := idx_facts ⟨(i 0).val / 1024, ht⟩
  have e2' : win0_1.index ⟨(i 0).val / 1024, ht⟩ (0 : Fin 2) = (i 0).val / 1024 := e2
  refine ⟨⟨(i 0).val / 1024, ht⟩, flush0_1 _, ?_⟩
  rw [mem_blk]
  intro a
  match a with
  | ⟨0, _⟩ => show win0_1.index ⟨(i 0).val / 1024, ht⟩ (0 : Fin 2) * 1024 ≤ (i 0).val ∧ (i 0).val < win0_1.index ⟨(i 0).val / 1024, ht⟩ (0 : Fin 2) * 1024 + 1024; omega
  | ⟨1, _⟩ => show win0_1.index ⟨(i 0).val / 1024, ht⟩ (1 : Fin 2) * 1024 ≤ (i 1).val ∧ (i 1).val < win0_1.index ⟨(i 0).val / 1024, ht⟩ (1 : Fin 2) * 1024 + 1024; omega

/-- THE ARRAY after the run: the specification of the argument array. -/
theorem final (c : Dev nD) : (dats m 0 c).arrAt 1 cfg0.N = Cert.CZ.G (m ((c : Thread nD τ).loc main_arg0)) := by
  rw [← V_main_arg0 m c]
  exact (dats m 0 c).arrAt_eq_of_cover 1 (Cert.CZ.G (V m c main_arg0)) (fun t _ => flushed_eq m c t) cover

end Blocks

/-! ## The run -/

/-- Every weakly fair execution of the idealized kernel's @main terminates with the result array at the argument's rows
    scaled by their signs, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = Cert.CZ.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (ValueP.run_blocks m ρ)

end Cert.KernelIdeal.KV

end
-- ==== Proof.RefOps.lean ====
import proofs.«402948_j20624432956334_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of one call of `fn_kron`, in order. -/
abbrev kronOps_kron (arg0 : TRef sig ⟨S1x1, .f32⟩) (arg1 : TRef sig ⟨S2x2, .f32⟩) (φ : fn_kron.Bufs) : List (HloOp τ sig (Elt F)) :=
  [ StableHlo.TRef.unary arg0 φ.v0 (broadcastInDim S1x1x1x1 ![0, 2] bcast_S1x1_S1x1x1x1_0_2),
    StableHlo.TRef.unary arg1 φ.v1 (broadcastInDim S1x2x1x2 ![1, 3] bcast_S2x2_S1x2x1x2_1_3),
    StableHlo.TRef.unary φ.v0 φ.v2 (broadcastInDim S1x2x1x2 ![0, 1, 2, 3] bcast_S1x1x1x1_S1x2x1x2_0_1_2_3),
    StableHlo.TRef.binary φ.v2 φ.v1 φ.v3 mulf,
    StableHlo.TRef.reshape φ.v3 φ.v4 rfl shapeCasts_S1x2x1x2_S2x2 ]

/-- The operations of one call of `fn_kron_0`, in order. -/
abbrev kronOps_kron_0 (arg0 : TRef sig ⟨S2x2, .f32⟩) (arg1 : TRef sig ⟨S2x2, .f32⟩) (φ : fn_kron_0.Bufs) : List (HloOp τ sig (Elt F)) :=
  [ StableHlo.TRef.unary arg0 φ.v0 (broadcastInDim S2x1x2x1 ![0, 2] bcast_S2x2_S2x1x2x1_0_2),
    StableHlo.TRef.unary arg1 φ.v1 (broadcastInDim S1x2x1x2 ![1, 3] bcast_S2x2_S1x2x1x2_1_3),
    StableHlo.TRef.unary φ.v0 φ.v2 (broadcastInDim S2x2x2x2 ![0, 1, 2, 3] bcast_S2x1x2x1_S2x2x2x2_0_1_2_3),
    StableHlo.TRef.unary φ.v1 φ.v3 (broadcastInDim S2x2x2x2 ![0, 1, 2, 3] bcast_S1x2x1x2_S2x2x2x2_0_1_2_3),
    StableHlo.TRef.binary φ.v2 φ.v3 φ.v4 mulf,
    StableHlo.TRef.reshape φ.v4 φ.v5 rfl shapeCasts_S2x2x2x2_S4x4 ]

/-- The operations of one call of `fn_kron_1`, in order. -/
abbrev kronOps_kron_1 (arg0 : TRef sig ⟨S2x2, .f32⟩) (arg1 : TRef sig ⟨S2x2, .f32⟩) (φ : fn_kron_1.Bufs) : List (HloOp τ sig (Elt F)) :=
  [ StableHlo.TRef.unary arg0 φ.v0 (broadcastInDim S2x1x2x1 ![0, 2] bcast_S2x2_S2x1x2x1_0_2),
    StableHlo.TRef.unary arg1 φ.v1 (broadcastInDim S1x2x1x2 ![1, 3] bcast_S2x2_S1x2x1x2_1_3),
    StableHlo.TRef.unary φ.v0 φ.v2 (broadcastInDim S2x2x2x2 ![0, 1, 2, 3] bcast_S2x1x2x1_S2x2x2x2_0_1_2_3),
    StableHlo.TRef.unary φ.v1 φ.v3 (broadcastInDim S2x2x2x2 ![0, 1, 2, 3] bcast_S1x2x1x2_S2x2x2x2_0_1_2_3),
    StableHlo.TRef.binary φ.v2 φ.v3 φ.v4 mulf,
    StableHlo.TRef.reshape φ.v4 φ.v5 rfl shapeCasts_S2x2x2x2_S4x4 ]

/-- The operations of one call of `fn_kron_2`, in order. -/
abbrev kronOps_kron_2 (arg0 : TRef sig ⟨S4x4, .f32⟩) (arg1 : TRef sig ⟨S2x2, .f32⟩) (φ : fn_kron_2.Bufs) : List (HloOp τ sig (Elt F)) :=
  [ StableHlo.TRef.unary arg0 φ.v0 (broadcastInDim S4x1x4x1 ![0, 2] bcast_S4x4_S4x1x4x1_0_2),
    StableHlo.TRef.unary arg1 φ.v1 (broadcastInDim S1x2x1x2 ![1, 3] bcast_S2x2_S1x2x1x2_1_3),
    StableHlo.TRef.unary φ.v0 φ.v2 (broadcastInDim S4x2x4x2 ![0, 1, 2, 3] bcast_S4x1x4x1_S4x2x4x2_0_1_2_3),
    StableHlo.TRef.unary φ.v1 φ.v3 (broadcastInDim S4x2x4x2 ![0, 1, 2, 3] bcast_S1x2x1x2_S4x2x4x2_0_1_2_3),
    StableHlo.TRef.binary φ.v2 φ.v3 φ.v4 mulf,
    StableHlo.TRef.reshape φ.v4 φ.v5 rfl shapeCasts_S4x2x4x2_S8x8 ]

/-- The operations of one call of `fn_kron_3`, in order. -/
abbrev kronOps_kron_3 (arg0 : TRef sig ⟨S8x8, .f32⟩) (arg1 : TRef sig ⟨S2x2, .f32⟩) (φ : fn_kron_3.Bufs) : List (HloOp τ sig (Elt F)) :=
  [ StableHlo.TRef.unary arg0 φ.v0 (broadcastInDim S8x1x8x1 ![0, 2] bcast_S8x8_S8x1x8x1_0_2),
    StableHlo.TRef.unary arg1 φ.v1 (broadcastInDim S1x2x1x2 ![1, 3] bcast_S2x2_S1x2x1x2_1_3),
    StableHlo.TRef.unary φ.v0 φ.v2 (broadcastInDim S8x2x8x2 ![0, 1, 2, 3] bcast_S8x1x8x1_S8x2x8x2_0_1_2_3),
    StableHlo.TRef.unary φ.v1 φ.v3 (broadcastInDim S8x2x8x2 ![0, 1, 2, 3] bcast_S1x2x1x2_S8x2x8x2_0_1_2_3),
    StableHlo.TRef.binary φ.v2 φ.v3 φ.v4 mulf,
    StableHlo.TRef.reshape φ.v4 φ.v5 rfl shapeCasts_S8x2x8x2_S16x16 ]

/-- The operations of one call of `fn_kron_4`, in order. -/
abbrev kronOps_kron_4 (arg0 : TRef sig ⟨S16x16, .f32⟩) (arg1 : TRef sig ⟨S2x2, .f32⟩) (φ : fn_kron_4.Bufs) : List (HloOp τ sig (Elt F)) :=
  [ StableHlo.TRef.unary arg0 φ.v0 (broadcastInDim S16x1x16x1 ![0, 2] bcast_S16x16_S16x1x16x1_0_2),
    StableHlo.TRef.unary arg1 φ.v1 (broadcastInDim S1x2x1x2 ![1, 3] bcast_S2x2_S1x2x1x2_1_3),
    StableHlo.TRef.unary φ.v0 φ.v2 (broadcastInDim S16x2x16x2 ![0, 1, 2, 3] bcast_S16x1x16x1_S16x2x16x2_0_1_2_3),
    StableHlo.TRef.unary φ.v1 φ.v3 (broadcastInDim S16x2x16x2 ![0, 1, 2, 3] bcast_S1x2x1x2_S16x2x16x2_0_1_2_3),
    StableHlo.TRef.binary φ.v2 φ.v3 φ.v4 mulf,
    StableHlo.TRef.reshape φ.v4 φ.v5 rfl shapeCasts_S16x2x16x2_S32x32 ]

/-- The operations of one call of `fn_kron_5`, in order. -/
abbrev kronOps_kron_5 (arg0 : TRef sig ⟨S32x32, .f32⟩) (arg1 : TRef sig ⟨S2x2, .f32⟩) (φ : fn_kron_5.Bufs) : List (HloOp τ sig (Elt F)) :=
  [ StableHlo.TRef.unary arg0 φ.v0 (broadcastInDim S32x1x32x1 ![0, 2] bcast_S32x32_S32x1x32x1_0_2),
    StableHlo.TRef.unary arg1 φ.v1 (broadcastInDim S1x2x1x2 ![1, 3] bcast_S2x2_S1x2x1x2_1_3),
    StableHlo.TRef.unary φ.v0 φ.v2 (broadcastInDim S32x2x32x2 ![0, 1, 2, 3] bcast_S32x1x32x1_S32x2x32x2_0_1_2_3),
    StableHlo.TRef.unary φ.v1 φ.v3 (broadcastInDim S32x2x32x2 ![0, 1, 2, 3] bcast_S1x2x1x2_S32x2x32x2_0_1_2_3),
    StableHlo.TRef.binary φ.v2 φ.v3 φ.v4 mulf,
    StableHlo.TRef.reshape φ.v4 φ.v5 rfl shapeCasts_S32x2x32x2_S64x64 ]

/-- The operations of one call of `fn_kron_6`, in order. -/
abbrev kronOps_kron_6 (arg0 : TRef sig ⟨S64x64, .f32⟩) (arg1 : TRef sig ⟨S2x2, .f32⟩) (φ : fn_kron_6.Bufs) : List (HloOp τ sig (Elt F)) :=
  [ StableHlo.TRef.unary arg0 φ.v0 (broadcastInDim S64x1x64x1 ![0, 2] bcast_S64x64_S64x1x64x1_0_2),
    StableHlo.TRef.unary arg1 φ.v1 (broadcastInDim S1x2x1x2 ![1, 3] bcast_S2x2_S1x2x1x2_1_3),
    StableHlo.TRef.unary φ.v0 φ.v2 (broadcastInDim S64x2x64x2 ![0, 1, 2, 3] bcast_S64x1x64x1_S64x2x64x2_0_1_2_3),
    StableHlo.TRef.unary φ.v1 φ.v3 (broadcastInDim S64x2x64x2 ![0, 1, 2, 3] bcast_S1x2x1x2_S64x2x64x2_0_1_2_3),
    StableHlo.TRef.binary φ.v2 φ.v3 φ.v4 mulf,
    StableHlo.TRef.reshape φ.v4 φ.v5 rfl shapeCasts_S64x2x64x2_S128x128 ]

/-- The operations of one call of `fn_kron_7`, in order. -/
abbrev kronOps_kron_7 (arg0 : TRef sig ⟨S128x128, .f32⟩) (arg1 : TRef sig ⟨S2x2, .f32⟩) (φ : fn_kron_7.Bufs) : List (HloOp τ sig (Elt F)) :=
  [ StableHlo.TRef.unary arg0 φ.v0 (broadcastInDim S128x1x128x1 ![0, 2] bcast_S128x128_S128x1x128x1_0_2),
    StableHlo.TRef.unary arg1 φ.v1 (broadcastInDim S1x2x1x2 ![1, 3] bcast_S2x2_S1x2x1x2_1_3),
    StableHlo.TRef.unary φ.v0 φ.v2 (broadcastInDim S128x2x128x2 ![0, 1, 2, 3] bcast_S128x1x128x1_S128x2x128x2_0_1_2_3),
    StableHlo.TRef.unary φ.v1 φ.v3 (broadcastInDim S128x2x128x2 ![0, 1, 2, 3] bcast_S1x2x1x2_S128x2x128x2_0_1_2_3),
    StableHlo.TRef.binary φ.v2 φ.v3 φ.v4 mulf,
    StableHlo.TRef.reshape φ.v4 φ.v5 rfl shapeCasts_S128x2x128x2_S256x256 ]

/-- The operations of one call of `fn_kron_8`, in order. -/
abbrev kronOps_kron_8 (arg0 : TRef sig ⟨S256x256, .f32⟩) (arg1 : TRef sig ⟨S2x2, .f32⟩) (φ : fn_kron_8.Bufs) : List (HloOp τ sig (Elt F)) :=
  [ StableHlo.TRef.unary arg0 φ.v0 (broadcastInDim S256x1x256x1 ![0, 2] bcast_S256x256_S256x1x256x1_0_2),
    StableHlo.TRef.unary arg1 φ.v1 (broadcastInDim S1x2x1x2 ![1, 3] bcast_S2x2_S1x2x1x2_1_3),
    StableHlo.TRef.unary φ.v0 φ.v2 (broadcastInDim S256x2x256x2 ![0, 1, 2, 3] bcast_S256x1x256x1_S256x2x256x2_0_1_2_3),
    StableHlo.TRef.unary φ.v1 φ.v3 (broadcastInDim S256x2x256x2 ![0, 1, 2, 3] bcast_S1x2x1x2_S256x2x256x2_0_1_2_3),
    StableHlo.TRef.binary φ.v2 φ.v3 φ.v4 mulf,
    StableHlo.TRef.reshape φ.v4 φ.v5 rfl shapeCasts_S256x2x256x2_S512x512 ]

/-- The operations of one call of `fn_kron_9`, in order. -/
abbrev kronOps_kron_9 (arg0 : TRef sig ⟨S512x512, .f32⟩) (arg1 : TRef sig ⟨S2x2, .f32⟩) (φ : fn_kron_9.Bufs) : List (HloOp τ sig (Elt F)) :=
  [ StableHlo.TRef.unary arg0 φ.v0 (broadcastInDim S512x1x512x1 ![0, 2] bcast_S512x512_S512x1x512x1_0_2),
    StableHlo.TRef.unary arg1 φ.v1 (broadcastInDim S1x2x1x2 ![1, 3] bcast_S2x2_S1x2x1x2_1_3),
    StableHlo.TRef.unary φ.v0 φ.v2 (broadcastInDim S512x2x512x2 ![0, 1, 2, 3] bcast_S512x1x512x1_S512x2x512x2_0_1_2_3),
    StableHlo.TRef.unary φ.v1 φ.v3 (broadcastInDim S512x2x512x2 ![0, 1, 2, 3] bcast_S1x2x1x2_S512x2x512x2_0_1_2_3),
    StableHlo.TRef.binary φ.v2 φ.v3 φ.v4 mulf,
    StableHlo.TRef.reshape φ.v4 φ.v5 rfl shapeCasts_S512x2x512x2_S1024x1024 ]

/-- The operations of one call of `fn_kron_10`, in order. -/
abbrev kronOps_kron_10 (arg0 : TRef sig ⟨S1024x1024, .f32⟩) (arg1 : TRef sig ⟨S2x2, .f32⟩) (φ : fn_kron_10.Bufs) : List (HloOp τ sig (Elt F)) :=
  [ StableHlo.TRef.unary arg0 φ.v0 (broadcastInDim S1024x1x1024x1 ![0, 2] bcast_S1024x1024_S1024x1x1024x1_0_2),
    StableHlo.TRef.unary arg1 φ.v1 (broadcastInDim S1x2x1x2 ![1, 3] bcast_S2x2_S1x2x1x2_1_3),
    StableHlo.TRef.unary φ.v0 φ.v2 (broadcastInDim S1024x2x1024x2 ![0, 1, 2, 3] bcast_S1024x1x1024x1_S1024x2x1024x2_0_1_2_3),
    StableHlo.TRef.unary φ.v1 φ.v3 (broadcastInDim S1024x2x1024x2 ![0, 1, 2, 3] bcast_S1x2x1x2_S1024x2x1024x2_0_1_2_3),
    StableHlo.TRef.binary φ.v2 φ.v3 φ.v4 mulf,
    StableHlo.TRef.reshape φ.v4 φ.v5 rfl shapeCasts_S1024x2x1024x2_S2048x2048 ]

/-- The operations of one call of `fn_kron_11`, in order. -/
abbrev kronOps_kron_11 (arg0 : TRef sig ⟨S2048x2048, .f32⟩) (arg1 : TRef sig ⟨S2x2, .f32⟩) (φ : fn_kron_11.Bufs) : List (HloOp τ sig (Elt F)) :=
  [ StableHlo.TRef.unary arg0 φ.v0 (broadcastInDim S2048x1x2048x1 ![0, 2] bcast_S2048x2048_S2048x1x2048x1_0_2),
    StableHlo.TRef.unary arg1 φ.v1 (broadcastInDim S1x2x1x2 ![1, 3] bcast_S2x2_S1x2x1x2_1_3),
    StableHlo.TRef.unary φ.v0 φ.v2 (broadcastInDim S2048x2x2048x2 ![0, 1, 2, 3] bcast_S2048x1x2048x1_S2048x2x2048x2_0_1_2_3),
    StableHlo.TRef.unary φ.v1 φ.v3 (broadcastInDim S2048x2x2048x2 ![0, 1, 2, 3] bcast_S1x2x1x2_S2048x2x2048x2_0_1_2_3),
    StableHlo.TRef.binary φ.v2 φ.v3 φ.v4 mulf,
    StableHlo.TRef.reshape φ.v4 φ.v5 rfl shapeCasts_S2048x2x2048x2_S4096x4096 ]

/-- The operations of one call of `fn_kron_12`, in order. -/
abbrev kronOps_kron_12 (arg0 : TRef sig ⟨S1x1, .f32⟩) (arg1 : TRef sig ⟨S2x2, .f32⟩) (φ : fn_kron_12.Bufs) : List (HloOp τ sig (Elt F)) :=
  [ StableHlo.TRef.unary arg0 φ.v0 (broadcastInDim S1x1x1x1 ![0, 2] bcast_S1x1_S1x1x1x1_0_2),
    StableHlo.TRef.unary arg1 φ.v1 (broadcastInDim S1x2x1x2 ![1, 3] bcast_S2x2_S1x2x1x2_1_3),
    StableHlo.TRef.unary φ.v0 φ.v2 (broadcastInDim S1x2x1x2 ![0, 1, 2, 3] bcast_S1x1x1x1_S1x2x1x2_0_1_2_3),
    StableHlo.TRef.binary φ.v2 φ.v1 φ.v3 mulf,
    StableHlo.TRef.reshape φ.v3 φ.v4 rfl shapeCasts_S1x2x1x2_S2x2 ]

/-- The operations of one call of `fn_kron_13`, in order. -/
abbrev kronOps_kron_13 (arg0 : TRef sig ⟨S4x4, .f32⟩) (arg1 : TRef sig ⟨S2x2, .f32⟩) (φ : fn_kron_13.Bufs) : List (HloOp τ sig (Elt F)) :=
  [ StableHlo.TRef.unary arg0 φ.v0 (broadcastInDim S4x1x4x1 ![0, 2] bcast_S4x4_S4x1x4x1_0_2),
    StableHlo.TRef.unary arg1 φ.v1 (broadcastInDim S1x2x1x2 ![1, 3] bcast_S2x2_S1x2x1x2_1_3),
    StableHlo.TRef.unary φ.v0 φ.v2 (broadcastInDim S4x2x4x2 ![0, 1, 2, 3] bcast_S4x1x4x1_S4x2x4x2_0_1_2_3),
    StableHlo.TRef.unary φ.v1 φ.v3 (broadcastInDim S4x2x4x2 ![0, 1, 2, 3] bcast_S1x2x1x2_S4x2x4x2_0_1_2_3),
    StableHlo.TRef.binary φ.v2 φ.v3 φ.v4 mulf,
    StableHlo.TRef.reshape φ.v4 φ.v5 rfl shapeCasts_S4x2x4x2_S8x8 ]

/-- The operations of one call of `fn_kron_14`, in order. -/
abbrev kronOps_kron_14 (arg0 : TRef sig ⟨S8x8, .f32⟩) (arg1 : TRef sig ⟨S2x2, .f32⟩) (φ : fn_kron_14.Bufs) : List (HloOp τ sig (Elt F)) :=
  [ StableHlo.TRef.unary arg0 φ.v0 (broadcastInDim S8x1x8x1 ![0, 2] bcast_S8x8_S8x1x8x1_0_2),
    StableHlo.TRef.unary arg1 φ.v1 (broadcastInDim S1x2x1x2 ![1, 3] bcast_S2x2_S1x2x1x2_1_3),
    StableHlo.TRef.unary φ.v0 φ.v2 (broadcastInDim S8x2x8x2 ![0, 1, 2, 3] bcast_S8x1x8x1_S8x2x8x2_0_1_2_3),
    StableHlo.TRef.unary φ.v1 φ.v3 (broadcastInDim S8x2x8x2 ![0, 1, 2, 3] bcast_S1x2x1x2_S8x2x8x2_0_1_2_3),
    StableHlo.TRef.binary φ.v2 φ.v3 φ.v4 mulf,
    StableHlo.TRef.reshape φ.v4 φ.v5 rfl shapeCasts_S8x2x8x2_S16x16 ]

/-- The operations of one call of `fn_kron_15`, in order. -/
abbrev kronOps_kron_15 (arg0 : TRef sig ⟨S16x16, .f32⟩) (arg1 : TRef sig ⟨S2x2, .f32⟩) (φ : fn_kron_15.Bufs) : List (HloOp τ sig (Elt F)) :=
  [ StableHlo.TRef.unary arg0 φ.v0 (broadcastInDim S16x1x16x1 ![0, 2] bcast_S16x16_S16x1x16x1_0_2),
    StableHlo.TRef.unary arg1 φ.v1 (broadcastInDim S1x2x1x2 ![1, 3] bcast_S2x2_S1x2x1x2_1_3),
    StableHlo.TRef.unary φ.v0 φ.v2 (broadcastInDim S16x2x16x2 ![0, 1, 2, 3] bcast_S16x1x16x1_S16x2x16x2_0_1_2_3),
    StableHlo.TRef.unary φ.v1 φ.v3 (broadcastInDim S16x2x16x2 ![0, 1, 2, 3] bcast_S1x2x1x2_S16x2x16x2_0_1_2_3),
    StableHlo.TRef.binary φ.v2 φ.v3 φ.v4 mulf,
    StableHlo.TRef.reshape φ.v4 φ.v5 rfl shapeCasts_S16x2x16x2_S32x32 ]

/-- The operations of one call of `fn_kron_16`, in order. -/
abbrev kronOps_kron_16 (arg0 : TRef sig ⟨S32x32, .f32⟩) (arg1 : TRef sig ⟨S2x2, .f32⟩) (φ : fn_kron_16.Bufs) : List (HloOp τ sig (Elt F)) :=
  [ StableHlo.TRef.unary arg0 φ.v0 (broadcastInDim S32x1x32x1 ![0, 2] bcast_S32x32_S32x1x32x1_0_2),
    StableHlo.TRef.unary arg1 φ.v1 (broadcastInDim S1x2x1x2 ![1, 3] bcast_S2x2_S1x2x1x2_1_3),
    StableHlo.TRef.unary φ.v0 φ.v2 (broadcastInDim S32x2x32x2 ![0, 1, 2, 3] bcast_S32x1x32x1_S32x2x32x2_0_1_2_3),
    StableHlo.TRef.unary φ.v1 φ.v3 (broadcastInDim S32x2x32x2 ![0, 1, 2, 3] bcast_S1x2x1x2_S32x2x32x2_0_1_2_3),
    StableHlo.TRef.binary φ.v2 φ.v3 φ.v4 mulf,
    StableHlo.TRef.reshape φ.v4 φ.v5 rfl shapeCasts_S32x2x32x2_S64x64 ]

/-- The operations of one call of `fn_kron_17`, in order. -/
abbrev kronOps_kron_17 (arg0 : TRef sig ⟨S64x64, .f32⟩) (arg1 : TRef sig ⟨S2x2, .f32⟩) (φ : fn_kron_17.Bufs) : List (HloOp τ sig (Elt F)) :=
  [ StableHlo.TRef.unary arg0 φ.v0 (broadcastInDim S64x1x64x1 ![0, 2] bcast_S64x64_S64x1x64x1_0_2),
    StableHlo.TRef.unary arg1 φ.v1 (broadcastInDim S1x2x1x2 ![1, 3] bcast_S2x2_S1x2x1x2_1_3),
    StableHlo.TRef.unary φ.v0 φ.v2 (broadcastInDim S64x2x64x2 ![0, 1, 2, 3] bcast_S64x1x64x1_S64x2x64x2_0_1_2_3),
    StableHlo.TRef.unary φ.v1 φ.v3 (broadcastInDim S64x2x64x2 ![0, 1, 2, 3] bcast_S1x2x1x2_S64x2x64x2_0_1_2_3),
    StableHlo.TRef.binary φ.v2 φ.v3 φ.v4 mulf,
    StableHlo.TRef.reshape φ.v4 φ.v5 rfl shapeCasts_S64x2x64x2_S128x128 ]

/-- The operations of one call of `fn_kron_18`, in order. -/
abbrev kronOps_kron_18 (arg0 : TRef sig ⟨S128x128, .f32⟩) (arg1 : TRef sig ⟨S2x2, .f32⟩) (φ : fn_kron_18.Bufs) : List (HloOp τ sig (Elt F)) :=
  [ StableHlo.TRef.unary arg0 φ.v0 (broadcastInDim S128x1x128x1 ![0, 2] bcast_S128x128_S128x1x128x1_0_2),
    StableHlo.TRef.unary arg1 φ.v1 (broadcastInDim S1x2x1x2 ![1, 3] bcast_S2x2_S1x2x1x2_1_3),
    StableHlo.TRef.unary φ.v0 φ.v2 (broadcastInDim S128x2x128x2 ![0, 1, 2, 3] bcast_S128x1x128x1_S128x2x128x2_0_1_2_3),
    StableHlo.TRef.unary φ.v1 φ.v3 (broadcastInDim S128x2x128x2 ![0, 1, 2, 3] bcast_S1x2x1x2_S128x2x128x2_0_1_2_3),
    StableHlo.TRef.binary φ.v2 φ.v3 φ.v4 mulf,
    StableHlo.TRef.reshape φ.v4 φ.v5 rfl shapeCasts_S128x2x128x2_S256x256 ]

/-- The operations of one call of `fn_kron_19`, in order. -/
abbrev kronOps_kron_19 (arg0 : TRef sig ⟨S256x256, .f32⟩) (arg1 : TRef sig ⟨S2x2, .f32⟩) (φ : fn_kron_19.Bufs) : List (HloOp τ sig (Elt F)) :=
  [ StableHlo.TRef.unary arg0 φ.v0 (broadcastInDim S256x1x256x1 ![0, 2] bcast_S256x256_S256x1x256x1_0_2),
    StableHlo.TRef.unary arg1 φ.v1 (broadcastInDim S1x2x1x2 ![1, 3] bcast_S2x2_S1x2x1x2_1_3),
    StableHlo.TRef.unary φ.v0 φ.v2 (broadcastInDim S256x2x256x2 ![0, 1, 2, 3] bcast_S256x1x256x1_S256x2x256x2_0_1_2_3),
    StableHlo.TRef.unary φ.v1 φ.v3 (broadcastInDim S256x2x256x2 ![0, 1, 2, 3] bcast_S1x2x1x2_S256x2x256x2_0_1_2_3),
    StableHlo.TRef.binary φ.v2 φ.v3 φ.v4 mulf,
    StableHlo.TRef.reshape φ.v4 φ.v5 rfl shapeCasts_S256x2x256x2_S512x512 ]

/-- The operations of one call of `fn_kron_20`, in order. -/
abbrev kronOps_kron_20 (arg0 : TRef sig ⟨S512x512, .f32⟩) (arg1 : TRef sig ⟨S2x2, .f32⟩) (φ : fn_kron_20.Bufs) : List (HloOp τ sig (Elt F)) :=
  [ StableHlo.TRef.unary arg0 φ.v0 (broadcastInDim S512x1x512x1 ![0, 2] bcast_S512x512_S512x1x512x1_0_2),
    StableHlo.TRef.unary arg1 φ.v1 (broadcastInDim S1x2x1x2 ![1, 3] bcast_S2x2_S1x2x1x2_1_3),
    StableHlo.TRef.unary φ.v0 φ.v2 (broadcastInDim S512x2x512x2 ![0, 1, 2, 3] bcast_S512x1x512x1_S512x2x512x2_0_1_2_3),
    StableHlo.TRef.unary φ.v1 φ.v3 (broadcastInDim S512x2x512x2 ![0, 1, 2, 3] bcast_S1x2x1x2_S512x2x512x2_0_1_2_3),
    StableHlo.TRef.binary φ.v2 φ.v3 φ.v4 mulf,
    StableHlo.TRef.reshape φ.v4 φ.v5 rfl shapeCasts_S512x2x512x2_S1024x1024 ]

/-- The operations of one call of `fn_kron_21`, in order. -/
abbrev kronOps_kron_21 (arg0 : TRef sig ⟨S1024x1024, .f32⟩) (arg1 : TRef sig ⟨S2x2, .f32⟩) (φ : fn_kron_21.Bufs) : List (HloOp τ sig (Elt F)) :=
  [ StableHlo.TRef.unary arg0 φ.v0 (broadcastInDim S1024x1x1024x1 ![0, 2] bcast_S1024x1024_S1024x1x1024x1_0_2),
    StableHlo.TRef.unary arg1 φ.v1 (broadcastInDim S1x2x1x2 ![1, 3] bcast_S2x2_S1x2x1x2_1_3),
    StableHlo.TRef.unary φ.v0 φ.v2 (broadcastInDim S1024x2x1024x2 ![0, 1, 2, 3] bcast_S1024x1x1024x1_S1024x2x1024x2_0_1_2_3),
    StableHlo.TRef.unary φ.v1 φ.v3 (broadcastInDim S1024x2x1024x2 ![0, 1, 2, 3] bcast_S1x2x1x2_S1024x2x1024x2_0_1_2_3),
    StableHlo.TRef.binary φ.v2 φ.v3 φ.v4 mulf,
    StableHlo.TRef.reshape φ.v4 φ.v5 rfl shapeCasts_S1024x2x1024x2_S2048x2048 ]

/-- The operations of one call of `fn_kron_22`, in order. -/
abbrev kronOps_kron_22 (arg0 : TRef sig ⟨S2048x2048, .f32⟩) (arg1 : TRef sig ⟨S2x2, .f32⟩) (φ : fn_kron_22.Bufs) : List (HloOp τ sig (Elt F)) :=
  [ StableHlo.TRef.unary arg0 φ.v0 (broadcastInDim S2048x1x2048x1 ![0, 2] bcast_S2048x2048_S2048x1x2048x1_0_2),
    StableHlo.TRef.unary arg1 φ.v1 (broadcastInDim S1x2x1x2 ![1, 3] bcast_S2x2_S1x2x1x2_1_3),
    StableHlo.TRef.unary φ.v0 φ.v2 (broadcastInDim S2048x2x2048x2 ![0, 1, 2, 3] bcast_S2048x1x2048x1_S2048x2x2048x2_0_1_2_3),
    StableHlo.TRef.unary φ.v1 φ.v3 (broadcastInDim S2048x2x2048x2 ![0, 1, 2, 3] bcast_S1x2x1x2_S2048x2x2048x2_0_1_2_3),
    StableHlo.TRef.binary φ.v2 φ.v3 φ.v4 mulf,
    StableHlo.TRef.reshape φ.v4 φ.v5 rfl shapeCasts_S2048x2x2048x2_S4096x4096 ]

/-- @main's statements 1 … 56. -/
abbrev pre : List (HloOp τ sig (Elt F)) :=
  [ StableHlo.nullary main_cst (fun i => FloatOps.ofBits .f32 (lit0 (S2x2.rowMajor i))),
      StableHlo.nullary main_cst_0 (fun i => FloatOps.ofBits .f32 (lit1 (S2x2.rowMajor i))),
      StableHlo.nullary main_cst_1 (fun i => FloatOps.ofBits .f32 (lit2 (S2x2.rowMajor i))),
      StableHlo.nullary main_cst_2 (constant S1x1 .f32 0x3F800000#32),
      StableHlo.nullary main_cst_3 (constant S1x1 .f32 0x3F800000#32),
      StableHlo.nullary main_cst_4 (fun i => FloatOps.ofBits .f32 (lit3 (S2x2.rowMajor i))),
      StableHlo.nullary main_cst_5 (fun i => FloatOps.ofBits .f32 (lit4 (S2x2.rowMajor i))),
      StableHlo.nullary main_cst_6 (constant S1x1 .f32 0x3F800000#32),
      StableHlo.nullary main_cst_7 (constant S1x1 .f32 0x3F800000#32),
      StableHlo.nullary main_cst_8 (fun i => FloatOps.ofBits .f32 (lit5 (S2x2.rowMajor i))),
      StableHlo.nullary main_cst_9 (fun i => FloatOps.ofBits .f32 (lit6 (S2x2.rowMajor i))),
      StableHlo.nullary main_cst_10 (constant S1x1 .f32 0x3F800000#32),
      StableHlo.nullary main_cst_11 (constant S1x1 .f32 0x3F800000#32),
      StableHlo.nullary main_cst_12 (fun i => FloatOps.ofBits .f32 (lit7 (S2x2.rowMajor i))),
      StableHlo.nullary main_cst_13 (fun i => FloatOps.ofBits .f32 (lit8 (S2x2.rowMajor i))),
      StableHlo.nullary main_cst_14 (constant S1x1 .f32 0x3F800000#32),
      StableHlo.nullary main_cst_15 (constant S1x1 .f32 0x3F800000#32),
      StableHlo.nullary main_cst_16 (fun i => FloatOps.ofBits .f32 (lit9 (S2x2.rowMajor i))),
      StableHlo.nullary main_cst_17 (fun i => FloatOps.ofBits .f32 (lit10 (S2x2.rowMajor i))),
      StableHlo.nullary main_cst_18 (constant S1x1 .f32 0x3F800000#32),
      StableHlo.nullary main_cst_19 (constant S1x1 .f32 0x3F800000#32),
      StableHlo.nullary main_cst_20 (fun i => FloatOps.ofBits .f32 (lit11 (S2x2.rowMajor i))),
      StableHlo.nullary main_cst_21 (fun i => FloatOps.ofBits .f32 (lit12 (S2x2.rowMajor i))),
      StableHlo.nullary main_cst_22 (constant S1x1 .f32 0x3F800000#32),
      StableHlo.nullary main_cst_23 (constant S1x1 .f32 0x3F800000#32),
      StableHlo.nullary main_cst_24 (fun i => FloatOps.ofBits .f32 (lit13 (S2x2.rowMajor i))),
      StableHlo.nullary main_cst_25 (fun i => FloatOps.ofBits .f32 (lit14 (S2x2.rowMajor i))),
      StableHlo.nullary main_cst_26 (constant S1x1 .f32 0x3F800000#32),
      StableHlo.nullary main_cst_27 (constant S1x1 .f32 0x3F800000#32),
      StableHlo.nullary main_cst_28 (fun i => FloatOps.ofBits .f32 (lit15 (S2x2.rowMajor i))),
      StableHlo.nullary main_cst_29 (fun i => FloatOps.ofBits .f32 (lit16 (S2x2.rowMajor i))),
      StableHlo.nullary main_cst_30 (constant S1x1 .f32 0x3F800000#32),
      StableHlo.nullary main_cst_31 (constant S1x1 .f32 0x3F800000#32),
      StableHlo.nullary main_cst_32 (fun i => FloatOps.ofBits .f32 (lit17 (S2x2.rowMajor i))),
      StableHlo.nullary main_cst_33 (fun i => FloatOps.ofBits .f32 (lit18 (S2x2.rowMajor i))),
      StableHlo.nullary main_cst_34 (constant S1x1 .f32 0x3F800000#32),
      StableHlo.nullary main_cst_35 (constant S1x1 .f32 0x3F800000#32),
      StableHlo.nullary main_cst_36 (fun i => FloatOps.ofBits .f32 (lit19 (S2x2.rowMajor i))),
      StableHlo.nullary main_cst_37 (fun i => FloatOps.ofBits .f32 (lit20 (S2x2.rowMajor i))),
      StableHlo.nullary main_cst_38 (constant S1x1 .f32 0x3F800000#32),
      StableHlo.nullary main_cst_39 (constant S1x1 .f32 0x3F800000#32),
      StableHlo.nullary main_cst_40 (fun i => FloatOps.ofBits .f32 (lit21 (S2x2.rowMajor i))),
      StableHlo.nullary main_cst_41 (fun i => FloatOps.ofBits .f32 (lit22 (S2x2.rowMajor i))),
      StableHlo.nullary main_cst_42 (constant S1x1 .f32 0x3F800000#32),
      StableHlo.nullary main_cst_43 (constant S1x1 .f32 0x3F800000#32),
      StableHlo.nullary main_cst_44 (fun i => FloatOps.ofBits .f32 (lit23 (S2x2.rowMajor i))),
      StableHlo.nullary main_cst_45 (fun i => FloatOps.ofBits .f32 (lit24 (S2x2.rowMajor i))),
      StableHlo.nullary main_cst_46 (constant S1x1 .f32 0x3F800000#32),
      StableHlo.nullary main_cst_47 (constant S1x1 .f32 0x3F800000#32),
      StableHlo.nullary main_v0 (iotaInDim S4096x4096 32 0),
      StableHlo.nullary main_v1 (iotaInDim S4096x4096 32 1),
      StableHlo.nullary main_c (constantI S_ 32 0#32),
      StableHlo.unary main_c main_v2 (broadcastInDim S4096x4096 ![] bcast_S_S4096x4096 : (⟨S_, .i32⟩ : BufTy).Contents (Elt F) → (⟨S4096x4096, .i32⟩ : BufTy).Contents (Elt F)),
      StableHlo.binary main_v0 main_v2 main_v3 (addi : (⟨S4096x4096, .i32⟩ : BufTy).Contents (Elt F) → (⟨S4096x4096, .i32⟩ : BufTy).Contents (Elt F) → (⟨S4096x4096, .i32⟩ : BufTy).Contents (Elt F)),
      StableHlo.binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
      StableHlo.unary main_v4 main_v5 (uitofp .f32 : (⟨S4096x4096, .i1⟩ : BufTy).Contents (Elt F) → (⟨S4096x4096, .f32⟩ : BufTy).Contents (Elt F)) ]

/-- The buffers stage `pre` writes. -/
abbrev pre_W : List (Ref sig .tc) := [main_cst, main_cst_0, main_cst_1, main_cst_2, main_cst_3, main_cst_4, main_cst_5, main_cst_6, main_cst_7, main_cst_8, main_cst_9, main_cst_10, main_cst_11, main_cst_12, main_cst_13, main_cst_14, main_cst_15, main_cst_16, main_cst_17, main_cst_18, main_cst_19, main_cst_20, main_cst_21, main_cst_22, main_cst_23, main_cst_24, main_cst_25, main_cst_26, main_cst_27, main_cst_28, main_cst_29, main_cst_30, main_cst_31, main_cst_32, main_cst_33, main_cst_34, main_cst_35, main_cst_36, main_cst_37, main_cst_38, main_cst_39, main_cst_40, main_cst_41, main_cst_42, main_cst_43, main_cst_44, main_cst_45, main_cst_46, main_cst_47, main_v0, main_v1, main_c, main_v2, main_v3, main_v4, main_v5]

/-- @main's statements 57 … 60. -/
abbrev g0_eye_a : List (HloOp τ sig (Elt F)) :=
  [ StableHlo.nullary main_v6 (iotaInDim S2x2 32 0),
      StableHlo.nullary main_v7 (iotaInDim S2x2 32 1),
      StableHlo.nullary main_c_48 (constantI S_ 32 0#32),
      StableHlo.unary main_c_48 main_v8 (broadcastInDim S2x2 ![] bcast_S_S2x2 : (⟨S_, .i32⟩ : BufTy).Contents (Elt F) → (⟨S2x2, .i32⟩ : BufTy).Contents (Elt F)) ]

/-- @main's statements 61 … 63. -/
abbrev g0_eye_b : List (HloOp τ sig (Elt F)) :=
  [ StableHlo.binary main_v6 main_v8 main_v9 (addi : (⟨S2x2, .i32⟩ : BufTy).Contents (Elt F) → (⟨S2x2, .i32⟩ : BufTy).Contents (Elt F) → (⟨S2x2, .i32⟩ : BufTy).Contents (Elt F)),
      StableHlo.binary main_v9 main_v7 main_v10 (cmpi .eq : (⟨S2x2, .i32⟩ : BufTy).Contents (Elt F) → (⟨S2x2, .i32⟩ : BufTy).Contents (Elt F) → (⟨S2x2, .i1⟩ : BufTy).Contents (Elt F)),
      StableHlo.unary main_v10 main_v11 (uitofp .f32 : (⟨S2x2, .i1⟩ : BufTy).Contents (Elt F) → (⟨S2x2, .f32⟩ : BufTy).Contents (Elt F)) ]

/-- @main's statements 57 … 63, one stage. -/
abbrev g0_eye : List (HloOp τ sig (Elt F)) := g0_eye_a ++ g0_eye_b

/-- The buffers stage `g0_eye` writes. -/
abbrev g0_eye_W : List (Ref sig .tc) := [main_v6, main_v7, main_c_48, main_v8, main_v9, main_v10, main_v11]

/-- @main's statements 64 … 75. -/
abbrev g0_lo : List (HloOp τ sig (Elt F)) :=
  kronOps_kron (.of main_cst_2 : TRef sig ⟨S1x1, .f32⟩) (.of main_cst_0 : TRef sig ⟨S2x2, .f32⟩) main_call0
    ++ kronOps_kron (.of main_cst_3 : TRef sig ⟨S1x1, .f32⟩) (.of main_cst_1 : TRef sig ⟨S2x2, .f32⟩) main_call1
    ++ kronOps_kron_0 (.of main_v12 : TRef sig ⟨S2x2, .f32⟩) (.of main_v11 : TRef sig ⟨S2x2, .f32⟩) main_call2
    ++ kronOps_kron_1 (.of main_v13 : TRef sig ⟨S2x2, .f32⟩) (.of main_cst : TRef sig ⟨S2x2, .f32⟩) main_call3
    ++ kronOps_kron_2 (.of main_v14 : TRef sig ⟨S4x4, .f32⟩) (.of main_v11 : TRef sig ⟨S2x2, .f32⟩) main_call4
    ++ kronOps_kron_2 (.of main_v15 : TRef sig ⟨S4x4, .f32⟩) (.of main_v11 : TRef sig ⟨S2x2, .f32⟩) main_call5
    ++ kronOps_kron_3 (.of main_v16 : TRef sig ⟨S8x8, .f32⟩) (.of main_v11 : TRef sig ⟨S2x2, .f32⟩) main_call6
    ++ kronOps_kron_3 (.of main_v17 : TRef sig ⟨S8x8, .f32⟩) (.of main_v11 : TRef sig ⟨S2x2, .f32⟩) main_call7
    ++ kronOps_kron_4 (.of main_v18 : TRef sig ⟨S16x16, .f32⟩) (.of main_v11 : TRef sig ⟨S2x2, .f32⟩) main_call8
    ++ kronOps_kron_4 (.of main_v19 : TRef sig ⟨S16x16, .f32⟩) (.of main_v11 : TRef sig ⟨S2x2, .f32⟩) main_call9
    ++ kronOps_kron_5 (.of main_v20 : TRef sig ⟨S32x32, .f32⟩) (.of main_v11 : TRef sig ⟨S2x2, .f32⟩) main_call10
    ++ kronOps_kron_5 (.of main_v21 : TRef sig ⟨S32x32, .f32⟩) (.of main_v11 : TRef sig ⟨S2x2, .f32⟩) main_call11

/-- The buffers stage `g0_lo` writes. -/
abbrev g0_lo_W : List (Ref sig .tc) := [main_call0.v0.ref, main_call0.v1.ref, main_call0.v2.ref, main_call0.v3.ref, main_call0.v4.ref, main_call1.v0.ref, main_call1.v1.ref, main_call1.v2.ref, main_call1.v3.ref, main_call1.v4.ref, main_call2.v0.ref, main_call2.v1.ref, main_call2.v2.ref, main_call2.v3.ref, main_call2.v4.ref, main_call2.v5.ref, main_call3.v0.ref, main_call3.v1.ref, main_call3.v2.ref, main_call3.v3.ref, main_call3.v4.ref, main_call3.v5.ref, main_call4.v0.ref, main_call4.v1.ref, main_call4.v2.ref, main_call4.v3.ref, main_call4.v4.ref, main_call4.v5.ref, main_call5.v0.ref, main_call5.v1.ref, main_call5.v2.ref, main_call5.v3.ref, main_call5.v4.ref, main_call5.v5.ref, main_call6.v0.ref, main_call6.v1.ref, main_call6.v2.ref, main_call6.v3.ref, main_call6.v4.ref, main_call6.v5.ref, main_call7.v0.ref, main_call7.v1.ref, main_call7.v2.ref, main_call7.v3.ref, main_call7.v4.ref, main_call7.v5.ref, main_call8.v0.ref, main_call8.v1.ref, main_call8.v2.ref, main_call8.v3.ref, main_call8.v4.ref, main_call8.v5.ref, main_call9.v0.ref, main_call9.v1.ref, main_call9.v2.ref, main_call9.v3.ref, main_call9.v4.ref, main_call9.v5.ref, main_call10.v0.ref, main_call10.v1.ref, main_call10.v2.ref, main_call10.v3.ref, main_call10.v4.ref, main_call10.v5.ref, main_call11.v0.ref, main_call11.v1.ref, main_call11.v2.ref, main_call11.v3.ref, main_call11.v4.ref, main_call11.v5.ref]

/-- @main's statements 76 … 89. -/
abbrev g0_hi : List (HloOp τ sig (Elt F)) :=
  kronOps_kron_6 (.of main_v22 : TRef sig ⟨S64x64, .f32⟩) (.of main_v11 : TRef sig ⟨S2x2, .f32⟩) main_call12
    ++ kronOps_kron_6 (.of main_v23 : TRef sig ⟨S64x64, .f32⟩) (.of main_v11 : TRef sig ⟨S2x2, .f32⟩) main_call13
    ++ kronOps_kron_7 (.of main_v24 : TRef sig ⟨S128x128, .f32⟩) (.of main_v11 : TRef sig ⟨S2x2, .f32⟩) main_call14
    ++ kronOps_kron_7 (.of main_v25 : TRef sig ⟨S128x128, .f32⟩) (.of main_v11 : TRef sig ⟨S2x2, .f32⟩) main_call15
    ++ kronOps_kron_8 (.of main_v26 : TRef sig ⟨S256x256, .f32⟩) (.of main_v11 : TRef sig ⟨S2x2, .f32⟩) main_call16
    ++ kronOps_kron_8 (.of main_v27 : TRef sig ⟨S256x256, .f32⟩) (.of main_v11 : TRef sig ⟨S2x2, .f32⟩) main_call17
    ++ kronOps_kron_9 (.of main_v28 : TRef sig ⟨S512x512, .f32⟩) (.of main_v11 : TRef sig ⟨S2x2, .f32⟩) main_call18
    ++ kronOps_kron_9 (.of main_v29 : TRef sig ⟨S512x512, .f32⟩) (.of main_v11 : TRef sig ⟨S2x2, .f32⟩) main_call19
    ++ kronOps_kron_10 (.of main_v30 : TRef sig ⟨S1024x1024, .f32⟩) (.of main_v11 : TRef sig ⟨S2x2, .f32⟩) main_call20
    ++ kronOps_kron_10 (.of main_v31 : TRef sig ⟨S1024x1024, .f32⟩) (.of main_v11 : TRef sig ⟨S2x2, .f32⟩) main_call21
    ++ kronOps_kron_11 (.of main_v32 : TRef sig ⟨S2048x2048, .f32⟩) (.of main_v11 : TRef sig ⟨S2x2, .f32⟩) main_call22
    ++ kronOps_kron_11 (.of main_v33 : TRef sig ⟨S2048x2048, .f32⟩) (.of main_v11 : TRef sig ⟨S2x2, .f32⟩) main_call23
    ++ [ StableHlo.binary main_v34 main_v35 main_v36 (addf : (⟨S4096x4096, .f32⟩ : BufTy).Contents (Elt F) → (⟨S4096x4096, .f32⟩ : BufTy).Contents (Elt F) → (⟨S4096x4096, .f32⟩ : BufTy).Contents (Elt F)),
      StableHlo.binary main_v36 main_v5 main_v37 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g0_hi` writes. -/
abbrev g0_hi_W : List (Ref sig .tc) := [main_call12.v0.ref, main_call12.v1.ref, main_call12.v2.ref, main_call12.v3.ref, main_call12.v4.ref, main_call12.v5.ref, main_call13.v0.ref, main_call13.v1.ref, main_call13.v2.ref, main_call13.v3.ref, main_call13.v4.ref, main_call13.v5.ref, main_call14.v0.ref, main_call14.v1.ref, main_call14.v2.ref, main_call14.v3.ref, main_call14.v4.ref, main_call14.v5.ref, main_call15.v0.ref, main_call15.v1.ref, main_call15.v2.ref, main_call15.v3.ref, main_call15.v4.ref, main_call15.v5.ref, main_call16.v0.ref, main_call16.v1.ref, main_call16.v2.ref, main_call16.v3.ref, main_call16.v4.ref, main_call16.v5.ref, main_call17.v0.ref, main_call17.v1.ref, main_call17.v2.ref, main_call17.v3.ref, main_call17.v4.ref, main_call17.v5.ref, main_call18.v0.ref, main_call18.v1.ref, main_call18.v2.ref, main_call18.v3.ref, main_call18.v4.ref, main_call18.v5.ref, main_call19.v0.ref, main_call19.v1.ref, main_call19.v2.ref, main_call19.v3.ref, main_call19.v4.ref, main_call19.v5.ref, main_call20.v0.ref, main_call20.v1.ref, main_call20.v2.ref, main_call20.v3.ref, main_call20.v4.ref, main_call20.v5.ref, main_call21.v0.ref, main_call21.v1.ref, main_call21.v2.ref, main_call21.v3.ref, main_call21.v4.ref, main_call21.v5.ref, main_call22.v0.ref, main_call22.v1.ref, main_call22.v2.ref, main_call22.v3.ref, main_call22.v4.ref, main_call22.v5.ref, main_call23.v0.ref, main_call23.v1.ref, main_call23.v2.ref, main_call23.v3.ref, main_call23.v4.ref, main_call23.v5.ref, main_v36, main_v37]

/-- @main's statements 90 … 96. -/
abbrev g1_eye : List (HloOp τ sig (Elt F)) :=
  [ StableHlo.nullary main_v38 (iotaInDim S2x2 32 0),
      StableHlo.nullary main_v39 (iotaInDim S2x2 32 1),
      StableHlo.nullary main_c_49 (constantI S_ 32 0#32),
      StableHlo.unary main_c_49 main_v40 (broadcastInDim S2x2 ![] bcast_S_S2x2 : (⟨S_, .i32⟩ : BufTy).Contents (Elt F) → (⟨S2x2, .i32⟩ : BufTy).Contents (Elt F)),
      StableHlo.binary main_v38 main_v40 main_v41 (addi : (⟨S2x2, .i32⟩ : BufTy).Contents (Elt F) → (⟨S2x2, .i32⟩ : BufTy).Contents (Elt F) → (⟨S2x2, .i32⟩ : BufTy).Contents (Elt F)),
      StableHlo.binary main_v41 main_v39 main_v42 (cmpi .eq : (⟨S2x2, .i32⟩ : BufTy).Contents (Elt F) → (⟨S2x2, .i32⟩ : BufTy).Contents (Elt F) → (⟨S2x2, .i1⟩ : BufTy).Contents (Elt F)),
      StableHlo.unary main_v42 main_v43 (uitofp .f32 : (⟨S2x2, .i1⟩ : BufTy).Contents (Elt F) → (⟨S2x2, .f32⟩ : BufTy).Contents (Elt F)) ]

/-- The buffers stage `g1_eye` writes. -/
abbrev g1_eye_W : List (Ref sig .tc) := [main_v38, main_v39, main_c_49, main_v40, main_v41, main_v42, main_v43]

/-- @main's statements 97 … 108. -/
abbrev g1_lo : List (HloOp τ sig (Elt F)) :=
  kronOps_kron_12 (.of main_cst_6 : TRef sig ⟨S1x1, .f32⟩) (.of main_v43 : TRef sig ⟨S2x2, .f32⟩) main_call24
    ++ kronOps_kron_12 (.of main_cst_7 : TRef sig ⟨S1x1, .f32⟩) (.of main_v43 : TRef sig ⟨S2x2, .f32⟩) main_call25
    ++ kronOps_kron_1 (.of main_v44 : TRef sig ⟨S2x2, .f32⟩) (.of main_cst_4 : TRef sig ⟨S2x2, .f32⟩) main_call26
    ++ kronOps_kron_1 (.of main_v45 : TRef sig ⟨S2x2, .f32⟩) (.of main_cst_5 : TRef sig ⟨S2x2, .f32⟩) main_call27
    ++ kronOps_kron_2 (.of main_v46 : TRef sig ⟨S4x4, .f32⟩) (.of main_v43 : TRef sig ⟨S2x2, .f32⟩) main_call28
    ++ kronOps_kron_13 (.of main_v47 : TRef sig ⟨S4x4, .f32⟩) (.of main_cst : TRef sig ⟨S2x2, .f32⟩) main_call29
    ++ kronOps_kron_3 (.of main_v48 : TRef sig ⟨S8x8, .f32⟩) (.of main_v43 : TRef sig ⟨S2x2, .f32⟩) main_call30
    ++ kronOps_kron_3 (.of main_v49 : TRef sig ⟨S8x8, .f32⟩) (.of main_v43 : TRef sig ⟨S2x2, .f32⟩) main_call31
    ++ kronOps_kron_4 (.of main_v50 : TRef sig ⟨S16x16, .f32⟩) (.of main_v43 : TRef sig ⟨S2x2, .f32⟩) main_call32
    ++ kronOps_kron_4 (.of main_v51 : TRef sig ⟨S16x16, .f32⟩) (.of main_v43 : TRef sig ⟨S2x2, .f32⟩) main_call33
    ++ kronOps_kron_5 (.of main_v52 : TRef sig ⟨S32x32, .f32⟩) (.of main_v43 : TRef sig ⟨S2x2, .f32⟩) main_call34
    ++ kronOps_kron_5 (.of main_v53 : TRef sig ⟨S32x32, .f32⟩) (.of main_v43 : TRef sig ⟨S2x2, .f32⟩) main_call35

/-- The buffers stage `g1_lo` writes. -/
abbrev g1_lo_W : List (Ref sig .tc) := [main_call24.v0.ref, main_call24.v1.ref, main_call24.v2.ref, main_call24.v3.ref, main_call24.v4.ref, main_call25.v0.ref, main_call25.v1.ref, main_call25.v2.ref, main_call25.v3.ref, main_call25.v4.ref, main_call26.v0.ref, main_call26.v1.ref, main_call26.v2.ref, main_call26.v3.ref, main_call26.v4.ref, main_call26.v5.ref, main_call27.v0.ref, main_call27.v1.ref, main_call27.v2.ref, main_call27.v3.ref, main_call27.v4.ref, main_call27.v5.ref, main_call28.v0.ref, main_call28.v1.ref, main_call28.v2.ref, main_call28.v3.ref, main_call28.v4.ref, main_call28.v5.ref, main_call29.v0.ref, main_call29.v1.ref, main_call29.v2.ref, main_call29.v3.ref, main_call29.v4.ref, main_call29.v5.ref, main_call30.v0.ref, main_call30.v1.ref, main_call30.v2.ref, main_call30.v3.ref, main_call30.v4.ref, main_call30.v5.ref, main_call31.v0.ref, main_call31.v1.ref, main_call31.v2.ref, main_call31.v3.ref, main_call31.v4.ref, main_call31.v5.ref, main_call32.v0.ref, main_call32.v1.ref, main_call32.v2.ref, main_call32.v3.ref, main_call32.v4.ref, main_call32.v5.ref, main_call33.v0.ref, main_call33.v1.ref, main_call33.v2.ref, main_call33.v3.ref, main_call33.v4.ref, main_call33.v5.ref, main_call34.v0.ref, main_call34.v1.ref, main_call34.v2.ref, main_call34.v3.ref, main_call34.v4.ref, main_call34.v5.ref, main_call35.v0.ref, main_call35.v1.ref, main_call35.v2.ref, main_call35.v3.ref, main_call35.v4.ref, main_call35.v5.ref]

/-- @main's statements 109 … 120. -/
abbrev g1_hi_a : List (HloOp τ sig (Elt F)) :=
  kronOps_kron_6 (.of main_v54 : TRef sig ⟨S64x64, .f32⟩) (.of main_v43 : TRef sig ⟨S2x2, .f32⟩) main_call36
    ++ kronOps_kron_6 (.of main_v55 : TRef sig ⟨S64x64, .f32⟩) (.of main_v43 : TRef sig ⟨S2x2, .f32⟩) main_call37
    ++ kronOps_kron_7 (.of main_v56 : TRef sig ⟨S128x128, .f32⟩) (.of main_v43 : TRef sig ⟨S2x2, .f32⟩) main_call38
    ++ kronOps_kron_7 (.of main_v57 : TRef sig ⟨S128x128, .f32⟩) (.of main_v43 : TRef sig ⟨S2x2, .f32⟩) main_call39
    ++ kronOps_kron_8 (.of main_v58 : TRef sig ⟨S256x256, .f32⟩) (.of main_v43 : TRef sig ⟨S2x2, .f32⟩) main_call40
    ++ kronOps_kron_8 (.of main_v59 : TRef sig ⟨S256x256, .f32⟩) (.of main_v43 : TRef sig ⟨S2x2, .f32⟩) main_call41
    ++ kronOps_kron_9 (.of main_v60 : TRef sig ⟨S512x512, .f32⟩) (.of main_v43 : TRef sig ⟨S2x2, .f32⟩) main_call42
    ++ kronOps_kron_9 (.of main_v61 : TRef sig ⟨S512x512, .f32⟩) (.of main_v43 : TRef sig ⟨S2x2, .f32⟩) main_call43
    ++ kronOps_kron_10 (.of main_v62 : TRef sig ⟨S1024x1024, .f32⟩) (.of main_v43 : TRef sig ⟨S2x2, .f32⟩) main_call44
    ++ kronOps_kron_10 (.of main_v63 : TRef sig ⟨S1024x1024, .f32⟩) (.of main_v43 : TRef sig ⟨S2x2, .f32⟩) main_call45
    ++ kronOps_kron_11 (.of main_v64 : TRef sig ⟨S2048x2048, .f32⟩) (.of main_v43 : TRef sig ⟨S2x2, .f32⟩) main_call46
    ++ kronOps_kron_11 (.of main_v65 : TRef sig ⟨S2048x2048, .f32⟩) (.of main_v43 : TRef sig ⟨S2x2, .f32⟩) main_call47

/-- @main's statements 121 … 122. -/
abbrev g1_hi_b : List (HloOp τ sig (Elt F)) :=
  [ StableHlo.binary main_v66 main_v67 main_v68 (addf : (⟨S4096x4096, .f32⟩ : BufTy).Contents (Elt F) → (⟨S4096x4096, .f32⟩ : BufTy).Contents (Elt F) → (⟨S4096x4096, .f32⟩ : BufTy).Contents (Elt F)),
      StableHlo.binary main_v68 main_v37 main_v69 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- @main's statements 109 … 122, one stage. -/
abbrev g1_hi : List (HloOp τ sig (Elt F)) := g1_hi_a ++ g1_hi_b

/-- The buffers stage `g1_hi` writes. -/
abbrev g1_hi_W : List (Ref sig .tc) := [main_call36.v0.ref, main_call36.v1.ref, main_call36.v2.ref, main_call36.v3.ref, main_call36.v4.ref, main_call36.v5.ref, main_call37.v0.ref, main_call37.v1.ref, main_call37.v2.ref, main_call37.v3.ref, main_call37.v4.ref, main_call37.v5.ref, main_call38.v0.ref, main_call38.v1.ref, main_call38.v2.ref, main_call38.v3.ref, main_call38.v4.ref, main_call38.v5.ref, main_call39.v0.ref, main_call39.v1.ref, main_call39.v2.ref, main_call39.v3.ref, main_call39.v4.ref, main_call39.v5.ref, main_call40.v0.ref, main_call40.v1.ref, main_call40.v2.ref, main_call40.v3.ref, main_call40.v4.ref, main_call40.v5.ref, main_call41.v0.ref, main_call41.v1.ref, main_call41.v2.ref, main_call41.v3.ref, main_call41.v4.ref, main_call41.v5.ref, main_call42.v0.ref, main_call42.v1.ref, main_call42.v2.ref, main_call42.v3.ref, main_call42.v4.ref, main_call42.v5.ref, main_call43.v0.ref, main_call43.v1.ref, main_call43.v2.ref, main_call43.v3.ref, main_call43.v4.ref, main_call43.v5.ref, main_call44.v0.ref, main_call44.v1.ref, main_call44.v2.ref, main_call44.v3.ref, main_call44.v4.ref, main_call44.v5.ref, main_call45.v0.ref, main_call45.v1.ref, main_call45.v2.ref, main_call45.v3.ref, main_call45.v4.ref, main_call45.v5.ref, main_call46.v0.ref, main_call46.v1.ref, main_call46.v2.ref, main_call46.v3.ref, main_call46.v4.ref, main_call46.v5.ref, main_call47.v0.ref, main_call47.v1.ref, main_call47.v2.ref, main_call47.v3.ref, main_call47.v4.ref, main_call47.v5.ref, main_v68, main_v69]

/-- @main's statements 123 … 129. -/
abbrev g2_eye : List (HloOp τ sig (Elt F)) :=
  [ StableHlo.nullary main_v70 (iotaInDim S2x2 32 0),
      StableHlo.nullary main_v71 (iotaInDim S2x2 32 1),
      StableHlo.nullary main_c_50 (constantI S_ 32 0#32),
      StableHlo.unary main_c_50 main_v72 (broadcastInDim S2x2 ![] bcast_S_S2x2 : (⟨S_, .i32⟩ : BufTy).Contents (Elt F) → (⟨S2x2, .i32⟩ : BufTy).Contents (Elt F)),
      StableHlo.binary main_v70 main_v72 main_v73 (addi : (⟨S2x2, .i32⟩ : BufTy).Contents (Elt F) → (⟨S2x2, .i32⟩ : BufTy).Contents (Elt F) → (⟨S2x2, .i32⟩ : BufTy).Contents (Elt F)),
      StableHlo.binary main_v73 main_v71 main_v74 (cmpi .eq : (⟨S2x2, .i32⟩ : BufTy).Contents (Elt F) → (⟨S2x2, .i32⟩ : BufTy).Contents (Elt F) → (⟨S2x2, .i1⟩ : BufTy).Contents (Elt F)),
      StableHlo.unary main_v74 main_v75 (uitofp .f32 : (⟨S2x2, .i1⟩ : BufTy).Contents (Elt F) → (⟨S2x2, .f32⟩ : BufTy).Contents (Elt F)) ]

/-- The buffers stage `g2_eye` writes. -/
abbrev g2_eye_W : List (Ref sig .tc) := [main_v70, main_v71, main_c_50, main_v72, main_v73, main_v74, main_v75]

/-- @main's statements 130 … 141. -/
abbrev g2_lo : List (HloOp τ sig (Elt F)) :=
  kronOps_kron_12 (.of main_cst_10 : TRef sig ⟨S1x1, .f32⟩) (.of main_v75 : TRef sig ⟨S2x2, .f32⟩) main_call48
    ++ kronOps_kron_12 (.of main_cst_11 : TRef sig ⟨S1x1, .f32⟩) (.of main_v75 : TRef sig ⟨S2x2, .f32⟩) main_call49
    ++ kronOps_kron_0 (.of main_v76 : TRef sig ⟨S2x2, .f32⟩) (.of main_v75 : TRef sig ⟨S2x2, .f32⟩) main_call50
    ++ kronOps_kron_0 (.of main_v77 : TRef sig ⟨S2x2, .f32⟩) (.of main_v75 : TRef sig ⟨S2x2, .f32⟩) main_call51
    ++ kronOps_kron_13 (.of main_v78 : TRef sig ⟨S4x4, .f32⟩) (.of main_cst_8 : TRef sig ⟨S2x2, .f32⟩) main_call52
    ++ kronOps_kron_13 (.of main_v79 : TRef sig ⟨S4x4, .f32⟩) (.of main_cst_9 : TRef sig ⟨S2x2, .f32⟩) main_call53
    ++ kronOps_kron_3 (.of main_v80 : TRef sig ⟨S8x8, .f32⟩) (.of main_v75 : TRef sig ⟨S2x2, .f32⟩) main_call54
    ++ kronOps_kron_14 (.of main_v81 : TRef sig ⟨S8x8, .f32⟩) (.of main_cst : TRef sig ⟨S2x2, .f32⟩) main_call55
    ++ kronOps_kron_4 (.of main_v82 : TRef sig ⟨S16x16, .f32⟩) (.of main_v75 : TRef sig ⟨S2x2, .f32⟩) main_call56
    ++ kronOps_kron_4 (.of main_v83 : TRef sig ⟨S16x16, .f32⟩) (.of main_v75 : TRef sig ⟨S2x2, .f32⟩) main_call57
    ++ kronOps_kron_5 (.of main_v84 : TRef sig ⟨S32x32, .f32⟩) (.of main_v75 : TRef sig ⟨S2x2, .f32⟩) main_call58
    ++ kronOps_kron_5 (.of main_v85 : TRef sig ⟨S32x32, .f32⟩) (.of main_v75 : TRef sig ⟨S2x2, .f32⟩) main_call59

/-- The buffers stage `g2_lo` writes. -/
abbrev g2_lo_W : List (Ref sig .tc) := [main_call48.v0.ref, main_call48.v1.ref, main_call48.v2.ref, main_call48.v3.ref, main_call48.v4.ref, main_call49.v0.ref, main_call49.v1.ref, main_call49.v2.ref, main_call49.v3.ref, main_call49.v4.ref, main_call50.v0.ref, main_call50.v1.ref, main_call50.v2.ref, main_call50.v3.ref, main_call50.v4.ref, main_call50.v5.ref, main_call51.v0.ref, main_call51.v1.ref, main_call51.v2.ref, main_call51.v3.ref, main_call51.v4.ref, main_call51.v5.ref, main_call52.v0.ref, main_call52.v1.ref, main_call52.v2.ref, main_call52.v3.ref, main_call52.v4.ref, main_call52.v5.ref, main_call53.v0.ref, main_call53.v1.ref, main_call53.v2.ref, main_call53.v3.ref, main_call53.v4.ref, main_call53.v5.ref, main_call54.v0.ref, main_call54.v1.ref, main_call54.v2.ref, main_call54.v3.ref, main_call54.v4.ref, main_call54.v5.ref, main_call55.v0.ref, main_call55.v1.ref, main_call55.v2.ref, main_call55.v3.ref, main_call55.v4.ref, main_call55.v5.ref, main_call56.v0.ref, main_call56.v1.ref, main_call56.v2.ref, main_call56.v3.ref, main_call56.v4.ref, main_call56.v5.ref, main_call57.v0.ref, main_call57.v1.ref, main_call57.v2.ref, main_call57.v3.ref, main_call57.v4.ref, main_call57.v5.ref, main_call58.v0.ref, main_call58.v1.ref, main_call58.v2.ref, main_call58.v3.ref, main_call58.v4.ref, main_call58.v5.ref, main_call59.v0.ref, main_call59.v1.ref, main_call59.v2.ref, main_call59.v3.ref, main_call59.v4.ref, main_call59.v5.ref]

/-- @main's statements 142 … 155. -/
abbrev g2_hi : List (HloOp τ sig (Elt F)) :=
  kronOps_kron_6 (.of main_v86 : TRef sig ⟨S64x64, .f32⟩) (.of main_v75 : TRef sig ⟨S2x2, .f32⟩) main_call60
    ++ kronOps_kron_6 (.of main_v87 : TRef sig ⟨S64x64, .f32⟩) (.of main_v75 : TRef sig ⟨S2x2, .f32⟩) main_call61
    ++ kronOps_kron_7 (.of main_v88 : TRef sig ⟨S128x128, .f32⟩) (.of main_v75 : TRef sig ⟨S2x2, .f32⟩) main_call62
    ++ kronOps_kron_7 (.of main_v89 : TRef sig ⟨S128x128, .f32⟩) (.of main_v75 : TRef sig ⟨S2x2, .f32⟩) main_call63
    ++ kronOps_kron_8 (.of main_v90 : TRef sig ⟨S256x256, .f32⟩) (.of main_v75 : TRef sig ⟨S2x2, .f32⟩) main_call64
    ++ kronOps_kron_8 (.of main_v91 : TRef sig ⟨S256x256, .f32⟩) (.of main_v75 : TRef sig ⟨S2x2, .f32⟩) main_call65
    ++ kronOps_kron_9 (.of main_v92 : TRef sig ⟨S512x512, .f32⟩) (.of main_v75 : TRef sig ⟨S2x2, .f32⟩) main_call66
    ++ kronOps_kron_9 (.of main_v93 : TRef sig ⟨S512x512, .f32⟩) (.of main_v75 : TRef sig ⟨S2x2, .f32⟩) main_call67
    ++ kronOps_kron_10 (.of main_v94 : TRef sig ⟨S1024x1024, .f32⟩) (.of main_v75 : TRef sig ⟨S2x2, .f32⟩) main_call68
    ++ kronOps_kron_10 (.of main_v95 : TRef sig ⟨S1024x1024, .f32⟩) (.of main_v75 : TRef sig ⟨S2x2, .f32⟩) main_call69
    ++ kronOps_kron_11 (.of main_v96 : TRef sig ⟨S2048x2048, .f32⟩) (.of main_v75 : TRef sig ⟨S2x2, .f32⟩) main_call70
    ++ kronOps_kron_11 (.of main_v97 : TRef sig ⟨S2048x2048, .f32⟩) (.of main_v75 : TRef sig ⟨S2x2, .f32⟩) main_call71
    ++ [ StableHlo.binary main_v98 main_v99 main_v100 (addf : (⟨S4096x4096, .f32⟩ : BufTy).Contents (Elt F) → (⟨S4096x4096, .f32⟩ : BufTy).Contents (Elt F) → (⟨S4096x4096, .f32⟩ : BufTy).Contents (Elt F)),
      StableHlo.binary main_v100 main_v69 main_v101 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g2_hi` writes. -/
abbrev g2_hi_W : List (Ref sig .tc) := [main_call60.v0.ref, main_call60.v1.ref, main_call60.v2.ref, main_call60.v3.ref, main_call60.v4.ref, main_call60.v5.ref, main_call61.v0.ref, main_call61.v1.ref, main_call61.v2.ref, main_call61.v3.ref, main_call61.v4.ref, main_call61.v5.ref, main_call62.v0.ref, main_call62.v1.ref, main_call62.v2.ref, main_call62.v3.ref, main_call62.v4.ref, main_call62.v5.ref, main_call63.v0.ref, main_call63.v1.ref, main_call63.v2.ref, main_call63.v3.ref, main_call63.v4.ref, main_call63.v5.ref, main_call64.v0.ref, main_call64.v1.ref, main_call64.v2.ref, main_call64.v3.ref, main_call64.v4.ref, main_call64.v5.ref, main_call65.v0.ref, main_call65.v1.ref, main_call65.v2.ref, main_call65.v3.ref, main_call65.v4.ref, main_call65.v5.ref, main_call66.v0.ref, main_call66.v1.ref, main_call66.v2.ref, main_call66.v3.ref, main_call66.v4.ref, main_call66.v5.ref, main_call67.v0.ref, main_call67.v1.ref, main_call67.v2.ref, main_call67.v3.ref, main_call67.v4.ref, main_call67.v5.ref, main_call68.v0.ref, main_call68.v1.ref, main_call68.v2.ref, main_call68.v3.ref, main_call68.v4.ref, main_call68.v5.ref, main_call69.v0.ref, main_call69.v1.ref, main_call69.v2.ref, main_call69.v3.ref, main_call69.v4.ref, main_call69.v5.ref, main_call70.v0.ref, main_call70.v1.ref, main_call70.v2.ref, main_call70.v3.ref, main_call70.v4.ref, main_call70.v5.ref, main_call71.v0.ref, main_call71.v1.ref, main_call71.v2.ref, main_call71.v3.ref, main_call71.v4.ref, main_call71.v5.ref, main_v100, main_v101]

/-- @main's statements 156 … 162. -/
abbrev g3_eye : List (HloOp τ sig (Elt F)) :=
  [ StableHlo.nullary main_v102 (iotaInDim S2x2 32 0),
      StableHlo.nullary main_v103 (iotaInDim S2x2 32 1),
      StableHlo.nullary main_c_51 (constantI S_ 32 0#32),
      StableHlo.unary main_c_51 main_v104 (broadcastInDim S2x2 ![] bcast_S_S2x2 : (⟨S_, .i32⟩ : BufTy).Contents (Elt F) → (⟨S2x2, .i32⟩ : BufTy).Contents (Elt F)),
      StableHlo.binary main_v102 main_v104 main_v105 (addi : (⟨S2x2, .i32⟩ : BufTy).Contents (Elt F) → (⟨S2x2, .i32⟩ : BufTy).Contents (Elt F) → (⟨S2x2, .i32⟩ : BufTy).Contents (Elt F)),
      StableHlo.binary main_v105 main_v103 main_v106 (cmpi .eq : (⟨S2x2, .i32⟩ : BufTy).Contents (Elt F) → (⟨S2x2, .i32⟩ : BufTy).Contents (Elt F) → (⟨S2x2, .i1⟩ : BufTy).Contents (Elt F)),
      StableHlo.unary main_v106 main_v107 (uitofp .f32 : (⟨S2x2, .i1⟩ : BufTy).Contents (Elt F) → (⟨S2x2, .f32⟩ : BufTy).Contents (Elt F)) ]

/-- The buffers stage `g3_eye` writes. -/
abbrev g3_eye_W : List (Ref sig .tc) := [main_v102, main_v103, main_c_51, main_v104, main_v105, main_v106, main_v107]

/-- @main's statements 163 … 174. -/
abbrev g3_lo : List (HloOp τ sig (Elt F)) :=
  kronOps_kron_12 (.of main_cst_14 : TRef sig ⟨S1x1, .f32⟩) (.of main_v107 : TRef sig ⟨S2x2, .f32⟩) main_call72
    ++ kronOps_kron_12 (.of main_cst_15 : TRef sig ⟨S1x1, .f32⟩) (.of main_v107 : TRef sig ⟨S2x2, .f32⟩) main_call73
    ++ kronOps_kron_0 (.of main_v108 : TRef sig ⟨S2x2, .f32⟩) (.of main_v107 : TRef sig ⟨S2x2, .f32⟩) main_call74
    ++ kronOps_kron_0 (.of main_v109 : TRef sig ⟨S2x2, .f32⟩) (.of main_v107 : TRef sig ⟨S2x2, .f32⟩) main_call75
    ++ kronOps_kron_2 (.of main_v110 : TRef sig ⟨S4x4, .f32⟩) (.of main_v107 : TRef sig ⟨S2x2, .f32⟩) main_call76
    ++ kronOps_kron_2 (.of main_v111 : TRef sig ⟨S4x4, .f32⟩) (.of main_v107 : TRef sig ⟨S2x2, .f32⟩) main_call77
    ++ kronOps_kron_14 (.of main_v112 : TRef sig ⟨S8x8, .f32⟩) (.of main_cst_12 : TRef sig ⟨S2x2, .f32⟩) main_call78
    ++ kronOps_kron_14 (.of main_v113 : TRef sig ⟨S8x8, .f32⟩) (.of main_cst_13 : TRef sig ⟨S2x2, .f32⟩) main_call79
    ++ kronOps_kron_4 (.of main_v114 : TRef sig ⟨S16x16, .f32⟩) (.of main_v107 : TRef sig ⟨S2x2, .f32⟩) main_call80
    ++ kronOps_kron_15 (.of main_v115 : TRef sig ⟨S16x16, .f32⟩) (.of main_cst : TRef sig ⟨S2x2, .f32⟩) main_call81
    ++ kronOps_kron_5 (.of main_v116 : TRef sig ⟨S32x32, .f32⟩) (.of main_v107 : TRef sig ⟨S2x2, .f32⟩) main_call82
    ++ kronOps_kron_5 (.of main_v117 : TRef sig ⟨S32x32, .f32⟩) (.of main_v107 : TRef sig ⟨S2x2, .f32⟩) main_call83

/-- The buffers stage `g3_lo` writes. -/
abbrev g3_lo_W : List (Ref sig .tc) := [main_call72.v0.ref, main_call72.v1.ref, main_call72.v2.ref, main_call72.v3.ref, main_call72.v4.ref, main_call73.v0.ref, main_call73.v1.ref, main_call73.v2.ref, main_call73.v3.ref, main_call73.v4.ref, main_call74.v0.ref, main_call74.v1.ref, main_call74.v2.ref, main_call74.v3.ref, main_call74.v4.ref, main_call74.v5.ref, main_call75.v0.ref, main_call75.v1.ref, main_call75.v2.ref, main_call75.v3.ref, main_call75.v4.ref, main_call75.v5.ref, main_call76.v0.ref, main_call76.v1.ref, main_call76.v2.ref, main_call76.v3.ref, main_call76.v4.ref, main_call76.v5.ref, main_call77.v0.ref, main_call77.v1.ref, main_call77.v2.ref, main_call77.v3.ref, main_call77.v4.ref, main_call77.v5.ref, main_call78.v0.ref, main_call78.v1.ref, main_call78.v2.ref, main_call78.v3.ref, main_call78.v4.ref, main_call78.v5.ref, main_call79.v0.ref, main_call79.v1.ref, main_call79.v2.ref, main_call79.v3.ref, main_call79.v4.ref, main_call79.v5.ref, main_call80.v0.ref, main_call80.v1.ref, main_call80.v2.ref, main_call80.v3.ref, main_call80.v4.ref, main_call80.v5.ref, main_call81.v0.ref, main_call81.v1.ref, main_call81.v2.ref, main_call81.v3.ref, main_call81.v4.ref, main_call81.v5.ref, main_call82.v0.ref, main_call82.v1.ref, main_call82.v2.ref, main_call82.v3.ref, main_call82.v4.ref, main_call82.v5.ref, main_call83.v0.ref, main_call83.v1.ref, main_call83.v2.ref, main_call83.v3.ref, main_call83.v4.ref, main_call83.v5.ref]

/-- @main's statements 175 … 180. -/
abbrev g3_hi_a : List (HloOp τ sig (Elt F)) :=
  kronOps_kron_6 (.of main_v118 : TRef sig ⟨S64x64, .f32⟩) (.of main_v107 : TRef sig ⟨S2x2, .f32⟩) main_call84
    ++ kronOps_kron_6 (.of main_v119 : TRef sig ⟨S64x64, .f32⟩) (.of main_v107 : TRef sig ⟨S2x2, .f32⟩) main_call85
    ++ kronOps_kron_7 (.of main_v120 : TRef sig ⟨S128x128, .f32⟩) (.of main_v107 : TRef sig ⟨S2x2, .f32⟩) main_call86
    ++ kronOps_kron_7 (.of main_v121 : TRef sig ⟨S128x128, .f32⟩) (.of main_v107 : TRef sig ⟨S2x2, .f32⟩) main_call87
    ++ kronOps_kron_8 (.of main_v122 : TRef sig ⟨S256x256, .f32⟩) (.of main_v107 : TRef sig ⟨S2x2, .f32⟩) main_call88
    ++ kronOps_kron_8 (.of main_v123 : TRef sig ⟨S256x256, .f32⟩) (.of main_v107 : TRef sig ⟨S2x2, .f32⟩) main_call89

/-- @main's statements 181 … 188. -/
abbrev g3_hi_b : List (HloOp τ sig (Elt F)) :=
  kronOps_kron_9 (.of main_v124 : TRef sig ⟨S512x512, .f32⟩) (.of main_v107 : TRef sig ⟨S2x2, .f32⟩) main_call90
    ++ kronOps_kron_9 (.of main_v125 : TRef sig ⟨S512x512, .f32⟩) (.of main_v107 : TRef sig ⟨S2x2, .f32⟩) main_call91
    ++ kronOps_kron_10 (.of main_v126 : TRef sig ⟨S1024x1024, .f32⟩) (.of main_v107 : TRef sig ⟨S2x2, .f32⟩) main_call92
    ++ kronOps_kron_10 (.of main_v127 : TRef sig ⟨S1024x1024, .f32⟩) (.of main_v107 : TRef sig ⟨S2x2, .f32⟩) main_call93
    ++ kronOps_kron_11 (.of main_v128 : TRef sig ⟨S2048x2048, .f32⟩) (.of main_v107 : TRef sig ⟨S2x2, .f32⟩) main_call94
    ++ kronOps_kron_11 (.of main_v129 : TRef sig ⟨S2048x2048, .f32⟩) (.of main_v107 : TRef sig ⟨S2x2, .f32⟩) main_call95
    ++ [ StableHlo.binary main_v130 main_v131 main_v132 (addf : (⟨S4096x4096, .f32⟩ : BufTy).Contents (Elt F) → (⟨S4096x4096, .f32⟩ : BufTy).Contents (Elt F) → (⟨S4096x4096, .f32⟩ : BufTy).Contents (Elt F)),
      StableHlo.binary main_v132 main_v101 main_v133 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- @main's statements 175 … 188, one stage. -/
abbrev g3_hi : List (HloOp τ sig (Elt F)) := g3_hi_a ++ g3_hi_b

/-- The buffers stage `g3_hi` writes. -/
abbrev g3_hi_W : List (Ref sig .tc) := [main_call84.v0.ref, main_call84.v1.ref, main_call84.v2.ref, main_call84.v3.ref, main_call84.v4.ref, main_call84.v5.ref, main_call85.v0.ref, main_call85.v1.ref, main_call85.v2.ref, main_call85.v3.ref, main_call85.v4.ref, main_call85.v5.ref, main_call86.v0.ref, main_call86.v1.ref, main_call86.v2.ref, main_call86.v3.ref, main_call86.v4.ref, main_call86.v5.ref, main_call87.v0.ref, main_call87.v1.ref, main_call87.v2.ref, main_call87.v3.ref, main_call87.v4.ref, main_call87.v5.ref, main_call88.v0.ref, main_call88.v1.ref, main_call88.v2.ref, main_call88.v3.ref, main_call88.v4.ref, main_call88.v5.ref, main_call89.v0.ref, main_call89.v1.ref, main_call89.v2.ref, main_call89.v3.ref, main_call89.v4.ref, main_call89.v5.ref, main_call90.v0.ref, main_call90.v1.ref, main_call90.v2.ref, main_call90.v3.ref, main_call90.v4.ref, main_call90.v5.ref, main_call91.v0.ref, main_call91.v1.ref, main_call91.v2.ref, main_call91.v3.ref, main_call91.v4.ref, main_call91.v5.ref, main_call92.v0.ref, main_call92.v1.ref, main_call92.v2.ref, main_call92.v3.ref, main_call92.v4.ref, main_call92.v5.ref, main_call93.v0.ref, main_call93.v1.ref, main_call93.v2.ref, main_call93.v3.ref, main_call93.v4.ref, main_call93.v5.ref, main_call94.v0.ref, main_call94.v1.ref, main_call94.v2.ref, main_call94.v3.ref, main_call94.v4.ref, main_call94.v5.ref, main_call95.v0.ref, main_call95.v1.ref, main_call95.v2.ref, main_call95.v3.ref, main_call95.v4.ref, main_call95.v5.ref, main_v132, main_v133]

/-- @main's statements 189 … 195. -/
abbrev g4_eye : List (HloOp τ sig (Elt F)) :=
  [ StableHlo.nullary main_v134 (iotaInDim S2x2 32 0),
      StableHlo.nullary main_v135 (iotaInDim S2x2 32 1),
      StableHlo.nullary main_c_52 (constantI S_ 32 0#32),
      StableHlo.unary main_c_52 main_v136 (broadcastInDim S2x2 ![] bcast_S_S2x2 : (⟨S_, .i32⟩ : BufTy).Contents (Elt F) → (⟨S2x2, .i32⟩ : BufTy).Contents (Elt F)),
      StableHlo.binary main_v134 main_v136 main_v137 (addi : (⟨S2x2, .i32⟩ : BufTy).Contents (Elt F) → (⟨S2x2, .i32⟩ : BufTy).Contents (Elt F) → (⟨S2x2, .i32⟩ : BufTy).Contents (Elt F)),
      StableHlo.binary main_v137 main_v135 main_v138 (cmpi .eq : (⟨S2x2, .i32⟩ : BufTy).Contents (Elt F) → (⟨S2x2, .i32⟩ : BufTy).Contents (Elt F) → (⟨S2x2, .i1⟩ : BufTy).Contents (Elt F)),
      StableHlo.unary main_v138 main_v139 (uitofp .f32 : (⟨S2x2, .i1⟩ : BufTy).Contents (Elt F) → (⟨S2x2, .f32⟩ : BufTy).Contents (Elt F)) ]

/-- The buffers stage `g4_eye` writes. -/
abbrev g4_eye_W : List (Ref sig .tc) := [main_v134, main_v135, main_c_52, main_v136, main_v137, main_v138, main_v139]

/-- @main's statements 196 … 207. -/
abbrev g4_lo : List (HloOp τ sig (Elt F)) :=
  kronOps_kron_12 (.of main_cst_18 : TRef sig ⟨S1x1, .f32⟩) (.of main_v139 : TRef sig ⟨S2x2, .f32⟩) main_call96
    ++ kronOps_kron_12 (.of main_cst_19 : TRef sig ⟨S1x1, .f32⟩) (.of main_v139 : TRef sig ⟨S2x2, .f32⟩) main_call97
    ++ kronOps_kron_0 (.of main_v140 : TRef sig ⟨S2x2, .f32⟩) (.of main_v139 : TRef sig ⟨S2x2, .f32⟩) main_call98
    ++ kronOps_kron_0 (.of main_v141 : TRef sig ⟨S2x2, .f32⟩) (.of main_v139 : TRef sig ⟨S2x2, .f32⟩) main_call99
    ++ kronOps_kron_2 (.of main_v142 : TRef sig ⟨S4x4, .f32⟩) (.of main_v139 : TRef sig ⟨S2x2, .f32⟩) main_call100
    ++ kronOps_kron_2 (.of main_v143 : TRef sig ⟨S4x4, .f32⟩) (.of main_v139 : TRef sig ⟨S2x2, .f32⟩) main_call101
    ++ kronOps_kron_3 (.of main_v144 : TRef sig ⟨S8x8, .f32⟩) (.of main_v139 : TRef sig ⟨S2x2, .f32⟩) main_call102
    ++ kronOps_kron_3 (.of main_v145 : TRef sig ⟨S8x8, .f32⟩) (.of main_v139 : TRef sig ⟨S2x2, .f32⟩) main_call103
    ++ kronOps_kron_15 (.of main_v146 : TRef sig ⟨S16x16, .f32⟩) (.of main_cst_16 : TRef sig ⟨S2x2, .f32⟩) main_call104
    ++ kronOps_kron_15 (.of main_v147 : TRef sig ⟨S16x16, .f32⟩) (.of main_cst_17 : TRef sig ⟨S2x2, .f32⟩) main_call105
    ++ kronOps_kron_5 (.of main_v148 : TRef sig ⟨S32x32, .f32⟩) (.of main_v139 : TRef sig ⟨S2x2, .f32⟩) main_call106
    ++ kronOps_kron_16 (.of main_v149 : TRef sig ⟨S32x32, .f32⟩) (.of main_cst : TRef sig ⟨S2x2, .f32⟩) main_call107

/-- The buffers stage `g4_lo` writes. -/
abbrev g4_lo_W : List (Ref sig .tc) := [main_call96.v0.ref, main_call96.v1.ref, main_call96.v2.ref, main_call96.v3.ref, main_call96.v4.ref, main_call97.v0.ref, main_call97.v1.ref, main_call97.v2.ref, main_call97.v3.ref, main_call97.v4.ref, main_call98.v0.ref, main_call98.v1.ref, main_call98.v2.ref, main_call98.v3.ref, main_call98.v4.ref, main_call98.v5.ref, main_call99.v0.ref, main_call99.v1.ref, main_call99.v2.ref, main_call99.v3.ref, main_call99.v4.ref, main_call99.v5.ref, main_call100.v0.ref, main_call100.v1.ref, main_call100.v2.ref, main_call100.v3.ref, main_call100.v4.ref, main_call100.v5.ref, main_call101.v0.ref, main_call101.v1.ref, main_call101.v2.ref, main_call101.v3.ref, main_call101.v4.ref, main_call101.v5.ref, main_call102.v0.ref, main_call102.v1.ref, main_call102.v2.ref, main_call102.v3.ref, main_call102.v4.ref, main_call102.v5.ref, main_call103.v0.ref, main_call103.v1.ref, main_call103.v2.ref, main_call103.v3.ref, main_call103.v4.ref, main_call103.v5.ref, main_call104.v0.ref, main_call104.v1.ref, main_call104.v2.ref, main_call104.v3.ref, main_call104.v4.ref, main_call104.v5.ref, main_call105.v0.ref, main_call105.v1.ref, main_call105.v2.ref, main_call105.v3.ref, main_call105.v4.ref, main_call105.v5.ref, main_call106.v0.ref, main_call106.v1.ref, main_call106.v2.ref, main_call106.v3.ref, main_call106.v4.ref, main_call106.v5.ref, main_call107.v0.ref, main_call107.v1.ref, main_call107.v2.ref, main_call107.v3.ref, main_call107.v4.ref, main_call107.v5.ref]

/-- @main's statements 208 … 221. -/
abbrev g4_hi : List (HloOp τ sig (Elt F)) :=
  kronOps_kron_6 (.of main_v150 : TRef sig ⟨S64x64, .f32⟩) (.of main_v139 : TRef sig ⟨S2x2, .f32⟩) main_call108
    ++ kronOps_kron_6 (.of main_v151 : TRef sig ⟨S64x64, .f32⟩) (.of main_v139 : TRef sig ⟨S2x2, .f32⟩) main_call109
    ++ kronOps_kron_7 (.of main_v152 : TRef sig ⟨S128x128, .f32⟩) (.of main_v139 : TRef sig ⟨S2x2, .f32⟩) main_call110
    ++ kronOps_kron_7 (.of main_v153 : TRef sig ⟨S128x128, .f32⟩) (.of main_v139 : TRef sig ⟨S2x2, .f32⟩) main_call111
    ++ kronOps_kron_8 (.of main_v154 : TRef sig ⟨S256x256, .f32⟩) (.of main_v139 : TRef sig ⟨S2x2, .f32⟩) main_call112
    ++ kronOps_kron_8 (.of main_v155 : TRef sig ⟨S256x256, .f32⟩) (.of main_v139 : TRef sig ⟨S2x2, .f32⟩) main_call113
    ++ kronOps_kron_9 (.of main_v156 : TRef sig ⟨S512x512, .f32⟩) (.of main_v139 : TRef sig ⟨S2x2, .f32⟩) main_call114
    ++ kronOps_kron_9 (.of main_v157 : TRef sig ⟨S512x512, .f32⟩) (.of main_v139 : TRef sig ⟨S2x2, .f32⟩) main_call115
    ++ kronOps_kron_10 (.of main_v158 : TRef sig ⟨S1024x1024, .f32⟩) (.of main_v139 : TRef sig ⟨S2x2, .f32⟩) main_call116
    ++ kronOps_kron_10 (.of main_v159 : TRef sig ⟨S1024x1024, .f32⟩) (.of main_v139 : TRef sig ⟨S2x2, .f32⟩) main_call117
    ++ kronOps_kron_11 (.of main_v160 : TRef sig ⟨S2048x2048, .f32⟩) (.of main_v139 : TRef sig ⟨S2x2, .f32⟩) main_call118
    ++ kronOps_kron_11 (.of main_v161 : TRef sig ⟨S2048x2048, .f32⟩) (.of main_v139 : TRef sig ⟨S2x2, .f32⟩) main_call119
    ++ [ StableHlo.binary main_v162 main_v163 main_v164 (addf : (⟨S4096x4096, .f32⟩ : BufTy).Contents (Elt F) → (⟨S4096x4096, .f32⟩ : BufTy).Contents (Elt F) → (⟨S4096x4096, .f32⟩ : BufTy).Contents (Elt F)),
      StableHlo.binary main_v164 main_v133 main_v165 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g4_hi` writes. -/
abbrev g4_hi_W : List (Ref sig .tc) := [main_call108.v0.ref, main_call108.v1.ref, main_call108.v2.ref, main_call108.v3.ref, main_call108.v4.ref, main_call108.v5.ref, main_call109.v0.ref, main_call109.v1.ref, main_call109.v2.ref, main_call109.v3.ref, main_call109.v4.ref, main_call109.v5.ref, main_call110.v0.ref, main_call110.v1.ref, main_call110.v2.ref, main_call110.v3.ref, main_call110.v4.ref, main_call110.v5.ref, main_call111.v0.ref, main_call111.v1.ref, main_call111.v2.ref, main_call111.v3.ref, main_call111.v4.ref, main_call111.v5.ref, main_call112.v0.ref, main_call112.v1.ref, main_call112.v2.ref, main_call112.v3.ref, main_call112.v4.ref, main_call112.v5.ref, main_call113.v0.ref, main_call113.v1.ref, main_call113.v2.ref, main_call113.v3.ref, main_call113.v4.ref, main_call113.v5.ref, main_call114.v0.ref, main_call114.v1.ref, main_call114.v2.ref, main_call114.v3.ref, main_call114.v4.ref, main_call114.v5.ref, main_call115.v0.ref, main_call115.v1.ref, main_call115.v2.ref, main_call115.v3.ref, main_call115.v4.ref, main_call115.v5.ref, main_call116.v0.ref, main_call116.v1.ref, main_call116.v2.ref, main_call116.v3.ref, main_call116.v4.ref, main_call116.v5.ref, main_call117.v0.ref, main_call117.v1.ref, main_call117.v2.ref, main_call117.v3.ref, main_call117.v4.ref, main_call117.v5.ref, main_call118.v0.ref, main_call118.v1.ref, main_call118.v2.ref, main_call118.v3.ref, main_call118.v4.ref, main_call118.v5.ref, main_call119.v0.ref, main_call119.v1.ref, main_call119.v2.ref, main_call119.v3.ref, main_call119.v4.ref, main_call119.v5.ref, main_v164, main_v165]

/-- @main's statements 222 … 228. -/
abbrev g5_eye : List (HloOp τ sig (Elt F)) :=
  [ StableHlo.nullary main_v166 (iotaInDim S2x2 32 0),
      StableHlo.nullary main_v167 (iotaInDim S2x2 32 1),
      StableHlo.nullary main_c_53 (constantI S_ 32 0#32),
      StableHlo.unary main_c_53 main_v168 (broadcastInDim S2x2 ![] bcast_S_S2x2 : (⟨S_, .i32⟩ : BufTy).Contents (Elt F) → (⟨S2x2, .i32⟩ : BufTy).Contents (Elt F)),
      StableHlo.binary main_v166 main_v168 main_v169 (addi : (⟨S2x2, .i32⟩ : BufTy).Contents (Elt F) → (⟨S2x2, .i32⟩ : BufTy).Contents (Elt F) → (⟨S2x2, .i32⟩ : BufTy).Contents (Elt F)),
      StableHlo.binary main_v169 main_v167 main_v170 (cmpi .eq : (⟨S2x2, .i32⟩ : BufTy).Contents (Elt F) → (⟨S2x2, .i32⟩ : BufTy).Contents (Elt F) → (⟨S2x2, .i1⟩ : BufTy).Contents (Elt F)),
      StableHlo.unary main_v170 main_v171 (uitofp .f32 : (⟨S2x2, .i1⟩ : BufTy).Contents (Elt F) → (⟨S2x2, .f32⟩ : BufTy).Contents (Elt F)) ]

/-- The buffers stage `g5_eye` writes. -/
abbrev g5_eye_W : List (Ref sig .tc) := [main_v166, main_v167, main_c_53, main_v168, main_v169, main_v170, main_v171]

/-- @main's statements 229 … 240. -/
abbrev g5_lo : List (HloOp τ sig (Elt F)) :=
  kronOps_kron_12 (.of main_cst_22 : TRef sig ⟨S1x1, .f32⟩) (.of main_v171 : TRef sig ⟨S2x2, .f32⟩) main_call120
    ++ kronOps_kron_12 (.of main_cst_23 : TRef sig ⟨S1x1, .f32⟩) (.of main_v171 : TRef sig ⟨S2x2, .f32⟩) main_call121
    ++ kronOps_kron_0 (.of main_v172 : TRef sig ⟨S2x2, .f32⟩) (.of main_v171 : TRef sig ⟨S2x2, .f32⟩) main_call122
    ++ kronOps_kron_0 (.of main_v173 : TRef sig ⟨S2x2, .f32⟩) (.of main_v171 : TRef sig ⟨S2x2, .f32⟩) main_call123
    ++ kronOps_kron_2 (.of main_v174 : TRef sig ⟨S4x4, .f32⟩) (.of main_v171 : TRef sig ⟨S2x2, .f32⟩) main_call124
    ++ kronOps_kron_2 (.of main_v175 : TRef sig ⟨S4x4, .f32⟩) (.of main_v171 : TRef sig ⟨S2x2, .f32⟩) main_call125
    ++ kronOps_kron_3 (.of main_v176 : TRef sig ⟨S8x8, .f32⟩) (.of main_v171 : TRef sig ⟨S2x2, .f32⟩) main_call126
    ++ kronOps_kron_3 (.of main_v177 : TRef sig ⟨S8x8, .f32⟩) (.of main_v171 : TRef sig ⟨S2x2, .f32⟩) main_call127
    ++ kronOps_kron_4 (.of main_v178 : TRef sig ⟨S16x16, .f32⟩) (.of main_v171 : TRef sig ⟨S2x2, .f32⟩) main_call128
    ++ kronOps_kron_4 (.of main_v179 : TRef sig ⟨S16x16, .f32⟩) (.of main_v171 : TRef sig ⟨S2x2, .f32⟩) main_call129
    ++ kronOps_kron_16 (.of main_v180 : TRef sig ⟨S32x32, .f32⟩) (.of main_cst_20 : TRef sig ⟨S2x2, .f32⟩) main_call130
    ++ kronOps_kron_16 (.of main_v181 : TRef sig ⟨S32x32, .f32⟩) (.of main_cst_21 : TRef sig ⟨S2x2, .f32⟩) main_call131

/-- The buffers stage `g5_lo` writes. -/
abbrev g5_lo_W : List (Ref sig .tc) := [main_call120.v0.ref, main_call120.v1.ref, main_call120.v2.ref, main_call120.v3.ref, main_call120.v4.ref, main_call121.v0.ref, main_call121.v1.ref, main_call121.v2.ref, main_call121.v3.ref, main_call121.v4.ref, main_call122.v0.ref, main_call122.v1.ref, main_call122.v2.ref, main_call122.v3.ref, main_call122.v4.ref, main_call122.v5.ref, main_call123.v0.ref, main_call123.v1.ref, main_call123.v2.ref, main_call123.v3.ref, main_call123.v4.ref, main_call123.v5.ref, main_call124.v0.ref, main_call124.v1.ref, main_call124.v2.ref, main_call124.v3.ref, main_call124.v4.ref, main_call124.v5.ref, main_call125.v0.ref, main_call125.v1.ref, main_call125.v2.ref, main_call125.v3.ref, main_call125.v4.ref, main_call125.v5.ref, main_call126.v0.ref, main_call126.v1.ref, main_call126.v2.ref, main_call126.v3.ref, main_call126.v4.ref, main_call126.v5.ref, main_call127.v0.ref, main_call127.v1.ref, main_call127.v2.ref, main_call127.v3.ref, main_call127.v4.ref, main_call127.v5.ref, main_call128.v0.ref, main_call128.v1.ref, main_call128.v2.ref, main_call128.v3.ref, main_call128.v4.ref, main_call128.v5.ref, main_call129.v0.ref, main_call129.v1.ref, main_call129.v2.ref, main_call129.v3.ref, main_call129.v4.ref, main_call129.v5.ref, main_call130.v0.ref, main_call130.v1.ref, main_call130.v2.ref, main_call130.v3.ref, main_call130.v4.ref, main_call130.v5.ref, main_call131.v0.ref, main_call131.v1.ref, main_call131.v2.ref, main_call131.v3.ref, main_call131.v4.ref, main_call131.v5.ref]

/-- @main's statements 241 … 254. -/
abbrev g5_hi : List (HloOp τ sig (Elt F)) :=
  kronOps_kron_6 (.of main_v182 : TRef sig ⟨S64x64, .f32⟩) (.of main_v171 : TRef sig ⟨S2x2, .f32⟩) main_call132
    ++ kronOps_kron_17 (.of main_v183 : TRef sig ⟨S64x64, .f32⟩) (.of main_cst : TRef sig ⟨S2x2, .f32⟩) main_call133
    ++ kronOps_kron_7 (.of main_v184 : TRef sig ⟨S128x128, .f32⟩) (.of main_v171 : TRef sig ⟨S2x2, .f32⟩) main_call134
    ++ kronOps_kron_7 (.of main_v185 : TRef sig ⟨S128x128, .f32⟩) (.of main_v171 : TRef sig ⟨S2x2, .f32⟩) main_call135
    ++ kronOps_kron_8 (.of main_v186 : TRef sig ⟨S256x256, .f32⟩) (.of main_v171 : TRef sig ⟨S2x2, .f32⟩) main_call136
    ++ kronOps_kron_8 (.of main_v187 : TRef sig ⟨S256x256, .f32⟩) (.of main_v171 : TRef sig ⟨S2x2, .f32⟩) main_call137
    ++ kronOps_kron_9 (.of main_v188 : TRef sig ⟨S512x512, .f32⟩) (.of main_v171 : TRef sig ⟨S2x2, .f32⟩) main_call138
    ++ kronOps_kron_9 (.of main_v189 : TRef sig ⟨S512x512, .f32⟩) (.of main_v171 : TRef sig ⟨S2x2, .f32⟩) main_call139
    ++ kronOps_kron_10 (.of main_v190 : TRef sig ⟨S1024x1024, .f32⟩) (.of main_v171 : TRef sig ⟨S2x2, .f32⟩) main_call140
    ++ kronOps_kron_10 (.of main_v191 : TRef sig ⟨S1024x1024, .f32⟩) (.of main_v171 : TRef sig ⟨S2x2, .f32⟩) main_call141
    ++ kronOps_kron_11 (.of main_v192 : TRef sig ⟨S2048x2048, .f32⟩) (.of main_v171 : TRef sig ⟨S2x2, .f32⟩) main_call142
    ++ kronOps_kron_11 (.of main_v193 : TRef sig ⟨S2048x2048, .f32⟩) (.of main_v171 : TRef sig ⟨S2x2, .f32⟩) main_call143
    ++ [ StableHlo.binary main_v194 main_v195 main_v196 (addf : (⟨S4096x4096, .f32⟩ : BufTy).Contents (Elt F) → (⟨S4096x4096, .f32⟩ : BufTy).Contents (Elt F) → (⟨S4096x4096, .f32⟩ : BufTy).Contents (Elt F)),
      StableHlo.binary main_v196 main_v165 main_v197 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g5_hi` writes. -/
abbrev g5_hi_W : List (Ref sig .tc) := [main_call132.v0.ref, main_call132.v1.ref, main_call132.v2.ref, main_call132.v3.ref, main_call132.v4.ref, main_call132.v5.ref, main_call133.v0.ref, main_call133.v1.ref, main_call133.v2.ref, main_call133.v3.ref, main_call133.v4.ref, main_call133.v5.ref, main_call134.v0.ref, main_call134.v1.ref, main_call134.v2.ref, main_call134.v3.ref, main_call134.v4.ref, main_call134.v5.ref, main_call135.v0.ref, main_call135.v1.ref, main_call135.v2.ref, main_call135.v3.ref, main_call135.v4.ref, main_call135.v5.ref, main_call136.v0.ref, main_call136.v1.ref, main_call136.v2.ref, main_call136.v3.ref, main_call136.v4.ref, main_call136.v5.ref, main_call137.v0.ref, main_call137.v1.ref, main_call137.v2.ref, main_call137.v3.ref, main_call137.v4.ref, main_call137.v5.ref, main_call138.v0.ref, main_call138.v1.ref, main_call138.v2.ref, main_call138.v3.ref, main_call138.v4.ref, main_call138.v5.ref, main_call139.v0.ref, main_call139.v1.ref, main_call139.v2.ref, main_call139.v3.ref, main_call139.v4.ref, main_call139.v5.ref, main_call140.v0.ref, main_call140.v1.ref, main_call140.v2.ref, main_call140.v3.ref, main_call140.v4.ref, main_call140.v5.ref, main_call141.v0.ref, main_call141.v1.ref, main_call141.v2.ref, main_call141.v3.ref, main_call141.v4.ref, main_call141.v5.ref, main_call142.v0.ref, main_call142.v1.ref, main_call142.v2.ref, main_call142.v3.ref, main_call142.v4.ref, main_call142.v5.ref, main_call143.v0.ref, main_call143.v1.ref, main_call143.v2.ref, main_call143.v3.ref, main_call143.v4.ref, main_call143.v5.ref, main_v196, main_v197]

/-- @main's statements 255 … 261. -/
abbrev g6_eye : List (HloOp τ sig (Elt F)) :=
  [ StableHlo.nullary main_v198 (iotaInDim S2x2 32 0),
      StableHlo.nullary main_v199 (iotaInDim S2x2 32 1),
      StableHlo.nullary main_c_54 (constantI S_ 32 0#32),
      StableHlo.unary main_c_54 main_v200 (broadcastInDim S2x2 ![] bcast_S_S2x2 : (⟨S_, .i32⟩ : BufTy).Contents (Elt F) → (⟨S2x2, .i32⟩ : BufTy).Contents (Elt F)),
      StableHlo.binary main_v198 main_v200 main_v201 (addi : (⟨S2x2, .i32⟩ : BufTy).Contents (Elt F) → (⟨S2x2, .i32⟩ : BufTy).Contents (Elt F) → (⟨S2x2, .i32⟩ : BufTy).Contents (Elt F)),
      StableHlo.binary main_v201 main_v199 main_v202 (cmpi .eq : (⟨S2x2, .i32⟩ : BufTy).Contents (Elt F) → (⟨S2x2, .i32⟩ : BufTy).Contents (Elt F) → (⟨S2x2, .i1⟩ : BufTy).Contents (Elt F)),
      StableHlo.unary main_v202 main_v203 (uitofp .f32 : (⟨S2x2, .i1⟩ : BufTy).Contents (Elt F) → (⟨S2x2, .f32⟩ : BufTy).Contents (Elt F)) ]

/-- The buffers stage `g6_eye` writes. -/
abbrev g6_eye_W : List (Ref sig .tc) := [main_v198, main_v199, main_c_54, main_v200, main_v201, main_v202, main_v203]

/-- @main's statements 262 … 273. -/
abbrev g6_lo : List (HloOp τ sig (Elt F)) :=
  kronOps_kron_12 (.of main_cst_26 : TRef sig ⟨S1x1, .f32⟩) (.of main_v203 : TRef sig ⟨S2x2, .f32⟩) main_call144
    ++ kronOps_kron_12 (.of main_cst_27 : TRef sig ⟨S1x1, .f32⟩) (.of main_v203 : TRef sig ⟨S2x2, .f32⟩) main_call145
    ++ kronOps_kron_0 (.of main_v204 : TRef sig ⟨S2x2, .f32⟩) (.of main_v203 : TRef sig ⟨S2x2, .f32⟩) main_call146
    ++ kronOps_kron_0 (.of main_v205 : TRef sig ⟨S2x2, .f32⟩) (.of main_v203 : TRef sig ⟨S2x2, .f32⟩) main_call147
    ++ kronOps_kron_2 (.of main_v206 : TRef sig ⟨S4x4, .f32⟩) (.of main_v203 : TRef sig ⟨S2x2, .f32⟩) main_call148
    ++ kronOps_kron_2 (.of main_v207 : TRef sig ⟨S4x4, .f32⟩) (.of main_v203 : TRef sig ⟨S2x2, .f32⟩) main_call149
    ++ kronOps_kron_3 (.of main_v208 : TRef sig ⟨S8x8, .f32⟩) (.of main_v203 : TRef sig ⟨S2x2, .f32⟩) main_call150
    ++ kronOps_kron_3 (.of main_v209 : TRef sig ⟨S8x8, .f32⟩) (.of main_v203 : TRef sig ⟨S2x2, .f32⟩) main_call151
    ++ kronOps_kron_4 (.of main_v210 : TRef sig ⟨S16x16, .f32⟩) (.of main_v203 : TRef sig ⟨S2x2, .f32⟩) main_call152
    ++ kronOps_kron_4 (.of main_v211 : TRef sig ⟨S16x16, .f32⟩) (.of main_v203 : TRef sig ⟨S2x2, .f32⟩) main_call153
    ++ kronOps_kron_5 (.of main_v212 : TRef sig ⟨S32x32, .f32⟩) (.of main_v203 : TRef sig ⟨S2x2, .f32⟩) main_call154
    ++ kronOps_kron_5 (.of main_v213 : TRef sig ⟨S32x32, .f32⟩) (.of main_v203 : TRef sig ⟨S2x2, .f32⟩) main_call155

/-- The buffers stage `g6_lo` writes. -/
abbrev g6_lo_W : List (Ref sig .tc) := [main_call144.v0.ref, main_call144.v1.ref, main_call144.v2.ref, main_call144.v3.ref, main_call144.v4.ref, main_call145.v0.ref, main_call145.v1.ref, main_call145.v2.ref, main_call145.v3.ref, main_call145.v4.ref, main_call146.v0.ref, main_call146.v1.ref, main_call146.v2.ref, main_call146.v3.ref, main_call146.v4.ref, main_call146.v5.ref, main_call147.v0.ref, main_call147.v1.ref, main_call147.v2.ref, main_call147.v3.ref, main_call147.v4.ref, main_call147.v5.ref, main_call148.v0.ref, main_call148.v1.ref, main_call148.v2.ref, main_call148.v3.ref, main_call148.v4.ref, main_call148.v5.ref, main_call149.v0.ref, main_call149.v1.ref, main_call149.v2.ref, main_call149.v3.ref, main_call149.v4.ref, main_call149.v5.ref, main_call150.v0.ref, main_call150.v1.ref, main_call150.v2.ref, main_call150.v3.ref, main_call150.v4.ref, main_call150.v5.ref, main_call151.v0.ref, main_call151.v1.ref, main_call151.v2.ref, main_call151.v3.ref, main_call151.v4.ref, main_call151.v5.ref, main_call152.v0.ref, main_call152.v1.ref, main_call152.v2.ref, main_call152.v3.ref, main_call152.v4.ref, main_call152.v5.ref, main_call153.v0.ref, main_call153.v1.ref, main_call153.v2.ref, main_call153.v3.ref, main_call153.v4.ref, main_call153.v5.ref, main_call154.v0.ref, main_call154.v1.ref, main_call154.v2.ref, main_call154.v3.ref, main_call154.v4.ref, main_call154.v5.ref, main_call155.v0.ref, main_call155.v1.ref, main_call155.v2.ref, main_call155.v3.ref, main_call155.v4.ref, main_call155.v5.ref]

/-- @main's statements 274 … 287. -/
abbrev g6_hi : List (HloOp τ sig (Elt F)) :=
  kronOps_kron_17 (.of main_v214 : TRef sig ⟨S64x64, .f32⟩) (.of main_cst_24 : TRef sig ⟨S2x2, .f32⟩) main_call156
    ++ kronOps_kron_17 (.of main_v215 : TRef sig ⟨S64x64, .f32⟩) (.of main_cst_25 : TRef sig ⟨S2x2, .f32⟩) main_call157
    ++ kronOps_kron_7 (.of main_v216 : TRef sig ⟨S128x128, .f32⟩) (.of main_v203 : TRef sig ⟨S2x2, .f32⟩) main_call158
    ++ kronOps_kron_18 (.of main_v217 : TRef sig ⟨S128x128, .f32⟩) (.of main_cst : TRef sig ⟨S2x2, .f32⟩) main_call159
    ++ kronOps_kron_8 (.of main_v218 : TRef sig ⟨S256x256, .f32⟩) (.of main_v203 : TRef sig ⟨S2x2, .f32⟩) main_call160
    ++ kronOps_kron_8 (.of main_v219 : TRef sig ⟨S256x256, .f32⟩) (.of main_v203 : TRef sig ⟨S2x2, .f32⟩) main_call161
    ++ kronOps_kron_9 (.of main_v220 : TRef sig ⟨S512x512, .f32⟩) (.of main_v203 : TRef sig ⟨S2x2, .f32⟩) main_call162
    ++ kronOps_kron_9 (.of main_v221 : TRef sig ⟨S512x512, .f32⟩) (.of main_v203 : TRef sig ⟨S2x2, .f32⟩) main_call163
    ++ kronOps_kron_10 (.of main_v222 : TRef sig ⟨S1024x1024, .f32⟩) (.of main_v203 : TRef sig ⟨S2x2, .f32⟩) main_call164
    ++ kronOps_kron_10 (.of main_v223 : TRef sig ⟨S1024x1024, .f32⟩) (.of main_v203 : TRef sig ⟨S2x2, .f32⟩) main_call165
    ++ kronOps_kron_11 (.of main_v224 : TRef sig ⟨S2048x2048, .f32⟩) (.of main_v203 : TRef sig ⟨S2x2, .f32⟩) main_call166
    ++ kronOps_kron_11 (.of main_v225 : TRef sig ⟨S2048x2048, .f32⟩) (.of main_v203 : TRef sig ⟨S2x2, .f32⟩) main_call167
    ++ [ StableHlo.binary main_v226 main_v227 main_v228 (addf : (⟨S4096x4096, .f32⟩ : BufTy).Contents (Elt F) → (⟨S4096x4096, .f32⟩ : BufTy).Contents (Elt F) → (⟨S4096x4096, .f32⟩ : BufTy).Contents (Elt F)),
      StableHlo.binary main_v228 main_v197 main_v229 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g6_hi` writes. -/
abbrev g6_hi_W : List (Ref sig .tc) := [main_call156.v0.ref, main_call156.v1.ref, main_call156.v2.ref, main_call156.v3.ref, main_call156.v4.ref, main_call156.v5.ref, main_call157.v0.ref, main_call157.v1.ref, main_call157.v2.ref, main_call157.v3.ref, main_call157.v4.ref, main_call157.v5.ref, main_call158.v0.ref, main_call158.v1.ref, main_call158.v2.ref, main_call158.v3.ref, main_call158.v4.ref, main_call158.v5.ref, main_call159.v0.ref, main_call159.v1.ref, main_call159.v2.ref, main_call159.v3.ref, main_call159.v4.ref, main_call159.v5.ref, main_call160.v0.ref, main_call160.v1.ref, main_call160.v2.ref, main_call160.v3.ref, main_call160.v4.ref, main_call160.v5.ref, main_call161.v0.ref, main_call161.v1.ref, main_call161.v2.ref, main_call161.v3.ref, main_call161.v4.ref, main_call161.v5.ref, main_call162.v0.ref, main_call162.v1.ref, main_call162.v2.ref, main_call162.v3.ref, main_call162.v4.ref, main_call162.v5.ref, main_call163.v0.ref, main_call163.v1.ref, main_call163.v2.ref, main_call163.v3.ref, main_call163.v4.ref, main_call163.v5.ref, main_call164.v0.ref, main_call164.v1.ref, main_call164.v2.ref, main_call164.v3.ref, main_call164.v4.ref, main_call164.v5.ref, main_call165.v0.ref, main_call165.v1.ref, main_call165.v2.ref, main_call165.v3.ref, main_call165.v4.ref, main_call165.v5.ref, main_call166.v0.ref, main_call166.v1.ref, main_call166.v2.ref, main_call166.v3.ref, main_call166.v4.ref, main_call166.v5.ref, main_call167.v0.ref, main_call167.v1.ref, main_call167.v2.ref, main_call167.v3.ref, main_call167.v4.ref, main_call167.v5.ref, main_v228, main_v229]

/-- @main's statements 288 … 294. -/
abbrev g7_eye : List (HloOp τ sig (Elt F)) :=
  [ StableHlo.nullary main_v230 (iotaInDim S2x2 32 0),
      StableHlo.nullary main_v231 (iotaInDim S2x2 32 1),
      StableHlo.nullary main_c_55 (constantI S_ 32 0#32),
      StableHlo.unary main_c_55 main_v232 (broadcastInDim S2x2 ![] bcast_S_S2x2 : (⟨S_, .i32⟩ : BufTy).Contents (Elt F) → (⟨S2x2, .i32⟩ : BufTy).Contents (Elt F)),
      StableHlo.binary main_v230 main_v232 main_v233 (addi : (⟨S2x2, .i32⟩ : BufTy).Contents (Elt F) → (⟨S2x2, .i32⟩ : BufTy).Contents (Elt F) → (⟨S2x2, .i32⟩ : BufTy).Contents (Elt F)),
      StableHlo.binary main_v233 main_v231 main_v234 (cmpi .eq : (⟨S2x2, .i32⟩ : BufTy).Contents (Elt F) → (⟨S2x2, .i32⟩ : BufTy).Contents (Elt F) → (⟨S2x2, .i1⟩ : BufTy).Contents (Elt F)),
      StableHlo.unary main_v234 main_v235 (uitofp .f32 : (⟨S2x2, .i1⟩ : BufTy).Contents (Elt F) → (⟨S2x2, .f32⟩ : BufTy).Contents (Elt F)) ]

/-- The buffers stage `g7_eye` writes. -/
abbrev g7_eye_W : List (Ref sig .tc) := [main_v230, main_v231, main_c_55, main_v232, main_v233, main_v234, main_v235]

/-- @main's statements 295 … 300. -/
abbrev g7_lo_a : List (HloOp τ sig (Elt F)) :=
  kronOps_kron_12 (.of main_cst_30 : TRef sig ⟨S1x1, .f32⟩) (.of main_v235 : TRef sig ⟨S2x2, .f32⟩) main_call168
    ++ kronOps_kron_12 (.of main_cst_31 : TRef sig ⟨S1x1, .f32⟩) (.of main_v235 : TRef sig ⟨S2x2, .f32⟩) main_call169
    ++ kronOps_kron_0 (.of main_v236 : TRef sig ⟨S2x2, .f32⟩) (.of main_v235 : TRef sig ⟨S2x2, .f32⟩) main_call170
    ++ kronOps_kron_0 (.of main_v237 : TRef sig ⟨S2x2, .f32⟩) (.of main_v235 : TRef sig ⟨S2x2, .f32⟩) main_call171
    ++ kronOps_kron_2 (.of main_v238 : TRef sig ⟨S4x4, .f32⟩) (.of main_v235 : TRef sig ⟨S2x2, .f32⟩) main_call172
    ++ kronOps_kron_2 (.of main_v239 : TRef sig ⟨S4x4, .f32⟩) (.of main_v235 : TRef sig ⟨S2x2, .f32⟩) main_call173

/-- @main's statements 301 … 306. -/
abbrev g7_lo_b : List (HloOp τ sig (Elt F)) :=
  kronOps_kron_3 (.of main_v240 : TRef sig ⟨S8x8, .f32⟩) (.of main_v235 : TRef sig ⟨S2x2, .f32⟩) main_call174
    ++ kronOps_kron_3 (.of main_v241 : TRef sig ⟨S8x8, .f32⟩) (.of main_v235 : TRef sig ⟨S2x2, .f32⟩) main_call175
    ++ kronOps_kron_4 (.of main_v242 : TRef sig ⟨S16x16, .f32⟩) (.of main_v235 : TRef sig ⟨S2x2, .f32⟩) main_call176
    ++ kronOps_kron_4 (.of main_v243 : TRef sig ⟨S16x16, .f32⟩) (.of main_v235 : TRef sig ⟨S2x2, .f32⟩) main_call177
    ++ kronOps_kron_5 (.of main_v244 : TRef sig ⟨S32x32, .f32⟩) (.of main_v235 : TRef sig ⟨S2x2, .f32⟩) main_call178
    ++ kronOps_kron_5 (.of main_v245 : TRef sig ⟨S32x32, .f32⟩) (.of main_v235 : TRef sig ⟨S2x2, .f32⟩) main_call179

/-- @main's statements 295 … 306, one stage. -/
abbrev g7_lo : List (HloOp τ sig (Elt F)) := g7_lo_a ++ g7_lo_b

/-- The buffers stage `g7_lo` writes. -/
abbrev g7_lo_W : List (Ref sig .tc) := [main_call168.v0.ref, main_call168.v1.ref, main_call168.v2.ref, main_call168.v3.ref, main_call168.v4.ref, main_call169.v0.ref, main_call169.v1.ref, main_call169.v2.ref, main_call169.v3.ref, main_call169.v4.ref, main_call170.v0.ref, main_call170.v1.ref, main_call170.v2.ref, main_call170.v3.ref, main_call170.v4.ref, main_call170.v5.ref, main_call171.v0.ref, main_call171.v1.ref, main_call171.v2.ref, main_call171.v3.ref, main_call171.v4.ref, main_call171.v5.ref, main_call172.v0.ref, main_call172.v1.ref, main_call172.v2.ref, main_call172.v3.ref, main_call172.v4.ref, main_call172.v5.ref, main_call173.v0.ref, main_call173.v1.ref, main_call173.v2.ref, main_call173.v3.ref, main_call173.v4.ref, main_call173.v5.ref, main_call174.v0.ref, main_call174.v1.ref, main_call174.v2.ref, main_call174.v3.ref, main_call174.v4.ref, main_call174.v5.ref, main_call175.v0.ref, main_call175.v1.ref, main_call175.v2.ref, main_call175.v3.ref, main_call175.v4.ref, main_call175.v5.ref, main_call176.v0.ref, main_call176.v1.ref, main_call176.v2.ref, main_call176.v3.ref, main_call176.v4.ref, main_call176.v5.ref, main_call177.v0.ref, main_call177.v1.ref, main_call177.v2.ref, main_call177.v3.ref, main_call177.v4.ref, main_call177.v5.ref, main_call178.v0.ref, main_call178.v1.ref, main_call178.v2.ref, main_call178.v3.ref, main_call178.v4.ref, main_call178.v5.ref, main_call179.v0.ref, main_call179.v1.ref, main_call179.v2.ref, main_call179.v3.ref, main_call179.v4.ref, main_call179.v5.ref]

/-- @main's statements 307 … 320. -/
abbrev g7_hi : List (HloOp τ sig (Elt F)) :=
  kronOps_kron_6 (.of main_v246 : TRef sig ⟨S64x64, .f32⟩) (.of main_v235 : TRef sig ⟨S2x2, .f32⟩) main_call180
    ++ kronOps_kron_6 (.of main_v247 : TRef sig ⟨S64x64, .f32⟩) (.of main_v235 : TRef sig ⟨S2x2, .f32⟩) main_call181
    ++ kronOps_kron_18 (.of main_v248 : TRef sig ⟨S128x128, .f32⟩) (.of main_cst_28 : TRef sig ⟨S2x2, .f32⟩) main_call182
    ++ kronOps_kron_18 (.of main_v249 : TRef sig ⟨S128x128, .f32⟩) (.of main_cst_29 : TRef sig ⟨S2x2, .f32⟩) main_call183
    ++ kronOps_kron_8 (.of main_v250 : TRef sig ⟨S256x256, .f32⟩) (.of main_v235 : TRef sig ⟨S2x2, .f32⟩) main_call184
    ++ kronOps_kron_19 (.of main_v251 : TRef sig ⟨S256x256, .f32⟩) (.of main_cst : TRef sig ⟨S2x2, .f32⟩) main_call185
    ++ kronOps_kron_9 (.of main_v252 : TRef sig ⟨S512x512, .f32⟩) (.of main_v235 : TRef sig ⟨S2x2, .f32⟩) main_call186
    ++ kronOps_kron_9 (.of main_v253 : TRef sig ⟨S512x512, .f32⟩) (.of main_v235 : TRef sig ⟨S2x2, .f32⟩) main_call187
    ++ kronOps_kron_10 (.of main_v254 : TRef sig ⟨S1024x1024, .f32⟩) (.of main_v235 : TRef sig ⟨S2x2, .f32⟩) main_call188
    ++ kronOps_kron_10 (.of main_v255 : TRef sig ⟨S1024x1024, .f32⟩) (.of main_v235 : TRef sig ⟨S2x2, .f32⟩) main_call189
    ++ kronOps_kron_11 (.of main_v256 : TRef sig ⟨S2048x2048, .f32⟩) (.of main_v235 : TRef sig ⟨S2x2, .f32⟩) main_call190
    ++ kronOps_kron_11 (.of main_v257 : TRef sig ⟨S2048x2048, .f32⟩) (.of main_v235 : TRef sig ⟨S2x2, .f32⟩) main_call191
    ++ [ StableHlo.binary main_v258 main_v259 main_v260 (addf : (⟨S4096x4096, .f32⟩ : BufTy).Contents (Elt F) → (⟨S4096x4096, .f32⟩ : BufTy).Contents (Elt F) → (⟨S4096x4096, .f32⟩ : BufTy).Contents (Elt F)),
      StableHlo.binary main_v260 main_v229 main_v261 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g7_hi` writes. -/
abbrev g7_hi_W : List (Ref sig .tc) := [main_call180.v0.ref, main_call180.v1.ref, main_call180.v2.ref, main_call180.v3.ref, main_call180.v4.ref, main_call180.v5.ref, main_call181.v0.ref, main_call181.v1.ref, main_call181.v2.ref, main_call181.v3.ref, main_call181.v4.ref, main_call181.v5.ref, main_call182.v0.ref, main_call182.v1.ref, main_call182.v2.ref, main_call182.v3.ref, main_call182.v4.ref, main_call182.v5.ref, main_call183.v0.ref, main_call183.v1.ref, main_call183.v2.ref, main_call183.v3.ref, main_call183.v4.ref, main_call183.v5.ref, main_call184.v0.ref, main_call184.v1.ref, main_call184.v2.ref, main_call184.v3.ref, main_call184.v4.ref, main_call184.v5.ref, main_call185.v0.ref, main_call185.v1.ref, main_call185.v2.ref, main_call185.v3.ref, main_call185.v4.ref, main_call185.v5.ref, main_call186.v0.ref, main_call186.v1.ref, main_call186.v2.ref, main_call186.v3.ref, main_call186.v4.ref, main_call186.v5.ref, main_call187.v0.ref, main_call187.v1.ref, main_call187.v2.ref, main_call187.v3.ref, main_call187.v4.ref, main_call187.v5.ref, main_call188.v0.ref, main_call188.v1.ref, main_call188.v2.ref, main_call188.v3.ref, main_call188.v4.ref, main_call188.v5.ref, main_call189.v0.ref, main_call189.v1.ref, main_call189.v2.ref, main_call189.v3.ref, main_call189.v4.ref, main_call189.v5.ref, main_call190.v0.ref, main_call190.v1.ref, main_call190.v2.ref, main_call190.v3.ref, main_call190.v4.ref, main_call190.v5.ref, main_call191.v0.ref, main_call191.v1.ref, main_call191.v2.ref, main_call191.v3.ref, main_call191.v4.ref, main_call191.v5.ref, main_v260, main_v261]

/-- @main's statements 321 … 327. -/
abbrev g8_eye : List (HloOp τ sig (Elt F)) :=
  [ StableHlo.nullary main_v262 (iotaInDim S2x2 32 0),
      StableHlo.nullary main_v263 (iotaInDim S2x2 32 1),
      StableHlo.nullary main_c_56 (constantI S_ 32 0#32),
      StableHlo.unary main_c_56 main_v264 (broadcastInDim S2x2 ![] bcast_S_S2x2 : (⟨S_, .i32⟩ : BufTy).Contents (Elt F) → (⟨S2x2, .i32⟩ : BufTy).Contents (Elt F)),
      StableHlo.binary main_v262 main_v264 main_v265 (addi : (⟨S2x2, .i32⟩ : BufTy).Contents (Elt F) → (⟨S2x2, .i32⟩ : BufTy).Contents (Elt F) → (⟨S2x2, .i32⟩ : BufTy).Contents (Elt F)),
      StableHlo.binary main_v265 main_v263 main_v266 (cmpi .eq : (⟨S2x2, .i32⟩ : BufTy).Contents (Elt F) → (⟨S2x2, .i32⟩ : BufTy).Contents (Elt F) → (⟨S2x2, .i1⟩ : BufTy).Contents (Elt F)),
      StableHlo.unary main_v266 main_v267 (uitofp .f32 : (⟨S2x2, .i1⟩ : BufTy).Contents (Elt F) → (⟨S2x2, .f32⟩ : BufTy).Contents (Elt F)) ]

/-- The buffers stage `g8_eye` writes. -/
abbrev g8_eye_W : List (Ref sig .tc) := [main_v262, main_v263, main_c_56, main_v264, main_v265, main_v266, main_v267]

/-- @main's statements 328 … 339. -/
abbrev g8_lo : List (HloOp τ sig (Elt F)) :=
  kronOps_kron_12 (.of main_cst_34 : TRef sig ⟨S1x1, .f32⟩) (.of main_v267 : TRef sig ⟨S2x2, .f32⟩) main_call192
    ++ kronOps_kron_12 (.of main_cst_35 : TRef sig ⟨S1x1, .f32⟩) (.of main_v267 : TRef sig ⟨S2x2, .f32⟩) main_call193
    ++ kronOps_kron_0 (.of main_v268 : TRef sig ⟨S2x2, .f32⟩) (.of main_v267 : TRef sig ⟨S2x2, .f32⟩) main_call194
    ++ kronOps_kron_0 (.of main_v269 : TRef sig ⟨S2x2, .f32⟩) (.of main_v267 : TRef sig ⟨S2x2, .f32⟩) main_call195
    ++ kronOps_kron_2 (.of main_v270 : TRef sig ⟨S4x4, .f32⟩) (.of main_v267 : TRef sig ⟨S2x2, .f32⟩) main_call196
    ++ kronOps_kron_2 (.of main_v271 : TRef sig ⟨S4x4, .f32⟩) (.of main_v267 : TRef sig ⟨S2x2, .f32⟩) main_call197
    ++ kronOps_kron_3 (.of main_v272 : TRef sig ⟨S8x8, .f32⟩) (.of main_v267 : TRef sig ⟨S2x2, .f32⟩) main_call198
    ++ kronOps_kron_3 (.of main_v273 : TRef sig ⟨S8x8, .f32⟩) (.of main_v267 : TRef sig ⟨S2x2, .f32⟩) main_call199
    ++ kronOps_kron_4 (.of main_v274 : TRef sig ⟨S16x16, .f32⟩) (.of main_v267 : TRef sig ⟨S2x2, .f32⟩) main_call200
    ++ kronOps_kron_4 (.of main_v275 : TRef sig ⟨S16x16, .f32⟩) (.of main_v267 : TRef sig ⟨S2x2, .f32⟩) main_call201
    ++ kronOps_kron_5 (.of main_v276 : TRef sig ⟨S32x32, .f32⟩) (.of main_v267 : TRef sig ⟨S2x2, .f32⟩) main_call202
    ++ kronOps_kron_5 (.of main_v277 : TRef sig ⟨S32x32, .f32⟩) (.of main_v267 : TRef sig ⟨S2x2, .f32⟩) main_call203

/-- The buffers stage `g8_lo` writes. -/
abbrev g8_lo_W : List (Ref sig .tc) := [main_call192.v0.ref, main_call192.v1.ref, main_call192.v2.ref, main_call192.v3.ref, main_call192.v4.ref, main_call193.v0.ref, main_call193.v1.ref, main_call193.v2.ref, main_call193.v3.ref, main_call193.v4.ref, main_call194.v0.ref, main_call194.v1.ref, main_call194.v2.ref, main_call194.v3.ref, main_call194.v4.ref, main_call194.v5.ref, main_call195.v0.ref, main_call195.v1.ref, main_call195.v2.ref, main_call195.v3.ref, main_call195.v4.ref, main_call195.v5.ref, main_call196.v0.ref, main_call196.v1.ref, main_call196.v2.ref, main_call196.v3.ref, main_call196.v4.ref, main_call196.v5.ref, main_call197.v0.ref, main_call197.v1.ref, main_call197.v2.ref, main_call197.v3.ref, main_call197.v4.ref, main_call197.v5.ref, main_call198.v0.ref, main_call198.v1.ref, main_call198.v2.ref, main_call198.v3.ref, main_call198.v4.ref, main_call198.v5.ref, main_call199.v0.ref, main_call199.v1.ref, main_call199.v2.ref, main_call199.v3.ref, main_call199.v4.ref, main_call199.v5.ref, main_call200.v0.ref, main_call200.v1.ref, main_call200.v2.ref, main_call200.v3.ref, main_call200.v4.ref, main_call200.v5.ref, main_call201.v0.ref, main_call201.v1.ref, main_call201.v2.ref, main_call201.v3.ref, main_call201.v4.ref, main_call201.v5.ref, main_call202.v0.ref, main_call202.v1.ref, main_call202.v2.ref, main_call202.v3.ref, main_call202.v4.ref, main_call202.v5.ref, main_call203.v0.ref, main_call203.v1.ref, main_call203.v2.ref, main_call203.v3.ref, main_call203.v4.ref, main_call203.v5.ref]

/-- @main's statements 340 … 353. -/
abbrev g8_hi : List (HloOp τ sig (Elt F)) :=
  kronOps_kron_6 (.of main_v278 : TRef sig ⟨S64x64, .f32⟩) (.of main_v267 : TRef sig ⟨S2x2, .f32⟩) main_call204
    ++ kronOps_kron_6 (.of main_v279 : TRef sig ⟨S64x64, .f32⟩) (.of main_v267 : TRef sig ⟨S2x2, .f32⟩) main_call205
    ++ kronOps_kron_7 (.of main_v280 : TRef sig ⟨S128x128, .f32⟩) (.of main_v267 : TRef sig ⟨S2x2, .f32⟩) main_call206
    ++ kronOps_kron_7 (.of main_v281 : TRef sig ⟨S128x128, .f32⟩) (.of main_v267 : TRef sig ⟨S2x2, .f32⟩) main_call207
    ++ kronOps_kron_19 (.of main_v282 : TRef sig ⟨S256x256, .f32⟩) (.of main_cst_32 : TRef sig ⟨S2x2, .f32⟩) main_call208
    ++ kronOps_kron_19 (.of main_v283 : TRef sig ⟨S256x256, .f32⟩) (.of main_cst_33 : TRef sig ⟨S2x2, .f32⟩) main_call209
    ++ kronOps_kron_9 (.of main_v284 : TRef sig ⟨S512x512, .f32⟩) (.of main_v267 : TRef sig ⟨S2x2, .f32⟩) main_call210
    ++ kronOps_kron_20 (.of main_v285 : TRef sig ⟨S512x512, .f32⟩) (.of main_cst : TRef sig ⟨S2x2, .f32⟩) main_call211
    ++ kronOps_kron_10 (.of main_v286 : TRef sig ⟨S1024x1024, .f32⟩) (.of main_v267 : TRef sig ⟨S2x2, .f32⟩) main_call212
    ++ kronOps_kron_10 (.of main_v287 : TRef sig ⟨S1024x1024, .f32⟩) (.of main_v267 : TRef sig ⟨S2x2, .f32⟩) main_call213
    ++ kronOps_kron_11 (.of main_v288 : TRef sig ⟨S2048x2048, .f32⟩) (.of main_v267 : TRef sig ⟨S2x2, .f32⟩) main_call214
    ++ kronOps_kron_11 (.of main_v289 : TRef sig ⟨S2048x2048, .f32⟩) (.of main_v267 : TRef sig ⟨S2x2, .f32⟩) main_call215
    ++ [ StableHlo.binary main_v290 main_v291 main_v292 (addf : (⟨S4096x4096, .f32⟩ : BufTy).Contents (Elt F) → (⟨S4096x4096, .f32⟩ : BufTy).Contents (Elt F) → (⟨S4096x4096, .f32⟩ : BufTy).Contents (Elt F)),
      StableHlo.binary main_v292 main_v261 main_v293 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g8_hi` writes. -/
abbrev g8_hi_W : List (Ref sig .tc) := [main_call204.v0.ref, main_call204.v1.ref, main_call204.v2.ref, main_call204.v3.ref, main_call204.v4.ref, main_call204.v5.ref, main_call205.v0.ref, main_call205.v1.ref, main_call205.v2.ref, main_call205.v3.ref, main_call205.v4.ref, main_call205.v5.ref, main_call206.v0.ref, main_call206.v1.ref, main_call206.v2.ref, main_call206.v3.ref, main_call206.v4.ref, main_call206.v5.ref, main_call207.v0.ref, main_call207.v1.ref, main_call207.v2.ref, main_call207.v3.ref, main_call207.v4.ref, main_call207.v5.ref, main_call208.v0.ref, main_call208.v1.ref, main_call208.v2.ref, main_call208.v3.ref, main_call208.v4.ref, main_call208.v5.ref, main_call209.v0.ref, main_call209.v1.ref, main_call209.v2.ref, main_call209.v3.ref, main_call209.v4.ref, main_call209.v5.ref, main_call210.v0.ref, main_call210.v1.ref, main_call210.v2.ref, main_call210.v3.ref, main_call210.v4.ref, main_call210.v5.ref, main_call211.v0.ref, main_call211.v1.ref, main_call211.v2.ref, main_call211.v3.ref, main_call211.v4.ref, main_call211.v5.ref, main_call212.v0.ref, main_call212.v1.ref, main_call212.v2.ref, main_call212.v3.ref, main_call212.v4.ref, main_call212.v5.ref, main_call213.v0.ref, main_call213.v1.ref, main_call213.v2.ref, main_call213.v3.ref, main_call213.v4.ref, main_call213.v5.ref, main_call214.v0.ref, main_call214.v1.ref, main_call214.v2.ref, main_call214.v3.ref, main_call214.v4.ref, main_call214.v5.ref, main_call215.v0.ref, main_call215.v1.ref, main_call215.v2.ref, main_call215.v3.ref, main_call215.v4.ref, main_call215.v5.ref, main_v292, main_v293]

/-- @main's statements 354 … 360. -/
abbrev g9_eye : List (HloOp τ sig (Elt F)) :=
  [ StableHlo.nullary main_v294 (iotaInDim S2x2 32 0),
      StableHlo.nullary main_v295 (iotaInDim S2x2 32 1),
      StableHlo.nullary main_c_57 (constantI S_ 32 0#32),
      StableHlo.unary main_c_57 main_v296 (broadcastInDim S2x2 ![] bcast_S_S2x2 : (⟨S_, .i32⟩ : BufTy).Contents (Elt F) → (⟨S2x2, .i32⟩ : BufTy).Contents (Elt F)),
      StableHlo.binary main_v294 main_v296 main_v297 (addi : (⟨S2x2, .i32⟩ : BufTy).Contents (Elt F) → (⟨S2x2, .i32⟩ : BufTy).Contents (Elt F) → (⟨S2x2, .i32⟩ : BufTy).Contents (Elt F)),
      StableHlo.binary main_v297 main_v295 main_v298 (cmpi .eq : (⟨S2x2, .i32⟩ : BufTy).Contents (Elt F) → (⟨S2x2, .i32⟩ : BufTy).Contents (Elt F) → (⟨S2x2, .i1⟩ : BufTy).Contents (Elt F)),
      StableHlo.unary main_v298 main_v299 (uitofp .f32 : (⟨S2x2, .i1⟩ : BufTy).Contents (Elt F) → (⟨S2x2, .f32⟩ : BufTy).Contents (Elt F)) ]

/-- The buffers stage `g9_eye` writes. -/
abbrev g9_eye_W : List (Ref sig .tc) := [main_v294, main_v295, main_c_57, main_v296, main_v297, main_v298, main_v299]

/-- @main's statements 361 … 372. -/
abbrev g9_lo : List (HloOp τ sig (Elt F)) :=
  kronOps_kron_12 (.of main_cst_38 : TRef sig ⟨S1x1, .f32⟩) (.of main_v299 : TRef sig ⟨S2x2, .f32⟩) main_call216
    ++ kronOps_kron_12 (.of main_cst_39 : TRef sig ⟨S1x1, .f32⟩) (.of main_v299 : TRef sig ⟨S2x2, .f32⟩) main_call217
    ++ kronOps_kron_0 (.of main_v300 : TRef sig ⟨S2x2, .f32⟩) (.of main_v299 : TRef sig ⟨S2x2, .f32⟩) main_call218
    ++ kronOps_kron_0 (.of main_v301 : TRef sig ⟨S2x2, .f32⟩) (.of main_v299 : TRef sig ⟨S2x2, .f32⟩) main_call219
    ++ kronOps_kron_2 (.of main_v302 : TRef sig ⟨S4x4, .f32⟩) (.of main_v299 : TRef sig ⟨S2x2, .f32⟩) main_call220
    ++ kronOps_kron_2 (.of main_v303 : TRef sig ⟨S4x4, .f32⟩) (.of main_v299 : TRef sig ⟨S2x2, .f32⟩) main_call221
    ++ kronOps_kron_3 (.of main_v304 : TRef sig ⟨S8x8, .f32⟩) (.of main_v299 : TRef sig ⟨S2x2, .f32⟩) main_call222
    ++ kronOps_kron_3 (.of main_v305 : TRef sig ⟨S8x8, .f32⟩) (.of main_v299 : TRef sig ⟨S2x2, .f32⟩) main_call223
    ++ kronOps_kron_4 (.of main_v306 : TRef sig ⟨S16x16, .f32⟩) (.of main_v299 : TRef sig ⟨S2x2, .f32⟩) main_call224
    ++ kronOps_kron_4 (.of main_v307 : TRef sig ⟨S16x16, .f32⟩) (.of main_v299 : TRef sig ⟨S2x2, .f32⟩) main_call225
    ++ kronOps_kron_5 (.of main_v308 : TRef sig ⟨S32x32, .f32⟩) (.of main_v299 : TRef sig ⟨S2x2, .f32⟩) main_call226
    ++ kronOps_kron_5 (.of main_v309 : TRef sig ⟨S32x32, .f32⟩) (.of main_v299 : TRef sig ⟨S2x2, .f32⟩) main_call227

/-- The buffers stage `g9_lo` writes. -/
abbrev g9_lo_W : List (Ref sig .tc) := [main_call216.v0.ref, main_call216.v1.ref, main_call216.v2.ref, main_call216.v3.ref, main_call216.v4.ref, main_call217.v0.ref, main_call217.v1.ref, main_call217.v2.ref, main_call217.v3.ref, main_call217.v4.ref, main_call218.v0.ref, main_call218.v1.ref, main_call218.v2.ref, main_call218.v3.ref, main_call218.v4.ref, main_call218.v5.ref, main_call219.v0.ref, main_call219.v1.ref, main_call219.v2.ref, main_call219.v3.ref, main_call219.v4.ref, main_call219.v5.ref, main_call220.v0.ref, main_call220.v1.ref, main_call220.v2.ref, main_call220.v3.ref, main_call220.v4.ref, main_call220.v5.ref, main_call221.v0.ref, main_call221.v1.ref, main_call221.v2.ref, main_call221.v3.ref, main_call221.v4.ref, main_call221.v5.ref, main_call222.v0.ref, main_call222.v1.ref, main_call222.v2.ref, main_call222.v3.ref, main_call222.v4.ref, main_call222.v5.ref, main_call223.v0.ref, main_call223.v1.ref, main_call223.v2.ref, main_call223.v3.ref, main_call223.v4.ref, main_call223.v5.ref, main_call224.v0.ref, main_call224.v1.ref, main_call224.v2.ref, main_call224.v3.ref, main_call224.v4.ref, main_call224.v5.ref, main_call225.v0.ref, main_call225.v1.ref, main_call225.v2.ref, main_call225.v3.ref, main_call225.v4.ref, main_call225.v5.ref, main_call226.v0.ref, main_call226.v1.ref, main_call226.v2.ref, main_call226.v3.ref, main_call226.v4.ref, main_call226.v5.ref, main_call227.v0.ref, main_call227.v1.ref, main_call227.v2.ref, main_call227.v3.ref, main_call227.v4.ref, main_call227.v5.ref]

/-- @main's statements 373 … 386. -/
abbrev g9_hi : List (HloOp τ sig (Elt F)) :=
  kronOps_kron_6 (.of main_v310 : TRef sig ⟨S64x64, .f32⟩) (.of main_v299 : TRef sig ⟨S2x2, .f32⟩) main_call228
    ++ kronOps_kron_6 (.of main_v311 : TRef sig ⟨S64x64, .f32⟩) (.of main_v299 : TRef sig ⟨S2x2, .f32⟩) main_call229
    ++ kronOps_kron_7 (.of main_v312 : TRef sig ⟨S128x128, .f32⟩) (.of main_v299 : TRef sig ⟨S2x2, .f32⟩) main_call230
    ++ kronOps_kron_7 (.of main_v313 : TRef sig ⟨S128x128, .f32⟩) (.of main_v299 : TRef sig ⟨S2x2, .f32⟩) main_call231
    ++ kronOps_kron_8 (.of main_v314 : TRef sig ⟨S256x256, .f32⟩) (.of main_v299 : TRef sig ⟨S2x2, .f32⟩) main_call232
    ++ kronOps_kron_8 (.of main_v315 : TRef sig ⟨S256x256, .f32⟩) (.of main_v299 : TRef sig ⟨S2x2, .f32⟩) main_call233
    ++ kronOps_kron_20 (.of main_v316 : TRef sig ⟨S512x512, .f32⟩) (.of main_cst_36 : TRef sig ⟨S2x2, .f32⟩) main_call234
    ++ kronOps_kron_20 (.of main_v317 : TRef sig ⟨S512x512, .f32⟩) (.of main_cst_37 : TRef sig ⟨S2x2, .f32⟩) main_call235
    ++ kronOps_kron_10 (.of main_v318 : TRef sig ⟨S1024x1024, .f32⟩) (.of main_v299 : TRef sig ⟨S2x2, .f32⟩) main_call236
    ++ kronOps_kron_21 (.of main_v319 : TRef sig ⟨S1024x1024, .f32⟩) (.of main_cst : TRef sig ⟨S2x2, .f32⟩) main_call237
    ++ kronOps_kron_11 (.of main_v320 : TRef sig ⟨S2048x2048, .f32⟩) (.of main_v299 : TRef sig ⟨S2x2, .f32⟩) main_call238
    ++ kronOps_kron_11 (.of main_v321 : TRef sig ⟨S2048x2048, .f32⟩) (.of main_v299 : TRef sig ⟨S2x2, .f32⟩) main_call239
    ++ [ StableHlo.binary main_v322 main_v323 main_v324 (addf : (⟨S4096x4096, .f32⟩ : BufTy).Contents (Elt F) → (⟨S4096x4096, .f32⟩ : BufTy).Contents (Elt F) → (⟨S4096x4096, .f32⟩ : BufTy).Contents (Elt F)),
      StableHlo.binary main_v324 main_v293 main_v325 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g9_hi` writes. -/
abbrev g9_hi_W : List (Ref sig .tc) := [main_call228.v0.ref, main_call228.v1.ref, main_call228.v2.ref, main_call228.v3.ref, main_call228.v4.ref, main_call228.v5.ref, main_call229.v0.ref, main_call229.v1.ref, main_call229.v2.ref, main_call229.v3.ref, main_call229.v4.ref, main_call229.v5.ref, main_call230.v0.ref, main_call230.v1.ref, main_call230.v2.ref, main_call230.v3.ref, main_call230.v4.ref, main_call230.v5.ref, main_call231.v0.ref, main_call231.v1.ref, main_call231.v2.ref, main_call231.v3.ref, main_call231.v4.ref, main_call231.v5.ref, main_call232.v0.ref, main_call232.v1.ref, main_call232.v2.ref, main_call232.v3.ref, main_call232.v4.ref, main_call232.v5.ref, main_call233.v0.ref, main_call233.v1.ref, main_call233.v2.ref, main_call233.v3.ref, main_call233.v4.ref, main_call233.v5.ref, main_call234.v0.ref, main_call234.v1.ref, main_call234.v2.ref, main_call234.v3.ref, main_call234.v4.ref, main_call234.v5.ref, main_call235.v0.ref, main_call235.v1.ref, main_call235.v2.ref, main_call235.v3.ref, main_call235.v4.ref, main_call235.v5.ref, main_call236.v0.ref, main_call236.v1.ref, main_call236.v2.ref, main_call236.v3.ref, main_call236.v4.ref, main_call236.v5.ref, main_call237.v0.ref, main_call237.v1.ref, main_call237.v2.ref, main_call237.v3.ref, main_call237.v4.ref, main_call237.v5.ref, main_call238.v0.ref, main_call238.v1.ref, main_call238.v2.ref, main_call238.v3.ref, main_call238.v4.ref, main_call238.v5.ref, main_call239.v0.ref, main_call239.v1.ref, main_call239.v2.ref, main_call239.v3.ref, main_call239.v4.ref, main_call239.v5.ref, main_v324, main_v325]

/-- @main's statements 387 … 393. -/
abbrev g10_eye : List (HloOp τ sig (Elt F)) :=
  [ StableHlo.nullary main_v326 (iotaInDim S2x2 32 0),
      StableHlo.nullary main_v327 (iotaInDim S2x2 32 1),
      StableHlo.nullary main_c_58 (constantI S_ 32 0#32),
      StableHlo.unary main_c_58 main_v328 (broadcastInDim S2x2 ![] bcast_S_S2x2 : (⟨S_, .i32⟩ : BufTy).Contents (Elt F) → (⟨S2x2, .i32⟩ : BufTy).Contents (Elt F)),
      StableHlo.binary main_v326 main_v328 main_v329 (addi : (⟨S2x2, .i32⟩ : BufTy).Contents (Elt F) → (⟨S2x2, .i32⟩ : BufTy).Contents (Elt F) → (⟨S2x2, .i32⟩ : BufTy).Contents (Elt F)),
      StableHlo.binary main_v329 main_v327 main_v330 (cmpi .eq : (⟨S2x2, .i32⟩ : BufTy).Contents (Elt F) → (⟨S2x2, .i32⟩ : BufTy).Contents (Elt F) → (⟨S2x2, .i1⟩ : BufTy).Contents (Elt F)),
      StableHlo.unary main_v330 main_v331 (uitofp .f32 : (⟨S2x2, .i1⟩ : BufTy).Contents (Elt F) → (⟨S2x2, .f32⟩ : BufTy).Contents (Elt F)) ]

/-- The buffers stage `g10_eye` writes. -/
abbrev g10_eye_W : List (Ref sig .tc) := [main_v326, main_v327, main_c_58, main_v328, main_v329, main_v330, main_v331]

/-- @main's statements 394 … 405. -/
abbrev g10_lo : List (HloOp τ sig (Elt F)) :=
  kronOps_kron_12 (.of main_cst_42 : TRef sig ⟨S1x1, .f32⟩) (.of main_v331 : TRef sig ⟨S2x2, .f32⟩) main_call240
    ++ kronOps_kron_12 (.of main_cst_43 : TRef sig ⟨S1x1, .f32⟩) (.of main_v331 : TRef sig ⟨S2x2, .f32⟩) main_call241
    ++ kronOps_kron_0 (.of main_v332 : TRef sig ⟨S2x2, .f32⟩) (.of main_v331 : TRef sig ⟨S2x2, .f32⟩) main_call242
    ++ kronOps_kron_0 (.of main_v333 : TRef sig ⟨S2x2, .f32⟩) (.of main_v331 : TRef sig ⟨S2x2, .f32⟩) main_call243
    ++ kronOps_kron_2 (.of main_v334 : TRef sig ⟨S4x4, .f32⟩) (.of main_v331 : TRef sig ⟨S2x2, .f32⟩) main_call244
    ++ kronOps_kron_2 (.of main_v335 : TRef sig ⟨S4x4, .f32⟩) (.of main_v331 : TRef sig ⟨S2x2, .f32⟩) main_call245
    ++ kronOps_kron_3 (.of main_v336 : TRef sig ⟨S8x8, .f32⟩) (.of main_v331 : TRef sig ⟨S2x2, .f32⟩) main_call246
    ++ kronOps_kron_3 (.of main_v337 : TRef sig ⟨S8x8, .f32⟩) (.of main_v331 : TRef sig ⟨S2x2, .f32⟩) main_call247
    ++ kronOps_kron_4 (.of main_v338 : TRef sig ⟨S16x16, .f32⟩) (.of main_v331 : TRef sig ⟨S2x2, .f32⟩) main_call248
    ++ kronOps_kron_4 (.of main_v339 : TRef sig ⟨S16x16, .f32⟩) (.of main_v331 : TRef sig ⟨S2x2, .f32⟩) main_call249
    ++ kronOps_kron_5 (.of main_v340 : TRef sig ⟨S32x32, .f32⟩) (.of main_v331 : TRef sig ⟨S2x2, .f32⟩) main_call250
    ++ kronOps_kron_5 (.of main_v341 : TRef sig ⟨S32x32, .f32⟩) (.of main_v331 : TRef sig ⟨S2x2, .f32⟩) main_call251

/-- The buffers stage `g10_lo` writes. -/
abbrev g10_lo_W : List (Ref sig .tc) := [main_call240.v0.ref, main_call240.v1.ref, main_call240.v2.ref, main_call240.v3.ref, main_call240.v4.ref, main_call241.v0.ref, main_call241.v1.ref, main_call241.v2.ref, main_call241.v3.ref, main_call241.v4.ref, main_call242.v0.ref, main_call242.v1.ref, main_call242.v2.ref, main_call242.v3.ref, main_call242.v4.ref, main_call242.v5.ref, main_call243.v0.ref, main_call243.v1.ref, main_call243.v2.ref, main_call243.v3.ref, main_call243.v4.ref, main_call243.v5.ref, main_call244.v0.ref, main_call244.v1.ref, main_call244.v2.ref, main_call244.v3.ref, main_call244.v4.ref, main_call244.v5.ref, main_call245.v0.ref, main_call245.v1.ref, main_call245.v2.ref, main_call245.v3.ref, main_call245.v4.ref, main_call245.v5.ref, main_call246.v0.ref, main_call246.v1.ref, main_call246.v2.ref, main_call246.v3.ref, main_call246.v4.ref, main_call246.v5.ref, main_call247.v0.ref, main_call247.v1.ref, main_call247.v2.ref, main_call247.v3.ref, main_call247.v4.ref, main_call247.v5.ref, main_call248.v0.ref, main_call248.v1.ref, main_call248.v2.ref, main_call248.v3.ref, main_call248.v4.ref, main_call248.v5.ref, main_call249.v0.ref, main_call249.v1.ref, main_call249.v2.ref, main_call249.v3.ref, main_call249.v4.ref, main_call249.v5.ref, main_call250.v0.ref, main_call250.v1.ref, main_call250.v2.ref, main_call250.v3.ref, main_call250.v4.ref, main_call250.v5.ref, main_call251.v0.ref, main_call251.v1.ref, main_call251.v2.ref, main_call251.v3.ref, main_call251.v4.ref, main_call251.v5.ref]

/-- @main's statements 406 … 419. -/
abbrev g10_hi : List (HloOp τ sig (Elt F)) :=
  kronOps_kron_6 (.of main_v342 : TRef sig ⟨S64x64, .f32⟩) (.of main_v331 : TRef sig ⟨S2x2, .f32⟩) main_call252
    ++ kronOps_kron_6 (.of main_v343 : TRef sig ⟨S64x64, .f32⟩) (.of main_v331 : TRef sig ⟨S2x2, .f32⟩) main_call253
    ++ kronOps_kron_7 (.of main_v344 : TRef sig ⟨S128x128, .f32⟩) (.of main_v331 : TRef sig ⟨S2x2, .f32⟩) main_call254
    ++ kronOps_kron_7 (.of main_v345 : TRef sig ⟨S128x128, .f32⟩) (.of main_v331 : TRef sig ⟨S2x2, .f32⟩) main_call255
    ++ kronOps_kron_8 (.of main_v346 : TRef sig ⟨S256x256, .f32⟩) (.of main_v331 : TRef sig ⟨S2x2, .f32⟩) main_call256
    ++ kronOps_kron_8 (.of main_v347 : TRef sig ⟨S256x256, .f32⟩) (.of main_v331 : TRef sig ⟨S2x2, .f32⟩) main_call257
    ++ kronOps_kron_9 (.of main_v348 : TRef sig ⟨S512x512, .f32⟩) (.of main_v331 : TRef sig ⟨S2x2, .f32⟩) main_call258
    ++ kronOps_kron_9 (.of main_v349 : TRef sig ⟨S512x512, .f32⟩) (.of main_v331 : TRef sig ⟨S2x2, .f32⟩) main_call259
    ++ kronOps_kron_21 (.of main_v350 : TRef sig ⟨S1024x1024, .f32⟩) (.of main_cst_40 : TRef sig ⟨S2x2, .f32⟩) main_call260
    ++ kronOps_kron_21 (.of main_v351 : TRef sig ⟨S1024x1024, .f32⟩) (.of main_cst_41 : TRef sig ⟨S2x2, .f32⟩) main_call261
    ++ kronOps_kron_11 (.of main_v352 : TRef sig ⟨S2048x2048, .f32⟩) (.of main_v331 : TRef sig ⟨S2x2, .f32⟩) main_call262
    ++ kronOps_kron_22 (.of main_v353 : TRef sig ⟨S2048x2048, .f32⟩) (.of main_cst : TRef sig ⟨S2x2, .f32⟩) main_call263
    ++ [ StableHlo.binary main_v354 main_v355 main_v356 (addf : (⟨S4096x4096, .f32⟩ : BufTy).Contents (Elt F) → (⟨S4096x4096, .f32⟩ : BufTy).Contents (Elt F) → (⟨S4096x4096, .f32⟩ : BufTy).Contents (Elt F)),
      StableHlo.binary main_v356 main_v325 main_v357 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g10_hi` writes. -/
abbrev g10_hi_W : List (Ref sig .tc) := [main_call252.v0.ref, main_call252.v1.ref, main_call252.v2.ref, main_call252.v3.ref, main_call252.v4.ref, main_call252.v5.ref, main_call253.v0.ref, main_call253.v1.ref, main_call253.v2.ref, main_call253.v3.ref, main_call253.v4.ref, main_call253.v5.ref, main_call254.v0.ref, main_call254.v1.ref, main_call254.v2.ref, main_call254.v3.ref, main_call254.v4.ref, main_call254.v5.ref, main_call255.v0.ref, main_call255.v1.ref, main_call255.v2.ref, main_call255.v3.ref, main_call255.v4.ref, main_call255.v5.ref, main_call256.v0.ref, main_call256.v1.ref, main_call256.v2.ref, main_call256.v3.ref, main_call256.v4.ref, main_call256.v5.ref, main_call257.v0.ref, main_call257.v1.ref, main_call257.v2.ref, main_call257.v3.ref, main_call257.v4.ref, main_call257.v5.ref, main_call258.v0.ref, main_call258.v1.ref, main_call258.v2.ref, main_call258.v3.ref, main_call258.v4.ref, main_call258.v5.ref, main_call259.v0.ref, main_call259.v1.ref, main_call259.v2.ref, main_call259.v3.ref, main_call259.v4.ref, main_call259.v5.ref, main_call260.v0.ref, main_call260.v1.ref, main_call260.v2.ref, main_call260.v3.ref, main_call260.v4.ref, main_call260.v5.ref, main_call261.v0.ref, main_call261.v1.ref, main_call261.v2.ref, main_call261.v3.ref, main_call261.v4.ref, main_call261.v5.ref, main_call262.v0.ref, main_call262.v1.ref, main_call262.v2.ref, main_call262.v3.ref, main_call262.v4.ref, main_call262.v5.ref, main_call263.v0.ref, main_call263.v1.ref, main_call263.v2.ref, main_call263.v3.ref, main_call263.v4.ref, main_call263.v5.ref, main_v356, main_v357]

/-- @main's statements 420 … 420. -/
abbrev g11_eye_a : List (HloOp τ sig (Elt F)) :=
  [ StableHlo.nullary main_v358 (iotaInDim S2x2 32 0) ]

/-- @main's statements 421 … 426. -/
abbrev g11_eye_b : List (HloOp τ sig (Elt F)) :=
  [ StableHlo.nullary main_v359 (iotaInDim S2x2 32 1),
      StableHlo.nullary main_c_59 (constantI S_ 32 0#32),
      StableHlo.unary main_c_59 main_v360 (broadcastInDim S2x2 ![] bcast_S_S2x2 : (⟨S_, .i32⟩ : BufTy).Contents (Elt F) → (⟨S2x2, .i32⟩ : BufTy).Contents (Elt F)),
      StableHlo.binary main_v358 main_v360 main_v361 (addi : (⟨S2x2, .i32⟩ : BufTy).Contents (Elt F) → (⟨S2x2, .i32⟩ : BufTy).Contents (Elt F) → (⟨S2x2, .i32⟩ : BufTy).Contents (Elt F)),
      StableHlo.binary main_v361 main_v359 main_v362 (cmpi .eq : (⟨S2x2, .i32⟩ : BufTy).Contents (Elt F) → (⟨S2x2, .i32⟩ : BufTy).Contents (Elt F) → (⟨S2x2, .i1⟩ : BufTy).Contents (Elt F)),
      StableHlo.unary main_v362 main_v363 (uitofp .f32 : (⟨S2x2, .i1⟩ : BufTy).Contents (Elt F) → (⟨S2x2, .f32⟩ : BufTy).Contents (Elt F)) ]

/-- @main's statements 420 … 426, one stage. -/
abbrev g11_eye : List (HloOp τ sig (Elt F)) := g11_eye_a ++ g11_eye_b

/-- The buffers stage `g11_eye` writes. -/
abbrev g11_eye_W : List (Ref sig .tc) := [main_v358, main_v359, main_c_59, main_v360, main_v361, main_v362, main_v363]

/-- @main's statements 427 … 438. -/
abbrev g11_lo : List (HloOp τ sig (Elt F)) :=
  kronOps_kron_12 (.of main_cst_46 : TRef sig ⟨S1x1, .f32⟩) (.of main_v363 : TRef sig ⟨S2x2, .f32⟩) main_call264
    ++ kronOps_kron (.of main_cst_47 : TRef sig ⟨S1x1, .f32⟩) (.of main_cst : TRef sig ⟨S2x2, .f32⟩) main_call265
    ++ kronOps_kron_0 (.of main_v364 : TRef sig ⟨S2x2, .f32⟩) (.of main_v363 : TRef sig ⟨S2x2, .f32⟩) main_call266
    ++ kronOps_kron_0 (.of main_v365 : TRef sig ⟨S2x2, .f32⟩) (.of main_v363 : TRef sig ⟨S2x2, .f32⟩) main_call267
    ++ kronOps_kron_2 (.of main_v366 : TRef sig ⟨S4x4, .f32⟩) (.of main_v363 : TRef sig ⟨S2x2, .f32⟩) main_call268
    ++ kronOps_kron_2 (.of main_v367 : TRef sig ⟨S4x4, .f32⟩) (.of main_v363 : TRef sig ⟨S2x2, .f32⟩) main_call269
    ++ kronOps_kron_3 (.of main_v368 : TRef sig ⟨S8x8, .f32⟩) (.of main_v363 : TRef sig ⟨S2x2, .f32⟩) main_call270
    ++ kronOps_kron_3 (.of main_v369 : TRef sig ⟨S8x8, .f32⟩) (.of main_v363 : TRef sig ⟨S2x2, .f32⟩) main_call271
    ++ kronOps_kron_4 (.of main_v370 : TRef sig ⟨S16x16, .f32⟩) (.of main_v363 : TRef sig ⟨S2x2, .f32⟩) main_call272
    ++ kronOps_kron_4 (.of main_v371 : TRef sig ⟨S16x16, .f32⟩) (.of main_v363 : TRef sig ⟨S2x2, .f32⟩) main_call273
    ++ kronOps_kron_5 (.of main_v372 : TRef sig ⟨S32x32, .f32⟩) (.of main_v363 : TRef sig ⟨S2x2, .f32⟩) main_call274
    ++ kronOps_kron_5 (.of main_v373 : TRef sig ⟨S32x32, .f32⟩) (.of main_v363 : TRef sig ⟨S2x2, .f32⟩) main_call275

/-- The buffers stage `g11_lo` writes. -/
abbrev g11_lo_W : List (Ref sig .tc) := [main_call264.v0.ref, main_call264.v1.ref, main_call264.v2.ref, main_call264.v3.ref, main_call264.v4.ref, main_call265.v0.ref, main_call265.v1.ref, main_call265.v2.ref, main_call265.v3.ref, main_call265.v4.ref, main_call266.v0.ref, main_call266.v1.ref, main_call266.v2.ref, main_call266.v3.ref, main_call266.v4.ref, main_call266.v5.ref, main_call267.v0.ref, main_call267.v1.ref, main_call267.v2.ref, main_call267.v3.ref, main_call267.v4.ref, main_call267.v5.ref, main_call268.v0.ref, main_call268.v1.ref, main_call268.v2.ref, main_call268.v3.ref, main_call268.v4.ref, main_call268.v5.ref, main_call269.v0.ref, main_call269.v1.ref, main_call269.v2.ref, main_call269.v3.ref, main_call269.v4.ref, main_call269.v5.ref, main_call270.v0.ref, main_call270.v1.ref, main_call270.v2.ref, main_call270.v3.ref, main_call270.v4.ref, main_call270.v5.ref, main_call271.v0.ref, main_call271.v1.ref, main_call271.v2.ref, main_call271.v3.ref, main_call271.v4.ref, main_call271.v5.ref, main_call272.v0.ref, main_call272.v1.ref, main_call272.v2.ref, main_call272.v3.ref, main_call272.v4.ref, main_call272.v5.ref, main_call273.v0.ref, main_call273.v1.ref, main_call273.v2.ref, main_call273.v3.ref, main_call273.v4.ref, main_call273.v5.ref, main_call274.v0.ref, main_call274.v1.ref, main_call274.v2.ref, main_call274.v3.ref, main_call274.v4.ref, main_call274.v5.ref, main_call275.v0.ref, main_call275.v1.ref, main_call275.v2.ref, main_call275.v3.ref, main_call275.v4.ref, main_call275.v5.ref]

/-- @main's statements 439 … 452. -/
abbrev g11_hi : List (HloOp τ sig (Elt F)) :=
  kronOps_kron_6 (.of main_v374 : TRef sig ⟨S64x64, .f32⟩) (.of main_v363 : TRef sig ⟨S2x2, .f32⟩) main_call276
    ++ kronOps_kron_6 (.of main_v375 : TRef sig ⟨S64x64, .f32⟩) (.of main_v363 : TRef sig ⟨S2x2, .f32⟩) main_call277
    ++ kronOps_kron_7 (.of main_v376 : TRef sig ⟨S128x128, .f32⟩) (.of main_v363 : TRef sig ⟨S2x2, .f32⟩) main_call278
    ++ kronOps_kron_7 (.of main_v377 : TRef sig ⟨S128x128, .f32⟩) (.of main_v363 : TRef sig ⟨S2x2, .f32⟩) main_call279
    ++ kronOps_kron_8 (.of main_v378 : TRef sig ⟨S256x256, .f32⟩) (.of main_v363 : TRef sig ⟨S2x2, .f32⟩) main_call280
    ++ kronOps_kron_8 (.of main_v379 : TRef sig ⟨S256x256, .f32⟩) (.of main_v363 : TRef sig ⟨S2x2, .f32⟩) main_call281
    ++ kronOps_kron_9 (.of main_v380 : TRef sig ⟨S512x512, .f32⟩) (.of main_v363 : TRef sig ⟨S2x2, .f32⟩) main_call282
    ++ kronOps_kron_9 (.of main_v381 : TRef sig ⟨S512x512, .f32⟩) (.of main_v363 : TRef sig ⟨S2x2, .f32⟩) main_call283
    ++ kronOps_kron_10 (.of main_v382 : TRef sig ⟨S1024x1024, .f32⟩) (.of main_v363 : TRef sig ⟨S2x2, .f32⟩) main_call284
    ++ kronOps_kron_10 (.of main_v383 : TRef sig ⟨S1024x1024, .f32⟩) (.of main_v363 : TRef sig ⟨S2x2, .f32⟩) main_call285
    ++ kronOps_kron_22 (.of main_v384 : TRef sig ⟨S2048x2048, .f32⟩) (.of main_cst_44 : TRef sig ⟨S2x2, .f32⟩) main_call286
    ++ kronOps_kron_22 (.of main_v385 : TRef sig ⟨S2048x2048, .f32⟩) (.of main_cst_45 : TRef sig ⟨S2x2, .f32⟩) main_call287
    ++ [ StableHlo.binary main_v386 main_v387 main_v388 (addf : (⟨S4096x4096, .f32⟩ : BufTy).Contents (Elt F) → (⟨S4096x4096, .f32⟩ : BufTy).Contents (Elt F) → (⟨S4096x4096, .f32⟩ : BufTy).Contents (Elt F)),
      StableHlo.binary main_v388 main_v357 main_v389 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]

/-- The buffers stage `g11_hi` writes. -/
abbrev g11_hi_W : List (Ref sig .tc) := [main_call276.v0.ref, main_call276.v1.ref, main_call276.v2.ref, main_call276.v3.ref, main_call276.v4.ref, main_call276.v5.ref, main_call277.v0.ref, main_call277.v1.ref, main_call277.v2.ref, main_call277.v3.ref, main_call277.v4.ref, main_call277.v5.ref, main_call278.v0.ref, main_call278.v1.ref, main_call278.v2.ref, main_call278.v3.ref, main_call278.v4.ref, main_call278.v5.ref, main_call279.v0.ref, main_call279.v1.ref, main_call279.v2.ref, main_call279.v3.ref, main_call279.v4.ref, main_call279.v5.ref, main_call280.v0.ref, main_call280.v1.ref, main_call280.v2.ref, main_call280.v3.ref, main_call280.v4.ref, main_call280.v5.ref, main_call281.v0.ref, main_call281.v1.ref, main_call281.v2.ref, main_call281.v3.ref, main_call281.v4.ref, main_call281.v5.ref, main_call282.v0.ref, main_call282.v1.ref, main_call282.v2.ref, main_call282.v3.ref, main_call282.v4.ref, main_call282.v5.ref, main_call283.v0.ref, main_call283.v1.ref, main_call283.v2.ref, main_call283.v3.ref, main_call283.v4.ref, main_call283.v5.ref, main_call284.v0.ref, main_call284.v1.ref, main_call284.v2.ref, main_call284.v3.ref, main_call284.v4.ref, main_call284.v5.ref, main_call285.v0.ref, main_call285.v1.ref, main_call285.v2.ref, main_call285.v3.ref, main_call285.v4.ref, main_call285.v5.ref, main_call286.v0.ref, main_call286.v1.ref, main_call286.v2.ref, main_call286.v3.ref, main_call286.v4.ref, main_call286.v5.ref, main_call287.v0.ref, main_call287.v1.ref, main_call287.v2.ref, main_call287.v3.ref, main_call287.v4.ref, main_call287.v5.ref, main_v388, main_v389]

/-- @main's statements 453 … 453. -/
abbrev fin : List (HloOp τ sig (Elt F)) :=
  [ StableHlo.binary main_v389 main_arg0 main_v390 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)) ]

/-- The buffers stage `fin` writes. -/
abbrev fin_W : List (Ref sig .tc) := [main_v390]

/-- The printed window `main_part0` as pieces. -/
abbrev win0 : List (HloOp τ sig (Elt F)) := pre ++ g0_eye_a

/-- The printed window `main_part1` as pieces. -/
abbrev win1 : List (HloOp τ sig (Elt F)) := g0_eye_b ++ g0_lo ++ g0_hi ++ g1_eye ++ g1_lo ++ g1_hi_a

/-- The printed window `main_part2` as pieces. -/
abbrev win2 : List (HloOp τ sig (Elt F)) := g1_hi_b ++ g2_eye ++ g2_lo ++ g2_hi ++ g3_eye ++ g3_lo ++ g3_hi_a

/-- The printed window `main_part3` as pieces. -/
abbrev win3 : List (HloOp τ sig (Elt F)) := g3_hi_b ++ g4_eye ++ g4_lo ++ g4_hi ++ g5_eye ++ g5_lo

/-- The printed window `main_part4` as pieces. -/
abbrev win4 : List (HloOp τ sig (Elt F)) := g5_hi ++ g6_eye ++ g6_lo ++ g6_hi ++ g7_eye ++ g7_lo_a

/-- The printed window `main_part5` as pieces. -/
abbrev win5 : List (HloOp τ sig (Elt F)) := g7_lo_b ++ g7_hi ++ g8_eye ++ g8_lo ++ g8_hi ++ g9_eye

/-- The printed window `main_part6` as pieces. -/
abbrev win6 : List (HloOp τ sig (Elt F)) := g9_lo ++ g9_hi ++ g10_eye ++ g10_lo ++ g10_hi ++ g11_eye_a

/-- The printed window `main_part7` as pieces. -/
abbrev win7 : List (HloOp τ sig (Elt F)) := g11_eye_b ++ g11_lo ++ g11_hi ++ fin

/-- @main's operations, stage by stage. -/
abbrev ops : List (HloOp τ sig (Elt F)) := pre ++ g0_eye ++ g0_lo ++ g0_hi ++ g1_eye ++ g1_lo ++ g1_hi ++ g2_eye ++ g2_lo ++ g2_hi ++ g3_eye ++ g3_lo ++ g3_hi ++ g4_eye ++ g4_lo ++ g4_hi ++ g5_eye ++ g5_lo ++ g5_hi ++ g6_eye ++ g6_lo ++ g6_hi ++ g7_eye ++ g7_lo ++ g7_hi ++ g8_eye ++ g8_lo ++ g8_hi ++ g9_eye ++ g9_lo ++ g9_hi ++ g10_eye ++ g10_lo ++ g10_hi ++ g11_eye ++ g11_lo ++ g11_hi ++ fin

end Cert.ReferenceIdeal.Ops

end
-- ==== Proof.RefRunA.lean ====
/-
  The printed windows 0–3 of the reference's @main are their lists of operations run in order: the outlined Kronecker
  functions unfolded at their calls, both sides are one chain of single operations once sequencing is reassociated.
-/
import proofs.«402948_j20624432956334_3_alg».proof.Proof.RefOps

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- Running a list is running its head, then its tail. -/
theorem seq_consA (op : HloOp τ sig (Elt F)) (l : List (HloOp τ sig (Elt F))) :
    (seq (op :: l) : Prog (TpuEff nD τ sig (Elt F) (Pipeline.Sig Λ₀ (Fin 0) fun p => (pcfgs (F := F) p).Adm) .tc) PUnit)
      = (hlo rfl op fun _ => .ret (⟨⟩ : PUnit)) >>= fun _ => seq l := rfl
theorem seq_nilA : (seq ([] : List (HloOp τ sig (Elt F))) :
    Prog (TpuEff nD τ sig (Elt F) (Pipeline.Sig Λ₀ (Fin 0) fun p => (pcfgs (F := F) p).Adm) .tc) PUnit) = pure ⟨⟩ := rfl

/-- Unfold the window, its pieces and every outlined function on both sides; reassociate; what is left, if anything, differs
    only in the proofs of the operations' side conditions. -/
macro "win_eq" : tactic =>
  `(tactic| (simp only [main_part0, main_part1, main_part2, main_part3, main_part4, main_part5, main_part6, main_part7,
      win0, win1, win2, win3, win4, win5, win6, win7, pre, g0_eye_a, g0_eye_b, g0_lo, g0_hi, g1_eye, g1_lo, g1_hi_a, g1_hi_b, g2_eye, g2_lo, g2_hi, g3_eye, g3_lo, g3_hi_a, g3_hi_b, g4_eye, g4_lo, g4_hi, g5_eye, g5_lo, g5_hi, g6_eye, g6_lo, g6_hi, g7_eye, g7_lo_a, g7_lo_b, g7_hi, g8_eye, g8_lo, g8_hi, g9_eye, g9_lo, g9_hi, g10_eye, g10_lo, g10_hi, g11_eye_a, g11_eye_b, g11_lo, g11_hi, fin,
      List.append_assoc, List.cons_append, List.nil_append, seq_append, seq_consA, seq_nilA,
      fn_kron.body, fn_kron_0.body, fn_kron_1.body, fn_kron_2.body, fn_kron_3.body, fn_kron_4.body, fn_kron_5.body, fn_kron_6.body, fn_kron_7.body, fn_kron_8.body, fn_kron_9.body, fn_kron_10.body, fn_kron_11.body, fn_kron_12.body, fn_kron_13.body, fn_kron_14.body, fn_kron_15.body, fn_kron_16.body, fn_kron_17.body, fn_kron_18.body, fn_kron_19.body, fn_kron_20.body, fn_kron_21.body, fn_kron_22.body,
      kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22, bind_assoc, pure_bind]) <;> rfl)

set_option maxRecDepth 65536 in
set_option maxHeartbeats 16000000 in
theorem win0_eq (d : Dev nD) : main_part0 (F := F) d = seq win0 := by win_eq
set_option maxRecDepth 65536 in
set_option maxHeartbeats 16000000 in
theorem win1_eq (d : Dev nD) : main_part1 (F := F) d = seq win1 := by win_eq
set_option maxRecDepth 65536 in
set_option maxHeartbeats 16000000 in
theorem win2_eq (d : Dev nD) : main_part2 (F := F) d = seq win2 := by win_eq
set_option maxRecDepth 65536 in
set_option maxHeartbeats 16000000 in
theorem win3_eq (d : Dev nD) : main_part3 (F := F) d = seq win3 := by win_eq

end Cert.ReferenceIdeal.Run

end
-- ==== Proof.RefRunB.lean ====
/-
  The printed windows 4–7 of the reference's @main are their lists of operations run in order: the outlined Kronecker
  functions unfolded at their calls, both sides are one chain of single operations once sequencing is reassociated.
-/
import proofs.«402948_j20624432956334_3_alg».proof.Proof.RefOps

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- Running a list is running its head, then its tail. -/
theorem seq_consB (op : HloOp τ sig (Elt F)) (l : List (HloOp τ sig (Elt F))) :
    (seq (op :: l) : Prog (TpuEff nD τ sig (Elt F) (Pipeline.Sig Λ₀ (Fin 0) fun p => (pcfgs (F := F) p).Adm) .tc) PUnit)
      = (hlo rfl op fun _ => .ret (⟨⟩ : PUnit)) >>= fun _ => seq l := rfl
theorem seq_nilB : (seq ([] : List (HloOp τ sig (Elt F))) :
    Prog (TpuEff nD τ sig (Elt F) (Pipeline.Sig Λ₀ (Fin 0) fun p => (pcfgs (F := F) p).Adm) .tc) PUnit) = pure ⟨⟩ := rfl

/-- Unfold the window, its pieces and every outlined function on both sides; reassociate; what is left, if anything, differs
    only in the proofs of the operations' side conditions. -/
macro "win_eqB" : tactic =>
  `(tactic| (simp only [main_part0, main_part1, main_part2, main_part3, main_part4, main_part5, main_part6, main_part7,
      win0, win1, win2, win3, win4, win5, win6, win7, pre, g0_eye_a, g0_eye_b, g0_lo, g0_hi, g1_eye, g1_lo, g1_hi_a, g1_hi_b, g2_eye, g2_lo, g2_hi, g3_eye, g3_lo, g3_hi_a, g3_hi_b, g4_eye, g4_lo, g4_hi, g5_eye, g5_lo, g5_hi, g6_eye, g6_lo, g6_hi, g7_eye, g7_lo_a, g7_lo_b, g7_hi, g8_eye, g8_lo, g8_hi, g9_eye, g9_lo, g9_hi, g10_eye, g10_lo, g10_hi, g11_eye_a, g11_eye_b, g11_lo, g11_hi, fin,
      List.append_assoc, List.cons_append, List.nil_append, seq_append, seq_consB, seq_nilB,
      fn_kron.body, fn_kron_0.body, fn_kron_1.body, fn_kron_2.body, fn_kron_3.body, fn_kron_4.body, fn_kron_5.body, fn_kron_6.body, fn_kron_7.body, fn_kron_8.body, fn_kron_9.body, fn_kron_10.body, fn_kron_11.body, fn_kron_12.body, fn_kron_13.body, fn_kron_14.body, fn_kron_15.body, fn_kron_16.body, fn_kron_17.body, fn_kron_18.body, fn_kron_19.body, fn_kron_20.body, fn_kron_21.body, fn_kron_22.body,
      kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22, bind_assoc, pure_bind]) <;> rfl)

set_option maxRecDepth 65536 in
set_option maxHeartbeats 16000000 in
theorem win4_eq (d : Dev nD) : main_part4 (F := F) d = seq win4 := by win_eqB
set_option maxRecDepth 65536 in
set_option maxHeartbeats 16000000 in
theorem win5_eq (d : Dev nD) : main_part5 (F := F) d = seq win5 := by win_eqB
set_option maxRecDepth 65536 in
set_option maxHeartbeats 16000000 in
theorem win6_eq (d : Dev nD) : main_part6 (F := F) d = seq win6 := by win_eqB
set_option maxRecDepth 65536 in
set_option maxHeartbeats 16000000 in
theorem win7_eq (d : Dev nD) : main_part7 (F := F) d = seq win7 := by win_eqB

end Cert.ReferenceIdeal.Run

end
-- ==== Proof.RefRun.lean ====
/-
  The reference's run. @main of the reference is a straight line of host operations: 49 constants, the 4096×4096 identity,
  then twelve times (once per gate of the ring) the 2×2 identity, twenty-four Kronecker products in two chains of twelve,
  the sum of the two chains' ends and the product of that sum with the matrix built so far, and at the end the product of
  the matrix with the argument. The operations are listed in `RefOps` and each printed window is its list (the two modules
  imported here); the lists are joined, and the library's rule for a straight line gives: every weakly fair execution terminates with
  each buffer at the fold of the operations' results over the launch contents.
-/
import proofs.«402948_j20624432956334_3_alg».proof.Proof.RefRunA
import proofs.«402948_j20624432956334_3_alg».proof.Proof.RefRunB

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The stages in order are the windows in order: the same pieces, bracketed differently. -/
theorem ops_eq_wins : (ops : List (HloOp τ sig (Elt F))) = win0 ++ (win1 ++ (win2 ++ (win3 ++ (win4 ++ (win5 ++ (win6 ++ win7)))))) := by
  simp only [ops, win0, win1, win2, win3, win4, win5, win6, win7, g0_eye, g1_hi, g3_hi, g7_lo, g11_eye, List.append_assoc]

/-- @main is its operations run in order. -/
theorem main_eq (d : Dev nD) : main (F := F) d = seq ops := by
  rw [ops_eq_wins]
  simp only [seq_append, ← win0_eq d, ← win1_eq d, ← win2_eq d, ← win3_eq d, ← win4_eq d, ← win5_eq d, ← win6_eq d, ← win7_eq d]
  rfl

/-! ## The side conditions of the straight-line rule -/

/-- What the rule asks of an operation: it touches TensorCore buffers only and determines its result. -/
def Ok (op : HloOp τ sig (Elt F)) : Prop := op.bufs ⊆ tcRefs τ sig ∧ op.fresh = ∅

section
variable (x a b y : Ref sig .tc)
theorem ok_nullary (v : y.ty.Contents (Elt F)) (hy) : Ok (nullary (τ := τ) y v hy) := ⟨nullary_bufs_sub .., rfl⟩
theorem ok_unary (f : x.ty.Contents (Elt F) → y.ty.Contents (Elt F)) (hx hy) : Ok (unary (τ := τ) x y f hx hy) := ⟨unary_bufs_sub .., rfl⟩
theorem ok_binary (f : a.ty.Contents (Elt F) → b.ty.Contents (Elt F) → y.ty.Contents (Elt F)) (ha hb hy) :
    Ok (binary (τ := τ) a b y f ha hb hy) := ⟨binary_bufs_sub .., rfl⟩
theorem ok_reshape (he hn hx hy) : Ok (reshape (τ := τ) (Val := Elt F) x y he hn hx hy) := ⟨reshape_bufs_sub .., rfl⟩
end

/-- Every operation of a literal list is one of the four builders. -/
macro "all_ok" : tactic =>
  `(tactic| simp only [List.forall_mem_append, List.forall_mem_cons, List.not_mem_nil, false_imp_iff, implies_true,
      ok_nullary, ok_unary, ok_binary, ok_reshape, and_self])

set_option maxRecDepth 65536 in
set_option maxHeartbeats 16000000 in
theorem win0_ok : ∀ op ∈ (win0 : List (HloOp τ sig (Elt F))), Ok op := by all_ok
set_option maxRecDepth 65536 in
set_option maxHeartbeats 16000000 in
theorem win1_ok : ∀ op ∈ (win1 : List (HloOp τ sig (Elt F))), Ok op := by all_ok
set_option maxRecDepth 65536 in
set_option maxHeartbeats 16000000 in
theorem win2_ok : ∀ op ∈ (win2 : List (HloOp τ sig (Elt F))), Ok op := by all_ok
set_option maxRecDepth 65536 in
set_option maxHeartbeats 16000000 in
theorem win3_ok : ∀ op ∈ (win3 : List (HloOp τ sig (Elt F))), Ok op := by all_ok
set_option maxRecDepth 65536 in
set_option maxHeartbeats 16000000 in
theorem win4_ok : ∀ op ∈ (win4 : List (HloOp τ sig (Elt F))), Ok op := by all_ok
set_option maxRecDepth 65536 in
set_option maxHeartbeats 16000000 in
theorem win5_ok : ∀ op ∈ (win5 : List (HloOp τ sig (Elt F))), Ok op := by all_ok
set_option maxRecDepth 65536 in
set_option maxHeartbeats 16000000 in
theorem win6_ok : ∀ op ∈ (win6 : List (HloOp τ sig (Elt F))), Ok op := by all_ok
set_option maxRecDepth 65536 in
set_option maxHeartbeats 16000000 in
theorem win7_ok : ∀ op ∈ (win7 : List (HloOp τ sig (Elt F))), Ok op := by all_ok

theorem ops_ok : ∀ op ∈ (ops : List (HloOp τ sig (Elt F))), Ok op := by
  rw [ops_eq_wins]
  exact List.forall_mem_append.2 ⟨win0_ok, List.forall_mem_append.2 ⟨win1_ok, List.forall_mem_append.2 ⟨win2_ok,
    List.forall_mem_append.2 ⟨win3_ok, List.forall_mem_append.2 ⟨win4_ok, List.forall_mem_append.2 ⟨win5_ok,
    List.forall_mem_append.2 ⟨win6_ok, win7_ok⟩⟩⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

/-! ## The run -/

/-- @main's operations as one opaque list: the straight-line rule is applied to it without looking inside. -/
@[irreducible] def allOps : List (HloOp τ sig (Elt F)) := ops

theorem allOps_eq : (allOps : List (HloOp τ sig (Elt F))) = ops := by unfold allOps; rfl

theorem main_eq_all (d : Dev nD) : main (F := F) d = seq allOps := by rw [allOps_eq]; exact main_eq d

theorem allOps_ok : ∀ op ∈ (allOps : List (HloOp τ sig (Elt F))), Ok op := by rw [allOps_eq]; exact ops_ok

/-- From any memory with zero counters every weakly fair execution of @main terminates, and every TensorCore buffer ends at
    the fold of the operations' results over what the launch put there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after allOps (launchContents m c) (b : DevRef τ sig) :=
  run_seq scopedRefs_eq scopedSems_eq defs main (fun _ => allOps) main_eq_all
    (fun _ => List.forall_iff_forall_mem.2 fun op h => (allOps_ok op h).1) m ρ (fun _ op h => (allOps_ok op h).2)

end Cert.ReferenceIdeal.Run

end
-- ==== Proof.RefWrites.lean ====
/-
  Which buffers each stage of the reference writes, and so what it leaves alone. Every operation writes exactly its result
  buffer; a stage's operations write the buffers listed for it; hence a buffer outside the list has, after the stage, the
  contents it had before. The same for a gate (its three stages together), against the gate's own list and against the
  list of everything any gate or the last product writes.
-/
import proofs.«402948_j20624432956334_3_alg».proof.Proof.RefOps
import Idealize.ShloMosaic.Lib.Pipeline.Frame

noncomputable section

namespace Cert.ReferenceIdeal.Writes

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The operations of `l` write only buffers of the list `Wl`. -/
def WritesIn (Wl : List (Ref sig .tc)) (l : List (HloOp τ sig (Elt F))) : Prop :=
  ∀ op ∈ l, op.writes ⊆ (Wl.map (Proc.devRef (τ := τ) .tc)).toFinset

theorem WritesIn.append {Wl : List (Ref sig .tc)} {l₁ l₂ : List (HloOp τ sig (Elt F))} (h₁ : WritesIn Wl l₁) (h₂ : WritesIn Wl l₂) :
    WritesIn Wl (l₁ ++ l₂) := List.forall_mem_append.2 ⟨h₁, h₂⟩

theorem WritesIn.mono {Wl Wl' : List (Ref sig .tc)} {l : List (HloOp τ sig (Elt F))} (hW : Wl ⊆ Wl') (h : WritesIn Wl l) : WritesIn Wl' l :=
  fun op hop => (h op hop).trans fun _ hd => List.mem_toFinset.2 (List.map_subset _ hW (List.mem_toFinset.1 hd))

/-- A buffer outside the list keeps its contents through the operations. -/
theorem WritesIn.keep {Wl : List (Ref sig .tc)} {l : List (HloOp τ sig (Elt F))} (h : WritesIn Wl l) (V : Valuation τ sig (Elt F))
    {r : Ref sig .tc} (hr : r ∉ Wl) : after l V (Proc.devRef .tc r) = V (Proc.devRef .tc r) :=
  after_of_writes_sub l V (List.forall_iff_forall_mem.2 h) hr

/-- Each operation of a literal list is one of the four builders, which write their result buffer only; that buffer is in
    the list: membership through the injective `devRef`, decided buffer by buffer. -/
macro "writes_in" : tactic =>
  `(tactic| (unfold WritesIn
             simp only [List.forall_mem_append, List.forall_mem_cons, List.not_mem_nil, false_imp_iff, implies_true, and_true,
               nullary_writes, unary_writes, binary_writes, reshape_writes, Finset.singleton_subset_iff, List.mem_toFinset,
               List.mem_map_of_injective (Proc.devRef_injective _)]
             (repeat' apply And.intro) <;> decide))

/-! ## Stage by stage -/

set_option maxRecDepth 65536 in
set_option maxHeartbeats 4000000 in
theorem pre_writes : WritesIn pre_W (pre : List (HloOp τ sig (Elt F))) := by writes_in
set_option maxRecDepth 65536 in
set_option maxHeartbeats 4000000 in
theorem g0_eye_writes : WritesIn g0_eye_W (g0_eye : List (HloOp τ sig (Elt F))) := by writes_in
set_option maxRecDepth 65536 in
set_option maxHeartbeats 4000000 in
theorem g0_lo_writes : WritesIn g0_lo_W (g0_lo : List (HloOp τ sig (Elt F))) := by writes_in
set_option maxRecDepth 65536 in
set_option maxHeartbeats 4000000 in
theorem g0_hi_writes : WritesIn g0_hi_W (g0_hi : List (HloOp τ sig (Elt F))) := by writes_in
set_option maxRecDepth 65536 in
set_option maxHeartbeats 4000000 in
theorem g1_eye_writes : WritesIn g1_eye_W (g1_eye : List (HloOp τ sig (Elt F))) := by writes_in
set_option maxRecDepth 65536 in
set_option maxHeartbeats 4000000 in
theorem g1_lo_writes : WritesIn g1_lo_W (g1_lo : List (HloOp τ sig (Elt F))) := by writes_in
set_option maxRecDepth 65536 in
set_option maxHeartbeats 4000000 in
theorem g1_hi_writes : WritesIn g1_hi_W (g1_hi : List (HloOp τ sig (Elt F))) := by writes_in
set_option maxRecDepth 65536 in
set_option maxHeartbeats 4000000 in
theorem g2_eye_writes : WritesIn g2_eye_W (g2_eye : List (HloOp τ sig (Elt F))) := by writes_in
set_option maxRecDepth 65536 in
set_option maxHeartbeats 4000000 in
theorem g2_lo_writes : WritesIn g2_lo_W (g2_lo : List (HloOp τ sig (Elt F))) := by writes_in
set_option maxRecDepth 65536 in
set_option maxHeartbeats 4000000 in
theorem g2_hi_writes : WritesIn g2_hi_W (g2_hi : List (HloOp τ sig (Elt F))) := by writes_in
set_option maxRecDepth 65536 in
set_option maxHeartbeats 4000000 in
theorem g3_eye_writes : WritesIn g3_eye_W (g3_eye : List (HloOp τ sig (Elt F))) := by writes_in
set_option maxRecDepth 65536 in
set_option maxHeartbeats 4000000 in
theorem g3_lo_writes : WritesIn g3_lo_W (g3_lo : List (HloOp τ sig (Elt F))) := by writes_in
set_option maxRecDepth 65536 in
set_option maxHeartbeats 4000000 in
theorem g3_hi_writes : WritesIn g3_hi_W (g3_hi : List (HloOp τ sig (Elt F))) := by writes_in
set_option maxRecDepth 65536 in
set_option maxHeartbeats 4000000 in
theorem g4_eye_writes : WritesIn g4_eye_W (g4_eye : List (HloOp τ sig (Elt F))) := by writes_in
set_option maxRecDepth 65536 in
set_option maxHeartbeats 4000000 in
theorem g4_lo_writes : WritesIn g4_lo_W (g4_lo : List (HloOp τ sig (Elt F))) := by writes_in
set_option maxRecDepth 65536 in
set_option maxHeartbeats 4000000 in
theorem g4_hi_writes : WritesIn g4_hi_W (g4_hi : List (HloOp τ sig (Elt F))) := by writes_in
set_option maxRecDepth 65536 in
set_option maxHeartbeats 4000000 in
theorem g5_eye_writes : WritesIn g5_eye_W (g5_eye : List (HloOp τ sig (Elt F))) := by writes_in
set_option maxRecDepth 65536 in
set_option maxHeartbeats 4000000 in
theorem g5_lo_writes : WritesIn g5_lo_W (g5_lo : List (HloOp τ sig (Elt F))) := by writes_in
set_option maxRecDepth 65536 in
set_option maxHeartbeats 4000000 in
theorem g5_hi_writes : WritesIn g5_hi_W (g5_hi : List (HloOp τ sig (Elt F))) := by writes_in
set_option maxRecDepth 65536 in
set_option maxHeartbeats 4000000 in
theorem g6_eye_writes : WritesIn g6_eye_W (g6_eye : List (HloOp τ sig (Elt F))) := by writes_in
set_option maxRecDepth 65536 in
set_option maxHeartbeats 4000000 in
theorem g6_lo_writes : WritesIn g6_lo_W (g6_lo : List (HloOp τ sig (Elt F))) := by writes_in
set_option maxRecDepth 65536 in
set_option maxHeartbeats 4000000 in
theorem g6_hi_writes : WritesIn g6_hi_W (g6_hi : List (HloOp τ sig (Elt F))) := by writes_in
set_option maxRecDepth 65536 in
set_option maxHeartbeats 4000000 in
theorem g7_eye_writes : WritesIn g7_eye_W (g7_eye : List (HloOp τ sig (Elt F))) := by writes_in
set_option maxRecDepth 65536 in
set_option maxHeartbeats 4000000 in
theorem g7_lo_writes : WritesIn g7_lo_W (g7_lo : List (HloOp τ sig (Elt F))) := by writes_in
set_option maxRecDepth 65536 in
set_option maxHeartbeats 4000000 in
theorem g7_hi_writes : WritesIn g7_hi_W (g7_hi : List (HloOp τ sig (Elt F))) := by writes_in
set_option maxRecDepth 65536 in
set_option maxHeartbeats 4000000 in
theorem g8_eye_writes : WritesIn g8_eye_W (g8_eye : List (HloOp τ sig (Elt F))) := by writes_in
set_option maxRecDepth 65536 in
set_option maxHeartbeats 4000000 in
theorem g8_lo_writes : WritesIn g8_lo_W (g8_lo : List (HloOp τ sig (Elt F))) := by writes_in
set_option maxRecDepth 65536 in
set_option maxHeartbeats 4000000 in
theorem g8_hi_writes : WritesIn g8_hi_W (g8_hi : List (HloOp τ sig (Elt F))) := by writes_in
set_option maxRecDepth 65536 in
set_option maxHeartbeats 4000000 in
theorem g9_eye_writes : WritesIn g9_eye_W (g9_eye : List (HloOp τ sig (Elt F))) := by writes_in
set_option maxRecDepth 65536 in
set_option maxHeartbeats 4000000 in
theorem g9_lo_writes : WritesIn g9_lo_W (g9_lo : List (HloOp τ sig (Elt F))) := by writes_in
set_option maxRecDepth 65536 in
set_option maxHeartbeats 4000000 in
theorem g9_hi_writes : WritesIn g9_hi_W (g9_hi : List (HloOp τ sig (Elt F))) := by writes_in
set_option maxRecDepth 65536 in
set_option maxHeartbeats 4000000 in
theorem g10_eye_writes : WritesIn g10_eye_W (g10_eye : List (HloOp τ sig (Elt F))) := by writes_in
set_option maxRecDepth 65536 in
set_option maxHeartbeats 4000000 in
theorem g10_lo_writes : WritesIn g10_lo_W (g10_lo : List (HloOp τ sig (Elt F))) := by writes_in
set_option maxRecDepth 65536 in
set_option maxHeartbeats 4000000 in
theorem g10_hi_writes : WritesIn g10_hi_W (g10_hi : List (HloOp τ sig (Elt F))) := by writes_in
set_option maxRecDepth 65536 in
set_option maxHeartbeats 4000000 in
theorem g11_eye_writes : WritesIn g11_eye_W (g11_eye : List (HloOp τ sig (Elt F))) := by writes_in
set_option maxRecDepth 65536 in
set_option maxHeartbeats 4000000 in
theorem g11_lo_writes : WritesIn g11_lo_W (g11_lo : List (HloOp τ sig (Elt F))) := by writes_in
set_option maxRecDepth 65536 in
set_option maxHeartbeats 4000000 in
theorem g11_hi_writes : WritesIn g11_hi_W (g11_hi : List (HloOp τ sig (Elt F))) := by writes_in
set_option maxRecDepth 65536 in
set_option maxHeartbeats 4000000 in
theorem fin_writes : WritesIn fin_W (fin : List (HloOp τ sig (Elt F))) := by writes_in

/-! ## Gate by gate -/

/-- Gate 0: the 2×2 identity, the two chains, the sum and the product. -/
abbrev gate0 : List (HloOp τ sig (Elt F)) := g0_eye ++ (g0_lo ++ g0_hi)
abbrev g0_W : List (Ref sig .tc) := g0_eye_W ++ (g0_lo_W ++ g0_hi_W)
theorem gate0_writes : WritesIn g0_W (gate0 : List (HloOp τ sig (Elt F))) :=
  (g0_eye_writes.mono (List.subset_append_left _ _)).append
    ((g0_lo_writes.mono (List.Subset.trans (List.subset_append_left _ _) (List.subset_append_right _ _))).append
      (g0_hi_writes.mono (List.Subset.trans (List.subset_append_right _ _) (List.subset_append_right _ _))))
/-- Gate 1: the 2×2 identity, the two chains, the sum and the product. -/
abbrev gate1 : List (HloOp τ sig (Elt F)) := g1_eye ++ (g1_lo ++ g1_hi)
abbrev g1_W : List (Ref sig .tc) := g1_eye_W ++ (g1_lo_W ++ g1_hi_W)
theorem gate1_writes : WritesIn g1_W (gate1 : List (HloOp τ sig (Elt F))) :=
  (g1_eye_writes.mono (List.subset_append_left _ _)).append
    ((g1_lo_writes.mono (List.Subset.trans (List.subset_append_left _ _) (List.subset_append_right _ _))).append
      (g1_hi_writes.mono (List.Subset.trans (List.subset_append_right _ _) (List.subset_append_right _ _))))
/-- Gate 2: the 2×2 identity, the two chains, the sum and the product. -/
abbrev gate2 : List (HloOp τ sig (Elt F)) := g2_eye ++ (g2_lo ++ g2_hi)
abbrev g2_W : List (Ref sig .tc) := g2_eye_W ++ (g2_lo_W ++ g2_hi_W)
theorem gate2_writes : WritesIn g2_W (gate2 : List (HloOp τ sig (Elt F))) :=
  (g2_eye_writes.mono (List.subset_append_left _ _)).append
    ((g2_lo_writes.mono (List.Subset.trans (List.subset_append_left _ _) (List.subset_append_right _ _))).append
      (g2_hi_writes.mono (List.Subset.trans (List.subset_append_right _ _) (List.subset_append_right _ _))))
/-- Gate 3: the 2×2 identity, the two chains, the sum and the product. -/
abbrev gate3 : List (HloOp τ sig (Elt F)) := g3_eye ++ (g3_lo ++ g3_hi)
abbrev g3_W : List (Ref sig .tc) := g3_eye_W ++ (g3_lo_W ++ g3_hi_W)
theorem gate3_writes : WritesIn g3_W (gate3 : List (HloOp τ sig (Elt F))) :=
  (g3_eye_writes.mono (List.subset_append_left _ _)).append
    ((g3_lo_writes.mono (List.Subset.trans (List.subset_append_left _ _) (List.subset_append_right _ _))).append
      (g3_hi_writes.mono (List.Subset.trans (List.subset_append_right _ _) (List.subset_append_right _ _))))
/-- Gate 4: the 2×2 identity, the two chains, the sum and the product. -/
abbrev gate4 : List (HloOp τ sig (Elt F)) := g4_eye ++ (g4_lo ++ g4_hi)
abbrev g4_W : List (Ref sig .tc) := g4_eye_W ++ (g4_lo_W ++ g4_hi_W)
theorem gate4_writes : WritesIn g4_W (gate4 : List (HloOp τ sig (Elt F))) :=
  (g4_eye_writes.mono (List.subset_append_left _ _)).append
    ((g4_lo_writes.mono (List.Subset.trans (List.subset_append_left _ _) (List.subset_append_right _ _))).append
      (g4_hi_writes.mono (List.Subset.trans (List.subset_append_right _ _) (List.subset_append_right _ _))))
/-- Gate 5: the 2×2 identity, the two chains, the sum and the product. -/
abbrev gate5 : List (HloOp τ sig (Elt F)) := g5_eye ++ (g5_lo ++ g5_hi)
abbrev g5_W : List (Ref sig .tc) := g5_eye_W ++ (g5_lo_W ++ g5_hi_W)
theorem gate5_writes : WritesIn g5_W (gate5 : List (HloOp τ sig (Elt F))) :=
  (g5_eye_writes.mono (List.subset_append_left _ _)).append
    ((g5_lo_writes.mono (List.Subset.trans (List.subset_append_left _ _) (List.subset_append_right _ _))).append
      (g5_hi_writes.mono (List.Subset.trans (List.subset_append_right _ _) (List.subset_append_right _ _))))
/-- Gate 6: the 2×2 identity, the two chains, the sum and the product. -/
abbrev gate6 : List (HloOp τ sig (Elt F)) := g6_eye ++ (g6_lo ++ g6_hi)
abbrev g6_W : List (Ref sig .tc) := g6_eye_W ++ (g6_lo_W ++ g6_hi_W)
theorem gate6_writes : WritesIn g6_W (gate6 : List (HloOp τ sig (Elt F))) :=
  (g6_eye_writes.mono (List.subset_append_left _ _)).append
    ((g6_lo_writes.mono (List.Subset.trans (List.subset_append_left _ _) (List.subset_append_right _ _))).append
      (g6_hi_writes.mono (List.Subset.trans (List.subset_append_right _ _) (List.subset_append_right _ _))))
/-- Gate 7: the 2×2 identity, the two chains, the sum and the product. -/
abbrev gate7 : List (HloOp τ sig (Elt F)) := g7_eye ++ (g7_lo ++ g7_hi)
abbrev g7_W : List (Ref sig .tc) := g7_eye_W ++ (g7_lo_W ++ g7_hi_W)
theorem gate7_writes : WritesIn g7_W (gate7 : List (HloOp τ sig (Elt F))) :=
  (g7_eye_writes.mono (List.subset_append_left _ _)).append
    ((g7_lo_writes.mono (List.Subset.trans (List.subset_append_left _ _) (List.subset_append_right _ _))).append
      (g7_hi_writes.mono (List.Subset.trans (List.subset_append_right _ _) (List.subset_append_right _ _))))
/-- Gate 8: the 2×2 identity, the two chains, the sum and the product. -/
abbrev gate8 : List (HloOp τ sig (Elt F)) := g8_eye ++ (g8_lo ++ g8_hi)
abbrev g8_W : List (Ref sig .tc) := g8_eye_W ++ (g8_lo_W ++ g8_hi_W)
theorem gate8_writes : WritesIn g8_W (gate8 : List (HloOp τ sig (Elt F))) :=
  (g8_eye_writes.mono (List.subset_append_left _ _)).append
    ((g8_lo_writes.mono (List.Subset.trans (List.subset_append_left _ _) (List.subset_append_right _ _))).append
      (g8_hi_writes.mono (List.Subset.trans (List.subset_append_right _ _) (List.subset_append_right _ _))))
/-- Gate 9: the 2×2 identity, the two chains, the sum and the product. -/
abbrev gate9 : List (HloOp τ sig (Elt F)) := g9_eye ++ (g9_lo ++ g9_hi)
abbrev g9_W : List (Ref sig .tc) := g9_eye_W ++ (g9_lo_W ++ g9_hi_W)
theorem gate9_writes : WritesIn g9_W (gate9 : List (HloOp τ sig (Elt F))) :=
  (g9_eye_writes.mono (List.subset_append_left _ _)).append
    ((g9_lo_writes.mono (List.Subset.trans (List.subset_append_left _ _) (List.subset_append_right _ _))).append
      (g9_hi_writes.mono (List.Subset.trans (List.subset_append_right _ _) (List.subset_append_right _ _))))
/-- Gate 10: the 2×2 identity, the two chains, the sum and the product. -/
abbrev gate10 : List (HloOp τ sig (Elt F)) := g10_eye ++ (g10_lo ++ g10_hi)
abbrev g10_W : List (Ref sig .tc) := g10_eye_W ++ (g10_lo_W ++ g10_hi_W)
theorem gate10_writes : WritesIn g10_W (gate10 : List (HloOp τ sig (Elt F))) :=
  (g10_eye_writes.mono (List.subset_append_left _ _)).append
    ((g10_lo_writes.mono (List.Subset.trans (List.subset_append_left _ _) (List.subset_append_right _ _))).append
      (g10_hi_writes.mono (List.Subset.trans (List.subset_append_right _ _) (List.subset_append_right _ _))))
/-- Gate 11: the 2×2 identity, the two chains, the sum and the product. -/
abbrev gate11 : List (HloOp τ sig (Elt F)) := g11_eye ++ (g11_lo ++ g11_hi)
abbrev g11_W : List (Ref sig .tc) := g11_eye_W ++ (g11_lo_W ++ g11_hi_W)
theorem gate11_writes : WritesIn g11_W (gate11 : List (HloOp τ sig (Elt F))) :=
  (g11_eye_writes.mono (List.subset_append_left _ _)).append
    ((g11_lo_writes.mono (List.Subset.trans (List.subset_append_left _ _) (List.subset_append_right _ _))).append
      (g11_hi_writes.mono (List.Subset.trans (List.subset_append_right _ _) (List.subset_append_right _ _))))

/-! ## Across gates: everything any gate (or the last product) writes -/

abbrev T12 : List (Ref sig .tc) := fin_W
abbrev T11 : List (Ref sig .tc) := g11_W ++ T12
abbrev T10 : List (Ref sig .tc) := g10_W ++ T11
abbrev T9 : List (Ref sig .tc) := g9_W ++ T10
abbrev T8 : List (Ref sig .tc) := g8_W ++ T9
abbrev T7 : List (Ref sig .tc) := g7_W ++ T8
abbrev T6 : List (Ref sig .tc) := g6_W ++ T7
abbrev T5 : List (Ref sig .tc) := g5_W ++ T6
abbrev T4 : List (Ref sig .tc) := g4_W ++ T5
abbrev T3 : List (Ref sig .tc) := g3_W ++ T4
abbrev T2 : List (Ref sig .tc) := g2_W ++ T3
abbrev T1 : List (Ref sig .tc) := g1_W ++ T2
abbrev T0 : List (Ref sig .tc) := g0_W ++ T1
/-- The buffers written after the constants and the 4096×4096 identity. -/
abbrev gatesW : List (Ref sig .tc) := T0

theorem sub_T1 : T1 ⊆ gatesW := List.subset_append_right _ _
theorem sub_T2 : T2 ⊆ gatesW := List.Subset.trans (List.subset_append_right _ _) sub_T1
theorem sub_T3 : T3 ⊆ gatesW := List.Subset.trans (List.subset_append_right _ _) sub_T2
theorem sub_T4 : T4 ⊆ gatesW := List.Subset.trans (List.subset_append_right _ _) sub_T3
theorem sub_T5 : T5 ⊆ gatesW := List.Subset.trans (List.subset_append_right _ _) sub_T4
theorem sub_T6 : T6 ⊆ gatesW := List.Subset.trans (List.subset_append_right _ _) sub_T5
theorem sub_T7 : T7 ⊆ gatesW := List.Subset.trans (List.subset_append_right _ _) sub_T6
theorem sub_T8 : T8 ⊆ gatesW := List.Subset.trans (List.subset_append_right _ _) sub_T7
theorem sub_T9 : T9 ⊆ gatesW := List.Subset.trans (List.subset_append_right _ _) sub_T8
theorem sub_T10 : T10 ⊆ gatesW := List.Subset.trans (List.subset_append_right _ _) sub_T9
theorem sub_T11 : T11 ⊆ gatesW := List.Subset.trans (List.subset_append_right _ _) sub_T10
theorem sub_T12 : T12 ⊆ gatesW := List.Subset.trans (List.subset_append_right _ _) sub_T11

theorem gate0_writesG : WritesIn gatesW (gate0 : List (HloOp τ sig (Elt F))) := gate0_writes.mono (List.subset_append_left _ _)
theorem gate1_writesG : WritesIn gatesW (gate1 : List (HloOp τ sig (Elt F))) := gate1_writes.mono (List.Subset.trans (List.subset_append_left _ _) sub_T1)
theorem gate2_writesG : WritesIn gatesW (gate2 : List (HloOp τ sig (Elt F))) := gate2_writes.mono (List.Subset.trans (List.subset_append_left _ _) sub_T2)
theorem gate3_writesG : WritesIn gatesW (gate3 : List (HloOp τ sig (Elt F))) := gate3_writes.mono (List.Subset.trans (List.subset_append_left _ _) sub_T3)
theorem gate4_writesG : WritesIn gatesW (gate4 : List (HloOp τ sig (Elt F))) := gate4_writes.mono (List.Subset.trans (List.subset_append_left _ _) sub_T4)
theorem gate5_writesG : WritesIn gatesW (gate5 : List (HloOp τ sig (Elt F))) := gate5_writes.mono (List.Subset.trans (List.subset_append_left _ _) sub_T5)
theorem gate6_writesG : WritesIn gatesW (gate6 : List (HloOp τ sig (Elt F))) := gate6_writes.mono (List.Subset.trans (List.subset_append_left _ _) sub_T6)
theorem gate7_writesG : WritesIn gatesW (gate7 : List (HloOp τ sig (Elt F))) := gate7_writes.mono (List.Subset.trans (List.subset_append_left _ _) sub_T7)
theorem gate8_writesG : WritesIn gatesW (gate8 : List (HloOp τ sig (Elt F))) := gate8_writes.mono (List.Subset.trans (List.subset_append_left _ _) sub_T8)
theorem gate9_writesG : WritesIn gatesW (gate9 : List (HloOp τ sig (Elt F))) := gate9_writes.mono (List.Subset.trans (List.subset_append_left _ _) sub_T9)
theorem gate10_writesG : WritesIn gatesW (gate10 : List (HloOp τ sig (Elt F))) := gate10_writes.mono (List.Subset.trans (List.subset_append_left _ _) sub_T10)
theorem gate11_writesG : WritesIn gatesW (gate11 : List (HloOp τ sig (Elt F))) := gate11_writes.mono (List.Subset.trans (List.subset_append_left _ _) sub_T11)
theorem fin_writesG : WritesIn gatesW (fin : List (HloOp τ sig (Elt F))) := fin_writes.mono sub_T12

end Cert.ReferenceIdeal.Writes

end
-- ==== Proof.Diag.lean ====
/-
  Diagonal matrices under the reference's other operations, read at the ideal instance (floats are extended reals, sums
  exact): the identity matrix as the reference spells it (row index = column index, converted to a float), the constants
  (the 1×1 one; a 2×2 table of four words with zero off-diagonal words) and the sum of two diagonal matrices.
-/
import proofs.«402948_j20624432956334_3_alg».proof.Proof.Spec
import Idealize.ShloMosaic.PureOps.Ideal.Laws
import Idealize.ShloMosaic.Lib.ValueIdx
import Idealize.ShloMosaic.Lib.Pipeline.Value

noncomputable section

namespace Cert.CZ

open Idealize.ShloMosaic

/-- The words 1.0 and -1.0: sign bit, exponent field 127 (the bias), mantissa field 0, so the value is ±1 · 2^23 · 2^(-23). -/
theorem ofBits_one : Ideal.ofBits .f32 0x3F800000#32 = (((1 : ℤ) : ℝ) : EReal) := by
  simp [Ideal.ofBits, Ideal.ieee, -EReal.coe_mul]; norm_num
theorem ofBits_negOne : Ideal.ofBits .f32 0xBF800000#32 = (((-1 : ℤ) : ℝ) : EReal) := by
  simp [Ideal.ofBits, Ideal.ieee, -EReal.coe_mul, -EReal.coe_neg]; norm_num

/-- THE IDENTITY as the reference builds it: one where the row index (plus a zero) equals the column index, zero elsewhere.
    Both indices are below n < 2^32, so their 32-bit words are equal exactly when the indices are; the comparison's bit,
    read unsigned, is 1 or 0. -/
theorem eye_diag (n : ℕ) (hn : n < 2 ^ 32) (hb : (⟨0, ![]⟩ : Shape).BroadcastsInDim (Sq n) ![]) :
    uitofp (F := Ideal) .f32 (cmpi .eq (addi (iotaInDim (Sq n) 32 0) (broadcastInDim (Sq n) ![] hb (constantI ⟨0, ![]⟩ 32 0#32)))
      (iotaInDim (Sq n) 32 1)) = diagM n one := by
  funext j
  have h0 : (j 0).val < n := (j 0).isLt
  have h1 : (j 1).val < n := (j 1).isLt
  show (((IntOp.cmpi .eq (IntOp.addi (BitVec.ofNat 32 (j 0).val) 0#32) (BitVec.ofNat 32 (j 1).val)).toNat : ℝ) : EReal) = _
  unfold diagM one IntOp.cmpi IntOp.addi
  rw [BitVec.add_zero]
  by_cases h : (j 0).val = (j 1).val
  · rw [if_pos h, h]; simp
  · rw [if_neg h]
    have hne : BitVec.ofNat 32 (j 0).val ≠ BitVec.ofNat 32 (j 1).val := by
      intro e
      have e' := congrArg BitVec.toNat e
      rw [BitVec.toNat_ofNat, BitVec.toNat_ofNat, Nat.mod_eq_of_lt (by omega), Nat.mod_eq_of_lt (by omega)] at e'
      exact h e'
    simp [hne]

/-- The 1×1 constant one: its only entry is on the diagonal. -/
theorem one11_diag : constant (F := Ideal) (Sq 1) .f32 0x3F800000#32 = diagM 1 one := by
  funext j
  show Ideal.ofBits .f32 0x3F800000#32 = _
  have h0 : (j 0).val < 1 := (j 0).isLt
  have h1 : (j 1).val < 1 := (j 1).isLt
  unfold diagM one
  rw [if_pos (by omega), ofBits_one]

/-- A 2×2 constant given by its four words in row-major order, the off-diagonal words zero: entry (a, b) is word 2a + b,
    so the diagonal reads words 0 and 3 and the off-diagonal reads words 1 and 2. -/
theorem tab_diag (w : Fin 4 → BitVec 32) (γ : ℕ → ℤ)
    (h0 : Ideal.ofBits .f32 (w 0) = (((γ 0 : ℤ) : ℝ) : EReal)) (h1 : Ideal.ofBits .f32 (w 1) = 0)
    (h2 : Ideal.ofBits .f32 (w 2) = 0) (h3 : Ideal.ofBits .f32 (w 3) = (((γ 1 : ℤ) : ℝ) : EReal)) :
    (fun i : (Sq 2).Idx => FloatOps.ofBits (F := Ideal) .f32 (w ((Sq 2).rowMajor i))) = diagM 2 γ := by
  funext i
  show Ideal.ofBits .f32 (w ((Sq 2).rowMajor i)) = _
  have ha : (i 0).val < 2 := (i 0).isLt
  have hb : (i 1).val < 2 := (i 1).isLt
  have hr : ((Sq 2).rowMajor i).val = (i 0).val * 2 + (i 1).val := Shape.rowMajor_val_two i
  unfold diagM
  rcases (show (i 0).val = 0 ∨ (i 0).val = 1 by omega) with a | a <;>
  rcases (show (i 1).val = 0 ∨ (i 1).val = 1 by omega) with b | b
  · have e : (Sq 2).rowMajor i = (0 : Fin 4) := Fin.ext (by rw [hr, a, b]; rfl)
    rw [e, h0, if_pos (by omega), a]
  · have e : (Sq 2).rowMajor i = (1 : Fin 4) := Fin.ext (by rw [hr, a, b]; rfl)
    rw [e, h1, if_neg (by omega)]
  · have e : (Sq 2).rowMajor i = (2 : Fin 4) := Fin.ext (by rw [hr, a, b]; rfl)
    rw [e, h2, if_neg (by omega)]
  · have e : (Sq 2).rowMajor i = (3 : Fin 4) := Fin.ext (by rw [hr, a, b]; rfl)
    rw [e, h3, if_pos (by omega), a]

/-- THE SUM of diagonal matrices: on the diagonal the entries add, off it 0 + 0 = 0. -/
theorem add_diag (n : ℕ) (φ ψ : ℕ → ℤ) : addf (F := Ideal) (diagM n φ) (diagM n ψ) = diagM n (fun r => φ r + ψ r) := by
  funext j
  show FloatOps.addf (F := Ideal) (diagM n φ j) (diagM n ψ j) = _
  rw [Ideal.addf_def]
  unfold diagM
  by_cases h : (j 0).val = (j 1).val
  · rw [if_pos h, if_pos h, if_pos h, ← EReal.coe_add, Int.cast_add]
  · rw [if_neg h, if_neg h, if_neg h, add_zero]

end Cert.CZ

end
-- ==== Proof.RefPre.lean ====
/-
  What the reference holds once its constants are written: Pauli Z, and for each of the twelve gates the two projectors and
  two 1×1 ones, all diagonal; and the 4096×4096 identity it starts the product from.
-/
import proofs.«402948_j20624432956334_3_alg».proof.Proof.RefWrites
import proofs.«402948_j20624432956334_3_alg».proof.Proof.Diag

noncomputable section

namespace Cert.ReferenceIdeal.Pre

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- The constants a gate reads are the diagonal tables they denote. -/
structure Consts (W : Valuation τ sig (Elt Ideal)) : Prop where
  z : W (main_cst : DevRef τ sig) = diagM 2 zz
  a0 : W (main_cst_0 : DevRef τ sig) = diagM 2 p0
  b0 : W (main_cst_1 : DevRef τ sig) = diagM 2 p1
  c0 : W (main_cst_2 : DevRef τ sig) = diagM 1 one
  d0 : W (main_cst_3 : DevRef τ sig) = diagM 1 one
  a1 : W (main_cst_4 : DevRef τ sig) = diagM 2 p0
  b1 : W (main_cst_5 : DevRef τ sig) = diagM 2 p1
  c1 : W (main_cst_6 : DevRef τ sig) = diagM 1 one
  d1 : W (main_cst_7 : DevRef τ sig) = diagM 1 one
  a2 : W (main_cst_8 : DevRef τ sig) = diagM 2 p0
  b2 : W (main_cst_9 : DevRef τ sig) = diagM 2 p1
  c2 : W (main_cst_10 : DevRef τ sig) = diagM 1 one
  d2 : W (main_cst_11 : DevRef τ sig) = diagM 1 one
  a3 : W (main_cst_12 : DevRef τ sig) = diagM 2 p0
  b3 : W (main_cst_13 : DevRef τ sig) = diagM 2 p1
  c3 : W (main_cst_14 : DevRef τ sig) = diagM 1 one
  d3 : W (main_cst_15 : DevRef τ sig) = diagM 1 one
  a4 : W (main_cst_16 : DevRef τ sig) = diagM 2 p0
  b4 : W (main_cst_17 : DevRef τ sig) = diagM 2 p1
  c4 : W (main_cst_18 : DevRef τ sig) = diagM 1 one
  d4 : W (main_cst_19 : DevRef τ sig) = diagM 1 one
  a5 : W (main_cst_20 : DevRef τ sig) = diagM 2 p0
  b5 : W (main_cst_21 : DevRef τ sig) = diagM 2 p1
  c5 : W (main_cst_22 : DevRef τ sig) = diagM 1 one
  d5 : W (main_cst_23 : DevRef τ sig) = diagM 1 one
  a6 : W (main_cst_24 : DevRef τ sig) = diagM 2 p0
  b6 : W (main_cst_25 : DevRef τ sig) = diagM 2 p1
  c6 : W (main_cst_26 : DevRef τ sig) = diagM 1 one
  d6 : W (main_cst_27 : DevRef τ sig) = diagM 1 one
  a7 : W (main_cst_28 : DevRef τ sig) = diagM 2 p0
  b7 : W (main_cst_29 : DevRef τ sig) = diagM 2 p1
  c7 : W (main_cst_30 : DevRef τ sig) = diagM 1 one
  d7 : W (main_cst_31 : DevRef τ sig) = diagM 1 one
  a8 : W (main_cst_32 : DevRef τ sig) = diagM 2 p0
  b8 : W (main_cst_33 : DevRef τ sig) = diagM 2 p1
  c8 : W (main_cst_34 : DevRef τ sig) = diagM 1 one
  d8 : W (main_cst_35 : DevRef τ sig) = diagM 1 one
  a9 : W (main_cst_36 : DevRef τ sig) = diagM 2 p0
  b9 : W (main_cst_37 : DevRef τ sig) = diagM 2 p1
  c9 : W (main_cst_38 : DevRef τ sig) = diagM 1 one
  d9 : W (main_cst_39 : DevRef τ sig) = diagM 1 one
  a10 : W (main_cst_40 : DevRef τ sig) = diagM 2 p0
  b10 : W (main_cst_41 : DevRef τ sig) = diagM 2 p1
  c10 : W (main_cst_42 : DevRef τ sig) = diagM 1 one
  d10 : W (main_cst_43 : DevRef τ sig) = diagM 1 one
  a11 : W (main_cst_44 : DevRef τ sig) = diagM 2 p0
  b11 : W (main_cst_45 : DevRef τ sig) = diagM 2 p1
  c11 : W (main_cst_46 : DevRef τ sig) = diagM 1 one
  d11 : W (main_cst_47 : DevRef τ sig) = diagM 1 one

variable (V : Valuation τ sig (Elt Ideal))

/-- The zero word is the integer zero read as an extended real. -/
theorem ofBits_zeroZ : Ideal.ofBits .f32 0x00000000#32 = (((0 : ℤ) : ℝ) : EReal) := by
  rw [Ideal.ofBits_zero_f32]; simp

/-- A 2×2 table constant after the first stage: the table's four words read as a diagonal. -/
macro "pre_tab" w:term "," g:term "," h0:term "," h3:term : tactic =>
  `(tactic| (simp only [pre]; after_results_simp; exact tab_diag $w $g $h0 Ideal.ofBits_zero_f32 Ideal.ofBits_zero_f32 $h3))
/-- A 1×1 one after the first stage. -/
macro "pre_one" : tactic => `(tactic| (simp only [pre]; after_results_simp; exact one11_diag))

set_option maxRecDepth 65536 in
set_option maxHeartbeats 4000000 in
/-- After the first stage the constants are their tables. -/
theorem pre_consts : Consts (after (pre (F := Ideal)) V) where
  z := by pre_tab lit0, zz, ofBits_one, ofBits_negOne
  a0 := by pre_tab lit1, p0, ofBits_one, ofBits_zeroZ
  b0 := by pre_tab lit2, p1, ofBits_zeroZ, ofBits_one
  c0 := by pre_one
  d0 := by pre_one
  a1 := by pre_tab lit3, p0, ofBits_one, ofBits_zeroZ
  b1 := by pre_tab lit4, p1, ofBits_zeroZ, ofBits_one
  c1 := by pre_one
  d1 := by pre_one
  a2 := by pre_tab lit5, p0, ofBits_one, ofBits_zeroZ
  b2 := by pre_tab lit6, p1, ofBits_zeroZ, ofBits_one
  c2 := by pre_one
  d2 := by pre_one
  a3 := by pre_tab lit7, p0, ofBits_one, ofBits_zeroZ
  b3 := by pre_tab lit8, p1, ofBits_zeroZ, ofBits_one
  c3 := by pre_one
  d3 := by pre_one
  a4 := by pre_tab lit9, p0, ofBits_one, ofBits_zeroZ
  b4 := by pre_tab lit10, p1, ofBits_zeroZ, ofBits_one
  c4 := by pre_one
  d4 := by pre_one
  a5 := by pre_tab lit11, p0, ofBits_one, ofBits_zeroZ
  b5 := by pre_tab lit12, p1, ofBits_zeroZ, ofBits_one
  c5 := by pre_one
  d5 := by pre_one
  a6 := by pre_tab lit13, p0, ofBits_one, ofBits_zeroZ
  b6 := by pre_tab lit14, p1, ofBits_zeroZ, ofBits_one
  c6 := by pre_one
  d6 := by pre_one
  a7 := by pre_tab lit15, p0, ofBits_one, ofBits_zeroZ
  b7 := by pre_tab lit16, p1, ofBits_zeroZ, ofBits_one
  c7 := by pre_one
  d7 := by pre_one
  a8 := by pre_tab lit17, p0, ofBits_one, ofBits_zeroZ
  b8 := by pre_tab lit18, p1, ofBits_zeroZ, ofBits_one
  c8 := by pre_one
  d8 := by pre_one
  a9 := by pre_tab lit19, p0, ofBits_one, ofBits_zeroZ
  b9 := by pre_tab lit20, p1, ofBits_zeroZ, ofBits_one
  c9 := by pre_one
  d9 := by pre_one
  a10 := by pre_tab lit21, p0, ofBits_one, ofBits_zeroZ
  b10 := by pre_tab lit22, p1, ofBits_zeroZ, ofBits_one
  c10 := by pre_one
  d10 := by pre_one
  a11 := by pre_tab lit23, p0, ofBits_one, ofBits_zeroZ
  b11 := by pre_tab lit24, p1, ofBits_zeroZ, ofBits_one
  c11 := by pre_one
  d11 := by pre_one

set_option maxRecDepth 65536 in
set_option maxHeartbeats 4000000 in
/-- After the first stage the product starts from the identity. -/
theorem pre_eye : after (pre (F := Ideal)) V (main_v5 : DevRef τ sig) = diagM 4096 one := by
  simp only [pre]; after_results_simp
  exact eye_diag 4096 (by norm_num) _

/-- The first stage does not write the argument. -/
theorem pre_arg : after (pre (F := Ideal)) V (main_arg0 : DevRef τ sig) = V (main_arg0 : DevRef τ sig) :=
  pre_writes.keep V (by decide)

end Cert.ReferenceIdeal.Pre

end
-- ==== Proof.RefDot.lean ====
/-
  The reference's two matrix products at the ideal instance, for a diagonal left factor: against a diagonal matrix the
  product is diagonal with the entrywise product of the diagonals, and against any array it scales row r by the diagonal's
  r-th entry — every other term of the sum over the contracted axis is 0 · x = 0.
-/
import proofs.«402948_j20624432956334_3_alg».proof.Proof.Spec
import proofs.«402948_j20624432956334_3_alg».proof.Proof.Gen.ReferenceIdeal
import Idealize.ShloMosaic.PureOps.Ideal.Laws
import Idealize.ShloMosaic.Lib.ValueIdx

noncomputable section

namespace Cert.CZ

open Idealize.ShloMosaic Cert.ReferenceIdeal
open Idealize.ShloMosaic.ValueIdx

/-- The two products' dimension numbers: rows × contraction times contraction × columns, no batch axis. -/
abbrev DUU := dot_S4096x4096_S4096x4096_S4096x4096_1_0_0_1_n_n
abbrev DUx := dot_S4096x4096_S4096x1024_S4096x1024_1_0_0_1_n_n

/-! ## Which entries a term reads: at result index (r, c) and contraction index k the left operand is read at (r, k) and
    the right operand at (k, c). One fact per operand axis, for each of the two products. -/

theorem dotUU_lhs0 (j : S4096x4096.Idx) (k : DUU.contr.Idx) : (DUU.lhsIdx j k 0 : ℕ) = j 0 := by
  simp [DotDims.lhsIdx, DUU, dot_S4096x4096_S4096x4096_S4096x4096_1_0_0_1_n_n]; rfl
theorem dotUU_lhs1 (j : S4096x4096.Idx) (k : DUU.contr.Idx) : (DUU.lhsIdx j k 1 : ℕ) = k ⟨0, by decide⟩ := by
  simp [DotDims.lhsIdx, DUU, dot_S4096x4096_S4096x4096_S4096x4096_1_0_0_1_n_n]; rfl
theorem dotUU_rhs0 (j : S4096x4096.Idx) (k : DUU.contr.Idx) : (DUU.rhsIdx j k 0 : ℕ) = k ⟨0, by decide⟩ := by
  simp [DotDims.rhsIdx, DUU, dot_S4096x4096_S4096x4096_S4096x4096_1_0_0_1_n_n]; rfl
theorem dotUU_rhs1 (j : S4096x4096.Idx) (k : DUU.contr.Idx) : (DUU.rhsIdx j k 1 : ℕ) = j 1 := by
  simp [DotDims.rhsIdx, DUU, dot_S4096x4096_S4096x4096_S4096x4096_1_0_0_1_n_n]; rfl

theorem dotUx_lhs0 (j : S4096x1024.Idx) (k : DUx.contr.Idx) : (DUx.lhsIdx j k 0 : ℕ) = j 0 := by
  simp [DotDims.lhsIdx, DUx, dot_S4096x4096_S4096x1024_S4096x1024_1_0_0_1_n_n]; rfl
theorem dotUx_lhs1 (j : S4096x1024.Idx) (k : DUx.contr.Idx) : (DUx.lhsIdx j k 1 : ℕ) = k ⟨0, by decide⟩ := by
  simp [DotDims.lhsIdx, DUx, dot_S4096x4096_S4096x1024_S4096x1024_1_0_0_1_n_n]; rfl
theorem dotUx_rhs0 (j : S4096x1024.Idx) (k : DUx.contr.Idx) : (DUx.rhsIdx j k 0 : ℕ) = k ⟨0, by decide⟩ := by
  simp [DotDims.rhsIdx, DUx, dot_S4096x4096_S4096x1024_S4096x1024_1_0_0_1_n_n]; rfl
theorem dotUx_rhs1 (j : S4096x1024.Idx) (k : DUx.contr.Idx) : (DUx.rhsIdx j k 1 : ℕ) = j 1 := by
  simp [DotDims.rhsIdx, DUx, dot_S4096x4096_S4096x1024_S4096x1024_1_0_0_1_n_n]; rfl

/-- The contracted index set of either product is the 4096 values of its one coordinate. -/
def contrUU : DUU.contr.Idx ≃ Fin 4096 := contrEquiv1 DUU 4096 (by decide) (by decide)
def contrUx : DUx.contr.Idx ≃ Fin 4096 := contrEquiv1 DUx 4096 (by decide) (by decide)
theorem contrUU_symm_val (i : Fin 4096) : ((contrUU.symm i) ⟨0, by decide⟩ : ℕ) = i.val :=
  contrEquiv1_symm_val DUU 4096 _ _ i
theorem contrUx_symm_val (i : Fin 4096) : ((contrUx.symm i) ⟨0, by decide⟩ : ℕ) = i.val :=
  contrEquiv1_symm_val DUx 4096 _ _ i

/-- DIAGONAL TIMES DIAGONAL. Entry (r, c) is Σ_k D[r, k] · E[k, c]; D[r, k] = 0 unless k = r, so the sum is its one term
    at k = r, namely φ r · E[r, c], which is φ r · ψ r when r = c and φ r · 0 = 0 otherwise. -/
theorem dotUU (φ ψ : ℕ → ℤ) :
    Host.dotGeneral (F := Ideal) dot_S4096x4096_S4096x4096_S4096x4096_1_0_0_1_n_n none (diagM 4096 φ) (diagM 4096 ψ)
      = diagM 4096 (fun r => φ r * ψ r) := by
  funext j
  show FloatOps.dotGeneral DUU none .single (diagM 4096 φ) (diagM 4096 ψ) j = _
  rw [Ideal.dotGeneral_apply, ← Equiv.sum_comp contrUU.symm]
  have hj : (j 0).val < 4096 := (j 0).isLt
  rw [Finset.sum_eq_single (⟨(j 0).val, hj⟩ : Fin 4096)]
  · -- the term at k = r
    have hd : ((DUU.lhsIdx j (contrUU.symm ⟨(j 0).val, hj⟩) 0 : ℕ)) = (DUU.lhsIdx j (contrUU.symm ⟨(j 0).val, hj⟩) 1 : ℕ) := by
      rw [dotUU_lhs0, dotUU_lhs1, contrUU_symm_val]
    unfold diagM
    rw [if_pos hd, dotUU_lhs0, dotUU_rhs0, dotUU_rhs1, contrUU_symm_val]
    by_cases h : (j 0).val = (j 1).val
    · rw [if_pos h, if_pos h, ← EReal.coe_mul, Int.cast_mul]
    · rw [if_neg h, if_neg h, mul_zero]
  · -- a term at k ≠ r is 0 · E[k, c] = 0
    intro b _ hb
    have hd : ¬ ((DUU.lhsIdx j (contrUU.symm b) 0 : ℕ)) = (DUU.lhsIdx j (contrUU.symm b) 1 : ℕ) := by
      rw [dotUU_lhs0, dotUU_lhs1, contrUU_symm_val]
      intro e; exact hb (Fin.ext e.symm)
    unfold diagM
    rw [if_neg hd, zero_mul]
  · intro h; exact absurd (Finset.mem_univ _) h

/-- DIAGONAL TIMES AN ARRAY. Entry (r, c) is Σ_k D[r, k] · x[k, c]; every term with k ≠ r is 0 · x[k, c] = 0 (for every
    extended real x[k, c], the infinities included), and the term at k = r is φ r · x[r, c]. -/
theorem dotUx (φ : ℕ → ℤ) (x : FVec Ideal SX .f32) :
    Host.dotGeneral (F := Ideal) dot_S4096x4096_S4096x1024_S4096x1024_1_0_0_1_n_n none (diagM 4096 φ) x
      = fun j => (((φ (j 0).val : ℤ) : ℝ) : EReal) * x j := by
  funext j
  show FloatOps.dotGeneral DUx none .single (diagM 4096 φ) x j = _
  rw [Ideal.dotGeneral_apply, ← Equiv.sum_comp contrUx.symm]
  have hj : (j 0).val < 4096 := (j 0).isLt
  rw [Finset.sum_eq_single (⟨(j 0).val, hj⟩ : Fin 4096)]
  · -- the term at k = r reads D[r, r] and x[r, c]
    have hd : ((DUx.lhsIdx j (contrUx.symm ⟨(j 0).val, hj⟩) 0 : ℕ)) = (DUx.lhsIdx j (contrUx.symm ⟨(j 0).val, hj⟩) 1 : ℕ) := by
      rw [dotUx_lhs0, dotUx_lhs1, contrUx_symm_val]
    have hr : DUx.rhsIdx j (contrUx.symm ⟨(j 0).val, hj⟩) = j := by
      funext a
      match a with
      | ⟨0, _⟩ => exact Fin.ext ((dotUx_rhs0 j _).trans (contrUx_symm_val _))
      | ⟨1, _⟩ => exact Fin.ext (dotUx_rhs1 j _)
    rw [hr]
    unfold diagM
    rw [if_pos hd, dotUx_lhs0]
  · -- a term at k ≠ r is 0 · x[k, c] = 0
    intro b _ hb
    have hd : ¬ ((DUx.lhsIdx j (contrUx.symm b) 0 : ℕ)) = (DUx.lhsIdx j (contrUx.symm b) 1 : ℕ) := by
      rw [dotUx_lhs0, dotUx_lhs1, contrUx_symm_val]
      intro e; exact hb (Fin.ext e.symm)
    unfold diagM
    rw [if_neg hd, zero_mul]
  · intro h; exact absurd (Finset.mem_univ _) h

end Cert.CZ

end
-- ==== Proof.RefKeepA.lean ====
import proofs.«402948_j20624432956334_3_alg».proof.Proof.RefWrites

set_option maxRecDepth 65536

noncomputable section

namespace Cert.ReferenceIdeal.Keep

open Cert.ReferenceIdeal Cert.ReferenceIdeal.Gen Cert.ReferenceIdeal.Ops Cert.ReferenceIdeal.Writes
open Idealize.ShloMosaic Idealize.ShloMosaic.TcCoe Idealize.SL.Sem Idealize.ShloMosaic.StableHlo

theorem kp0_main_cst : main_cst ∉ g0_W := by decide
theorem kp0_main_cst_4 : main_cst_4 ∉ g0_W := by decide
theorem kp0_main_cst_5 : main_cst_5 ∉ g0_W := by decide
theorem kp0_main_cst_6 : main_cst_6 ∉ g0_W := by decide
theorem kp0_main_cst_7 : main_cst_7 ∉ g0_W := by decide
theorem kp0_main_cst_8 : main_cst_8 ∉ g0_W := by decide
theorem kp0_main_cst_9 : main_cst_9 ∉ g0_W := by decide
theorem kp0_main_cst_10 : main_cst_10 ∉ g0_W := by decide
theorem kp0_main_cst_11 : main_cst_11 ∉ g0_W := by decide
theorem kp0_main_cst_12 : main_cst_12 ∉ g0_W := by decide
theorem kp0_main_cst_13 : main_cst_13 ∉ g0_W := by decide
theorem kp0_main_cst_14 : main_cst_14 ∉ g0_W := by decide
theorem kp0_main_cst_15 : main_cst_15 ∉ g0_W := by decide
theorem kp0_main_cst_16 : main_cst_16 ∉ g0_W := by decide
theorem kp0_main_cst_17 : main_cst_17 ∉ g0_W := by decide
theorem kp0_main_cst_18 : main_cst_18 ∉ g0_W := by decide
theorem kp0_main_cst_19 : main_cst_19 ∉ g0_W := by decide
theorem kp0_main_cst_20 : main_cst_20 ∉ g0_W := by decide
theorem kp0_main_cst_21 : main_cst_21 ∉ g0_W := by decide
theorem kp0_main_cst_22 : main_cst_22 ∉ g0_W := by decide
theorem kp0_main_cst_23 : main_cst_23 ∉ g0_W := by decide
theorem kp0_main_cst_24 : main_cst_24 ∉ g0_W := by decide
theorem kp0_main_cst_25 : main_cst_25 ∉ g0_W := by decide
theorem kp0_main_cst_26 : main_cst_26 ∉ g0_W := by decide
theorem kp0_main_cst_27 : main_cst_27 ∉ g0_W := by decide
theorem kp0_main_cst_28 : main_cst_28 ∉ g0_W := by decide
theorem kp0_main_cst_29 : main_cst_29 ∉ g0_W := by decide
theorem kp0_main_cst_30 : main_cst_30 ∉ g0_W := by decide
theorem kp0_main_cst_31 : main_cst_31 ∉ g0_W := by decide
theorem kp0_main_cst_32 : main_cst_32 ∉ g0_W := by decide
theorem kp0_main_cst_33 : main_cst_33 ∉ g0_W := by decide
theorem kp0_main_cst_34 : main_cst_34 ∉ g0_W := by decide
theorem kp0_main_cst_35 : main_cst_35 ∉ g0_W := by decide
theorem kp0_main_cst_36 : main_cst_36 ∉ g0_W := by decide
theorem kp0_main_cst_37 : main_cst_37 ∉ g0_W := by decide
theorem kp0_main_cst_38 : main_cst_38 ∉ g0_W := by decide
theorem kp0_main_cst_39 : main_cst_39 ∉ g0_W := by decide
theorem kp0_main_cst_40 : main_cst_40 ∉ g0_W := by decide
theorem kp0_main_cst_41 : main_cst_41 ∉ g0_W := by decide
theorem kp0_main_cst_42 : main_cst_42 ∉ g0_W := by decide
theorem kp0_main_cst_43 : main_cst_43 ∉ g0_W := by decide
theorem kp0_main_cst_44 : main_cst_44 ∉ g0_W := by decide
theorem kp0_main_cst_45 : main_cst_45 ∉ g0_W := by decide
theorem kp0_main_cst_46 : main_cst_46 ∉ g0_W := by decide
theorem kp0_main_cst_47 : main_cst_47 ∉ g0_W := by decide
theorem kp0_main_arg0 : main_arg0 ∉ g0_W := by decide

theorem kp1_main_cst : main_cst ∉ g1_W := by decide
theorem kp1_main_cst_8 : main_cst_8 ∉ g1_W := by decide
theorem kp1_main_cst_9 : main_cst_9 ∉ g1_W := by decide
theorem kp1_main_cst_10 : main_cst_10 ∉ g1_W := by decide
theorem kp1_main_cst_11 : main_cst_11 ∉ g1_W := by decide
theorem kp1_main_cst_12 : main_cst_12 ∉ g1_W := by decide
theorem kp1_main_cst_13 : main_cst_13 ∉ g1_W := by decide
theorem kp1_main_cst_14 : main_cst_14 ∉ g1_W := by decide
theorem kp1_main_cst_15 : main_cst_15 ∉ g1_W := by decide
theorem kp1_main_cst_16 : main_cst_16 ∉ g1_W := by decide
theorem kp1_main_cst_17 : main_cst_17 ∉ g1_W := by decide
theorem kp1_main_cst_18 : main_cst_18 ∉ g1_W := by decide
theorem kp1_main_cst_19 : main_cst_19 ∉ g1_W := by decide
theorem kp1_main_cst_20 : main_cst_20 ∉ g1_W := by decide
theorem kp1_main_cst_21 : main_cst_21 ∉ g1_W := by decide
theorem kp1_main_cst_22 : main_cst_22 ∉ g1_W := by decide
theorem kp1_main_cst_23 : main_cst_23 ∉ g1_W := by decide
theorem kp1_main_cst_24 : main_cst_24 ∉ g1_W := by decide
theorem kp1_main_cst_25 : main_cst_25 ∉ g1_W := by decide
theorem kp1_main_cst_26 : main_cst_26 ∉ g1_W := by decide
theorem kp1_main_cst_27 : main_cst_27 ∉ g1_W := by decide
theorem kp1_main_cst_28 : main_cst_28 ∉ g1_W := by decide
theorem kp1_main_cst_29 : main_cst_29 ∉ g1_W := by decide
theorem kp1_main_cst_30 : main_cst_30 ∉ g1_W := by decide
theorem kp1_main_cst_31 : main_cst_31 ∉ g1_W := by decide
theorem kp1_main_cst_32 : main_cst_32 ∉ g1_W := by decide
theorem kp1_main_cst_33 : main_cst_33 ∉ g1_W := by decide
theorem kp1_main_cst_34 : main_cst_34 ∉ g1_W := by decide
theorem kp1_main_cst_35 : main_cst_35 ∉ g1_W := by decide
theorem kp1_main_cst_36 : main_cst_36 ∉ g1_W := by decide
theorem kp1_main_cst_37 : main_cst_37 ∉ g1_W := by decide
theorem kp1_main_cst_38 : main_cst_38 ∉ g1_W := by decide
theorem kp1_main_cst_39 : main_cst_39 ∉ g1_W := by decide
theorem kp1_main_cst_40 : main_cst_40 ∉ g1_W := by decide
theorem kp1_main_cst_41 : main_cst_41 ∉ g1_W := by decide
theorem kp1_main_cst_42 : main_cst_42 ∉ g1_W := by decide
theorem kp1_main_cst_43 : main_cst_43 ∉ g1_W := by decide
theorem kp1_main_cst_44 : main_cst_44 ∉ g1_W := by decide
theorem kp1_main_cst_45 : main_cst_45 ∉ g1_W := by decide
theorem kp1_main_cst_46 : main_cst_46 ∉ g1_W := by decide
theorem kp1_main_cst_47 : main_cst_47 ∉ g1_W := by decide
theorem kp1_main_arg0 : main_arg0 ∉ g1_W := by decide

theorem kp2_main_cst : main_cst ∉ g2_W := by decide
theorem kp2_main_cst_12 : main_cst_12 ∉ g2_W := by decide
theorem kp2_main_cst_13 : main_cst_13 ∉ g2_W := by decide
theorem kp2_main_cst_14 : main_cst_14 ∉ g2_W := by decide
theorem kp2_main_cst_15 : main_cst_15 ∉ g2_W := by decide
theorem kp2_main_cst_16 : main_cst_16 ∉ g2_W := by decide
theorem kp2_main_cst_17 : main_cst_17 ∉ g2_W := by decide
theorem kp2_main_cst_18 : main_cst_18 ∉ g2_W := by decide
theorem kp2_main_cst_19 : main_cst_19 ∉ g2_W := by decide
theorem kp2_main_cst_20 : main_cst_20 ∉ g2_W := by decide
theorem kp2_main_cst_21 : main_cst_21 ∉ g2_W := by decide
theorem kp2_main_cst_22 : main_cst_22 ∉ g2_W := by decide
theorem kp2_main_cst_23 : main_cst_23 ∉ g2_W := by decide
theorem kp2_main_cst_24 : main_cst_24 ∉ g2_W := by decide
theorem kp2_main_cst_25 : main_cst_25 ∉ g2_W := by decide
theorem kp2_main_cst_26 : main_cst_26 ∉ g2_W := by decide
theorem kp2_main_cst_27 : main_cst_27 ∉ g2_W := by decide
theorem kp2_main_cst_28 : main_cst_28 ∉ g2_W := by decide
theorem kp2_main_cst_29 : main_cst_29 ∉ g2_W := by decide
theorem kp2_main_cst_30 : main_cst_30 ∉ g2_W := by decide
theorem kp2_main_cst_31 : main_cst_31 ∉ g2_W := by decide
theorem kp2_main_cst_32 : main_cst_32 ∉ g2_W := by decide
theorem kp2_main_cst_33 : main_cst_33 ∉ g2_W := by decide
theorem kp2_main_cst_34 : main_cst_34 ∉ g2_W := by decide
theorem kp2_main_cst_35 : main_cst_35 ∉ g2_W := by decide
theorem kp2_main_cst_36 : main_cst_36 ∉ g2_W := by decide
theorem kp2_main_cst_37 : main_cst_37 ∉ g2_W := by decide
theorem kp2_main_cst_38 : main_cst_38 ∉ g2_W := by decide
theorem kp2_main_cst_39 : main_cst_39 ∉ g2_W := by decide
theorem kp2_main_cst_40 : main_cst_40 ∉ g2_W := by decide
theorem kp2_main_cst_41 : main_cst_41 ∉ g2_W := by decide
theorem kp2_main_cst_42 : main_cst_42 ∉ g2_W := by decide
theorem kp2_main_cst_43 : main_cst_43 ∉ g2_W := by decide
theorem kp2_main_cst_44 : main_cst_44 ∉ g2_W := by decide
theorem kp2_main_cst_45 : main_cst_45 ∉ g2_W := by decide
theorem kp2_main_cst_46 : main_cst_46 ∉ g2_W := by decide
theorem kp2_main_cst_47 : main_cst_47 ∉ g2_W := by decide
theorem kp2_main_arg0 : main_arg0 ∉ g2_W := by decide

end Cert.ReferenceIdeal.Keep

end
-- ==== Proof.RefKeepB.lean ====
import proofs.«402948_j20624432956334_3_alg».proof.Proof.RefWrites

set_option maxRecDepth 65536

noncomputable section

namespace Cert.ReferenceIdeal.Keep

open Cert.ReferenceIdeal Cert.ReferenceIdeal.Gen Cert.ReferenceIdeal.Ops Cert.ReferenceIdeal.Writes
open Idealize.ShloMosaic Idealize.ShloMosaic.TcCoe Idealize.SL.Sem Idealize.ShloMosaic.StableHlo

theorem kp3_main_cst : main_cst ∉ g3_W := by decide
theorem kp3_main_cst_16 : main_cst_16 ∉ g3_W := by decide
theorem kp3_main_cst_17 : main_cst_17 ∉ g3_W := by decide
theorem kp3_main_cst_18 : main_cst_18 ∉ g3_W := by decide
theorem kp3_main_cst_19 : main_cst_19 ∉ g3_W := by decide
theorem kp3_main_cst_20 : main_cst_20 ∉ g3_W := by decide
theorem kp3_main_cst_21 : main_cst_21 ∉ g3_W := by decide
theorem kp3_main_cst_22 : main_cst_22 ∉ g3_W := by decide
theorem kp3_main_cst_23 : main_cst_23 ∉ g3_W := by decide
theorem kp3_main_cst_24 : main_cst_24 ∉ g3_W := by decide
theorem kp3_main_cst_25 : main_cst_25 ∉ g3_W := by decide
theorem kp3_main_cst_26 : main_cst_26 ∉ g3_W := by decide
theorem kp3_main_cst_27 : main_cst_27 ∉ g3_W := by decide
theorem kp3_main_cst_28 : main_cst_28 ∉ g3_W := by decide
theorem kp3_main_cst_29 : main_cst_29 ∉ g3_W := by decide
theorem kp3_main_cst_30 : main_cst_30 ∉ g3_W := by decide
theorem kp3_main_cst_31 : main_cst_31 ∉ g3_W := by decide
theorem kp3_main_cst_32 : main_cst_32 ∉ g3_W := by decide
theorem kp3_main_cst_33 : main_cst_33 ∉ g3_W := by decide
theorem kp3_main_cst_34 : main_cst_34 ∉ g3_W := by decide
theorem kp3_main_cst_35 : main_cst_35 ∉ g3_W := by decide
theorem kp3_main_cst_36 : main_cst_36 ∉ g3_W := by decide
theorem kp3_main_cst_37 : main_cst_37 ∉ g3_W := by decide
theorem kp3_main_cst_38 : main_cst_38 ∉ g3_W := by decide
theorem kp3_main_cst_39 : main_cst_39 ∉ g3_W := by decide
theorem kp3_main_cst_40 : main_cst_40 ∉ g3_W := by decide
theorem kp3_main_cst_41 : main_cst_41 ∉ g3_W := by decide
theorem kp3_main_cst_42 : main_cst_42 ∉ g3_W := by decide
theorem kp3_main_cst_43 : main_cst_43 ∉ g3_W := by decide
theorem kp3_main_cst_44 : main_cst_44 ∉ g3_W := by decide
theorem kp3_main_cst_45 : main_cst_45 ∉ g3_W := by decide
theorem kp3_main_cst_46 : main_cst_46 ∉ g3_W := by decide
theorem kp3_main_cst_47 : main_cst_47 ∉ g3_W := by decide
theorem kp3_main_arg0 : main_arg0 ∉ g3_W := by decide

theorem kp4_main_cst : main_cst ∉ g4_W := by decide
theorem kp4_main_cst_20 : main_cst_20 ∉ g4_W := by decide
theorem kp4_main_cst_21 : main_cst_21 ∉ g4_W := by decide
theorem kp4_main_cst_22 : main_cst_22 ∉ g4_W := by decide
theorem kp4_main_cst_23 : main_cst_23 ∉ g4_W := by decide
theorem kp4_main_cst_24 : main_cst_24 ∉ g4_W := by decide
theorem kp4_main_cst_25 : main_cst_25 ∉ g4_W := by decide
theorem kp4_main_cst_26 : main_cst_26 ∉ g4_W := by decide
theorem kp4_main_cst_27 : main_cst_27 ∉ g4_W := by decide
theorem kp4_main_cst_28 : main_cst_28 ∉ g4_W := by decide
theorem kp4_main_cst_29 : main_cst_29 ∉ g4_W := by decide
theorem kp4_main_cst_30 : main_cst_30 ∉ g4_W := by decide
theorem kp4_main_cst_31 : main_cst_31 ∉ g4_W := by decide
theorem kp4_main_cst_32 : main_cst_32 ∉ g4_W := by decide
theorem kp4_main_cst_33 : main_cst_33 ∉ g4_W := by decide
theorem kp4_main_cst_34 : main_cst_34 ∉ g4_W := by decide
theorem kp4_main_cst_35 : main_cst_35 ∉ g4_W := by decide
theorem kp4_main_cst_36 : main_cst_36 ∉ g4_W := by decide
theorem kp4_main_cst_37 : main_cst_37 ∉ g4_W := by decide
theorem kp4_main_cst_38 : main_cst_38 ∉ g4_W := by decide
theorem kp4_main_cst_39 : main_cst_39 ∉ g4_W := by decide
theorem kp4_main_cst_40 : main_cst_40 ∉ g4_W := by decide
theorem kp4_main_cst_41 : main_cst_41 ∉ g4_W := by decide
theorem kp4_main_cst_42 : main_cst_42 ∉ g4_W := by decide
theorem kp4_main_cst_43 : main_cst_43 ∉ g4_W := by decide
theorem kp4_main_cst_44 : main_cst_44 ∉ g4_W := by decide
theorem kp4_main_cst_45 : main_cst_45 ∉ g4_W := by decide
theorem kp4_main_cst_46 : main_cst_46 ∉ g4_W := by decide
theorem kp4_main_cst_47 : main_cst_47 ∉ g4_W := by decide
theorem kp4_main_arg0 : main_arg0 ∉ g4_W := by decide

theorem kp5_main_cst : main_cst ∉ g5_W := by decide
theorem kp5_main_cst_24 : main_cst_24 ∉ g5_W := by decide
theorem kp5_main_cst_25 : main_cst_25 ∉ g5_W := by decide
theorem kp5_main_cst_26 : main_cst_26 ∉ g5_W := by decide
theorem kp5_main_cst_27 : main_cst_27 ∉ g5_W := by decide
theorem kp5_main_cst_28 : main_cst_28 ∉ g5_W := by decide
theorem kp5_main_cst_29 : main_cst_29 ∉ g5_W := by decide
theorem kp5_main_cst_30 : main_cst_30 ∉ g5_W := by decide
theorem kp5_main_cst_31 : main_cst_31 ∉ g5_W := by decide
theorem kp5_main_cst_32 : main_cst_32 ∉ g5_W := by decide
theorem kp5_main_cst_33 : main_cst_33 ∉ g5_W := by decide
theorem kp5_main_cst_34 : main_cst_34 ∉ g5_W := by decide
theorem kp5_main_cst_35 : main_cst_35 ∉ g5_W := by decide
theorem kp5_main_cst_36 : main_cst_36 ∉ g5_W := by decide
theorem kp5_main_cst_37 : main_cst_37 ∉ g5_W := by decide
theorem kp5_main_cst_38 : main_cst_38 ∉ g5_W := by decide
theorem kp5_main_cst_39 : main_cst_39 ∉ g5_W := by decide
theorem kp5_main_cst_40 : main_cst_40 ∉ g5_W := by decide
theorem kp5_main_cst_41 : main_cst_41 ∉ g5_W := by decide
theorem kp5_main_cst_42 : main_cst_42 ∉ g5_W := by decide
theorem kp5_main_cst_43 : main_cst_43 ∉ g5_W := by decide
theorem kp5_main_cst_44 : main_cst_44 ∉ g5_W := by decide
theorem kp5_main_cst_45 : main_cst_45 ∉ g5_W := by decide
theorem kp5_main_cst_46 : main_cst_46 ∉ g5_W := by decide
theorem kp5_main_cst_47 : main_cst_47 ∉ g5_W := by decide
theorem kp5_main_arg0 : main_arg0 ∉ g5_W := by decide

end Cert.ReferenceIdeal.Keep

end
-- ==== Proof.RefKeepC.lean ====
import proofs.«402948_j20624432956334_3_alg».proof.Proof.RefWrites

set_option maxRecDepth 65536

noncomputable section

namespace Cert.ReferenceIdeal.Keep

open Cert.ReferenceIdeal Cert.ReferenceIdeal.Gen Cert.ReferenceIdeal.Ops Cert.ReferenceIdeal.Writes
open Idealize.ShloMosaic Idealize.ShloMosaic.TcCoe Idealize.SL.Sem Idealize.ShloMosaic.StableHlo

theorem kp6_main_cst : main_cst ∉ g6_W := by decide
theorem kp6_main_cst_28 : main_cst_28 ∉ g6_W := by decide
theorem kp6_main_cst_29 : main_cst_29 ∉ g6_W := by decide
theorem kp6_main_cst_30 : main_cst_30 ∉ g6_W := by decide
theorem kp6_main_cst_31 : main_cst_31 ∉ g6_W := by decide
theorem kp6_main_cst_32 : main_cst_32 ∉ g6_W := by decide
theorem kp6_main_cst_33 : main_cst_33 ∉ g6_W := by decide
theorem kp6_main_cst_34 : main_cst_34 ∉ g6_W := by decide
theorem kp6_main_cst_35 : main_cst_35 ∉ g6_W := by decide
theorem kp6_main_cst_36 : main_cst_36 ∉ g6_W := by decide
theorem kp6_main_cst_37 : main_cst_37 ∉ g6_W := by decide
theorem kp6_main_cst_38 : main_cst_38 ∉ g6_W := by decide
theorem kp6_main_cst_39 : main_cst_39 ∉ g6_W := by decide
theorem kp6_main_cst_40 : main_cst_40 ∉ g6_W := by decide
theorem kp6_main_cst_41 : main_cst_41 ∉ g6_W := by decide
theorem kp6_main_cst_42 : main_cst_42 ∉ g6_W := by decide
theorem kp6_main_cst_43 : main_cst_43 ∉ g6_W := by decide
theorem kp6_main_cst_44 : main_cst_44 ∉ g6_W := by decide
theorem kp6_main_cst_45 : main_cst_45 ∉ g6_W := by decide
theorem kp6_main_cst_46 : main_cst_46 ∉ g6_W := by decide
theorem kp6_main_cst_47 : main_cst_47 ∉ g6_W := by decide
theorem kp6_main_arg0 : main_arg0 ∉ g6_W := by decide

theorem kp7_main_cst : main_cst ∉ g7_W := by decide
theorem kp7_main_cst_32 : main_cst_32 ∉ g7_W := by decide
theorem kp7_main_cst_33 : main_cst_33 ∉ g7_W := by decide
theorem kp7_main_cst_34 : main_cst_34 ∉ g7_W := by decide
theorem kp7_main_cst_35 : main_cst_35 ∉ g7_W := by decide
theorem kp7_main_cst_36 : main_cst_36 ∉ g7_W := by decide
theorem kp7_main_cst_37 : main_cst_37 ∉ g7_W := by decide
theorem kp7_main_cst_38 : main_cst_38 ∉ g7_W := by decide
theorem kp7_main_cst_39 : main_cst_39 ∉ g7_W := by decide
theorem kp7_main_cst_40 : main_cst_40 ∉ g7_W := by decide
theorem kp7_main_cst_41 : main_cst_41 ∉ g7_W := by decide
theorem kp7_main_cst_42 : main_cst_42 ∉ g7_W := by decide
theorem kp7_main_cst_43 : main_cst_43 ∉ g7_W := by decide
theorem kp7_main_cst_44 : main_cst_44 ∉ g7_W := by decide
theorem kp7_main_cst_45 : main_cst_45 ∉ g7_W := by decide
theorem kp7_main_cst_46 : main_cst_46 ∉ g7_W := by decide
theorem kp7_main_cst_47 : main_cst_47 ∉ g7_W := by decide
theorem kp7_main_arg0 : main_arg0 ∉ g7_W := by decide

theorem kp8_main_cst : main_cst ∉ g8_W := by decide
theorem kp8_main_cst_36 : main_cst_36 ∉ g8_W := by decide
theorem kp8_main_cst_37 : main_cst_37 ∉ g8_W := by decide
theorem kp8_main_cst_38 : main_cst_38 ∉ g8_W := by decide
theorem kp8_main_cst_39 : main_cst_39 ∉ g8_W := by decide
theorem kp8_main_cst_40 : main_cst_40 ∉ g8_W := by decide
theorem kp8_main_cst_41 : main_cst_41 ∉ g8_W := by decide
theorem kp8_main_cst_42 : main_cst_42 ∉ g8_W := by decide
theorem kp8_main_cst_43 : main_cst_43 ∉ g8_W := by decide
theorem kp8_main_cst_44 : main_cst_44 ∉ g8_W := by decide
theorem kp8_main_cst_45 : main_cst_45 ∉ g8_W := by decide
theorem kp8_main_cst_46 : main_cst_46 ∉ g8_W := by decide
theorem kp8_main_cst_47 : main_cst_47 ∉ g8_W := by decide
theorem kp8_main_arg0 : main_arg0 ∉ g8_W := by decide

end Cert.ReferenceIdeal.Keep

end
-- ==== Proof.RefKeepD.lean ====
import proofs.«402948_j20624432956334_3_alg».proof.Proof.RefWrites

set_option maxRecDepth 65536

noncomputable section

namespace Cert.ReferenceIdeal.Keep

open Cert.ReferenceIdeal Cert.ReferenceIdeal.Gen Cert.ReferenceIdeal.Ops Cert.ReferenceIdeal.Writes
open Idealize.ShloMosaic Idealize.ShloMosaic.TcCoe Idealize.SL.Sem Idealize.ShloMosaic.StableHlo

theorem kp9_main_cst : main_cst ∉ g9_W := by decide
theorem kp9_main_cst_40 : main_cst_40 ∉ g9_W := by decide
theorem kp9_main_cst_41 : main_cst_41 ∉ g9_W := by decide
theorem kp9_main_cst_42 : main_cst_42 ∉ g9_W := by decide
theorem kp9_main_cst_43 : main_cst_43 ∉ g9_W := by decide
theorem kp9_main_cst_44 : main_cst_44 ∉ g9_W := by decide
theorem kp9_main_cst_45 : main_cst_45 ∉ g9_W := by decide
theorem kp9_main_cst_46 : main_cst_46 ∉ g9_W := by decide
theorem kp9_main_cst_47 : main_cst_47 ∉ g9_W := by decide
theorem kp9_main_arg0 : main_arg0 ∉ g9_W := by decide

theorem kp10_main_cst : main_cst ∉ g10_W := by decide
theorem kp10_main_cst_44 : main_cst_44 ∉ g10_W := by decide
theorem kp10_main_cst_45 : main_cst_45 ∉ g10_W := by decide
theorem kp10_main_cst_46 : main_cst_46 ∉ g10_W := by decide
theorem kp10_main_cst_47 : main_cst_47 ∉ g10_W := by decide
theorem kp10_main_arg0 : main_arg0 ∉ g10_W := by decide

theorem kp11_main_arg0 : main_arg0 ∉ g11_W := by decide

theorem kpfin_main_arg0 : main_arg0 ∉ fin_W := by decide

end Cert.ReferenceIdeal.Keep

end
-- ==== Proof.DiagKron.lean ====
/-
  The Kronecker product of diagonal matrices as the reference spells it — both factors broadcast into a rank-4 array (the
  left factor on axes 0 and 2, the 2×2 right factor on axes 1 and 3), multiplied entry by entry, and reshaped to a matrix —
  read at the ideal instance: entry (I, J) of the result is A[I/2, J/2] · B[I%2, J%2], so diagonal factors give a diagonal
  matrix whose diagonal is r ↦ φ(r / 2) · γ(r % 2).
-/
import proofs.«402948_j20624432956334_3_alg».proof.Proof.Spec
import Idealize.ShloMosaic.PureOps.Ideal.Laws
import Idealize.ShloMosaic.Lib.ValueIdx
import Idealize.ShloMosaic.Lib.Pipeline.Value

noncomputable section

namespace Cert.CZ

open Idealize.ShloMosaic
open Idealize.ShloMosaic.ValueIdx

/-- The product of two diagonal entries read at the quotient and the remainder by two: it vanishes unless the two
    positions agree, and is the product of the two diagonals there. -/
theorem diag_mul (φ γ : ℕ → ℤ) (I J : ℕ) :
    (if I / 2 = J / 2 then (((φ (I / 2) : ℤ) : ℝ) : EReal) else 0) * (if I % 2 = J % 2 then (((γ (I % 2) : ℤ) : ℝ) : EReal) else 0)
      = if I = J then (((φ (I / 2) * γ (I % 2) : ℤ) : ℝ) : EReal) else 0 := by
  by_cases h : I = J
  · subst h
    rw [if_pos rfl, if_pos rfl, if_pos rfl, Int.cast_mul, EReal.coe_mul]
  · rw [if_neg h]
    by_cases ha : I / 2 = J / 2
    · have hb : ¬ I % 2 = J % 2 := by omega
      rw [if_neg hb, mul_zero]
    · rw [if_neg ha, zero_mul]

/-- KRONECKER PRODUCT with a 2×2 right factor, left factor n×n: entry (I, J) of the result is A[I/2, J/2] · B[I%2, J%2], so
    for diagonal factors it vanishes off the diagonal and is φ(I/2) · γ(I%2) on it. The reshape's element count gives
    N · N = (2n) · (2n), hence N = 2n; position I·(2n) + J of the matrix is position ((a·2 + p)·n + b)·2 + q of the rank-4
    array at a = I/2, p = I%2, b = J/2, q = J%2; an axis of size one is read at 0, which is I/2 when n = 1. -/
theorem kron6_diag {n N : ℕ} (φ γ : ℕ → ℤ)
    (h1 : (Sq n).BroadcastsInDim (QA n) ![0, 2]) (h2 : (Sq 2).BroadcastsInDim QB ![1, 3])
    (h3 : (QA n).BroadcastsInDim (Q n) ![0, 1, 2, 3]) (h4 : QB.BroadcastsInDim (Q n) ![0, 1, 2, 3]) (h5 : (Q n).ShapeCasts (Sq N)) :
    shapeCast (Sq N) (mulf (F := Ideal) (broadcastInDim (Q n) ![0, 1, 2, 3] h3 (broadcastInDim (QA n) ![0, 2] h1 (diagM n φ)))
      (broadcastInDim (Q n) ![0, 1, 2, 3] h4 (broadcastInDim QB ![1, 3] h2 (diagM 2 γ)))) h5 = diagM N (kronD φ γ) := by
  have hN : N = 2 * n := by
    have h : N * N = (2 * n) * (2 * n) := by
      have h := h5
      simp only [Shape.ShapeCasts, Shape.numel, Fin.prod_univ_succ, Fin.prod_univ_zero] at h
      simp at h
      rw [h]; ring
    exact Nat.mul_self_inj.1 h
  subst hN
  funext j
  have hj0 : (j 0).val < 2 * n := (j 0).isLt
  have hj1 : (j 1).val < 2 * n := (j 1).isLt
  have ha : (j 0).val / 2 < n := by omega
  have hb : (j 1).val / 2 < n := by omega
  have hp : (j 0).val % 2 < 2 := by omega
  have hq : (j 1).val % 2 < 2 := by omega
  rw [shapeCast_apply _ h5 j (ix4 ⟨(j 0).val / 2, ha⟩ ⟨(j 0).val % 2, hp⟩ ⟨(j 1).val / 2, hb⟩ ⟨(j 1).val % 2, hq⟩) ?_]
  · rw [mulf_apply]
    rw [broadcastInDim_apply _ h3 _ _ (ix4 ⟨(j 0).val / 2, ha⟩ ⟨0, Nat.one_pos⟩ ⟨(j 1).val / 2, hb⟩ ⟨0, Nat.one_pos⟩) ?_]
    rw [broadcastInDim_apply _ h1 _ _ (ix2 ⟨(j 0).val / 2, ha⟩ ⟨(j 1).val / 2, hb⟩) ?_]
    rw [broadcastInDim_apply _ h4 _ _ (ix4 ⟨0, Nat.one_pos⟩ ⟨(j 0).val % 2, hp⟩ ⟨0, Nat.one_pos⟩ ⟨(j 1).val % 2, hq⟩) ?_]
    rw [broadcastInDim_apply _ h2 _ _ (ix2 ⟨(j 0).val % 2, hp⟩ ⟨(j 1).val % 2, hq⟩) ?_]
    · show (if (j 0).val / 2 = (j 1).val / 2 then (((φ ((j 0).val / 2) : ℤ) : ℝ) : EReal) else 0)
          * (if (j 0).val % 2 = (j 1).val % 2 then (((γ ((j 0).val % 2) : ℤ) : ℝ) : EReal) else 0)
          = if (j 0).val = (j 1).val then (((φ ((j 0).val / 2) * γ ((j 0).val % 2) : ℤ) : ℝ) : EReal) else 0
      exact diag_mul φ γ _ _
    · intro a
      match a with
      | ⟨0, _⟩ => show (j 0).val % 2 = if 2 = 1 then 0 else (j 0).val % 2
                  rfl
      | ⟨1, _⟩ => show (j 1).val % 2 = if 2 = 1 then 0 else (j 1).val % 2
                  rfl
    · intro a
      match a with
      | ⟨0, _⟩ => show 0 = if 1 = 1 then 0 else (j 0).val / 2
                  rfl
      | ⟨1, _⟩ => show (j 0).val % 2 = if 2 = 1 then 0 else (j 0).val % 2
                  rfl
      | ⟨2, _⟩ => show 0 = if 1 = 1 then 0 else (j 1).val / 2
                  rfl
      | ⟨3, _⟩ => show (j 1).val % 2 = if 2 = 1 then 0 else (j 1).val % 2
                  rfl
    · intro a
      match a with
      | ⟨0, _⟩ => show (j 0).val / 2 = if n = 1 then 0 else (j 0).val / 2
                  split_ifs <;> omega
      | ⟨1, _⟩ => show (j 1).val / 2 = if n = 1 then 0 else (j 1).val / 2
                  split_ifs <;> omega
    · intro a
      match a with
      | ⟨0, _⟩ => show (j 0).val / 2 = if n = 1 then 0 else (j 0).val / 2
                  split_ifs <;> omega
      | ⟨1, _⟩ => show 0 = if 1 = 1 then 0 else (j 0).val % 2
                  rfl
      | ⟨2, _⟩ => show (j 1).val / 2 = if n = 1 then 0 else (j 1).val / 2
                  split_ifs <;> omega
      | ⟨3, _⟩ => show 0 = if 1 = 1 then 0 else (j 1).val % 2
                  rfl
  · rw [Shape.rowMajor_val_four, Shape.rowMajor_val_two]
    show (((j 0).val / 2 * 2 + (j 0).val % 2) * n + (j 1).val / 2) * 2 + (j 1).val % 2 = (j 0).val * (2 * n) + (j 1).val
    have e : (j 0).val / 2 * 2 + (j 0).val % 2 = (j 0).val := by omega
    have e2 : (j 0).val * (2 * n) = (j 0).val * n * 2 := by ring
    rw [e, e2]
    omega

/-- The same with a 1×1 left factor (the right factor needs no second broadcast): here I, J < 2, so I/2 = J/2 = 0. -/
theorem kron5_diag (φ γ : ℕ → ℤ)
    (h1 : (Sq 1).BroadcastsInDim (QA 1) ![0, 2]) (h2 : (Sq 2).BroadcastsInDim QB ![1, 3])
    (h3 : (QA 1).BroadcastsInDim QB ![0, 1, 2, 3]) (h5 : QB.ShapeCasts (Sq 2)) :
    shapeCast (Sq 2) (mulf (F := Ideal) (broadcastInDim QB ![0, 1, 2, 3] h3 (broadcastInDim (QA 1) ![0, 2] h1 (diagM 1 φ)))
      (broadcastInDim QB ![1, 3] h2 (diagM 2 γ))) h5 = diagM 2 (kronD φ γ) := by
  funext j
  have hj0 : (j 0).val < 2 := (j 0).isLt
  have hj1 : (j 1).val < 2 := (j 1).isLt
  have ha : (j 0).val / 2 < 1 := by omega
  have hb : (j 1).val / 2 < 1 := by omega
  have hp : (j 0).val % 2 < 2 := by omega
  have hq : (j 1).val % 2 < 2 := by omega
  rw [shapeCast_apply _ h5 j (ix4 ⟨(j 0).val / 2, ha⟩ ⟨(j 0).val % 2, hp⟩ ⟨(j 1).val / 2, hb⟩ ⟨(j 1).val % 2, hq⟩) ?_]
  · rw [mulf_apply]
    rw [broadcastInDim_apply _ h3 _ _ (ix4 ⟨(j 0).val / 2, ha⟩ ⟨0, Nat.one_pos⟩ ⟨(j 1).val / 2, hb⟩ ⟨0, Nat.one_pos⟩) ?_]
    rw [broadcastInDim_apply _ h1 _ _ (ix2 ⟨(j 0).val / 2, ha⟩ ⟨(j 1).val / 2, hb⟩) ?_]
    rw [broadcastInDim_apply _ h2 _ _ (ix2 ⟨(j 0).val % 2, hp⟩ ⟨(j 1).val % 2, hq⟩) ?_]
    · show (if (j 0).val / 2 = (j 1).val / 2 then (((φ ((j 0).val / 2) : ℤ) : ℝ) : EReal) else 0)
          * (if (j 0).val % 2 = (j 1).val % 2 then (((γ ((j 0).val % 2) : ℤ) : ℝ) : EReal) else 0)
          = if (j 0).val = (j 1).val then (((φ ((j 0).val / 2) * γ ((j 0).val % 2) : ℤ) : ℝ) : EReal) else 0
      exact diag_mul φ γ _ _
    · intro a
      match a with
      | ⟨0, _⟩ => show (j 0).val % 2 = if 2 = 1 then 0 else (j 0).val % 2
                  rfl
      | ⟨1, _⟩ => show (j 1).val % 2 = if 2 = 1 then 0 else (j 1).val % 2
                  rfl
    · intro a
      match a with
      | ⟨0, _⟩ => show (j 0).val / 2 = 0
                  omega
      | ⟨1, _⟩ => show (j 1).val / 2 = 0
                  omega
    · intro a
      match a with
      | ⟨0, _⟩ => show (j 0).val / 2 = 0
                  omega
      | ⟨1, _⟩ => show 0 = if 1 = 1 then 0 else (j 0).val % 2
                  rfl
      | ⟨2, _⟩ => show (j 1).val / 2 = 0
                  omega
      | ⟨3, _⟩ => show 0 = if 1 = 1 then 0 else (j 1).val % 2
                  rfl
  · rw [Shape.rowMajor_val_four, Shape.rowMajor_val_two]
    show (((j 0).val / 2 * 2 + (j 0).val % 2) * 1 + (j 1).val / 2) * 2 + (j 1).val % 2 = (j 0).val * 2 + (j 1).val
    omega

end Cert.CZ

end
-- ==== Proof.Gate0.lean ====
/-
  Gate 0 of the ring: control wire 0, target wire 1. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g0_eye_val (W : Valuation τ sig (Elt Ideal)) (φ : ℕ → ℤ)
    (hZ : W (main_cst : DevRef τ sig) = diagM 2 zz) (hP0 : W (main_cst_0 : DevRef τ sig) = diagM 2 p0)
    (hP1 : W (main_cst_1 : DevRef τ sig) = diagM 2 p1)
    (h1a : W (main_cst_2 : DevRef τ sig) = diagM 1 one) (h1b : W (main_cst_3 : DevRef τ sig) = diagM 1 one)
    (hU : W (main_v5 : DevRef τ sig) = diagM 4096 φ) :
    after (g0_eye (F := Ideal)) W (main_v11 : DevRef τ sig) = diagM 2 one := by
  simp only [g0_eye, g0_eye_a, g0_eye_b, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g0_lo_val0 (W : Valuation τ sig (Elt Ideal)) (φ : ℕ → ℤ)
    (hZ : W (main_cst : DevRef τ sig) = diagM 2 zz) (hP0 : W (main_cst_0 : DevRef τ sig) = diagM 2 p0)
    (hP1 : W (main_cst_1 : DevRef τ sig) = diagM 2 p1)
    (h1a : W (main_cst_2 : DevRef τ sig) = diagM 1 one) (h1b : W (main_cst_3 : DevRef τ sig) = diagM 1 one)
    (hU : W (main_v5 : DevRef τ sig) = diagM 4096 φ)
    (hE : W (main_v11 : DevRef τ sig) = diagM 2 one) :
    after (g0_lo (F := Ideal)) W (main_v22 : DevRef τ sig) = diagM 64 (chain ((row0 0).take 6)) := by
  simp only [g0_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g0_lo_val1 (W : Valuation τ sig (Elt Ideal)) (φ : ℕ → ℤ)
    (hZ : W (main_cst : DevRef τ sig) = diagM 2 zz) (hP0 : W (main_cst_0 : DevRef τ sig) = diagM 2 p0)
    (hP1 : W (main_cst_1 : DevRef τ sig) = diagM 2 p1)
    (h1a : W (main_cst_2 : DevRef τ sig) = diagM 1 one) (h1b : W (main_cst_3 : DevRef τ sig) = diagM 1 one)
    (hU : W (main_v5 : DevRef τ sig) = diagM 4096 φ)
    (hE : W (main_v11 : DevRef τ sig) = diagM 2 one) :
    after (g0_lo (F := Ideal)) W (main_v23 : DevRef τ sig) = diagM 64 (chain ((row1 0).take 6)) := by
  simp only [g0_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g0_hi_val (W : Valuation τ sig (Elt Ideal)) (φ : ℕ → ℤ)
    (hZ : W (main_cst : DevRef τ sig) = diagM 2 zz) (hP0 : W (main_cst_0 : DevRef τ sig) = diagM 2 p0)
    (hP1 : W (main_cst_1 : DevRef τ sig) = diagM 2 p1)
    (h1a : W (main_cst_2 : DevRef τ sig) = diagM 1 one) (h1b : W (main_cst_3 : DevRef τ sig) = diagM 1 one)
    (hU : W (main_v5 : DevRef τ sig) = diagM 4096 φ)
    (hE : W (main_v11 : DevRef τ sig) = diagM 2 one)
    (hL0 : W (main_v22 : DevRef τ sig) = diagM 64 (chain ((row0 0).take 6)))
    (hL1 : W (main_v23 : DevRef τ sig) = diagM 64 (chain ((row1 0).take 6))) :
    after (g0_hi (F := Ideal)) W (main_v37 : DevRef τ sig) = diagM 4096 (fun r => gd 0 r * φ r) := by
  simp only [g0_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate0_val (W : Valuation τ sig (Elt Ideal)) (φ : ℕ → ℤ)
    (hZ : W (main_cst : DevRef τ sig) = diagM 2 zz) (hP0 : W (main_cst_0 : DevRef τ sig) = diagM 2 p0)
    (hP1 : W (main_cst_1 : DevRef τ sig) = diagM 2 p1)
    (h1a : W (main_cst_2 : DevRef τ sig) = diagM 1 one) (h1b : W (main_cst_3 : DevRef τ sig) = diagM 1 one)
    (hU : W (main_v5 : DevRef τ sig) = diagM 4096 φ) :
    after (gate0 (F := Ideal)) W (main_v37 : DevRef τ sig) = diagM 4096 (fun r => gd 0 r * φ r) := by
  show after (g0_eye ++ (g0_lo ++ g0_hi)) W _ = _
  rw [StableHlo.after_append, StableHlo.after_append]
  -- after the identity stage: the factors and the matrix built so far are untouched, the identity is in place
  have hZ1 := (g0_eye_writes.keep W (r := main_cst) (by decide)).trans hZ
  have hP01 := (g0_eye_writes.keep W (r := main_cst_0) (by decide)).trans hP0
  have hP11 := (g0_eye_writes.keep W (r := main_cst_1) (by decide)).trans hP1
  have h1a1 := (g0_eye_writes.keep W (r := main_cst_2) (by decide)).trans h1a
  have h1b1 := (g0_eye_writes.keep W (r := main_cst_3) (by decide)).trans h1b
  have hU1 := (g0_eye_writes.keep W (r := main_v5) (by decide)).trans hU
  have hE1 := g0_eye_val W φ hZ hP0 hP1 h1a h1b hU
  -- after levels 0 … 5: the same, and the two half-way chains are in place
  have hZ2 := (g0_lo_writes.keep (after g0_eye W) (r := main_cst) (by decide)).trans hZ1
  have hP02 := (g0_lo_writes.keep (after g0_eye W) (r := main_cst_0) (by decide)).trans hP01
  have hP12 := (g0_lo_writes.keep (after g0_eye W) (r := main_cst_1) (by decide)).trans hP11
  have h1a2 := (g0_lo_writes.keep (after g0_eye W) (r := main_cst_2) (by decide)).trans h1a1
  have h1b2 := (g0_lo_writes.keep (after g0_eye W) (r := main_cst_3) (by decide)).trans h1b1
  have hU2 := (g0_lo_writes.keep (after g0_eye W) (r := main_v5) (by decide)).trans hU1
  have hE2 := (g0_lo_writes.keep (after g0_eye W) (r := main_v11) (by decide)).trans hE1
  have hL0 := g0_lo_val0 (after g0_eye W) φ hZ1 hP01 hP11 h1a1 h1b1 hU1 hE1
  have hL1 := g0_lo_val1 (after g0_eye W) φ hZ1 hP01 hP11 h1a1 h1b1 hU1 hE1
  exact g0_hi_val (after g0_lo (after g0_eye W)) φ hZ2 hP02 hP12 h1a2 h1b2 hU2 hE2 hL0 hL1

end Cert.ReferenceIdeal.Gates

end
-- ==== Proof.Gate1.lean ====
/-
  Gate 1 of the ring: control wire 1, target wire 2. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g1_eye_val (W : Valuation τ sig (Elt Ideal)) (φ : ℕ → ℤ)
    (hZ : W (main_cst : DevRef τ sig) = diagM 2 zz) (hP0 : W (main_cst_4 : DevRef τ sig) = diagM 2 p0)
    (hP1 : W (main_cst_5 : DevRef τ sig) = diagM 2 p1)
    (h1a : W (main_cst_6 : DevRef τ sig) = diagM 1 one) (h1b : W (main_cst_7 : DevRef τ sig) = diagM 1 one)
    (hU : W (main_v37 : DevRef τ sig) = diagM 4096 φ) :
    after (g1_eye (F := Ideal)) W (main_v43 : DevRef τ sig) = diagM 2 one := by
  simp only [g1_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g1_lo_val0 (W : Valuation τ sig (Elt Ideal)) (φ : ℕ → ℤ)
    (hZ : W (main_cst : DevRef τ sig) = diagM 2 zz) (hP0 : W (main_cst_4 : DevRef τ sig) = diagM 2 p0)
    (hP1 : W (main_cst_5 : DevRef τ sig) = diagM 2 p1)
    (h1a : W (main_cst_6 : DevRef τ sig) = diagM 1 one) (h1b : W (main_cst_7 : DevRef τ sig) = diagM 1 one)
    (hU : W (main_v37 : DevRef τ sig) = diagM 4096 φ)
    (hE : W (main_v43 : DevRef τ sig) = diagM 2 one) :
    after (g1_lo (F := Ideal)) W (main_v54 : DevRef τ sig) = diagM 64 (chain ((row0 1).take 6)) := by
  simp only [g1_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g1_lo_val1 (W : Valuation τ sig (Elt Ideal)) (φ : ℕ → ℤ)
    (hZ : W (main_cst : DevRef τ sig) = diagM 2 zz) (hP0 : W (main_cst_4 : DevRef τ sig) = diagM 2 p0)
    (hP1 : W (main_cst_5 : DevRef τ sig) = diagM 2 p1)
    (h1a : W (main_cst_6 : DevRef τ sig) = diagM 1 one) (h1b : W (main_cst_7 : DevRef τ sig) = diagM 1 one)
    (hU : W (main_v37 : DevRef τ sig) = diagM 4096 φ)
    (hE : W (main_v43 : DevRef τ sig) = diagM 2 one) :
    after (g1_lo (F := Ideal)) W (main_v55 : DevRef τ sig) = diagM 64 (chain ((row1 1).take 6)) := by
  simp only [g1_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g1_hi_val (W : Valuation τ sig (Elt Ideal)) (φ : ℕ → ℤ)
    (hZ : W (main_cst : DevRef τ sig) = diagM 2 zz) (hP0 : W (main_cst_4 : DevRef τ sig) = diagM 2 p0)
    (hP1 : W (main_cst_5 : DevRef τ sig) = diagM 2 p1)
    (h1a : W (main_cst_6 : DevRef τ sig) = diagM 1 one) (h1b : W (main_cst_7 : DevRef τ sig) = diagM 1 one)
    (hU : W (main_v37 : DevRef τ sig) = diagM 4096 φ)
    (hE : W (main_v43 : DevRef τ sig) = diagM 2 one)
    (hL0 : W (main_v54 : DevRef τ sig) = diagM 64 (chain ((row0 1).take 6)))
    (hL1 : W (main_v55 : DevRef τ sig) = diagM 64 (chain ((row1 1).take 6))) :
    after (g1_hi (F := Ideal)) W (main_v69 : DevRef τ sig) = diagM 4096 (fun r => gd 1 r * φ r) := by
  simp only [g1_hi, g1_hi_a, g1_hi_b, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate1_val (W : Valuation τ sig (Elt Ideal)) (φ : ℕ → ℤ)
    (hZ : W (main_cst : DevRef τ sig) = diagM 2 zz) (hP0 : W (main_cst_4 : DevRef τ sig) = diagM 2 p0)
    (hP1 : W (main_cst_5 : DevRef τ sig) = diagM 2 p1)
    (h1a : W (main_cst_6 : DevRef τ sig) = diagM 1 one) (h1b : W (main_cst_7 : DevRef τ sig) = diagM 1 one)
    (hU : W (main_v37 : DevRef τ sig) = diagM 4096 φ) :
    after (gate1 (F := Ideal)) W (main_v69 : DevRef τ sig) = diagM 4096 (fun r => gd 1 r * φ r) := by
  show after (g1_eye ++ (g1_lo ++ g1_hi)) W _ = _
  rw [StableHlo.after_append, StableHlo.after_append]
  -- after the identity stage: the factors and the matrix built so far are untouched, the identity is in place
  have hZ1 := (g1_eye_writes.keep W (r := main_cst) (by decide)).trans hZ
  have hP01 := (g1_eye_writes.keep W (r := main_cst_4) (by decide)).trans hP0
  have hP11 := (g1_eye_writes.keep W (r := main_cst_5) (by decide)).trans hP1
  have h1a1 := (g1_eye_writes.keep W (r := main_cst_6) (by decide)).trans h1a
  have h1b1 := (g1_eye_writes.keep W (r := main_cst_7) (by decide)).trans h1b
  have hU1 := (g1_eye_writes.keep W (r := main_v37) (by decide)).trans hU
  have hE1 := g1_eye_val W φ hZ hP0 hP1 h1a h1b hU
  -- after levels 0 … 5: the same, and the two half-way chains are in place
  have hZ2 := (g1_lo_writes.keep (after g1_eye W) (r := main_cst) (by decide)).trans hZ1
  have hP02 := (g1_lo_writes.keep (after g1_eye W) (r := main_cst_4) (by decide)).trans hP01
  have hP12 := (g1_lo_writes.keep (after g1_eye W) (r := main_cst_5) (by decide)).trans hP11
  have h1a2 := (g1_lo_writes.keep (after g1_eye W) (r := main_cst_6) (by decide)).trans h1a1
  have h1b2 := (g1_lo_writes.keep (after g1_eye W) (r := main_cst_7) (by decide)).trans h1b1
  have hU2 := (g1_lo_writes.keep (after g1_eye W) (r := main_v37) (by decide)).trans hU1
  have hE2 := (g1_lo_writes.keep (after g1_eye W) (r := main_v43) (by decide)).trans hE1
  have hL0 := g1_lo_val0 (after g1_eye W) φ hZ1 hP01 hP11 h1a1 h1b1 hU1 hE1
  have hL1 := g1_lo_val1 (after g1_eye W) φ hZ1 hP01 hP11 h1a1 h1b1 hU1 hE1
  exact g1_hi_val (after g1_lo (after g1_eye W)) φ hZ2 hP02 hP12 h1a2 h1b2 hU2 hE2 hL0 hL1

end Cert.ReferenceIdeal.Gates

end
-- ==== Proof.Gate2.lean ====
/-
  Gate 2 of the ring: control wire 2, target wire 3. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g2_eye_val (W : Valuation τ sig (Elt Ideal)) (φ : ℕ → ℤ)
    (hZ : W (main_cst : DevRef τ sig) = diagM 2 zz) (hP0 : W (main_cst_8 : DevRef τ sig) = diagM 2 p0)
    (hP1 : W (main_cst_9 : DevRef τ sig) = diagM 2 p1)
    (h1a : W (main_cst_10 : DevRef τ sig) = diagM 1 one) (h1b : W (main_cst_11 : DevRef τ sig) = diagM 1 one)
    (hU : W (main_v69 : DevRef τ sig) = diagM 4096 φ) :
    after (g2_eye (F := Ideal)) W (main_v75 : DevRef τ sig) = diagM 2 one := by
  simp only [g2_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g2_lo_val0 (W : Valuation τ sig (Elt Ideal)) (φ : ℕ → ℤ)
    (hZ : W (main_cst : DevRef τ sig) = diagM 2 zz) (hP0 : W (main_cst_8 : DevRef τ sig) = diagM 2 p0)
    (hP1 : W (main_cst_9 : DevRef τ sig) = diagM 2 p1)
    (h1a : W (main_cst_10 : DevRef τ sig) = diagM 1 one) (h1b : W (main_cst_11 : DevRef τ sig) = diagM 1 one)
    (hU : W (main_v69 : DevRef τ sig) = diagM 4096 φ)
    (hE : W (main_v75 : DevRef τ sig) = diagM 2 one) :
    after (g2_lo (F := Ideal)) W (main_v86 : DevRef τ sig) = diagM 64 (chain ((row0 2).take 6)) := by
  simp only [g2_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g2_lo_val1 (W : Valuation τ sig (Elt Ideal)) (φ : ℕ → ℤ)
    (hZ : W (main_cst : DevRef τ sig) = diagM 2 zz) (hP0 : W (main_cst_8 : DevRef τ sig) = diagM 2 p0)
    (hP1 : W (main_cst_9 : DevRef τ sig) = diagM 2 p1)
    (h1a : W (main_cst_10 : DevRef τ sig) = diagM 1 one) (h1b : W (main_cst_11 : DevRef τ sig) = diagM 1 one)
    (hU : W (main_v69 : DevRef τ sig) = diagM 4096 φ)
    (hE : W (main_v75 : DevRef τ sig) = diagM 2 one) :
    after (g2_lo (F := Ideal)) W (main_v87 : DevRef τ sig) = diagM 64 (chain ((row1 2).take 6)) := by
  simp only [g2_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g2_hi_val (W : Valuation τ sig (Elt Ideal)) (φ : ℕ → ℤ)
    (hZ : W (main_cst : DevRef τ sig) = diagM 2 zz) (hP0 : W (main_cst_8 : DevRef τ sig) = diagM 2 p0)
    (hP1 : W (main_cst_9 : DevRef τ sig) = diagM 2 p1)
    (h1a : W (main_cst_10 : DevRef τ sig) = diagM 1 one) (h1b : W (main_cst_11 : DevRef τ sig) = diagM 1 one)
    (hU : W (main_v69 : DevRef τ sig) = diagM 4096 φ)
    (hE : W (main_v75 : DevRef τ sig) = diagM 2 one)
    (hL0 : W (main_v86 : DevRef τ sig) = diagM 64 (chain ((row0 2).take 6)))
    (hL1 : W (main_v87 : DevRef τ sig) = diagM 64 (chain ((row1 2).take 6))) :
    after (g2_hi (F := Ideal)) W (main_v101 : DevRef τ sig) = diagM 4096 (fun r => gd 2 r * φ r) := by
  simp only [g2_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate2_val (W : Valuation τ sig (Elt Ideal)) (φ : ℕ → ℤ)
    (hZ : W (main_cst : DevRef τ sig) = diagM 2 zz) (hP0 : W (main_cst_8 : DevRef τ sig) = diagM 2 p0)
    (hP1 : W (main_cst_9 : DevRef τ sig) = diagM 2 p1)
    (h1a : W (main_cst_10 : DevRef τ sig) = diagM 1 one) (h1b : W (main_cst_11 : DevRef τ sig) = diagM 1 one)
    (hU : W (main_v69 : DevRef τ sig) = diagM 4096 φ) :
    after (gate2 (F := Ideal)) W (main_v101 : DevRef τ sig) = diagM 4096 (fun r => gd 2 r * φ r) := by
  show after (g2_eye ++ (g2_lo ++ g2_hi)) W _ = _
  rw [StableHlo.after_append, StableHlo.after_append]
  -- after the identity stage: the factors and the matrix built so far are untouched, the identity is in place
  have hZ1 := (g2_eye_writes.keep W (r := main_cst) (by decide)).trans hZ
  have hP01 := (g2_eye_writes.keep W (r := main_cst_8) (by decide)).trans hP0
  have hP11 := (g2_eye_writes.keep W (r := main_cst_9) (by decide)).trans hP1
  have h1a1 := (g2_eye_writes.keep W (r := main_cst_10) (by decide)).trans h1a
  have h1b1 := (g2_eye_writes.keep W (r := main_cst_11) (by decide)).trans h1b
  have hU1 := (g2_eye_writes.keep W (r := main_v69) (by decide)).trans hU
  have hE1 := g2_eye_val W φ hZ hP0 hP1 h1a h1b hU
  -- after levels 0 … 5: the same, and the two half-way chains are in place
  have hZ2 := (g2_lo_writes.keep (after g2_eye W) (r := main_cst) (by decide)).trans hZ1
  have hP02 := (g2_lo_writes.keep (after g2_eye W) (r := main_cst_8) (by decide)).trans hP01
  have hP12 := (g2_lo_writes.keep (after g2_eye W) (r := main_cst_9) (by decide)).trans hP11
  have h1a2 := (g2_lo_writes.keep (after g2_eye W) (r := main_cst_10) (by decide)).trans h1a1
  have h1b2 := (g2_lo_writes.keep (after g2_eye W) (r := main_cst_11) (by decide)).trans h1b1
  have hU2 := (g2_lo_writes.keep (after g2_eye W) (r := main_v69) (by decide)).trans hU1
  have hE2 := (g2_lo_writes.keep (after g2_eye W) (r := main_v75) (by decide)).trans hE1
  have hL0 := g2_lo_val0 (after g2_eye W) φ hZ1 hP01 hP11 h1a1 h1b1 hU1 hE1
  have hL1 := g2_lo_val1 (after g2_eye W) φ hZ1 hP01 hP11 h1a1 h1b1 hU1 hE1
  exact g2_hi_val (after g2_lo (after g2_eye W)) φ hZ2 hP02 hP12 h1a2 h1b2 hU2 hE2 hL0 hL1

end Cert.ReferenceIdeal.Gates

end
-- ==== Proof.Gate3.lean ====
/-
  Gate 3 of the ring: control wire 3, target wire 4. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g3_eye_val (W : Valuation τ sig (Elt Ideal)) (φ : ℕ → ℤ)
    (hZ : W (main_cst : DevRef τ sig) = diagM 2 zz) (hP0 : W (main_cst_12 : DevRef τ sig) = diagM 2 p0)
    (hP1 : W (main_cst_13 : DevRef τ sig) = diagM 2 p1)
    (h1a : W (main_cst_14 : DevRef τ sig) = diagM 1 one) (h1b : W (main_cst_15 : DevRef τ sig) = diagM 1 one)
    (hU : W (main_v101 : DevRef τ sig) = diagM 4096 φ) :
    after (g3_eye (F := Ideal)) W (main_v107 : DevRef τ sig) = diagM 2 one := by
  simp only [g3_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g3_lo_val0 (W : Valuation τ sig (Elt Ideal)) (φ : ℕ → ℤ)
    (hZ : W (main_cst : DevRef τ sig) = diagM 2 zz) (hP0 : W (main_cst_12 : DevRef τ sig) = diagM 2 p0)
    (hP1 : W (main_cst_13 : DevRef τ sig) = diagM 2 p1)
    (h1a : W (main_cst_14 : DevRef τ sig) = diagM 1 one) (h1b : W (main_cst_15 : DevRef τ sig) = diagM 1 one)
    (hU : W (main_v101 : DevRef τ sig) = diagM 4096 φ)
    (hE : W (main_v107 : DevRef τ sig) = diagM 2 one) :
    after (g3_lo (F := Ideal)) W (main_v118 : DevRef τ sig) = diagM 64 (chain ((row0 3).take 6)) := by
  simp only [g3_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g3_lo_val1 (W : Valuation τ sig (Elt Ideal)) (φ : ℕ → ℤ)
    (hZ : W (main_cst : DevRef τ sig) = diagM 2 zz) (hP0 : W (main_cst_12 : DevRef τ sig) = diagM 2 p0)
    (hP1 : W (main_cst_13 : DevRef τ sig) = diagM 2 p1)
    (h1a : W (main_cst_14 : DevRef τ sig) = diagM 1 one) (h1b : W (main_cst_15 : DevRef τ sig) = diagM 1 one)
    (hU : W (main_v101 : DevRef τ sig) = diagM 4096 φ)
    (hE : W (main_v107 : DevRef τ sig) = diagM 2 one) :
    after (g3_lo (F := Ideal)) W (main_v119 : DevRef τ sig) = diagM 64 (chain ((row1 3).take 6)) := by
  simp only [g3_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g3_hi_val (W : Valuation τ sig (Elt Ideal)) (φ : ℕ → ℤ)
    (hZ : W (main_cst : DevRef τ sig) = diagM 2 zz) (hP0 : W (main_cst_12 : DevRef τ sig) = diagM 2 p0)
    (hP1 : W (main_cst_13 : DevRef τ sig) = diagM 2 p1)
    (h1a : W (main_cst_14 : DevRef τ sig) = diagM 1 one) (h1b : W (main_cst_15 : DevRef τ sig) = diagM 1 one)
    (hU : W (main_v101 : DevRef τ sig) = diagM 4096 φ)
    (hE : W (main_v107 : DevRef τ sig) = diagM 2 one)
    (hL0 : W (main_v118 : DevRef τ sig) = diagM 64 (chain ((row0 3).take 6)))
    (hL1 : W (main_v119 : DevRef τ sig) = diagM 64 (chain ((row1 3).take 6))) :
    after (g3_hi (F := Ideal)) W (main_v133 : DevRef τ sig) = diagM 4096 (fun r => gd 3 r * φ r) := by
  simp only [g3_hi, g3_hi_a, g3_hi_b, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate3_val (W : Valuation τ sig (Elt Ideal)) (φ : ℕ → ℤ)
    (hZ : W (main_cst : DevRef τ sig) = diagM 2 zz) (hP0 : W (main_cst_12 : DevRef τ sig) = diagM 2 p0)
    (hP1 : W (main_cst_13 : DevRef τ sig) = diagM 2 p1)
    (h1a : W (main_cst_14 : DevRef τ sig) = diagM 1 one) (h1b : W (main_cst_15 : DevRef τ sig) = diagM 1 one)
    (hU : W (main_v101 : DevRef τ sig) = diagM 4096 φ) :
    after (gate3 (F := Ideal)) W (main_v133 : DevRef τ sig) = diagM 4096 (fun r => gd 3 r * φ r) := by
  show after (g3_eye ++ (g3_lo ++ g3_hi)) W _ = _
  rw [StableHlo.after_append, StableHlo.after_append]
  -- after the identity stage: the factors and the matrix built so far are untouched, the identity is in place
  have hZ1 := (g3_eye_writes.keep W (r := main_cst) (by decide)).trans hZ
  have hP01 := (g3_eye_writes.keep W (r := main_cst_12) (by decide)).trans hP0
  have hP11 := (g3_eye_writes.keep W (r := main_cst_13) (by decide)).trans hP1
  have h1a1 := (g3_eye_writes.keep W (r := main_cst_14) (by decide)).trans h1a
  have h1b1 := (g3_eye_writes.keep W (r := main_cst_15) (by decide)).trans h1b
  have hU1 := (g3_eye_writes.keep W (r := main_v101) (by decide)).trans hU
  have hE1 := g3_eye_val W φ hZ hP0 hP1 h1a h1b hU
  -- after levels 0 … 5: the same, and the two half-way chains are in place
  have hZ2 := (g3_lo_writes.keep (after g3_eye W) (r := main_cst) (by decide)).trans hZ1
  have hP02 := (g3_lo_writes.keep (after g3_eye W) (r := main_cst_12) (by decide)).trans hP01
  have hP12 := (g3_lo_writes.keep (after g3_eye W) (r := main_cst_13) (by decide)).trans hP11
  have h1a2 := (g3_lo_writes.keep (after g3_eye W) (r := main_cst_14) (by decide)).trans h1a1
  have h1b2 := (g3_lo_writes.keep (after g3_eye W) (r := main_cst_15) (by decide)).trans h1b1
  have hU2 := (g3_lo_writes.keep (after g3_eye W) (r := main_v101) (by decide)).trans hU1
  have hE2 := (g3_lo_writes.keep (after g3_eye W) (r := main_v107) (by decide)).trans hE1
  have hL0 := g3_lo_val0 (after g3_eye W) φ hZ1 hP01 hP11 h1a1 h1b1 hU1 hE1
  have hL1 := g3_lo_val1 (after g3_eye W) φ hZ1 hP01 hP11 h1a1 h1b1 hU1 hE1
  exact g3_hi_val (after g3_lo (after g3_eye W)) φ hZ2 hP02 hP12 h1a2 h1b2 hU2 hE2 hL0 hL1

end Cert.ReferenceIdeal.Gates

end
-- ==== Proof.Gate4.lean ====
/-
  Gate 4 of the ring: control wire 4, target wire 5. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g4_eye_val (W : Valuation τ sig (Elt Ideal)) (φ : ℕ → ℤ)
    (hZ : W (main_cst : DevRef τ sig) = diagM 2 zz) (hP0 : W (main_cst_16 : DevRef τ sig) = diagM 2 p0)
    (hP1 : W (main_cst_17 : DevRef τ sig) = diagM 2 p1)
    (h1a : W (main_cst_18 : DevRef τ sig) = diagM 1 one) (h1b : W (main_cst_19 : DevRef τ sig) = diagM 1 one)
    (hU : W (main_v133 : DevRef τ sig) = diagM 4096 φ) :
    after (g4_eye (F := Ideal)) W (main_v139 : DevRef τ sig) = diagM 2 one := by
  simp only [g4_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g4_lo_val0 (W : Valuation τ sig (Elt Ideal)) (φ : ℕ → ℤ)
    (hZ : W (main_cst : DevRef τ sig) = diagM 2 zz) (hP0 : W (main_cst_16 : DevRef τ sig) = diagM 2 p0)
    (hP1 : W (main_cst_17 : DevRef τ sig) = diagM 2 p1)
    (h1a : W (main_cst_18 : DevRef τ sig) = diagM 1 one) (h1b : W (main_cst_19 : DevRef τ sig) = diagM 1 one)
    (hU : W (main_v133 : DevRef τ sig) = diagM 4096 φ)
    (hE : W (main_v139 : DevRef τ sig) = diagM 2 one) :
    after (g4_lo (F := Ideal)) W (main_v150 : DevRef τ sig) = diagM 64 (chain ((row0 4).take 6)) := by
  simp only [g4_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g4_lo_val1 (W : Valuation τ sig (Elt Ideal)) (φ : ℕ → ℤ)
    (hZ : W (main_cst : DevRef τ sig) = diagM 2 zz) (hP0 : W (main_cst_16 : DevRef τ sig) = diagM 2 p0)
    (hP1 : W (main_cst_17 : DevRef τ sig) = diagM 2 p1)
    (h1a : W (main_cst_18 : DevRef τ sig) = diagM 1 one) (h1b : W (main_cst_19 : DevRef τ sig) = diagM 1 one)
    (hU : W (main_v133 : DevRef τ sig) = diagM 4096 φ)
    (hE : W (main_v139 : DevRef τ sig) = diagM 2 one) :
    after (g4_lo (F := Ideal)) W (main_v151 : DevRef τ sig) = diagM 64 (chain ((row1 4).take 6)) := by
  simp only [g4_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g4_hi_val (W : Valuation τ sig (Elt Ideal)) (φ : ℕ → ℤ)
    (hZ : W (main_cst : DevRef τ sig) = diagM 2 zz) (hP0 : W (main_cst_16 : DevRef τ sig) = diagM 2 p0)
    (hP1 : W (main_cst_17 : DevRef τ sig) = diagM 2 p1)
    (h1a : W (main_cst_18 : DevRef τ sig) = diagM 1 one) (h1b : W (main_cst_19 : DevRef τ sig) = diagM 1 one)
    (hU : W (main_v133 : DevRef τ sig) = diagM 4096 φ)
    (hE : W (main_v139 : DevRef τ sig) = diagM 2 one)
    (hL0 : W (main_v150 : DevRef τ sig) = diagM 64 (chain ((row0 4).take 6)))
    (hL1 : W (main_v151 : DevRef τ sig) = diagM 64 (chain ((row1 4).take 6))) :
    after (g4_hi (F := Ideal)) W (main_v165 : DevRef τ sig) = diagM 4096 (fun r => gd 4 r * φ r) := by
  simp only [g4_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate4_val (W : Valuation τ sig (Elt Ideal)) (φ : ℕ → ℤ)
    (hZ : W (main_cst : DevRef τ sig) = diagM 2 zz) (hP0 : W (main_cst_16 : DevRef τ sig) = diagM 2 p0)
    (hP1 : W (main_cst_17 : DevRef τ sig) = diagM 2 p1)
    (h1a : W (main_cst_18 : DevRef τ sig) = diagM 1 one) (h1b : W (main_cst_19 : DevRef τ sig) = diagM 1 one)
    (hU : W (main_v133 : DevRef τ sig) = diagM 4096 φ) :
    after (gate4 (F := Ideal)) W (main_v165 : DevRef τ sig) = diagM 4096 (fun r => gd 4 r * φ r) := by
  show after (g4_eye ++ (g4_lo ++ g4_hi)) W _ = _
  rw [StableHlo.after_append, StableHlo.after_append]
  -- after the identity stage: the factors and the matrix built so far are untouched, the identity is in place
  have hZ1 := (g4_eye_writes.keep W (r := main_cst) (by decide)).trans hZ
  have hP01 := (g4_eye_writes.keep W (r := main_cst_16) (by decide)).trans hP0
  have hP11 := (g4_eye_writes.keep W (r := main_cst_17) (by decide)).trans hP1
  have h1a1 := (g4_eye_writes.keep W (r := main_cst_18) (by decide)).trans h1a
  have h1b1 := (g4_eye_writes.keep W (r := main_cst_19) (by decide)).trans h1b
  have hU1 := (g4_eye_writes.keep W (r := main_v133) (by decide)).trans hU
  have hE1 := g4_eye_val W φ hZ hP0 hP1 h1a h1b hU
  -- after levels 0 … 5: the same, and the two half-way chains are in place
  have hZ2 := (g4_lo_writes.keep (after g4_eye W) (r := main_cst) (by decide)).trans hZ1
  have hP02 := (g4_lo_writes.keep (after g4_eye W) (r := main_cst_16) (by decide)).trans hP01
  have hP12 := (g4_lo_writes.keep (after g4_eye W) (r := main_cst_17) (by decide)).trans hP11
  have h1a2 := (g4_lo_writes.keep (after g4_eye W) (r := main_cst_18) (by decide)).trans h1a1
  have h1b2 := (g4_lo_writes.keep (after g4_eye W) (r := main_cst_19) (by decide)).trans h1b1
  have hU2 := (g4_lo_writes.keep (after g4_eye W) (r := main_v133) (by decide)).trans hU1
  have hE2 := (g4_lo_writes.keep (after g4_eye W) (r := main_v139) (by decide)).trans hE1
  have hL0 := g4_lo_val0 (after g4_eye W) φ hZ1 hP01 hP11 h1a1 h1b1 hU1 hE1
  have hL1 := g4_lo_val1 (after g4_eye W) φ hZ1 hP01 hP11 h1a1 h1b1 hU1 hE1
  exact g4_hi_val (after g4_lo (after g4_eye W)) φ hZ2 hP02 hP12 h1a2 h1b2 hU2 hE2 hL0 hL1

end Cert.ReferenceIdeal.Gates

end
-- ==== Proof.Gate5.lean ====
/-
  Gate 5 of the ring: control wire 5, target wire 6. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g5_eye_val (W : Valuation τ sig (Elt Ideal)) (φ : ℕ → ℤ)
    (hZ : W (main_cst : DevRef τ sig) = diagM 2 zz) (hP0 : W (main_cst_20 : DevRef τ sig) = diagM 2 p0)
    (hP1 : W (main_cst_21 : DevRef τ sig) = diagM 2 p1)
    (h1a : W (main_cst_22 : DevRef τ sig) = diagM 1 one) (h1b : W (main_cst_23 : DevRef τ sig) = diagM 1 one)
    (hU : W (main_v165 : DevRef τ sig) = diagM 4096 φ) :
    after (g5_eye (F := Ideal)) W (main_v171 : DevRef τ sig) = diagM 2 one := by
  simp only [g5_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g5_lo_val0 (W : Valuation τ sig (Elt Ideal)) (φ : ℕ → ℤ)
    (hZ : W (main_cst : DevRef τ sig) = diagM 2 zz) (hP0 : W (main_cst_20 : DevRef τ sig) = diagM 2 p0)
    (hP1 : W (main_cst_21 : DevRef τ sig) = diagM 2 p1)
    (h1a : W (main_cst_22 : DevRef τ sig) = diagM 1 one) (h1b : W (main_cst_23 : DevRef τ sig) = diagM 1 one)
    (hU : W (main_v165 : DevRef τ sig) = diagM 4096 φ)
    (hE : W (main_v171 : DevRef τ sig) = diagM 2 one) :
    after (g5_lo (F := Ideal)) W (main_v182 : DevRef τ sig) = diagM 64 (chain ((row0 5).take 6)) := by
  simp only [g5_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g5_lo_val1 (W : Valuation τ sig (Elt Ideal)) (φ : ℕ → ℤ)
    (hZ : W (main_cst : DevRef τ sig) = diagM 2 zz) (hP0 : W (main_cst_20 : DevRef τ sig) = diagM 2 p0)
    (hP1 : W (main_cst_21 : DevRef τ sig) = diagM 2 p1)
    (h1a : W (main_cst_22 : DevRef τ sig) = diagM 1 one) (h1b : W (main_cst_23 : DevRef τ sig) = diagM 1 one)
    (hU : W (main_v165 : DevRef τ sig) = diagM 4096 φ)
    (hE : W (main_v171 : DevRef τ sig) = diagM 2 one) :
    after (g5_lo (F := Ideal)) W (main_v183 : DevRef τ sig) = diagM 64 (chain ((row1 5).take 6)) := by
  simp only [g5_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g5_hi_val (W : Valuation τ sig (Elt Ideal)) (φ : ℕ → ℤ)
    (hZ : W (main_cst : DevRef τ sig) = diagM 2 zz) (hP0 : W (main_cst_20 : DevRef τ sig) = diagM 2 p0)
    (hP1 : W (main_cst_21 : DevRef τ sig) = diagM 2 p1)
    (h1a : W (main_cst_22 : DevRef τ sig) = diagM 1 one) (h1b : W (main_cst_23 : DevRef τ sig) = diagM 1 one)
    (hU : W (main_v165 : DevRef τ sig) = diagM 4096 φ)
    (hE : W (main_v171 : DevRef τ sig) = diagM 2 one)
    (hL0 : W (main_v182 : DevRef τ sig) = diagM 64 (chain ((row0 5).take 6)))
    (hL1 : W (main_v183 : DevRef τ sig) = diagM 64 (chain ((row1 5).take 6))) :
    after (g5_hi (F := Ideal)) W (main_v197 : DevRef τ sig) = diagM 4096 (fun r => gd 5 r * φ r) := by
  simp only [g5_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate5_val (W : Valuation τ sig (Elt Ideal)) (φ : ℕ → ℤ)
    (hZ : W (main_cst : DevRef τ sig) = diagM 2 zz) (hP0 : W (main_cst_20 : DevRef τ sig) = diagM 2 p0)
    (hP1 : W (main_cst_21 : DevRef τ sig) = diagM 2 p1)
    (h1a : W (main_cst_22 : DevRef τ sig) = diagM 1 one) (h1b : W (main_cst_23 : DevRef τ sig) = diagM 1 one)
    (hU : W (main_v165 : DevRef τ sig) = diagM 4096 φ) :
    after (gate5 (F := Ideal)) W (main_v197 : DevRef τ sig) = diagM 4096 (fun r => gd 5 r * φ r) := by
  show after (g5_eye ++ (g5_lo ++ g5_hi)) W _ = _
  rw [StableHlo.after_append, StableHlo.after_append]
  -- after the identity stage: the factors and the matrix built so far are untouched, the identity is in place
  have hZ1 := (g5_eye_writes.keep W (r := main_cst) (by decide)).trans hZ
  have hP01 := (g5_eye_writes.keep W (r := main_cst_20) (by decide)).trans hP0
  have hP11 := (g5_eye_writes.keep W (r := main_cst_21) (by decide)).trans hP1
  have h1a1 := (g5_eye_writes.keep W (r := main_cst_22) (by decide)).trans h1a
  have h1b1 := (g5_eye_writes.keep W (r := main_cst_23) (by decide)).trans h1b
  have hU1 := (g5_eye_writes.keep W (r := main_v165) (by decide)).trans hU
  have hE1 := g5_eye_val W φ hZ hP0 hP1 h1a h1b hU
  -- after levels 0 … 5: the same, and the two half-way chains are in place
  have hZ2 := (g5_lo_writes.keep (after g5_eye W) (r := main_cst) (by decide)).trans hZ1
  have hP02 := (g5_lo_writes.keep (after g5_eye W) (r := main_cst_20) (by decide)).trans hP01
  have hP12 := (g5_lo_writes.keep (after g5_eye W) (r := main_cst_21) (by decide)).trans hP11
  have h1a2 := (g5_lo_writes.keep (after g5_eye W) (r := main_cst_22) (by decide)).trans h1a1
  have h1b2 := (g5_lo_writes.keep (after g5_eye W) (r := main_cst_23) (by decide)).trans h1b1
  have hU2 := (g5_lo_writes.keep (after g5_eye W) (r := main_v165) (by decide)).trans hU1
  have hE2 := (g5_lo_writes.keep (after g5_eye W) (r := main_v171) (by decide)).trans hE1
  have hL0 := g5_lo_val0 (after g5_eye W) φ hZ1 hP01 hP11 h1a1 h1b1 hU1 hE1
  have hL1 := g5_lo_val1 (after g5_eye W) φ hZ1 hP01 hP11 h1a1 h1b1 hU1 hE1
  exact g5_hi_val (after g5_lo (after g5_eye W)) φ hZ2 hP02 hP12 h1a2 h1b2 hU2 hE2 hL0 hL1

end Cert.ReferenceIdeal.Gates

end
-- ==== Proof.Gate6.lean ====
/-
  Gate 6 of the ring: control wire 6, target wire 7. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g6_eye_val (W : Valuation τ sig (Elt Ideal)) (φ : ℕ → ℤ)
    (hZ : W (main_cst : DevRef τ sig) = diagM 2 zz) (hP0 : W (main_cst_24 : DevRef τ sig) = diagM 2 p0)
    (hP1 : W (main_cst_25 : DevRef τ sig) = diagM 2 p1)
    (h1a : W (main_cst_26 : DevRef τ sig) = diagM 1 one) (h1b : W (main_cst_27 : DevRef τ sig) = diagM 1 one)
    (hU : W (main_v197 : DevRef τ sig) = diagM 4096 φ) :
    after (g6_eye (F := Ideal)) W (main_v203 : DevRef τ sig) = diagM 2 one := by
  simp only [g6_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g6_lo_val0 (W : Valuation τ sig (Elt Ideal)) (φ : ℕ → ℤ)
    (hZ : W (main_cst : DevRef τ sig) = diagM 2 zz) (hP0 : W (main_cst_24 : DevRef τ sig) = diagM 2 p0)
    (hP1 : W (main_cst_25 : DevRef τ sig) = diagM 2 p1)
    (h1a : W (main_cst_26 : DevRef τ sig) = diagM 1 one) (h1b : W (main_cst_27 : DevRef τ sig) = diagM 1 one)
    (hU : W (main_v197 : DevRef τ sig) = diagM 4096 φ)
    (hE : W (main_v203 : DevRef τ sig) = diagM 2 one) :
    after (g6_lo (F := Ideal)) W (main_v214 : DevRef τ sig) = diagM 64 (chain ((row0 6).take 6)) := by
  simp only [g6_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g6_lo_val1 (W : Valuation τ sig (Elt Ideal)) (φ : ℕ → ℤ)
    (hZ : W (main_cst : DevRef τ sig) = diagM 2 zz) (hP0 : W (main_cst_24 : DevRef τ sig) = diagM 2 p0)
    (hP1 : W (main_cst_25 : DevRef τ sig) = diagM 2 p1)
    (h1a : W (main_cst_26 : DevRef τ sig) = diagM 1 one) (h1b : W (main_cst_27 : DevRef τ sig) = diagM 1 one)
    (hU : W (main_v197 : DevRef τ sig) = diagM 4096 φ)
    (hE : W (main_v203 : DevRef τ sig) = diagM 2 one) :
    after (g6_lo (F := Ideal)) W (main_v215 : DevRef τ sig) = diagM 64 (chain ((row1 6).take 6)) := by
  simp only [g6_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g6_hi_val (W : Valuation τ sig (Elt Ideal)) (φ : ℕ → ℤ)
    (hZ : W (main_cst : DevRef τ sig) = diagM 2 zz) (hP0 : W (main_cst_24 : DevRef τ sig) = diagM 2 p0)
    (hP1 : W (main_cst_25 : DevRef τ sig) = diagM 2 p1)
    (h1a : W (main_cst_26 : DevRef τ sig) = diagM 1 one) (h1b : W (main_cst_27 : DevRef τ sig) = diagM 1 one)
    (hU : W (main_v197 : DevRef τ sig) = diagM 4096 φ)
    (hE : W (main_v203 : DevRef τ sig) = diagM 2 one)
    (hL0 : W (main_v214 : DevRef τ sig) = diagM 64 (chain ((row0 6).take 6)))
    (hL1 : W (main_v215 : DevRef τ sig) = diagM 64 (chain ((row1 6).take 6))) :
    after (g6_hi (F := Ideal)) W (main_v229 : DevRef τ sig) = diagM 4096 (fun r => gd 6 r * φ r) := by
  simp only [g6_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate6_val (W : Valuation τ sig (Elt Ideal)) (φ : ℕ → ℤ)
    (hZ : W (main_cst : DevRef τ sig) = diagM 2 zz) (hP0 : W (main_cst_24 : DevRef τ sig) = diagM 2 p0)
    (hP1 : W (main_cst_25 : DevRef τ sig) = diagM 2 p1)
    (h1a : W (main_cst_26 : DevRef τ sig) = diagM 1 one) (h1b : W (main_cst_27 : DevRef τ sig) = diagM 1 one)
    (hU : W (main_v197 : DevRef τ sig) = diagM 4096 φ) :
    after (gate6 (F := Ideal)) W (main_v229 : DevRef τ sig) = diagM 4096 (fun r => gd 6 r * φ r) := by
  show after (g6_eye ++ (g6_lo ++ g6_hi)) W _ = _
  rw [StableHlo.after_append, StableHlo.after_append]
  -- after the identity stage: the factors and the matrix built so far are untouched, the identity is in place
  have hZ1 := (g6_eye_writes.keep W (r := main_cst) (by decide)).trans hZ
  have hP01 := (g6_eye_writes.keep W (r := main_cst_24) (by decide)).trans hP0
  have hP11 := (g6_eye_writes.keep W (r := main_cst_25) (by decide)).trans hP1
  have h1a1 := (g6_eye_writes.keep W (r := main_cst_26) (by decide)).trans h1a
  have h1b1 := (g6_eye_writes.keep W (r := main_cst_27) (by decide)).trans h1b
  have hU1 := (g6_eye_writes.keep W (r := main_v197) (by decide)).trans hU
  have hE1 := g6_eye_val W φ hZ hP0 hP1 h1a h1b hU
  -- after levels 0 … 5: the same, and the two half-way chains are in place
  have hZ2 := (g6_lo_writes.keep (after g6_eye W) (r := main_cst) (by decide)).trans hZ1
  have hP02 := (g6_lo_writes.keep (after g6_eye W) (r := main_cst_24) (by decide)).trans hP01
  have hP12 := (g6_lo_writes.keep (after g6_eye W) (r := main_cst_25) (by decide)).trans hP11
  have h1a2 := (g6_lo_writes.keep (after g6_eye W) (r := main_cst_26) (by decide)).trans h1a1
  have h1b2 := (g6_lo_writes.keep (after g6_eye W) (r := main_cst_27) (by decide)).trans h1b1
  have hU2 := (g6_lo_writes.keep (after g6_eye W) (r := main_v197) (by decide)).trans hU1
  have hE2 := (g6_lo_writes.keep (after g6_eye W) (r := main_v203) (by decide)).trans hE1
  have hL0 := g6_lo_val0 (after g6_eye W) φ hZ1 hP01 hP11 h1a1 h1b1 hU1 hE1
  have hL1 := g6_lo_val1 (after g6_eye W) φ hZ1 hP01 hP11 h1a1 h1b1 hU1 hE1
  exact g6_hi_val (after g6_lo (after g6_eye W)) φ hZ2 hP02 hP12 h1a2 h1b2 hU2 hE2 hL0 hL1

end Cert.ReferenceIdeal.Gates

end
-- ==== Proof.Gate7.lean ====
/-
  Gate 7 of the ring: control wire 7, target wire 8. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g7_eye_val (W : Valuation τ sig (Elt Ideal)) (φ : ℕ → ℤ)
    (hZ : W (main_cst : DevRef τ sig) = diagM 2 zz) (hP0 : W (main_cst_28 : DevRef τ sig) = diagM 2 p0)
    (hP1 : W (main_cst_29 : DevRef τ sig) = diagM 2 p1)
    (h1a : W (main_cst_30 : DevRef τ sig) = diagM 1 one) (h1b : W (main_cst_31 : DevRef τ sig) = diagM 1 one)
    (hU : W (main_v229 : DevRef τ sig) = diagM 4096 φ) :
    after (g7_eye (F := Ideal)) W (main_v235 : DevRef τ sig) = diagM 2 one := by
  simp only [g7_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g7_lo_val0 (W : Valuation τ sig (Elt Ideal)) (φ : ℕ → ℤ)
    (hZ : W (main_cst : DevRef τ sig) = diagM 2 zz) (hP0 : W (main_cst_28 : DevRef τ sig) = diagM 2 p0)
    (hP1 : W (main_cst_29 : DevRef τ sig) = diagM 2 p1)
    (h1a : W (main_cst_30 : DevRef τ sig) = diagM 1 one) (h1b : W (main_cst_31 : DevRef τ sig) = diagM 1 one)
    (hU : W (main_v229 : DevRef τ sig) = diagM 4096 φ)
    (hE : W (main_v235 : DevRef τ sig) = diagM 2 one) :
    after (g7_lo (F := Ideal)) W (main_v246 : DevRef τ sig) = diagM 64 (chain ((row0 7).take 6)) := by
  simp only [g7_lo, g7_lo_a, g7_lo_b, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g7_lo_val1 (W : Valuation τ sig (Elt Ideal)) (φ : ℕ → ℤ)
    (hZ : W (main_cst : DevRef τ sig) = diagM 2 zz) (hP0 : W (main_cst_28 : DevRef τ sig) = diagM 2 p0)
    (hP1 : W (main_cst_29 : DevRef τ sig) = diagM 2 p1)
    (h1a : W (main_cst_30 : DevRef τ sig) = diagM 1 one) (h1b : W (main_cst_31 : DevRef τ sig) = diagM 1 one)
    (hU : W (main_v229 : DevRef τ sig) = diagM 4096 φ)
    (hE : W (main_v235 : DevRef τ sig) = diagM 2 one) :
    after (g7_lo (F := Ideal)) W (main_v247 : DevRef τ sig) = diagM 64 (chain ((row1 7).take 6)) := by
  simp only [g7_lo, g7_lo_a, g7_lo_b, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g7_hi_val (W : Valuation τ sig (Elt Ideal)) (φ : ℕ → ℤ)
    (hZ : W (main_cst : DevRef τ sig) = diagM 2 zz) (hP0 : W (main_cst_28 : DevRef τ sig) = diagM 2 p0)
    (hP1 : W (main_cst_29 : DevRef τ sig) = diagM 2 p1)
    (h1a : W (main_cst_30 : DevRef τ sig) = diagM 1 one) (h1b : W (main_cst_31 : DevRef τ sig) = diagM 1 one)
    (hU : W (main_v229 : DevRef τ sig) = diagM 4096 φ)
    (hE : W (main_v235 : DevRef τ sig) = diagM 2 one)
    (hL0 : W (main_v246 : DevRef τ sig) = diagM 64 (chain ((row0 7).take 6)))
    (hL1 : W (main_v247 : DevRef τ sig) = diagM 64 (chain ((row1 7).take 6))) :
    after (g7_hi (F := Ideal)) W (main_v261 : DevRef τ sig) = diagM 4096 (fun r => gd 7 r * φ r) := by
  simp only [g7_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate7_val (W : Valuation τ sig (Elt Ideal)) (φ : ℕ → ℤ)
    (hZ : W (main_cst : DevRef τ sig) = diagM 2 zz) (hP0 : W (main_cst_28 : DevRef τ sig) = diagM 2 p0)
    (hP1 : W (main_cst_29 : DevRef τ sig) = diagM 2 p1)
    (h1a : W (main_cst_30 : DevRef τ sig) = diagM 1 one) (h1b : W (main_cst_31 : DevRef τ sig) = diagM 1 one)
    (hU : W (main_v229 : DevRef τ sig) = diagM 4096 φ) :
    after (gate7 (F := Ideal)) W (main_v261 : DevRef τ sig) = diagM 4096 (fun r => gd 7 r * φ r) := by
  show after (g7_eye ++ (g7_lo ++ g7_hi)) W _ = _
  rw [StableHlo.after_append, StableHlo.after_append]
  -- after the identity stage: the factors and the matrix built so far are untouched, the identity is in place
  have hZ1 := (g7_eye_writes.keep W (r := main_cst) (by decide)).trans hZ
  have hP01 := (g7_eye_writes.keep W (r := main_cst_28) (by decide)).trans hP0
  have hP11 := (g7_eye_writes.keep W (r := main_cst_29) (by decide)).trans hP1
  have h1a1 := (g7_eye_writes.keep W (r := main_cst_30) (by decide)).trans h1a
  have h1b1 := (g7_eye_writes.keep W (r := main_cst_31) (by decide)).trans h1b
  have hU1 := (g7_eye_writes.keep W (r := main_v229) (by decide)).trans hU
  have hE1 := g7_eye_val W φ hZ hP0 hP1 h1a h1b hU
  -- after levels 0 … 5: the same, and the two half-way chains are in place
  have hZ2 := (g7_lo_writes.keep (after g7_eye W) (r := main_cst) (by decide)).trans hZ1
  have hP02 := (g7_lo_writes.keep (after g7_eye W) (r := main_cst_28) (by decide)).trans hP01
  have hP12 := (g7_lo_writes.keep (after g7_eye W) (r := main_cst_29) (by decide)).trans hP11
  have h1a2 := (g7_lo_writes.keep (after g7_eye W) (r := main_cst_30) (by decide)).trans h1a1
  have h1b2 := (g7_lo_writes.keep (after g7_eye W) (r := main_cst_31) (by decide)).trans h1b1
  have hU2 := (g7_lo_writes.keep (after g7_eye W) (r := main_v229) (by decide)).trans hU1
  have hE2 := (g7_lo_writes.keep (after g7_eye W) (r := main_v235) (by decide)).trans hE1
  have hL0 := g7_lo_val0 (after g7_eye W) φ hZ1 hP01 hP11 h1a1 h1b1 hU1 hE1
  have hL1 := g7_lo_val1 (after g7_eye W) φ hZ1 hP01 hP11 h1a1 h1b1 hU1 hE1
  exact g7_hi_val (after g7_lo (after g7_eye W)) φ hZ2 hP02 hP12 h1a2 h1b2 hU2 hE2 hL0 hL1

end Cert.ReferenceIdeal.Gates

end
-- ==== Proof.Gate8.lean ====
/-
  Gate 8 of the ring: control wire 8, target wire 9. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g8_eye_val (W : Valuation τ sig (Elt Ideal)) (φ : ℕ → ℤ)
    (hZ : W (main_cst : DevRef τ sig) = diagM 2 zz) (hP0 : W (main_cst_32 : DevRef τ sig) = diagM 2 p0)
    (hP1 : W (main_cst_33 : DevRef τ sig) = diagM 2 p1)
    (h1a : W (main_cst_34 : DevRef τ sig) = diagM 1 one) (h1b : W (main_cst_35 : DevRef τ sig) = diagM 1 one)
    (hU : W (main_v261 : DevRef τ sig) = diagM 4096 φ) :
    after (g8_eye (F := Ideal)) W (main_v267 : DevRef τ sig) = diagM 2 one := by
  simp only [g8_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g8_lo_val0 (W : Valuation τ sig (Elt Ideal)) (φ : ℕ → ℤ)
    (hZ : W (main_cst : DevRef τ sig) = diagM 2 zz) (hP0 : W (main_cst_32 : DevRef τ sig) = diagM 2 p0)
    (hP1 : W (main_cst_33 : DevRef τ sig) = diagM 2 p1)
    (h1a : W (main_cst_34 : DevRef τ sig) = diagM 1 one) (h1b : W (main_cst_35 : DevRef τ sig) = diagM 1 one)
    (hU : W (main_v261 : DevRef τ sig) = diagM 4096 φ)
    (hE : W (main_v267 : DevRef τ sig) = diagM 2 one) :
    after (g8_lo (F := Ideal)) W (main_v278 : DevRef τ sig) = diagM 64 (chain ((row0 8).take 6)) := by
  simp only [g8_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g8_lo_val1 (W : Valuation τ sig (Elt Ideal)) (φ : ℕ → ℤ)
    (hZ : W (main_cst : DevRef τ sig) = diagM 2 zz) (hP0 : W (main_cst_32 : DevRef τ sig) = diagM 2 p0)
    (hP1 : W (main_cst_33 : DevRef τ sig) = diagM 2 p1)
    (h1a : W (main_cst_34 : DevRef τ sig) = diagM 1 one) (h1b : W (main_cst_35 : DevRef τ sig) = diagM 1 one)
    (hU : W (main_v261 : DevRef τ sig) = diagM 4096 φ)
    (hE : W (main_v267 : DevRef τ sig) = diagM 2 one) :
    after (g8_lo (F := Ideal)) W (main_v279 : DevRef τ sig) = diagM 64 (chain ((row1 8).take 6)) := by
  simp only [g8_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g8_hi_val (W : Valuation τ sig (Elt Ideal)) (φ : ℕ → ℤ)
    (hZ : W (main_cst : DevRef τ sig) = diagM 2 zz) (hP0 : W (main_cst_32 : DevRef τ sig) = diagM 2 p0)
    (hP1 : W (main_cst_33 : DevRef τ sig) = diagM 2 p1)
    (h1a : W (main_cst_34 : DevRef τ sig) = diagM 1 one) (h1b : W (main_cst_35 : DevRef τ sig) = diagM 1 one)
    (hU : W (main_v261 : DevRef τ sig) = diagM 4096 φ)
    (hE : W (main_v267 : DevRef τ sig) = diagM 2 one)
    (hL0 : W (main_v278 : DevRef τ sig) = diagM 64 (chain ((row0 8).take 6)))
    (hL1 : W (main_v279 : DevRef τ sig) = diagM 64 (chain ((row1 8).take 6))) :
    after (g8_hi (F := Ideal)) W (main_v293 : DevRef τ sig) = diagM 4096 (fun r => gd 8 r * φ r) := by
  simp only [g8_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate8_val (W : Valuation τ sig (Elt Ideal)) (φ : ℕ → ℤ)
    (hZ : W (main_cst : DevRef τ sig) = diagM 2 zz) (hP0 : W (main_cst_32 : DevRef τ sig) = diagM 2 p0)
    (hP1 : W (main_cst_33 : DevRef τ sig) = diagM 2 p1)
    (h1a : W (main_cst_34 : DevRef τ sig) = diagM 1 one) (h1b : W (main_cst_35 : DevRef τ sig) = diagM 1 one)
    (hU : W (main_v261 : DevRef τ sig) = diagM 4096 φ) :
    after (gate8 (F := Ideal)) W (main_v293 : DevRef τ sig) = diagM 4096 (fun r => gd 8 r * φ r) := by
  show after (g8_eye ++ (g8_lo ++ g8_hi)) W _ = _
  rw [StableHlo.after_append, StableHlo.after_append]
  -- after the identity stage: the factors and the matrix built so far are untouched, the identity is in place
  have hZ1 := (g8_eye_writes.keep W (r := main_cst) (by decide)).trans hZ
  have hP01 := (g8_eye_writes.keep W (r := main_cst_32) (by decide)).trans hP0
  have hP11 := (g8_eye_writes.keep W (r := main_cst_33) (by decide)).trans hP1
  have h1a1 := (g8_eye_writes.keep W (r := main_cst_34) (by decide)).trans h1a
  have h1b1 := (g8_eye_writes.keep W (r := main_cst_35) (by decide)).trans h1b
  have hU1 := (g8_eye_writes.keep W (r := main_v261) (by decide)).trans hU
  have hE1 := g8_eye_val W φ hZ hP0 hP1 h1a h1b hU
  -- after levels 0 … 5: the same, and the two half-way chains are in place
  have hZ2 := (g8_lo_writes.keep (after g8_eye W) (r := main_cst) (by decide)).trans hZ1
  have hP02 := (g8_lo_writes.keep (after g8_eye W) (r := main_cst_32) (by decide)).trans hP01
  have hP12 := (g8_lo_writes.keep (after g8_eye W) (r := main_cst_33) (by decide)).trans hP11
  have h1a2 := (g8_lo_writes.keep (after g8_eye W) (r := main_cst_34) (by decide)).trans h1a1
  have h1b2 := (g8_lo_writes.keep (after g8_eye W) (r := main_cst_35) (by decide)).trans h1b1
  have hU2 := (g8_lo_writes.keep (after g8_eye W) (r := main_v261) (by decide)).trans hU1
  have hE2 := (g8_lo_writes.keep (after g8_eye W) (r := main_v267) (by decide)).trans hE1
  have hL0 := g8_lo_val0 (after g8_eye W) φ hZ1 hP01 hP11 h1a1 h1b1 hU1 hE1
  have hL1 := g8_lo_val1 (after g8_eye W) φ hZ1 hP01 hP11 h1a1 h1b1 hU1 hE1
  exact g8_hi_val (after g8_lo (after g8_eye W)) φ hZ2 hP02 hP12 h1a2 h1b2 hU2 hE2 hL0 hL1

end Cert.ReferenceIdeal.Gates

end
-- ==== Proof.Gate9.lean ====
/-
  Gate 9 of the ring: control wire 9, target wire 10. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g9_eye_val (W : Valuation τ sig (Elt Ideal)) (φ : ℕ → ℤ)
    (hZ : W (main_cst : DevRef τ sig) = diagM 2 zz) (hP0 : W (main_cst_36 : DevRef τ sig) = diagM 2 p0)
    (hP1 : W (main_cst_37 : DevRef τ sig) = diagM 2 p1)
    (h1a : W (main_cst_38 : DevRef τ sig) = diagM 1 one) (h1b : W (main_cst_39 : DevRef τ sig) = diagM 1 one)
    (hU : W (main_v293 : DevRef τ sig) = diagM 4096 φ) :
    after (g9_eye (F := Ideal)) W (main_v299 : DevRef τ sig) = diagM 2 one := by
  simp only [g9_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g9_lo_val0 (W : Valuation τ sig (Elt Ideal)) (φ : ℕ → ℤ)
    (hZ : W (main_cst : DevRef τ sig) = diagM 2 zz) (hP0 : W (main_cst_36 : DevRef τ sig) = diagM 2 p0)
    (hP1 : W (main_cst_37 : DevRef τ sig) = diagM 2 p1)
    (h1a : W (main_cst_38 : DevRef τ sig) = diagM 1 one) (h1b : W (main_cst_39 : DevRef τ sig) = diagM 1 one)
    (hU : W (main_v293 : DevRef τ sig) = diagM 4096 φ)
    (hE : W (main_v299 : DevRef τ sig) = diagM 2 one) :
    after (g9_lo (F := Ideal)) W (main_v310 : DevRef τ sig) = diagM 64 (chain ((row0 9).take 6)) := by
  simp only [g9_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g9_lo_val1 (W : Valuation τ sig (Elt Ideal)) (φ : ℕ → ℤ)
    (hZ : W (main_cst : DevRef τ sig) = diagM 2 zz) (hP0 : W (main_cst_36 : DevRef τ sig) = diagM 2 p0)
    (hP1 : W (main_cst_37 : DevRef τ sig) = diagM 2 p1)
    (h1a : W (main_cst_38 : DevRef τ sig) = diagM 1 one) (h1b : W (main_cst_39 : DevRef τ sig) = diagM 1 one)
    (hU : W (main_v293 : DevRef τ sig) = diagM 4096 φ)
    (hE : W (main_v299 : DevRef τ sig) = diagM 2 one) :
    after (g9_lo (F := Ideal)) W (main_v311 : DevRef τ sig) = diagM 64 (chain ((row1 9).take 6)) := by
  simp only [g9_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g9_hi_val (W : Valuation τ sig (Elt Ideal)) (φ : ℕ → ℤ)
    (hZ : W (main_cst : DevRef τ sig) = diagM 2 zz) (hP0 : W (main_cst_36 : DevRef τ sig) = diagM 2 p0)
    (hP1 : W (main_cst_37 : DevRef τ sig) = diagM 2 p1)
    (h1a : W (main_cst_38 : DevRef τ sig) = diagM 1 one) (h1b : W (main_cst_39 : DevRef τ sig) = diagM 1 one)
    (hU : W (main_v293 : DevRef τ sig) = diagM 4096 φ)
    (hE : W (main_v299 : DevRef τ sig) = diagM 2 one)
    (hL0 : W (main_v310 : DevRef τ sig) = diagM 64 (chain ((row0 9).take 6)))
    (hL1 : W (main_v311 : DevRef τ sig) = diagM 64 (chain ((row1 9).take 6))) :
    after (g9_hi (F := Ideal)) W (main_v325 : DevRef τ sig) = diagM 4096 (fun r => gd 9 r * φ r) := by
  simp only [g9_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate9_val (W : Valuation τ sig (Elt Ideal)) (φ : ℕ → ℤ)
    (hZ : W (main_cst : DevRef τ sig) = diagM 2 zz) (hP0 : W (main_cst_36 : DevRef τ sig) = diagM 2 p0)
    (hP1 : W (main_cst_37 : DevRef τ sig) = diagM 2 p1)
    (h1a : W (main_cst_38 : DevRef τ sig) = diagM 1 one) (h1b : W (main_cst_39 : DevRef τ sig) = diagM 1 one)
    (hU : W (main_v293 : DevRef τ sig) = diagM 4096 φ) :
    after (gate9 (F := Ideal)) W (main_v325 : DevRef τ sig) = diagM 4096 (fun r => gd 9 r * φ r) := by
  show after (g9_eye ++ (g9_lo ++ g9_hi)) W _ = _
  rw [StableHlo.after_append, StableHlo.after_append]
  -- after the identity stage: the factors and the matrix built so far are untouched, the identity is in place
  have hZ1 := (g9_eye_writes.keep W (r := main_cst) (by decide)).trans hZ
  have hP01 := (g9_eye_writes.keep W (r := main_cst_36) (by decide)).trans hP0
  have hP11 := (g9_eye_writes.keep W (r := main_cst_37) (by decide)).trans hP1
  have h1a1 := (g9_eye_writes.keep W (r := main_cst_38) (by decide)).trans h1a
  have h1b1 := (g9_eye_writes.keep W (r := main_cst_39) (by decide)).trans h1b
  have hU1 := (g9_eye_writes.keep W (r := main_v293) (by decide)).trans hU
  have hE1 := g9_eye_val W φ hZ hP0 hP1 h1a h1b hU
  -- after levels 0 … 5: the same, and the two half-way chains are in place
  have hZ2 := (g9_lo_writes.keep (after g9_eye W) (r := main_cst) (by decide)).trans hZ1
  have hP02 := (g9_lo_writes.keep (after g9_eye W) (r := main_cst_36) (by decide)).trans hP01
  have hP12 := (g9_lo_writes.keep (after g9_eye W) (r := main_cst_37) (by decide)).trans hP11
  have h1a2 := (g9_lo_writes.keep (after g9_eye W) (r := main_cst_38) (by decide)).trans h1a1
  have h1b2 := (g9_lo_writes.keep (after g9_eye W) (r := main_cst_39) (by decide)).trans h1b1
  have hU2 := (g9_lo_writes.keep (after g9_eye W) (r := main_v293) (by decide)).trans hU1
  have hE2 := (g9_lo_writes.keep (after g9_eye W) (r := main_v299) (by decide)).trans hE1
  have hL0 := g9_lo_val0 (after g9_eye W) φ hZ1 hP01 hP11 h1a1 h1b1 hU1 hE1
  have hL1 := g9_lo_val1 (after g9_eye W) φ hZ1 hP01 hP11 h1a1 h1b1 hU1 hE1
  exact g9_hi_val (after g9_lo (after g9_eye W)) φ hZ2 hP02 hP12 h1a2 h1b2 hU2 hE2 hL0 hL1

end Cert.ReferenceIdeal.Gates

end
-- ==== Proof.Gate10.lean ====
/-
  Gate 10 of the ring: control wire 10, target wire 11. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g10_eye_val (W : Valuation τ sig (Elt Ideal)) (φ : ℕ → ℤ)
    (hZ : W (main_cst : DevRef τ sig) = diagM 2 zz) (hP0 : W (main_cst_40 : DevRef τ sig) = diagM 2 p0)
    (hP1 : W (main_cst_41 : DevRef τ sig) = diagM 2 p1)
    (h1a : W (main_cst_42 : DevRef τ sig) = diagM 1 one) (h1b : W (main_cst_43 : DevRef τ sig) = diagM 1 one)
    (hU : W (main_v325 : DevRef τ sig) = diagM 4096 φ) :
    after (g10_eye (F := Ideal)) W (main_v331 : DevRef τ sig) = diagM 2 one := by
  simp only [g10_eye, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g10_lo_val0 (W : Valuation τ sig (Elt Ideal)) (φ : ℕ → ℤ)
    (hZ : W (main_cst : DevRef τ sig) = diagM 2 zz) (hP0 : W (main_cst_40 : DevRef τ sig) = diagM 2 p0)
    (hP1 : W (main_cst_41 : DevRef τ sig) = diagM 2 p1)
    (h1a : W (main_cst_42 : DevRef τ sig) = diagM 1 one) (h1b : W (main_cst_43 : DevRef τ sig) = diagM 1 one)
    (hU : W (main_v325 : DevRef τ sig) = diagM 4096 φ)
    (hE : W (main_v331 : DevRef τ sig) = diagM 2 one) :
    after (g10_lo (F := Ideal)) W (main_v342 : DevRef τ sig) = diagM 64 (chain ((row0 10).take 6)) := by
  simp only [g10_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g10_lo_val1 (W : Valuation τ sig (Elt Ideal)) (φ : ℕ → ℤ)
    (hZ : W (main_cst : DevRef τ sig) = diagM 2 zz) (hP0 : W (main_cst_40 : DevRef τ sig) = diagM 2 p0)
    (hP1 : W (main_cst_41 : DevRef τ sig) = diagM 2 p1)
    (h1a : W (main_cst_42 : DevRef τ sig) = diagM 1 one) (h1b : W (main_cst_43 : DevRef τ sig) = diagM 1 one)
    (hU : W (main_v325 : DevRef τ sig) = diagM 4096 φ)
    (hE : W (main_v331 : DevRef τ sig) = diagM 2 one) :
    after (g10_lo (F := Ideal)) W (main_v343 : DevRef τ sig) = diagM 64 (chain ((row1 10).take 6)) := by
  simp only [g10_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g10_hi_val (W : Valuation τ sig (Elt Ideal)) (φ : ℕ → ℤ)
    (hZ : W (main_cst : DevRef τ sig) = diagM 2 zz) (hP0 : W (main_cst_40 : DevRef τ sig) = diagM 2 p0)
    (hP1 : W (main_cst_41 : DevRef τ sig) = diagM 2 p1)
    (h1a : W (main_cst_42 : DevRef τ sig) = diagM 1 one) (h1b : W (main_cst_43 : DevRef τ sig) = diagM 1 one)
    (hU : W (main_v325 : DevRef τ sig) = diagM 4096 φ)
    (hE : W (main_v331 : DevRef τ sig) = diagM 2 one)
    (hL0 : W (main_v342 : DevRef τ sig) = diagM 64 (chain ((row0 10).take 6)))
    (hL1 : W (main_v343 : DevRef τ sig) = diagM 64 (chain ((row1 10).take 6))) :
    after (g10_hi (F := Ideal)) W (main_v357 : DevRef τ sig) = diagM 4096 (fun r => gd 10 r * φ r) := by
  simp only [g10_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate10_val (W : Valuation τ sig (Elt Ideal)) (φ : ℕ → ℤ)
    (hZ : W (main_cst : DevRef τ sig) = diagM 2 zz) (hP0 : W (main_cst_40 : DevRef τ sig) = diagM 2 p0)
    (hP1 : W (main_cst_41 : DevRef τ sig) = diagM 2 p1)
    (h1a : W (main_cst_42 : DevRef τ sig) = diagM 1 one) (h1b : W (main_cst_43 : DevRef τ sig) = diagM 1 one)
    (hU : W (main_v325 : DevRef τ sig) = diagM 4096 φ) :
    after (gate10 (F := Ideal)) W (main_v357 : DevRef τ sig) = diagM 4096 (fun r => gd 10 r * φ r) := by
  show after (g10_eye ++ (g10_lo ++ g10_hi)) W _ = _
  rw [StableHlo.after_append, StableHlo.after_append]
  -- after the identity stage: the factors and the matrix built so far are untouched, the identity is in place
  have hZ1 := (g10_eye_writes.keep W (r := main_cst) (by decide)).trans hZ
  have hP01 := (g10_eye_writes.keep W (r := main_cst_40) (by decide)).trans hP0
  have hP11 := (g10_eye_writes.keep W (r := main_cst_41) (by decide)).trans hP1
  have h1a1 := (g10_eye_writes.keep W (r := main_cst_42) (by decide)).trans h1a
  have h1b1 := (g10_eye_writes.keep W (r := main_cst_43) (by decide)).trans h1b
  have hU1 := (g10_eye_writes.keep W (r := main_v325) (by decide)).trans hU
  have hE1 := g10_eye_val W φ hZ hP0 hP1 h1a h1b hU
  -- after levels 0 … 5: the same, and the two half-way chains are in place
  have hZ2 := (g10_lo_writes.keep (after g10_eye W) (r := main_cst) (by decide)).trans hZ1
  have hP02 := (g10_lo_writes.keep (after g10_eye W) (r := main_cst_40) (by decide)).trans hP01
  have hP12 := (g10_lo_writes.keep (after g10_eye W) (r := main_cst_41) (by decide)).trans hP11
  have h1a2 := (g10_lo_writes.keep (after g10_eye W) (r := main_cst_42) (by decide)).trans h1a1
  have h1b2 := (g10_lo_writes.keep (after g10_eye W) (r := main_cst_43) (by decide)).trans h1b1
  have hU2 := (g10_lo_writes.keep (after g10_eye W) (r := main_v325) (by decide)).trans hU1
  have hE2 := (g10_lo_writes.keep (after g10_eye W) (r := main_v331) (by decide)).trans hE1
  have hL0 := g10_lo_val0 (after g10_eye W) φ hZ1 hP01 hP11 h1a1 h1b1 hU1 hE1
  have hL1 := g10_lo_val1 (after g10_eye W) φ hZ1 hP01 hP11 h1a1 h1b1 hU1 hE1
  exact g10_hi_val (after g10_lo (after g10_eye W)) φ hZ2 hP02 hP12 h1a2 h1b2 hU2 hE2 hL0 hL1

end Cert.ReferenceIdeal.Gates

end
-- ==== Proof.Gate11.lean ====
/-
  Gate 11 of the ring: control wire 11, target wire 0. Its matrix is the sum of two Kronecker chains of twelve 2×2 diagonal
  factors, hence diagonal, and multiplying the matrix built so far by it multiplies the diagonals entry by entry.

  The gate runs in three stages. The first builds the 2×2 identity (row index = column index, as a float). The second
  runs levels 0 … 5 of both chains: each level is one Kronecker product of the chain so far (1×1 at level 0, then 2×2,
  4×4, …) with the level's 2×2 factor, and the Kronecker product of diagonal matrices with diagonals a and b is diagonal
  with diagonal r ↦ a(r / 2) · b(r % 2); after six levels each chain is the 64×64 diagonal matrix of the chain of its
  first six factors. The third stage runs levels 6 … 11 the same way, to the 4096×4096 diagonal matrices of the two full
  chains, adds them (diagonals add) and multiplies the sum with the matrix built so far (diagonals multiply). A stage
  leaves alone every buffer it does not write, so the factors, the identity and the half-way chains are still in place
  when the next stage reads them.
-/
import proofs.«402948_j20624432956334_3_alg».proof.Proof.RefWrites
import proofs.«402948_j20624432956334_3_alg».proof.Proof.Diag
import proofs.«402948_j20624432956334_3_alg».proof.Proof.DiagKron
import proofs.«402948_j20624432956334_3_alg».proof.Proof.RefDot

noncomputable section

namespace Cert.ReferenceIdeal.Gates

open Cert.ReferenceIdeal Cert.ReferenceIdeal.Gen Cert.ReferenceIdeal.Ops Cert.ReferenceIdeal.Writes Cert.CZ
open Idealize.ShloMosaic Idealize.ShloMosaic.TcCoe Idealize.SL.Sem Idealize.ShloMosaic.StableHlo

/-- THE IDENTITY FACTOR: the gate's 2×2 matrix with a one where the row index equals the column index is the diagonal
    matrix of the constant-one diagonal. -/
theorem g11_eye_val (W : Valuation τ sig (Elt Ideal)) (φ : ℕ → ℤ)
    (hZ : W (main_cst : DevRef τ sig) = diagM 2 zz) (hP0 : W (main_cst_44 : DevRef τ sig) = diagM 2 p0)
    (hP1 : W (main_cst_45 : DevRef τ sig) = diagM 2 p1)
    (h1a : W (main_cst_46 : DevRef τ sig) = diagM 1 one) (h1b : W (main_cst_47 : DevRef τ sig) = diagM 1 one)
    (hU : W (main_v357 : DevRef τ sig) = diagM 4096 φ) :
    after (g11_eye (F := Ideal)) W (main_v363 : DevRef τ sig) = diagM 2 one := by
  simp only [g11_eye, g11_eye_a, g11_eye_b, List.cons_append, List.nil_append, List.append_assoc]
  after_results_simp
  exact eye_diag 2 (by decide) _

set_option maxRecDepth 65536 in
set_option maxHeartbeats 4000000 in
/-- LEVELS 0 … 5 OF THE FIRST CHAIN: six Kronecker products from the 1×1 one, each with a diagonal 2×2 factor, give the
    64×64 diagonal matrix whose diagonal is the chain of the first six factors of the gate's first row. -/
theorem g11_lo_val0 (W : Valuation τ sig (Elt Ideal)) (φ : ℕ → ℤ)
    (hZ : W (main_cst : DevRef τ sig) = diagM 2 zz) (hP0 : W (main_cst_44 : DevRef τ sig) = diagM 2 p0)
    (hP1 : W (main_cst_45 : DevRef τ sig) = diagM 2 p1)
    (h1a : W (main_cst_46 : DevRef τ sig) = diagM 1 one) (h1b : W (main_cst_47 : DevRef τ sig) = diagM 1 one)
    (hU : W (main_v357 : DevRef τ sig) = diagM 4096 φ)
    (hE : W (main_v363 : DevRef τ sig) = diagM 2 one) :
    after (g11_lo (F := Ideal)) W (main_v374 : DevRef τ sig) = diagM 64 (chain ((row0 11).take 6)) := by
  simp only [g11_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 4000000 in
/-- LEVELS 0 … 5 OF THE SECOND CHAIN: the same for the gate's second row. -/
theorem g11_lo_val1 (W : Valuation τ sig (Elt Ideal)) (φ : ℕ → ℤ)
    (hZ : W (main_cst : DevRef τ sig) = diagM 2 zz) (hP0 : W (main_cst_44 : DevRef τ sig) = diagM 2 p0)
    (hP1 : W (main_cst_45 : DevRef τ sig) = diagM 2 p1)
    (h1a : W (main_cst_46 : DevRef τ sig) = diagM 1 one) (h1b : W (main_cst_47 : DevRef τ sig) = diagM 1 one)
    (hU : W (main_v357 : DevRef τ sig) = diagM 4096 φ)
    (hE : W (main_v363 : DevRef τ sig) = diagM 2 one) :
    after (g11_lo (F := Ideal)) W (main_v375 : DevRef τ sig) = diagM 64 (chain ((row1 11).take 6)) := by
  simp only [g11_lo, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE]
  erw [kron5_diag, kron6_diag, kron6_diag, kron6_diag, kron6_diag, kron6_diag]
  rfl

set_option maxRecDepth 65536 in
set_option maxHeartbeats 8000000 in
/-- LEVELS 6 … 11, THE SUM AND THE PRODUCT: six more Kronecker products take each 64×64 half-way chain to the 4096×4096
    diagonal matrix of the full chain (folding the remaining six factors on is the chain of all twelve); the sum of the
    two is the diagonal matrix of the gate's diagonal, and its product with the diagonal matrix built so far has the
    entrywise product of the two diagonals. -/
theorem g11_hi_val (W : Valuation τ sig (Elt Ideal)) (φ : ℕ → ℤ)
    (hZ : W (main_cst : DevRef τ sig) = diagM 2 zz) (hP0 : W (main_cst_44 : DevRef τ sig) = diagM 2 p0)
    (hP1 : W (main_cst_45 : DevRef τ sig) = diagM 2 p1)
    (h1a : W (main_cst_46 : DevRef τ sig) = diagM 1 one) (h1b : W (main_cst_47 : DevRef τ sig) = diagM 1 one)
    (hU : W (main_v357 : DevRef τ sig) = diagM 4096 φ)
    (hE : W (main_v363 : DevRef τ sig) = diagM 2 one)
    (hL0 : W (main_v374 : DevRef τ sig) = diagM 64 (chain ((row0 11).take 6)))
    (hL1 : W (main_v375 : DevRef τ sig) = diagM 64 (chain ((row1 11).take 6))) :
    after (g11_hi (F := Ideal)) W (main_v389 : DevRef τ sig) = diagM 4096 (fun r => gd 11 r * φ r) := by
  simp only [g11_hi, kronOps_kron, kronOps_kron_0, kronOps_kron_1, kronOps_kron_2, kronOps_kron_3, kronOps_kron_4, kronOps_kron_5, kronOps_kron_6, kronOps_kron_7, kronOps_kron_8, kronOps_kron_9, kronOps_kron_10, kronOps_kron_11, kronOps_kron_12, kronOps_kron_13, kronOps_kron_14, kronOps_kron_15, kronOps_kron_16, kronOps_kron_17, kronOps_kron_18, kronOps_kron_19, kronOps_kron_20, kronOps_kron_21, kronOps_kron_22,
    List.cons_append, List.nil_append, List.append_assoc]
  after_results_simp
  simp only [TRef.ofBuf, TRef.toBuf, cast_eq]
  simp only [hZ, hP0, hP1, h1a, h1b, hU, hE, hL0, hL1]
  repeat erw [kron6_diag]
  erw [add_diag, dotUU]
  rfl

set_option maxRecDepth 65536 in
set_option maxHeartbeats 4000000 in
/-- THE GATE: its three stages in turn. Each stage reads the factors, the identity and the earlier stage's results where
    the earlier stages left them, because no later stage writes those buffers. -/
theorem gate11_val (W : Valuation τ sig (Elt Ideal)) (φ : ℕ → ℤ)
    (hZ : W (main_cst : DevRef τ sig) = diagM 2 zz) (hP0 : W (main_cst_44 : DevRef τ sig) = diagM 2 p0)
    (hP1 : W (main_cst_45 : DevRef τ sig) = diagM 2 p1)
    (h1a : W (main_cst_46 : DevRef τ sig) = diagM 1 one) (h1b : W (main_cst_47 : DevRef τ sig) = diagM 1 one)
    (hU : W (main_v357 : DevRef τ sig) = diagM 4096 φ) :
    after (gate11 (F := Ideal)) W (main_v389 : DevRef τ sig) = diagM 4096 (fun r => gd 11 r * φ r) := by
  show after (g11_eye ++ (g11_lo ++ g11_hi)) W _ = _
  rw [StableHlo.after_append, StableHlo.after_append]
  -- after the identity stage: the factors and the matrix built so far are untouched, the identity is in place
  have hZ1 := (g11_eye_writes.keep W (r := main_cst) (by decide)).trans hZ
  have hP01 := (g11_eye_writes.keep W (r := main_cst_44) (by decide)).trans hP0
  have hP11 := (g11_eye_writes.keep W (r := main_cst_45) (by decide)).trans hP1
  have h1a1 := (g11_eye_writes.keep W (r := main_cst_46) (by decide)).trans h1a
  have h1b1 := (g11_eye_writes.keep W (r := main_cst_47) (by decide)).trans h1b
  have hU1 := (g11_eye_writes.keep W (r := main_v357) (by decide)).trans hU
  have hE1 := g11_eye_val W φ hZ hP0 hP1 h1a h1b hU
  -- after levels 0 … 5: the same, and the two half-way chains are in place
  have hZ2 := (g11_lo_writes.keep (after g11_eye W) (r := main_cst) (by decide)).trans hZ1
  have hP02 := (g11_lo_writes.keep (after g11_eye W) (r := main_cst_44) (by decide)).trans hP01
  have hP12 := (g11_lo_writes.keep (after g11_eye W) (r := main_cst_45) (by decide)).trans hP11
  have h1a2 := (g11_lo_writes.keep (after g11_eye W) (r := main_cst_46) (by decide)).trans h1a1
  have h1b2 := (g11_lo_writes.keep (after g11_eye W) (r := main_cst_47) (by decide)).trans h1b1
  have hU2 := (g11_lo_writes.keep (after g11_eye W) (r := main_v357) (by decide)).trans hU1
  have hE2 := (g11_lo_writes.keep (after g11_eye W) (r := main_v363) (by decide)).trans hE1
  have hL0 := g11_lo_val0 (after g11_eye W) φ hZ1 hP01 hP11 h1a1 h1b1 hU1 hE1
  have hL1 := g11_lo_val1 (after g11_eye W) φ hZ1 hP01 hP11 h1a1 h1b1 hU1 hE1
  exact g11_hi_val (after g11_lo (after g11_eye W)) φ hZ2 hP02 hP12 h1a2 h1b2 hU2 hE2 hL0 hL1

end Cert.ReferenceIdeal.Gates

end
-- ==== Proof.RefValue.lean ====
/-
  The reference's result. After the constants and the identity, each gate multiplies the diagonal built so far by its own
  (the gate modules); after the twelfth the matrix is diagonal with the product of the twelve gate diagonals, which is the
  sign of the row (each gate's diagonal is the sign of one adjacent pair of wires, and signs multiply by adding parities);
  the last operation multiplies the argument by that matrix, scaling row r by its sign.
-/
import proofs.«402948_j20624432956334_3_alg».proof.Proof.RefRun
import proofs.«402948_j20624432956334_3_alg».proof.Proof.RefPre
import proofs.«402948_j20624432956334_3_alg».proof.Proof.RefDot
import proofs.«402948_j20624432956334_3_alg».proof.Proof.RefKeepA
import proofs.«402948_j20624432956334_3_alg».proof.Proof.RefKeepB
import proofs.«402948_j20624432956334_3_alg».proof.Proof.RefKeepC
import proofs.«402948_j20624432956334_3_alg».proof.Proof.RefKeepD
import proofs.«402948_j20624432956334_3_alg».proof.Proof.Gate0
import proofs.«402948_j20624432956334_3_alg».proof.Proof.Gate1
import proofs.«402948_j20624432956334_3_alg».proof.Proof.Gate2
import proofs.«402948_j20624432956334_3_alg».proof.Proof.Gate3
import proofs.«402948_j20624432956334_3_alg».proof.Proof.Gate4
import proofs.«402948_j20624432956334_3_alg».proof.Proof.Gate5
import proofs.«402948_j20624432956334_3_alg».proof.Proof.Gate6
import proofs.«402948_j20624432956334_3_alg».proof.Proof.Gate7
import proofs.«402948_j20624432956334_3_alg».proof.Proof.Gate8
import proofs.«402948_j20624432956334_3_alg».proof.Proof.Gate9
import proofs.«402948_j20624432956334_3_alg».proof.Proof.Gate10
import proofs.«402948_j20624432956334_3_alg».proof.Proof.Gate11

noncomputable section

namespace Cert.ReferenceIdeal.RefValue

open Cert.ReferenceIdeal Cert.ReferenceIdeal.Gen Cert.ReferenceIdeal.Ops Cert.ReferenceIdeal.Writes Cert.ReferenceIdeal.Pre
open Cert.ReferenceIdeal.Gates Cert.ReferenceIdeal.Keep Cert.CZ
open Idealize.ShloMosaic Idealize.ShloMosaic.TcCoe Idealize.SL.Sem Idealize.ShloMosaic.StableHlo

/-- The operations, gate by gate. -/
theorem ops_gates : (ops : List (HloOp τ sig (Elt Ideal)))
    = pre ++ (gate0 ++ (gate1 ++ (gate2 ++ (gate3 ++ (gate4 ++ (gate5 ++ (gate6 ++ (gate7 ++ (gate8 ++ (gate9 ++ (gate10 ++ (gate11 ++ fin)))))))))))) := by
  simp only [ops, gate0, gate1, gate2, gate3, gate4, gate5, gate6, gate7, gate8, gate9, gate10, gate11, List.append_assoc]

variable (V : Valuation τ sig (Elt Ideal))

/-- The last operation: the matrix times the argument. -/
theorem fin_val (W : Valuation τ sig (Elt Ideal)) (φ : ℕ → ℤ) (hU : W (main_v389 : DevRef τ sig) = diagM 4096 φ) :
    after (fin (F := Ideal)) W (main_v390 : DevRef τ sig)
      = fun j => (((φ (j 0).val : ℤ) : ℝ) : EReal) * W (main_arg0 : DevRef τ sig) j := by
  simp only [fin]; after_results_simp
  rw [hU]
  exact dotUx φ _

/-- The operations run stage by stage: the constants, then gate after gate, then the last product. -/
theorem after_ops : after (ops (F := Ideal)) V = after fin (after gate11 (after gate10 (after gate9 (after gate8 (after gate7 (after gate6 (after gate5 (after gate4 (after gate3 (after gate2 (after gate1 (after gate0 (after pre V))))))))))))) := by
  rw [ops_gates]
  exact (StableHlo.after_append pre _ V).trans ((StableHlo.after_append gate0 _ _).trans ((StableHlo.after_append gate1 _ _).trans ((StableHlo.after_append gate2 _ _).trans ((StableHlo.after_append gate3 _ _).trans ((StableHlo.after_append gate4 _ _).trans ((StableHlo.after_append gate5 _ _).trans ((StableHlo.after_append gate6 _ _).trans ((StableHlo.after_append gate7 _ _).trans ((StableHlo.after_append gate8 _ _).trans ((StableHlo.after_append gate9 _ _).trans ((StableHlo.after_append gate10 _ _).trans (StableHlo.after_append gate11 fin _))))))))))))

set_option maxRecDepth 65536 in
set_option maxHeartbeats 4000000 in
/-- The reference's result array is the argument with row r scaled by the sign of r: each gate finds its constants where
    the first stage put them (no gate before it writes them) and the matrix the gate before it left, and multiplies that
    matrix's diagonal by its own; the last product scales the argument's rows by the final diagonal, which is the sign. -/
theorem out_eq : after (ops (F := Ideal)) V (main_v390 : DevRef τ sig) = G (V (main_arg0 : DevRef τ sig)) := by
  rw [after_ops]
  have c0 := pre_consts V
  have u0 := pre_eye V
  have x0 := pre_arg V
  -- gate 0
  have u1 := gate0_val _ _ c0.z c0.a0 c0.b0 c0.c0 c0.d0 u0
  have h_main_cst_1 := ((gate0_writes (F := Ideal)).keep _ kp0_main_cst).trans c0.z
  have h_main_cst_4_1 := ((gate0_writes (F := Ideal)).keep _ kp0_main_cst_4).trans c0.a1
  have h_main_cst_5_1 := ((gate0_writes (F := Ideal)).keep _ kp0_main_cst_5).trans c0.b1
  have h_main_cst_6_1 := ((gate0_writes (F := Ideal)).keep _ kp0_main_cst_6).trans c0.c1
  have h_main_cst_7_1 := ((gate0_writes (F := Ideal)).keep _ kp0_main_cst_7).trans c0.d1
  have h_main_cst_8_1 := ((gate0_writes (F := Ideal)).keep _ kp0_main_cst_8).trans c0.a2
  have h_main_cst_9_1 := ((gate0_writes (F := Ideal)).keep _ kp0_main_cst_9).trans c0.b2
  have h_main_cst_10_1 := ((gate0_writes (F := Ideal)).keep _ kp0_main_cst_10).trans c0.c2
  have h_main_cst_11_1 := ((gate0_writes (F := Ideal)).keep _ kp0_main_cst_11).trans c0.d2
  have h_main_cst_12_1 := ((gate0_writes (F := Ideal)).keep _ kp0_main_cst_12).trans c0.a3
  have h_main_cst_13_1 := ((gate0_writes (F := Ideal)).keep _ kp0_main_cst_13).trans c0.b3
  have h_main_cst_14_1 := ((gate0_writes (F := Ideal)).keep _ kp0_main_cst_14).trans c0.c3
  have h_main_cst_15_1 := ((gate0_writes (F := Ideal)).keep _ kp0_main_cst_15).trans c0.d3
  have h_main_cst_16_1 := ((gate0_writes (F := Ideal)).keep _ kp0_main_cst_16).trans c0.a4
  have h_main_cst_17_1 := ((gate0_writes (F := Ideal)).keep _ kp0_main_cst_17).trans c0.b4
  have h_main_cst_18_1 := ((gate0_writes (F := Ideal)).keep _ kp0_main_cst_18).trans c0.c4
  have h_main_cst_19_1 := ((gate0_writes (F := Ideal)).keep _ kp0_main_cst_19).trans c0.d4
  have h_main_cst_20_1 := ((gate0_writes (F := Ideal)).keep _ kp0_main_cst_20).trans c0.a5
  have h_main_cst_21_1 := ((gate0_writes (F := Ideal)).keep _ kp0_main_cst_21).trans c0.b5
  have h_main_cst_22_1 := ((gate0_writes (F := Ideal)).keep _ kp0_main_cst_22).trans c0.c5
  have h_main_cst_23_1 := ((gate0_writes (F := Ideal)).keep _ kp0_main_cst_23).trans c0.d5
  have h_main_cst_24_1 := ((gate0_writes (F := Ideal)).keep _ kp0_main_cst_24).trans c0.a6
  have h_main_cst_25_1 := ((gate0_writes (F := Ideal)).keep _ kp0_main_cst_25).trans c0.b6
  have h_main_cst_26_1 := ((gate0_writes (F := Ideal)).keep _ kp0_main_cst_26).trans c0.c6
  have h_main_cst_27_1 := ((gate0_writes (F := Ideal)).keep _ kp0_main_cst_27).trans c0.d6
  have h_main_cst_28_1 := ((gate0_writes (F := Ideal)).keep _ kp0_main_cst_28).trans c0.a7
  have h_main_cst_29_1 := ((gate0_writes (F := Ideal)).keep _ kp0_main_cst_29).trans c0.b7
  have h_main_cst_30_1 := ((gate0_writes (F := Ideal)).keep _ kp0_main_cst_30).trans c0.c7
  have h_main_cst_31_1 := ((gate0_writes (F := Ideal)).keep _ kp0_main_cst_31).trans c0.d7
  have h_main_cst_32_1 := ((gate0_writes (F := Ideal)).keep _ kp0_main_cst_32).trans c0.a8
  have h_main_cst_33_1 := ((gate0_writes (F := Ideal)).keep _ kp0_main_cst_33).trans c0.b8
  have h_main_cst_34_1 := ((gate0_writes (F := Ideal)).keep _ kp0_main_cst_34).trans c0.c8
  have h_main_cst_35_1 := ((gate0_writes (F := Ideal)).keep _ kp0_main_cst_35).trans c0.d8
  have h_main_cst_36_1 := ((gate0_writes (F := Ideal)).keep _ kp0_main_cst_36).trans c0.a9
  have h_main_cst_37_1 := ((gate0_writes (F := Ideal)).keep _ kp0_main_cst_37).trans c0.b9
  have h_main_cst_38_1 := ((gate0_writes (F := Ideal)).keep _ kp0_main_cst_38).trans c0.c9
  have h_main_cst_39_1 := ((gate0_writes (F := Ideal)).keep _ kp0_main_cst_39).trans c0.d9
  have h_main_cst_40_1 := ((gate0_writes (F := Ideal)).keep _ kp0_main_cst_40).trans c0.a10
  have h_main_cst_41_1 := ((gate0_writes (F := Ideal)).keep _ kp0_main_cst_41).trans c0.b10
  have h_main_cst_42_1 := ((gate0_writes (F := Ideal)).keep _ kp0_main_cst_42).trans c0.c10
  have h_main_cst_43_1 := ((gate0_writes (F := Ideal)).keep _ kp0_main_cst_43).trans c0.d10
  have h_main_cst_44_1 := ((gate0_writes (F := Ideal)).keep _ kp0_main_cst_44).trans c0.a11
  have h_main_cst_45_1 := ((gate0_writes (F := Ideal)).keep _ kp0_main_cst_45).trans c0.b11
  have h_main_cst_46_1 := ((gate0_writes (F := Ideal)).keep _ kp0_main_cst_46).trans c0.c11
  have h_main_cst_47_1 := ((gate0_writes (F := Ideal)).keep _ kp0_main_cst_47).trans c0.d11
  have x1 := ((gate0_writes (F := Ideal)).keep _ kp0_main_arg0).trans x0
  -- gate 1
  have u2 := gate1_val _ _ h_main_cst_1 h_main_cst_4_1 h_main_cst_5_1 h_main_cst_6_1 h_main_cst_7_1 u1
  have h_main_cst_2 := ((gate1_writes (F := Ideal)).keep _ kp1_main_cst).trans h_main_cst_1
  have h_main_cst_8_2 := ((gate1_writes (F := Ideal)).keep _ kp1_main_cst_8).trans h_main_cst_8_1
  have h_main_cst_9_2 := ((gate1_writes (F := Ideal)).keep _ kp1_main_cst_9).trans h_main_cst_9_1
  have h_main_cst_10_2 := ((gate1_writes (F := Ideal)).keep _ kp1_main_cst_10).trans h_main_cst_10_1
  have h_main_cst_11_2 := ((gate1_writes (F := Ideal)).keep _ kp1_main_cst_11).trans h_main_cst_11_1
  have h_main_cst_12_2 := ((gate1_writes (F := Ideal)).keep _ kp1_main_cst_12).trans h_main_cst_12_1
  have h_main_cst_13_2 := ((gate1_writes (F := Ideal)).keep _ kp1_main_cst_13).trans h_main_cst_13_1
  have h_main_cst_14_2 := ((gate1_writes (F := Ideal)).keep _ kp1_main_cst_14).trans h_main_cst_14_1
  have h_main_cst_15_2 := ((gate1_writes (F := Ideal)).keep _ kp1_main_cst_15).trans h_main_cst_15_1
  have h_main_cst_16_2 := ((gate1_writes (F := Ideal)).keep _ kp1_main_cst_16).trans h_main_cst_16_1
  have h_main_cst_17_2 := ((gate1_writes (F := Ideal)).keep _ kp1_main_cst_17).trans h_main_cst_17_1
  have h_main_cst_18_2 := ((gate1_writes (F := Ideal)).keep _ kp1_main_cst_18).trans h_main_cst_18_1
  have h_main_cst_19_2 := ((gate1_writes (F := Ideal)).keep _ kp1_main_cst_19).trans h_main_cst_19_1
  have h_main_cst_20_2 := ((gate1_writes (F := Ideal)).keep _ kp1_main_cst_20).trans h_main_cst_20_1
  have h_main_cst_21_2 := ((gate1_writes (F := Ideal)).keep _ kp1_main_cst_21).trans h_main_cst_21_1
  have h_main_cst_22_2 := ((gate1_writes (F := Ideal)).keep _ kp1_main_cst_22).trans h_main_cst_22_1
  have h_main_cst_23_2 := ((gate1_writes (F := Ideal)).keep _ kp1_main_cst_23).trans h_main_cst_23_1
  have h_main_cst_24_2 := ((gate1_writes (F := Ideal)).keep _ kp1_main_cst_24).trans h_main_cst_24_1
  have h_main_cst_25_2 := ((gate1_writes (F := Ideal)).keep _ kp1_main_cst_25).trans h_main_cst_25_1
  have h_main_cst_26_2 := ((gate1_writes (F := Ideal)).keep _ kp1_main_cst_26).trans h_main_cst_26_1
  have h_main_cst_27_2 := ((gate1_writes (F := Ideal)).keep _ kp1_main_cst_27).trans h_main_cst_27_1
  have h_main_cst_28_2 := ((gate1_writes (F := Ideal)).keep _ kp1_main_cst_28).trans h_main_cst_28_1
  have h_main_cst_29_2 := ((gate1_writes (F := Ideal)).keep _ kp1_main_cst_29).trans h_main_cst_29_1
  have h_main_cst_30_2 := ((gate1_writes (F := Ideal)).keep _ kp1_main_cst_30).trans h_main_cst_30_1
  have h_main_cst_31_2 := ((gate1_writes (F := Ideal)).keep _ kp1_main_cst_31).trans h_main_cst_31_1
  have h_main_cst_32_2 := ((gate1_writes (F := Ideal)).keep _ kp1_main_cst_32).trans h_main_cst_32_1
  have h_main_cst_33_2 := ((gate1_writes (F := Ideal)).keep _ kp1_main_cst_33).trans h_main_cst_33_1
  have h_main_cst_34_2 := ((gate1_writes (F := Ideal)).keep _ kp1_main_cst_34).trans h_main_cst_34_1
  have h_main_cst_35_2 := ((gate1_writes (F := Ideal)).keep _ kp1_main_cst_35).trans h_main_cst_35_1
  have h_main_cst_36_2 := ((gate1_writes (F := Ideal)).keep _ kp1_main_cst_36).trans h_main_cst_36_1
  have h_main_cst_37_2 := ((gate1_writes (F := Ideal)).keep _ kp1_main_cst_37).trans h_main_cst_37_1
  have h_main_cst_38_2 := ((gate1_writes (F := Ideal)).keep _ kp1_main_cst_38).trans h_main_cst_38_1
  have h_main_cst_39_2 := ((gate1_writes (F := Ideal)).keep _ kp1_main_cst_39).trans h_main_cst_39_1
  have h_main_cst_40_2 := ((gate1_writes (F := Ideal)).keep _ kp1_main_cst_40).trans h_main_cst_40_1
  have h_main_cst_41_2 := ((gate1_writes (F := Ideal)).keep _ kp1_main_cst_41).trans h_main_cst_41_1
  have h_main_cst_42_2 := ((gate1_writes (F := Ideal)).keep _ kp1_main_cst_42).trans h_main_cst_42_1
  have h_main_cst_43_2 := ((gate1_writes (F := Ideal)).keep _ kp1_main_cst_43).trans h_main_cst_43_1
  have h_main_cst_44_2 := ((gate1_writes (F := Ideal)).keep _ kp1_main_cst_44).trans h_main_cst_44_1
  have h_main_cst_45_2 := ((gate1_writes (F := Ideal)).keep _ kp1_main_cst_45).trans h_main_cst_45_1
  have h_main_cst_46_2 := ((gate1_writes (F := Ideal)).keep _ kp1_main_cst_46).trans h_main_cst_46_1
  have h_main_cst_47_2 := ((gate1_writes (F := Ideal)).keep _ kp1_main_cst_47).trans h_main_cst_47_1
  have x2 := ((gate1_writes (F := Ideal)).keep _ kp1_main_arg0).trans x1
  -- gate 2
  have u3 := gate2_val _ _ h_main_cst_2 h_main_cst_8_2 h_main_cst_9_2 h_main_cst_10_2 h_main_cst_11_2 u2
  have h_main_cst_3 := ((gate2_writes (F := Ideal)).keep _ kp2_main_cst).trans h_main_cst_2
  have h_main_cst_12_3 := ((gate2_writes (F := Ideal)).keep _ kp2_main_cst_12).trans h_main_cst_12_2
  have h_main_cst_13_3 := ((gate2_writes (F := Ideal)).keep _ kp2_main_cst_13).trans h_main_cst_13_2
  have h_main_cst_14_3 := ((gate2_writes (F := Ideal)).keep _ kp2_main_cst_14).trans h_main_cst_14_2
  have h_main_cst_15_3 := ((gate2_writes (F := Ideal)).keep _ kp2_main_cst_15).trans h_main_cst_15_2
  have h_main_cst_16_3 := ((gate2_writes (F := Ideal)).keep _ kp2_main_cst_16).trans h_main_cst_16_2
  have h_main_cst_17_3 := ((gate2_writes (F := Ideal)).keep _ kp2_main_cst_17).trans h_main_cst_17_2
  have h_main_cst_18_3 := ((gate2_writes (F := Ideal)).keep _ kp2_main_cst_18).trans h_main_cst_18_2
  have h_main_cst_19_3 := ((gate2_writes (F := Ideal)).keep _ kp2_main_cst_19).trans h_main_cst_19_2
  have h_main_cst_20_3 := ((gate2_writes (F := Ideal)).keep _ kp2_main_cst_20).trans h_main_cst_20_2
  have h_main_cst_21_3 := ((gate2_writes (F := Ideal)).keep _ kp2_main_cst_21).trans h_main_cst_21_2
  have h_main_cst_22_3 := ((gate2_writes (F := Ideal)).keep _ kp2_main_cst_22).trans h_main_cst_22_2
  have h_main_cst_23_3 := ((gate2_writes (F := Ideal)).keep _ kp2_main_cst_23).trans h_main_cst_23_2
  have h_main_cst_24_3 := ((gate2_writes (F := Ideal)).keep _ kp2_main_cst_24).trans h_main_cst_24_2
  have h_main_cst_25_3 := ((gate2_writes (F := Ideal)).keep _ kp2_main_cst_25).trans h_main_cst_25_2
  have h_main_cst_26_3 := ((gate2_writes (F := Ideal)).keep _ kp2_main_cst_26).trans h_main_cst_26_2
  have h_main_cst_27_3 := ((gate2_writes (F := Ideal)).keep _ kp2_main_cst_27).trans h_main_cst_27_2
  have h_main_cst_28_3 := ((gate2_writes (F := Ideal)).keep _ kp2_main_cst_28).trans h_main_cst_28_2
  have h_main_cst_29_3 := ((gate2_writes (F := Ideal)).keep _ kp2_main_cst_29).trans h_main_cst_29_2
  have h_main_cst_30_3 := ((gate2_writes (F := Ideal)).keep _ kp2_main_cst_30).trans h_main_cst_30_2
  have h_main_cst_31_3 := ((gate2_writes (F := Ideal)).keep _ kp2_main_cst_31).trans h_main_cst_31_2
  have h_main_cst_32_3 := ((gate2_writes (F := Ideal)).keep _ kp2_main_cst_32).trans h_main_cst_32_2
  have h_main_cst_33_3 := ((gate2_writes (F := Ideal)).keep _ kp2_main_cst_33).trans h_main_cst_33_2
  have h_main_cst_34_3 := ((gate2_writes (F := Ideal)).keep _ kp2_main_cst_34).trans h_main_cst_34_2
  have h_main_cst_35_3 := ((gate2_writes (F := Ideal)).keep _ kp2_main_cst_35).trans h_main_cst_35_2
  have h_main_cst_36_3 := ((gate2_writes (F := Ideal)).keep _ kp2_main_cst_36).trans h_main_cst_36_2
  have h_main_cst_37_3 := ((gate2_writes (F := Ideal)).keep _ kp2_main_cst_37).trans h_main_cst_37_2
  have h_main_cst_38_3 := ((gate2_writes (F := Ideal)).keep _ kp2_main_cst_38).trans h_main_cst_38_2
  have h_main_cst_39_3 := ((gate2_writes (F := Ideal)).keep _ kp2_main_cst_39).trans h_main_cst_39_2
  have h_main_cst_40_3 := ((gate2_writes (F := Ideal)).keep _ kp2_main_cst_40).trans h_main_cst_40_2
  have h_main_cst_41_3 := ((gate2_writes (F := Ideal)).keep _ kp2_main_cst_41).trans h_main_cst_41_2
  have h_main_cst_42_3 := ((gate2_writes (F := Ideal)).keep _ kp2_main_cst_42).trans h_main_cst_42_2
  have h_main_cst_43_3 := ((gate2_writes (F := Ideal)).keep _ kp2_main_cst_43).trans h_main_cst_43_2
  have h_main_cst_44_3 := ((gate2_writes (F := Ideal)).keep _ kp2_main_cst_44).trans h_main_cst_44_2
  have h_main_cst_45_3 := ((gate2_writes (F := Ideal)).keep _ kp2_main_cst_45).trans h_main_cst_45_2
  have h_main_cst_46_3 := ((gate2_writes (F := Ideal)).keep _ kp2_main_cst_46).trans h_main_cst_46_2
  have h_main_cst_47_3 := ((gate2_writes (F := Ideal)).keep _ kp2_main_cst_47).trans h_main_cst_47_2
  have x3 := ((gate2_writes (F := Ideal)).keep _ kp2_main_arg0).trans x2
  -- gate 3
  have u4 := gate3_val _ _ h_main_cst_3 h_main_cst_12_3 h_main_cst_13_3 h_main_cst_14_3 h_main_cst_15_3 u3
  have h_main_cst_4 := ((gate3_writes (F := Ideal)).keep _ kp3_main_cst).trans h_main_cst_3
  have h_main_cst_16_4 := ((gate3_writes (F := Ideal)).keep _ kp3_main_cst_16).trans h_main_cst_16_3
  have h_main_cst_17_4 := ((gate3_writes (F := Ideal)).keep _ kp3_main_cst_17).trans h_main_cst_17_3
  have h_main_cst_18_4 := ((gate3_writes (F := Ideal)).keep _ kp3_main_cst_18).trans h_main_cst_18_3
  have h_main_cst_19_4 := ((gate3_writes (F := Ideal)).keep _ kp3_main_cst_19).trans h_main_cst_19_3
  have h_main_cst_20_4 := ((gate3_writes (F := Ideal)).keep _ kp3_main_cst_20).trans h_main_cst_20_3
  have h_main_cst_21_4 := ((gate3_writes (F := Ideal)).keep _ kp3_main_cst_21).trans h_main_cst_21_3
  have h_main_cst_22_4 := ((gate3_writes (F := Ideal)).keep _ kp3_main_cst_22).trans h_main_cst_22_3
  have h_main_cst_23_4 := ((gate3_writes (F := Ideal)).keep _ kp3_main_cst_23).trans h_main_cst_23_3
  have h_main_cst_24_4 := ((gate3_writes (F := Ideal)).keep _ kp3_main_cst_24).trans h_main_cst_24_3
  have h_main_cst_25_4 := ((gate3_writes (F := Ideal)).keep _ kp3_main_cst_25).trans h_main_cst_25_3
  have h_main_cst_26_4 := ((gate3_writes (F := Ideal)).keep _ kp3_main_cst_26).trans h_main_cst_26_3
  have h_main_cst_27_4 := ((gate3_writes (F := Ideal)).keep _ kp3_main_cst_27).trans h_main_cst_27_3
  have h_main_cst_28_4 := ((gate3_writes (F := Ideal)).keep _ kp3_main_cst_28).trans h_main_cst_28_3
  have h_main_cst_29_4 := ((gate3_writes (F := Ideal)).keep _ kp3_main_cst_29).trans h_main_cst_29_3
  have h_main_cst_30_4 := ((gate3_writes (F := Ideal)).keep _ kp3_main_cst_30).trans h_main_cst_30_3
  have h_main_cst_31_4 := ((gate3_writes (F := Ideal)).keep _ kp3_main_cst_31).trans h_main_cst_31_3
  have h_main_cst_32_4 := ((gate3_writes (F := Ideal)).keep _ kp3_main_cst_32).trans h_main_cst_32_3
  have h_main_cst_33_4 := ((gate3_writes (F := Ideal)).keep _ kp3_main_cst_33).trans h_main_cst_33_3
  have h_main_cst_34_4 := ((gate3_writes (F := Ideal)).keep _ kp3_main_cst_34).trans h_main_cst_34_3
  have h_main_cst_35_4 := ((gate3_writes (F := Ideal)).keep _ kp3_main_cst_35).trans h_main_cst_35_3
  have h_main_cst_36_4 := ((gate3_writes (F := Ideal)).keep _ kp3_main_cst_36).trans h_main_cst_36_3
  have h_main_cst_37_4 := ((gate3_writes (F := Ideal)).keep _ kp3_main_cst_37).trans h_main_cst_37_3
  have h_main_cst_38_4 := ((gate3_writes (F := Ideal)).keep _ kp3_main_cst_38).trans h_main_cst_38_3
  have h_main_cst_39_4 := ((gate3_writes (F := Ideal)).keep _ kp3_main_cst_39).trans h_main_cst_39_3
  have h_main_cst_40_4 := ((gate3_writes (F := Ideal)).keep _ kp3_main_cst_40).trans h_main_cst_40_3
  have h_main_cst_41_4 := ((gate3_writes (F := Ideal)).keep _ kp3_main_cst_41).trans h_main_cst_41_3
  have h_main_cst_42_4 := ((gate3_writes (F := Ideal)).keep _ kp3_main_cst_42).trans h_main_cst_42_3
  have h_main_cst_43_4 := ((gate3_writes (F := Ideal)).keep _ kp3_main_cst_43).trans h_main_cst_43_3
  have h_main_cst_44_4 := ((gate3_writes (F := Ideal)).keep _ kp3_main_cst_44).trans h_main_cst_44_3
  have h_main_cst_45_4 := ((gate3_writes (F := Ideal)).keep _ kp3_main_cst_45).trans h_main_cst_45_3
  have h_main_cst_46_4 := ((gate3_writes (F := Ideal)).keep _ kp3_main_cst_46).trans h_main_cst_46_3
  have h_main_cst_47_4 := ((gate3_writes (F := Ideal)).keep _ kp3_main_cst_47).trans h_main_cst_47_3
  have x4 := ((gate3_writes (F := Ideal)).keep _ kp3_main_arg0).trans x3
  -- gate 4
  have u5 := gate4_val _ _ h_main_cst_4 h_main_cst_16_4 h_main_cst_17_4 h_main_cst_18_4 h_main_cst_19_4 u4
  have h_main_cst_5 := ((gate4_writes (F := Ideal)).keep _ kp4_main_cst).trans h_main_cst_4
  have h_main_cst_20_5 := ((gate4_writes (F := Ideal)).keep _ kp4_main_cst_20).trans h_main_cst_20_4
  have h_main_cst_21_5 := ((gate4_writes (F := Ideal)).keep _ kp4_main_cst_21).trans h_main_cst_21_4
  have h_main_cst_22_5 := ((gate4_writes (F := Ideal)).keep _ kp4_main_cst_22).trans h_main_cst_22_4
  have h_main_cst_23_5 := ((gate4_writes (F := Ideal)).keep _ kp4_main_cst_23).trans h_main_cst_23_4
  have h_main_cst_24_5 := ((gate4_writes (F := Ideal)).keep _ kp4_main_cst_24).trans h_main_cst_24_4
  have h_main_cst_25_5 := ((gate4_writes (F := Ideal)).keep _ kp4_main_cst_25).trans h_main_cst_25_4
  have h_main_cst_26_5 := ((gate4_writes (F := Ideal)).keep _ kp4_main_cst_26).trans h_main_cst_26_4
  have h_main_cst_27_5 := ((gate4_writes (F := Ideal)).keep _ kp4_main_cst_27).trans h_main_cst_27_4
  have h_main_cst_28_5 := ((gate4_writes (F := Ideal)).keep _ kp4_main_cst_28).trans h_main_cst_28_4
  have h_main_cst_29_5 := ((gate4_writes (F := Ideal)).keep _ kp4_main_cst_29).trans h_main_cst_29_4
  have h_main_cst_30_5 := ((gate4_writes (F := Ideal)).keep _ kp4_main_cst_30).trans h_main_cst_30_4
  have h_main_cst_31_5 := ((gate4_writes (F := Ideal)).keep _ kp4_main_cst_31).trans h_main_cst_31_4
  have h_main_cst_32_5 := ((gate4_writes (F := Ideal)).keep _ kp4_main_cst_32).trans h_main_cst_32_4
  have h_main_cst_33_5 := ((gate4_writes (F := Ideal)).keep _ kp4_main_cst_33).trans h_main_cst_33_4
  have h_main_cst_34_5 := ((gate4_writes (F := Ideal)).keep _ kp4_main_cst_34).trans h_main_cst_34_4
  have h_main_cst_35_5 := ((gate4_writes (F := Ideal)).keep _ kp4_main_cst_35).trans h_main_cst_35_4
  have h_main_cst_36_5 := ((gate4_writes (F := Ideal)).keep _ kp4_main_cst_36).trans h_main_cst_36_4
  have h_main_cst_37_5 := ((gate4_writes (F := Ideal)).keep _ kp4_main_cst_37).trans h_main_cst_37_4
  have h_main_cst_38_5 := ((gate4_writes (F := Ideal)).keep _ kp4_main_cst_38).trans h_main_cst_38_4
  have h_main_cst_39_5 := ((gate4_writes (F := Ideal)).keep _ kp4_main_cst_39).trans h_main_cst_39_4
  have h_main_cst_40_5 := ((gate4_writes (F := Ideal)).keep _ kp4_main_cst_40).trans h_main_cst_40_4
  have h_main_cst_41_5 := ((gate4_writes (F := Ideal)).keep _ kp4_main_cst_41).trans h_main_cst_41_4
  have h_main_cst_42_5 := ((gate4_writes (F := Ideal)).keep _ kp4_main_cst_42).trans h_main_cst_42_4
  have h_main_cst_43_5 := ((gate4_writes (F := Ideal)).keep _ kp4_main_cst_43).trans h_main_cst_43_4
  have h_main_cst_44_5 := ((gate4_writes (F := Ideal)).keep _ kp4_main_cst_44).trans h_main_cst_44_4
  have h_main_cst_45_5 := ((gate4_writes (F := Ideal)).keep _ kp4_main_cst_45).trans h_main_cst_45_4
  have h_main_cst_46_5 := ((gate4_writes (F := Ideal)).keep _ kp4_main_cst_46).trans h_main_cst_46_4
  have h_main_cst_47_5 := ((gate4_writes (F := Ideal)).keep _ kp4_main_cst_47).trans h_main_cst_47_4
  have x5 := ((gate4_writes (F := Ideal)).keep _ kp4_main_arg0).trans x4
  -- gate 5
  have u6 := gate5_val _ _ h_main_cst_5 h_main_cst_20_5 h_main_cst_21_5 h_main_cst_22_5 h_main_cst_23_5 u5
  have h_main_cst_6 := ((gate5_writes (F := Ideal)).keep _ kp5_main_cst).trans h_main_cst_5
  have h_main_cst_24_6 := ((gate5_writes (F := Ideal)).keep _ kp5_main_cst_24).trans h_main_cst_24_5
  have h_main_cst_25_6 := ((gate5_writes (F := Ideal)).keep _ kp5_main_cst_25).trans h_main_cst_25_5
  have h_main_cst_26_6 := ((gate5_writes (F := Ideal)).keep _ kp5_main_cst_26).trans h_main_cst_26_5
  have h_main_cst_27_6 := ((gate5_writes (F := Ideal)).keep _ kp5_main_cst_27).trans h_main_cst_27_5
  have h_main_cst_28_6 := ((gate5_writes (F := Ideal)).keep _ kp5_main_cst_28).trans h_main_cst_28_5
  have h_main_cst_29_6 := ((gate5_writes (F := Ideal)).keep _ kp5_main_cst_29).trans h_main_cst_29_5
  have h_main_cst_30_6 := ((gate5_writes (F := Ideal)).keep _ kp5_main_cst_30).trans h_main_cst_30_5
  have h_main_cst_31_6 := ((gate5_writes (F := Ideal)).keep _ kp5_main_cst_31).trans h_main_cst_31_5
  have h_main_cst_32_6 := ((gate5_writes (F := Ideal)).keep _ kp5_main_cst_32).trans h_main_cst_32_5
  have h_main_cst_33_6 := ((gate5_writes (F := Ideal)).keep _ kp5_main_cst_33).trans h_main_cst_33_5
  have h_main_cst_34_6 := ((gate5_writes (F := Ideal)).keep _ kp5_main_cst_34).trans h_main_cst_34_5
  have h_main_cst_35_6 := ((gate5_writes (F := Ideal)).keep _ kp5_main_cst_35).trans h_main_cst_35_5
  have h_main_cst_36_6 := ((gate5_writes (F := Ideal)).keep _ kp5_main_cst_36).trans h_main_cst_36_5
  have h_main_cst_37_6 := ((gate5_writes (F := Ideal)).keep _ kp5_main_cst_37).trans h_main_cst_37_5
  have h_main_cst_38_6 := ((gate5_writes (F := Ideal)).keep _ kp5_main_cst_38).trans h_main_cst_38_5
  have h_main_cst_39_6 := ((gate5_writes (F := Ideal)).keep _ kp5_main_cst_39).trans h_main_cst_39_5
  have h_main_cst_40_6 := ((gate5_writes (F := Ideal)).keep _ kp5_main_cst_40).trans h_main_cst_40_5
  have h_main_cst_41_6 := ((gate5_writes (F := Ideal)).keep _ kp5_main_cst_41).trans h_main_cst_41_5
  have h_main_cst_42_6 := ((gate5_writes (F := Ideal)).keep _ kp5_main_cst_42).trans h_main_cst_42_5
  have h_main_cst_43_6 := ((gate5_writes (F := Ideal)).keep _ kp5_main_cst_43).trans h_main_cst_43_5
  have h_main_cst_44_6 := ((gate5_writes (F := Ideal)).keep _ kp5_main_cst_44).trans h_main_cst_44_5
  have h_main_cst_45_6 := ((gate5_writes (F := Ideal)).keep _ kp5_main_cst_45).trans h_main_cst_45_5
  have h_main_cst_46_6 := ((gate5_writes (F := Ideal)).keep _ kp5_main_cst_46).trans h_main_cst_46_5
  have h_main_cst_47_6 := ((gate5_writes (F := Ideal)).keep _ kp5_main_cst_47).trans h_main_cst_47_5
  have x6 := ((gate5_writes (F := Ideal)).keep _ kp5_main_arg0).trans x5
  -- gate 6
  have u7 := gate6_val _ _ h_main_cst_6 h_main_cst_24_6 h_main_cst_25_6 h_main_cst_26_6 h_main_cst_27_6 u6
  have h_main_cst_7 := ((gate6_writes (F := Ideal)).keep _ kp6_main_cst).trans h_main_cst_6
  have h_main_cst_28_7 := ((gate6_writes (F := Ideal)).keep _ kp6_main_cst_28).trans h_main_cst_28_6
  have h_main_cst_29_7 := ((gate6_writes (F := Ideal)).keep _ kp6_main_cst_29).trans h_main_cst_29_6
  have h_main_cst_30_7 := ((gate6_writes (F := Ideal)).keep _ kp6_main_cst_30).trans h_main_cst_30_6
  have h_main_cst_31_7 := ((gate6_writes (F := Ideal)).keep _ kp6_main_cst_31).trans h_main_cst_31_6
  have h_main_cst_32_7 := ((gate6_writes (F := Ideal)).keep _ kp6_main_cst_32).trans h_main_cst_32_6
  have h_main_cst_33_7 := ((gate6_writes (F := Ideal)).keep _ kp6_main_cst_33).trans h_main_cst_33_6
  have h_main_cst_34_7 := ((gate6_writes (F := Ideal)).keep _ kp6_main_cst_34).trans h_main_cst_34_6
  have h_main_cst_35_7 := ((gate6_writes (F := Ideal)).keep _ kp6_main_cst_35).trans h_main_cst_35_6
  have h_main_cst_36_7 := ((gate6_writes (F := Ideal)).keep _ kp6_main_cst_36).trans h_main_cst_36_6
  have h_main_cst_37_7 := ((gate6_writes (F := Ideal)).keep _ kp6_main_cst_37).trans h_main_cst_37_6
  have h_main_cst_38_7 := ((gate6_writes (F := Ideal)).keep _ kp6_main_cst_38).trans h_main_cst_38_6
  have h_main_cst_39_7 := ((gate6_writes (F := Ideal)).keep _ kp6_main_cst_39).trans h_main_cst_39_6
  have h_main_cst_40_7 := ((gate6_writes (F := Ideal)).keep _ kp6_main_cst_40).trans h_main_cst_40_6
  have h_main_cst_41_7 := ((gate6_writes (F := Ideal)).keep _ kp6_main_cst_41).trans h_main_cst_41_6
  have h_main_cst_42_7 := ((gate6_writes (F := Ideal)).keep _ kp6_main_cst_42).trans h_main_cst_42_6
  have h_main_cst_43_7 := ((gate6_writes (F := Ideal)).keep _ kp6_main_cst_43).trans h_main_cst_43_6
  have h_main_cst_44_7 := ((gate6_writes (F := Ideal)).keep _ kp6_main_cst_44).trans h_main_cst_44_6
  have h_main_cst_45_7 := ((gate6_writes (F := Ideal)).keep _ kp6_main_cst_45).trans h_main_cst_45_6
  have h_main_cst_46_7 := ((gate6_writes (F := Ideal)).keep _ kp6_main_cst_46).trans h_main_cst_46_6
  have h_main_cst_47_7 := ((gate6_writes (F := Ideal)).keep _ kp6_main_cst_47).trans h_main_cst_47_6
  have x7 := ((gate6_writes (F := Ideal)).keep _ kp6_main_arg0).trans x6
  -- gate 7
  have u8 := gate7_val _ _ h_main_cst_7 h_main_cst_28_7 h_main_cst_29_7 h_main_cst_30_7 h_main_cst_31_7 u7
  have h_main_cst_8 := ((gate7_writes (F := Ideal)).keep _ kp7_main_cst).trans h_main_cst_7
  have h_main_cst_32_8 := ((gate7_writes (F := Ideal)).keep _ kp7_main_cst_32).trans h_main_cst_32_7
  have h_main_cst_33_8 := ((gate7_writes (F := Ideal)).keep _ kp7_main_cst_33).trans h_main_cst_33_7
  have h_main_cst_34_8 := ((gate7_writes (F := Ideal)).keep _ kp7_main_cst_34).trans h_main_cst_34_7
  have h_main_cst_35_8 := ((gate7_writes (F := Ideal)).keep _ kp7_main_cst_35).trans h_main_cst_35_7
  have h_main_cst_36_8 := ((gate7_writes (F := Ideal)).keep _ kp7_main_cst_36).trans h_main_cst_36_7
  have h_main_cst_37_8 := ((gate7_writes (F := Ideal)).keep _ kp7_main_cst_37).trans h_main_cst_37_7
  have h_main_cst_38_8 := ((gate7_writes (F := Ideal)).keep _ kp7_main_cst_38).trans h_main_cst_38_7
  have h_main_cst_39_8 := ((gate7_writes (F := Ideal)).keep _ kp7_main_cst_39).trans h_main_cst_39_7
  have h_main_cst_40_8 := ((gate7_writes (F := Ideal)).keep _ kp7_main_cst_40).trans h_main_cst_40_7
  have h_main_cst_41_8 := ((gate7_writes (F := Ideal)).keep _ kp7_main_cst_41).trans h_main_cst_41_7
  have h_main_cst_42_8 := ((gate7_writes (F := Ideal)).keep _ kp7_main_cst_42).trans h_main_cst_42_7
  have h_main_cst_43_8 := ((gate7_writes (F := Ideal)).keep _ kp7_main_cst_43).trans h_main_cst_43_7
  have h_main_cst_44_8 := ((gate7_writes (F := Ideal)).keep _ kp7_main_cst_44).trans h_main_cst_44_7
  have h_main_cst_45_8 := ((gate7_writes (F := Ideal)).keep _ kp7_main_cst_45).trans h_main_cst_45_7
  have h_main_cst_46_8 := ((gate7_writes (F := Ideal)).keep _ kp7_main_cst_46).trans h_main_cst_46_7
  have h_main_cst_47_8 := ((gate7_writes (F := Ideal)).keep _ kp7_main_cst_47).trans h_main_cst_47_7
  have x8 := ((gate7_writes (F := Ideal)).keep _ kp7_main_arg0).trans x7
  -- gate 8
  have u9 := gate8_val _ _ h_main_cst_8 h_main_cst_32_8 h_main_cst_33_8 h_main_cst_34_8 h_main_cst_35_8 u8
  have h_main_cst_9 := ((gate8_writes (F := Ideal)).keep _ kp8_main_cst).trans h_main_cst_8
  have h_main_cst_36_9 := ((gate8_writes (F := Ideal)).keep _ kp8_main_cst_36).trans h_main_cst_36_8
  have h_main_cst_37_9 := ((gate8_writes (F := Ideal)).keep _ kp8_main_cst_37).trans h_main_cst_37_8
  have h_main_cst_38_9 := ((gate8_writes (F := Ideal)).keep _ kp8_main_cst_38).trans h_main_cst_38_8
  have h_main_cst_39_9 := ((gate8_writes (F := Ideal)).keep _ kp8_main_cst_39).trans h_main_cst_39_8
  have h_main_cst_40_9 := ((gate8_writes (F := Ideal)).keep _ kp8_main_cst_40).trans h_main_cst_40_8
  have h_main_cst_41_9 := ((gate8_writes (F := Ideal)).keep _ kp8_main_cst_41).trans h_main_cst_41_8
  have h_main_cst_42_9 := ((gate8_writes (F := Ideal)).keep _ kp8_main_cst_42).trans h_main_cst_42_8
  have h_main_cst_43_9 := ((gate8_writes (F := Ideal)).keep _ kp8_main_cst_43).trans h_main_cst_43_8
  have h_main_cst_44_9 := ((gate8_writes (F := Ideal)).keep _ kp8_main_cst_44).trans h_main_cst_44_8
  have h_main_cst_45_9 := ((gate8_writes (F := Ideal)).keep _ kp8_main_cst_45).trans h_main_cst_45_8
  have h_main_cst_46_9 := ((gate8_writes (F := Ideal)).keep _ kp8_main_cst_46).trans h_main_cst_46_8
  have h_main_cst_47_9 := ((gate8_writes (F := Ideal)).keep _ kp8_main_cst_47).trans h_main_cst_47_8
  have x9 := ((gate8_writes (F := Ideal)).keep _ kp8_main_arg0).trans x8
  -- gate 9
  have u10 := gate9_val _ _ h_main_cst_9 h_main_cst_36_9 h_main_cst_37_9 h_main_cst_38_9 h_main_cst_39_9 u9
  have h_main_cst_10 := ((gate9_writes (F := Ideal)).keep _ kp9_main_cst).trans h_main_cst_9
  have h_main_cst_40_10 := ((gate9_writes (F := Ideal)).keep _ kp9_main_cst_40).trans h_main_cst_40_9
  have h_main_cst_41_10 := ((gate9_writes (F := Ideal)).keep _ kp9_main_cst_41).trans h_main_cst_41_9
  have h_main_cst_42_10 := ((gate9_writes (F := Ideal)).keep _ kp9_main_cst_42).trans h_main_cst_42_9
  have h_main_cst_43_10 := ((gate9_writes (F := Ideal)).keep _ kp9_main_cst_43).trans h_main_cst_43_9
  have h_main_cst_44_10 := ((gate9_writes (F := Ideal)).keep _ kp9_main_cst_44).trans h_main_cst_44_9
  have h_main_cst_45_10 := ((gate9_writes (F := Ideal)).keep _ kp9_main_cst_45).trans h_main_cst_45_9
  have h_main_cst_46_10 := ((gate9_writes (F := Ideal)).keep _ kp9_main_cst_46).trans h_main_cst_46_9
  have h_main_cst_47_10 := ((gate9_writes (F := Ideal)).keep _ kp9_main_cst_47).trans h_main_cst_47_9
  have x10 := ((gate9_writes (F := Ideal)).keep _ kp9_main_arg0).trans x9
  -- gate 10
  have u11 := gate10_val _ _ h_main_cst_10 h_main_cst_40_10 h_main_cst_41_10 h_main_cst_42_10 h_main_cst_43_10 u10
  have h_main_cst_11 := ((gate10_writes (F := Ideal)).keep _ kp10_main_cst).trans h_main_cst_10
  have h_main_cst_44_11 := ((gate10_writes (F := Ideal)).keep _ kp10_main_cst_44).trans h_main_cst_44_10
  have h_main_cst_45_11 := ((gate10_writes (F := Ideal)).keep _ kp10_main_cst_45).trans h_main_cst_45_10
  have h_main_cst_46_11 := ((gate10_writes (F := Ideal)).keep _ kp10_main_cst_46).trans h_main_cst_46_10
  have h_main_cst_47_11 := ((gate10_writes (F := Ideal)).keep _ kp10_main_cst_47).trans h_main_cst_47_10
  have x11 := ((gate10_writes (F := Ideal)).keep _ kp10_main_arg0).trans x10
  -- gate 11
  have u12 := gate11_val _ _ h_main_cst_11 h_main_cst_44_11 h_main_cst_45_11 h_main_cst_46_11 h_main_cst_47_11 u11
  have x12 := ((gate11_writes (F := Ideal)).keep _ kp11_main_arg0).trans x11
  rw [fin_val _ _ u12, x12]
  funext j
  have hj : (j 0).val < 4096 := (j 0).isLt
  show _ = (((czSign (j 0).val : ℤ) : ℝ) : EReal) * V (main_arg0 : DevRef τ sig) j
  rw [← ring_sign _ hj]
  rfl

/-- No operation writes the argument. -/
theorem arg_eq : after (ops (F := Ideal)) V (main_arg0 : DevRef τ sig) = V (main_arg0 : DevRef τ sig) := by
  rw [after_ops]
  have x0 := pre_arg V
  have x1 := ((gate0_writes (F := Ideal)).keep _ kp0_main_arg0).trans x0
  have x2 := ((gate1_writes (F := Ideal)).keep _ kp1_main_arg0).trans x1
  have x3 := ((gate2_writes (F := Ideal)).keep _ kp2_main_arg0).trans x2
  have x4 := ((gate3_writes (F := Ideal)).keep _ kp3_main_arg0).trans x3
  have x5 := ((gate4_writes (F := Ideal)).keep _ kp4_main_arg0).trans x4
  have x6 := ((gate5_writes (F := Ideal)).keep _ kp5_main_arg0).trans x5
  have x7 := ((gate6_writes (F := Ideal)).keep _ kp6_main_arg0).trans x6
  have x8 := ((gate7_writes (F := Ideal)).keep _ kp7_main_arg0).trans x7
  have x9 := ((gate8_writes (F := Ideal)).keep _ kp8_main_arg0).trans x8
  have x10 := ((gate9_writes (F := Ideal)).keep _ kp9_main_arg0).trans x9
  have x11 := ((gate10_writes (F := Ideal)).keep _ kp10_main_arg0).trans x10
  have x12 := ((gate11_writes (F := Ideal)).keep _ kp11_main_arg0).trans x11
  exact ((fin_writes (F := Ideal)).keep _ kpfin_main_arg0).trans x12

/-- Every weakly fair execution of the reference's @main terminates with the result at the argument's rows scaled by their
    signs and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v390) = G (m ((c.tc : Thread nD τ).loc main_arg0))
      ∧ r.2.mem ((c.tc : Thread nD τ).loc main_arg0) = m ((c.tc : Thread nD τ).loc main_arg0) :=
  (θ_run defs _ _).mono (fun _ h c => ⟨(h c main_v390).trans (by rw [Cert.ReferenceIdeal.Run.allOps_eq]; exact out_eq (launchContents m c)),
      (h c main_arg0).trans (by rw [Cert.ReferenceIdeal.Run.allOps_eq]; exact arg_eq (launchContents m c))⟩)
    (Cert.ReferenceIdeal.Run.run_main (F := Ideal) m ρ)

end Cert.ReferenceIdeal.RefValue

end
-- ==== Proof.lean ====
/-
  The certificate: the kernel that scales row r of a batch of 4096-dimensional state vectors by the sign
  (-1)^(number of cyclically adjacent pairs of set bits among the twelve bits of r) against the reference that builds the
  ring of twelve controlled-Z gates as a 4096×4096 matrix — by Kronecker products of 2×2 projectors, identities and Pauli Z,
  sums and matrix products — and multiplies the batch by it. Every factor is diagonal, so the matrix is diagonal with the
  product of the gates' diagonals, which is that sign; the matrix product with a diagonal matrix scales rows; at the ideal
  instance 0 · x = 0 for every x, so no finiteness of the argument is needed. The three frames are the two kernels' frame runs and the
  reference's run with its result dropped; the conjunct relating the kernel to its idealization is stated as `True`.
-/
import proofs.«402948_j20624432956334_3_alg».proof.Defs
import proofs.«402948_j20624432956334_3_alg».proof.Proof.Gen.Kernel
import proofs.«402948_j20624432956334_3_alg».proof.Proof.Gen.KernelIdeal
import proofs.«402948_j20624432956334_3_alg».proof.Proof.Gen.ReferenceIdeal
import proofs.«402948_j20624432956334_3_alg».proof.Proof.Gen.Pre_finite_inputs
import proofs.«402948_j20624432956334_3_alg».proof.Proof.KernelFrameP
import proofs.«402948_j20624432956334_3_alg».proof.Proof.KernelIdealFrameP
import proofs.«402948_j20624432956334_3_alg».proof.Proof.KernelValue
import proofs.«402948_j20624432956334_3_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both idealized programs end with the argument's rows scaled by their signs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.CZ.G (m ((c.tc : Thread Cert.KernelIdeal.nD Cert.KernelIdeal.τ).loc Cert.KernelIdeal.main_arg0)),
    Cert.KernelIdeal.KV.run m ρ, ?_⟩
  refine (θ_run Cert.ReferenceIdeal.defs _ _).mono (fun _ h c => ⟨(h c).1.trans ?_, (h c).2⟩) (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
